-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v102)) (v1 : (c : Dev Cert.KernelIdeal.nD) → Buf (Elt Ideal) ((c.tc : Thread Cert.KernelIdeal.nD Cert.KernelIdeal.τ).loc Cert.KernelIdeal.main_v69)) (v2 : (c : Dev Cert.KernelIdeal.nD) → Buf (Elt Ideal) ((c.tc : Thread Cert.KernelIdeal.nD Cert.KernelIdeal.τ).loc Cert.KernelIdeal.main_v78)) (v3 : (c : Dev Cert.KernelIdeal.nD) → Buf (Elt Ideal) ((c.tc : Thread Cert.KernelIdeal.nD Cert.KernelIdeal.τ).loc Cert.KernelIdeal.main_v87)) (v4 : (c : Dev Cert.KernelIdeal.nD) → Buf (Elt Ideal) ((c.tc : Thread Cert.KernelIdeal.nD Cert.KernelIdeal.τ).loc Cert.KernelIdeal.main_v94)) (v5 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_v69) = v1 c
          ∧ r.2.mem ((c.tc : Thread Cert.KernelIdeal.nD Cert.KernelIdeal.τ).loc Cert.KernelIdeal.main_v78) = v2 c
          ∧ r.2.mem ((c.tc : Thread Cert.KernelIdeal.nD Cert.KernelIdeal.τ).loc Cert.KernelIdeal.main_v87) = v3 c
          ∧ r.2.mem ((c.tc : Thread Cert.KernelIdeal.nD Cert.KernelIdeal.τ).loc Cert.KernelIdeal.main_v94) = v4 c
          ∧ r.2.mem ((c.tc : Thread Cert.KernelIdeal.nD Cert.KernelIdeal.τ).loc Cert.KernelIdeal.main_v100) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_v84) = v3 c
          ∧ r.2.mem ((c.tc : Thread Cert.ReferenceIdeal.nD Cert.ReferenceIdeal.τ).loc Cert.ReferenceIdeal.main_v99) = v4 c
          ∧ r.2.mem ((c.tc : Thread Cert.ReferenceIdeal.nD Cert.ReferenceIdeal.τ).loc Cert.ReferenceIdeal.main_v104) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x513x32000 : Shape := ⟨3, ![4, 513, 32000]⟩
abbrev S4x512 : Shape := ⟨2, ![4, 512]⟩
abbrev S3 : Shape := ⟨1, ![3]⟩
abbrev S1 : Shape := ⟨1, ![1]⟩
abbrev S_ : Shape := ⟨0, ![]⟩

class Facts : Prop where
  bcast_S_S4x513x32000 : S_.BroadcastsInDim S4x513x32000 (![] : Fin 0 → Fin S4x513x32000.rank)
  reducesTo_S4x513x32000_S_d0_1_2 : S4x513x32000.ReducesTo [0, 1, 2] S_
  h_S_ : 0 < S_.numel
  bcast_S_S4x512 : S_.BroadcastsInDim S4x512 (![] : Fin 0 → Fin S4x512.rank)
  reducesTo_S4x512_S_d0_1 : S4x512.ReducesTo [0, 1] S_
  bcast_S_S3 : S_.BroadcastsInDim S3 (![] : Fin 0 → Fin S3.rank)
  reducesTo_S3_S_d0 : S3.ReducesTo [0] S_
  bcast_S_S1 : S_.BroadcastsInDim S1 (![] : Fin 0 → Fin S1.rank)
  reducesTo_S1_S_d0 : S1.ReducesTo [0] S_

variable [Facts]

def fn_part2 {F : FTy → Type} [FloatOps F] (main_v28 : IVec S_ 1) (main_v33 : IVec S4x512 1) : IVec S_ 1 :=
  let main_c_12 : IVec S_ 1 := constantI S_ 1 1#1
  let main_v34 : IVec S_ 1 := (fun x v => Host.reduce IntOp.andi x v reducesTo_S4x512_S_d0_1 h_S_) main_v33 main_c_12
  let main_v35 : IVec S_ 1 := andi main_v28 main_v34
  main_v35

def fn_part1 {F : FTy → Type} [FloatOps F] (main_arg2 : IVec S4x512 32) (main_arg8 : FVec F S3 .f32) (main_arg9 : FVec F S1 .f32) (main_v13 : IVec S_ 1) (main_v16 : IVec S4x512 1) : IVec S_ 1 :=
  let main_c_5 : IVec S_ 1 := constantI S_ 1 1#1
  let main_v17 : IVec S_ 1 := (fun x v => Host.reduce IntOp.andi x v reducesTo_S4x512_S_d0_1 h_S_) main_v16 main_c_5
  let main_v18 : IVec S_ 1 := andi main_v13 main_v17
  let main_v19 : FVec F S3 .f32 := Host.absf main_arg8
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  let main_v24 : FVec F S1 .f32 := Host.absf main_arg9
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_c_10 : IVec S_ 32 := constantI S_ 32 0#32
  let main_v29 : IVec S4x512 32 := broadcastInDim S4x512 ![] bcast_S_S4x512 main_c_10
  let main_v30 : IVec S4x512 1 := cmpi .sge main_arg2 main_v29
  let main_c_11 : IVec S_ 32 := constantI S_ 32 32000#32
  let main_v31 : IVec S4x512 32 := broadcastInDim S4x512 ![] bcast_S_S4x512 main_c_11
  let main_v32 : IVec S4x512 1 := cmpi .slt main_arg2 main_v31
  let main_v33 : IVec S4x512 1 := andi main_v30 main_v32
  fn_part2 (F := F) main_v28 main_v33

def fn {F : FTy → Type} [FloatOps F] (main_arg0 : FVec F S4x513x32000 .f32) (main_arg1 : FVec F S4x513x32000 .f32) (main_arg2 : IVec S4x512 32) (main_arg3 : IVec S4x512 32) (main_arg4 : IVec S4x512 32) (main_arg5 : IVec S4x512 32) (main_arg6 : FVec F S4x512 .f32) (main_arg7 : FVec F S4x512 .f32) (main_arg8 : FVec F S3 .f32) (main_arg9 : FVec F S1 .f32) : IVec S_ 1 :=
  let main_v0 : FVec F S4x513x32000 .f32 := Host.absf main_arg0
  let main_cst : FVec F S_ .f32 := constant S_ .f32 0x7F800000#32
  let main_v1 : FVec F S4x513x32000 .f32 := broadcastInDim S4x513x32000 ![] bcast_S_S4x513x32000 main_cst
  let main_v2 : IVec S4x513x32000 1 := cmpf .olt main_v0 main_v1
  let main_c : IVec S_ 1 := constantI S_ 1 1#1
  let main_v3 : IVec S_ 1 := (fun x v => Host.reduce IntOp.andi x v reducesTo_S4x513x32000_S_d0_1_2 h_S_) main_v2 main_c
  let main_v4 : FVec F S4x513x32000 .f32 := Host.absf main_arg1
  let main_cst_0 : FVec F S_ .f32 := constant S_ .f32 0x7F800000#32
  let main_v5 : FVec F S4x513x32000 .f32 := broadcastInDim S4x513x32000 ![] bcast_S_S4x513x32000 main_cst_0
  let main_v6 : IVec S4x513x32000 1 := cmpf .olt main_v4 main_v5
  let main_c_1 : IVec S_ 1 := constantI S_ 1 1#1
  let main_v7 : IVec S_ 1 := (fun x v => Host.reduce IntOp.andi x v reducesTo_S4x513x32000_S_d0_1_2 h_S_) main_v6 main_c_1
  let main_v8 : IVec S_ 1 := andi main_v3 main_v7
  let main_v9 : FVec F S4x512 .f32 := Host.absf main_arg6
  let main_cst_2 : FVec F S_ .f32 := constant S_ .f32 0x7F800000#32
  let main_v10 : FVec F S4x512 .f32 := broadcastInDim S4x512 ![] bcast_S_S4x512 main_cst_2
  let main_v11 : IVec S4x512 1 := cmpf .olt main_v9 main_v10
  let main_c_3 : IVec S_ 1 := constantI S_ 1 1#1
  let main_v12 : IVec S_ 1 := (fun x v => Host.reduce IntOp.andi x v reducesTo_S4x512_S_d0_1 h_S_) main_v11 main_c_3
  let main_v13 : IVec S_ 1 := andi main_v8 main_v12
  let main_v14 : FVec F S4x512 .f32 := Host.absf main_arg7
  let main_cst_4 : FVec F S_ .f32 := constant S_ .f32 0x7F800000#32
  let main_v15 : FVec F S4x512 .f32 := broadcastInDim S4x512 ![] bcast_S_S4x512 main_cst_4
  let main_v16 : IVec S4x512 1 := cmpf .olt main_v14 main_v15
  fn_part1 (F := F) main_arg2 main_arg8 main_arg9 main_v13 main_v16
-- ==== Kernel.lean ====
abbrev S4x513x32000 : Shape := ⟨3, ![4, 513, 32000]⟩
abbrev S4x512 : Shape := ⟨2, ![4, 512]⟩
abbrev S3 : Shape := ⟨1, ![3]⟩
abbrev S1 : Shape := ⟨1, ![1]⟩
abbrev S4x511 : Shape := ⟨2, ![4, 511]⟩
abbrev S_ : Shape := ⟨0, ![]⟩
abbrev S4x1 : Shape := ⟨2, ![4, 1]⟩
abbrev S512x4 : Shape := ⟨2, ![512, 4]⟩
abbrev S4x16x32000 : Shape := ⟨3, ![4, 16, 32000]⟩
abbrev S16x4 : Shape := ⟨2, ![16, 4]⟩
abbrev S4x16 : Shape := ⟨2, ![4, 16]⟩
abbrev S4x16x1 : Shape := ⟨3, ![4, 16, 1]⟩
abbrev S4x16x1280 : Shape := ⟨3, ![4, 16, 1280]⟩
abbrev S4 : Shape := ⟨1, ![4]⟩
abbrev S4x512x1 : Shape := ⟨3, ![4, 512, 1]⟩
abbrev S4x512x2 : Shape := ⟨3, ![4, 512, 2]⟩
abbrev S1x1x1 : Shape := ⟨3, ![1, 1, 1]⟩

abbrev nBuf : Space → Nat
  | .hbm => 200
  | .vmem => 16
  | .smem => 0
  | _ => 0

abbrev hbmTy0_0 (i : Nat) : BufTy := match i % 128 with
  | 0 => ⟨S4x513x32000, .f32⟩
  | 1 => ⟨S4x513x32000, .f32⟩
  | 2 => ⟨S4x512, .i32⟩
  | 3 => ⟨S4x512, .i32⟩
  | 4 => ⟨S4x512, .i32⟩
  | 5 => ⟨S4x512, .i32⟩
  | 6 => ⟨S4x512, .f32⟩
  | 7 => ⟨S4x512, .f32⟩
  | 8 => ⟨S3, .f32⟩
  | 9 => ⟨S1, .f32⟩
  | 10 => ⟨S4x511, .i32⟩
  | 11 => ⟨S_, .i32⟩
  | 12 => ⟨S4x1, .i32⟩
  | 13 => ⟨S4x512, .i32⟩
  | 14 => ⟨S512x4, .i32⟩
  | 15 => ⟨S512x4, .i32⟩
  | 16 => ⟨S512x4, .f32⟩
  | 17 => ⟨S512x4, .f32⟩
  | 18 => ⟨S512x4, .f32⟩
  | 19 => ⟨S512x4, .f32⟩
  | 20 => ⟨S4x512, .f32⟩
  | 21 => ⟨S4x512, .f32⟩
  | 22 => ⟨S4x512, .f32⟩
  | 23 => ⟨S4x512, .f32⟩
  | 24 => ⟨S_, .i32⟩
  | 25 => ⟨S1, .i32⟩
  | 26 => ⟨S_, .f32⟩
  | 27 => ⟨S4, .f32⟩
  | 28 => ⟨S4x512, .f32⟩
  | 29 => ⟨S_, .i32⟩
  | 30 => ⟨S1, .i32⟩
  | 31 => ⟨S_, .f32⟩
  | 32 => ⟨S4, .f32⟩
  | 33 => ⟨S4x512, .f32⟩
  | 34 => ⟨S_, .i32⟩
  | 35 => ⟨S4x512, .i32⟩
  | 36 => ⟨S4x512, .i1⟩
  | 37 => ⟨S4x512, .f32⟩
  | 38 => ⟨S4x512, .f32⟩
  | 39 => ⟨S_, .i32⟩
  | 40 => ⟨S_, .i32⟩
  | 41 => ⟨S4x512, .i32⟩
  | 42 => ⟨S4x512, .i32⟩
  | 43 => ⟨S4, .i32⟩
  | 44 => ⟨S4x1, .i32⟩
  | 45 => ⟨S_, .f32⟩
  | 46 => ⟨S4x512, .f32⟩
  | 47 => ⟨S_, .i32⟩
  | 48 => ⟨S4x1, .i32⟩
  | 49 => ⟨S4x1, .i1⟩
  | 50 => ⟨S_, .i32⟩
  | 51 => ⟨S4x1, .i32⟩
  | 52 => ⟨S4x1, .i32⟩
  | 53 => ⟨S4x1, .i32⟩
  | 54 => ⟨S_, .i32⟩
  | 55 => ⟨S4x512, .i32⟩
  | 56 => ⟨S4x512, .i1⟩
  | 57 => ⟨S_, .i32⟩
  | 58 => ⟨S4x512, .i32⟩
  | 59 => ⟨S4x512, .i32⟩
  | 60 => ⟨S4x512, .i32⟩
  | 61 => ⟨S4x512, .i32⟩
  | 62 => ⟨S4x512x1, .i32⟩
  | 63 => ⟨S4x512x1, .i32⟩
  | 64 => ⟨S4x512x2, .i32⟩
  | 65 => ⟨S4x512, .f32⟩
  | 66 => ⟨S_, .i32⟩
  | 67 => ⟨S4x512, .i32⟩
  | 68 => ⟨S4x512, .i1⟩
  | 69 => ⟨S_, .i32⟩
  | 70 => ⟨S4x512, .i32⟩
  | 71 => ⟨S4x512, .i1⟩
  | 72 => ⟨S4x512, .i1⟩
  | 73 => ⟨S_, .i32⟩
  | 74 => ⟨S_, .i32⟩
  | 75 => ⟨S_, .i32⟩
  | 76 => ⟨S4x512, .i32⟩
  | 77 => ⟨S4x512, .i32⟩
  | 78 => ⟨S_, .i32⟩
  | 79 => ⟨S4x512, .i32⟩
  | 80 => ⟨S4x512, .i32⟩
  | 81 => ⟨S_, .i32⟩
  | 82 => ⟨S4x512, .i32⟩
  | 83 => ⟨S4x512, .i1⟩
  | 84 => ⟨S_, .i32⟩
  | 85 => ⟨S4x512, .i32⟩
  | 86 => ⟨S4x512, .i32⟩
  | 87 => ⟨S4x512, .i32⟩
  | 88 => ⟨S4x512x1, .i32⟩
  | 89 => ⟨S1, .i32⟩
  | 90 => ⟨S_, .i32⟩
  | 91 => ⟨S4x512x1, .i32⟩
  | 92 => ⟨S4x512x1, .i1⟩
  | 93 => ⟨S1x1x1, .i32⟩
  | 94 => ⟨S4x512x1, .i32⟩
  | 95 => ⟨S4x512x1, .i1⟩
  | 96 => ⟨S4x512x1, .i1⟩
  | 97 => ⟨S_, .i1⟩
  | 98 => ⟨S4x512, .i1⟩
  | 99 => ⟨S4x512, .i32⟩
  | 100 => ⟨S_, .i32⟩
  | 101 => ⟨S4x512, .i32⟩
  | 102 => ⟨S4x512, .i32⟩
  | 103 => ⟨S_, .i32⟩
  | 104 => ⟨S4x512, .i32⟩
  | 105 => ⟨S4x512, .i1⟩
  | 106 => ⟨S4x512, .i1⟩
  | 107 => ⟨S4x512, .f32⟩
  | 108 => ⟨S_, .f32⟩
  | 109 => ⟨S_, .f32⟩
  | 110 => ⟨S4x512, .f32⟩
  | 111 => ⟨S4x512, .f32⟩
  | 112 => ⟨S_, .i32⟩
  | 113 => ⟨S4x512, .i32⟩
  | 114 => ⟨S4x512, .i1⟩
  | 115 => ⟨S_, .i32⟩
  | 116 => ⟨S4x512, .i32⟩
  | 117 => ⟨S4x512, .i32⟩
  | 118 => ⟨S4x512, .i32⟩
  | 119 => ⟨S4x512x1, .i32⟩
  | 120 => ⟨S1, .i32⟩
  | 121 => ⟨S_, .i32⟩
  | 122 => ⟨S4x512x1, .i32⟩
  | 123 => ⟨S4x512x1, .i1⟩
  | 124 => ⟨S1x1x1, .i32⟩
  | 125 => ⟨S4x512x1, .i32⟩
  | 126 => ⟨S4x512x1, .i1⟩
  | 127 => ⟨S4x512x1, .i1⟩
  | _ => ⟨S4x513x32000, .f32⟩

abbrev hbmTy0_1 (i : Nat) : BufTy := match i % 128 with
  | 0 => ⟨S_, .i1⟩
  | 1 => ⟨S4x512, .i1⟩
  | 2 => ⟨S4x512, .f32⟩
  | 3 => ⟨S_, .f32⟩
  | 4 => ⟨S4x512, .f32⟩
  | 5 => ⟨S4x512, .f32⟩
  | 6 => ⟨S_, .f32⟩
  | 7 => ⟨S_, .f32⟩
  | 8 => ⟨S4x512, .f32⟩
  | 9 => ⟨S4x512, .f32⟩
  | 10 => ⟨S1, .f32⟩
  | 11 => ⟨S_, .f32⟩
  | 12 => ⟨S4x512, .f32⟩
  | 13 => ⟨S4x512, .f32⟩
  | 14 => ⟨S1, .f32⟩
  | 15 => ⟨S_, .f32⟩
  | 16 => ⟨S4x512, .f32⟩
  | 17 => ⟨S4x512, .f32⟩
  | 18 => ⟨S4x512, .f32⟩
  | 19 => ⟨S1, .f32⟩
  | 20 => ⟨S_, .f32⟩
  | 21 => ⟨S4x512, .f32⟩
  | 22 => ⟨S4x512, .f32⟩
  | 23 => ⟨S4x512, .f32⟩
  | 24 => ⟨S_, .f32⟩
  | 25 => ⟨S4x512, .f32⟩
  | 26 => ⟨S4x512, .f32⟩
  | 27 => ⟨S_, .f32⟩
  | 28 => ⟨S4x512, .f32⟩
  | 29 => ⟨S4x512, .i1⟩
  | 30 => ⟨S4x512, .f32⟩
  | 31 => ⟨S4x512, .f32⟩
  | 32 => ⟨S4x512, .f32⟩
  | 33 => ⟨S4x512, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .i1⟩
  | 42 => ⟨S4x1, .i1⟩
  | 43 => ⟨S4x511, .i1⟩
  | 44 => ⟨S4x512, .i1⟩
  | 45 => ⟨S4x512, .f32⟩
  | 46 => ⟨S4x512, .f32⟩
  | 47 => ⟨S_, .f32⟩
  | 48 => ⟨S_, .f32⟩
  | 49 => ⟨S_, .f32⟩
  | 50 => ⟨S_, .f32⟩
  | 51 => ⟨S_, .f32⟩
  | 52 => ⟨S4x511, .i32⟩
  | 53 => ⟨S4x511, .f32⟩
  | 54 => ⟨S4x511, .f32⟩
  | 55 => ⟨S4x511, .f32⟩
  | 56 => ⟨S_, .f32⟩
  | 57 => ⟨S_, .f32⟩
  | 58 => ⟨S_, .f32⟩
  | 59 => ⟨S_, .f32⟩
  | 60 => ⟨S_, .f32⟩
  | 61 => ⟨S4x511, .f32⟩
  | 62 => ⟨S4x511, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | _ => ⟨S4x513x32000, .f32⟩

abbrev hbmTy (i : Nat) : BufTy := match i / 128 with
  | 0 => hbmTy0_0 i
  | 1 => hbmTy0_1 i
  | _ => ⟨S4x513x32000, .f32⟩

abbrev bufTy : (tb : Table) → Fin (tcTables nBuf tb) → BufTy
  | .hbm, ⟨i, _⟩ => hbmTy i
  | .local _ .vmem, ⟨0, _⟩ => ⟨S4x16x32000, .f32⟩
  | .local _ .vmem, ⟨1, _⟩ => ⟨S4x16x32000, .f32⟩
  | .local _ .vmem, ⟨2, _⟩ => ⟨S4x16x32000, .f32⟩
  | .local _ .vmem, ⟨3, _⟩ => ⟨S4x16x32000, .f32⟩
  | .local _ .vmem, ⟨4, _⟩ => ⟨S16x4, .i32⟩
  | .local _ .vmem, ⟨5, _⟩ => ⟨S16x4, .i32⟩
  | .local _ .vmem, ⟨6, _⟩ => ⟨S16x4, .i32⟩
  | .local _ .vmem, ⟨7, _⟩ => ⟨S16x4, .i32⟩
  | .local _ .vmem, ⟨8, _⟩ => ⟨S16x4, .f32⟩
  | .local _ .vmem, ⟨9, _⟩ => ⟨S16x4, .f32⟩
  | .local _ .vmem, ⟨10, _⟩ => ⟨S16x4, .f32⟩
  | .local _ .vmem, ⟨11, _⟩ => ⟨S16x4, .f32⟩
  | .local _ .vmem, ⟨12, _⟩ => ⟨S16x4, .f32⟩
  | .local _ .vmem, ⟨13, _⟩ => ⟨S16x4, .f32⟩
  | .local _ .vmem, ⟨14, _⟩ => ⟨S16x4, .f32⟩
  | .local _ .vmem, ⟨15, _⟩ => ⟨S16x4, .f32⟩
  | _, _ => ⟨S4x513x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_v5_2 : Ref sig .tc := ⟨.hbm, 18, rfl⟩
abbrev main_v5_3 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c_0 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_c_1 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_c_3 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_call0_v0 : Ref sig .tc := ⟨.hbm, 40, rfl⟩
abbrev main_call0_v1 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_5 : Ref sig .tc := ⟨.hbm, 45, rfl⟩
abbrev main_v23 : Ref sig .tc := ⟨.hbm, 46, rfl⟩
abbrev main_c_6 : Ref sig .tc := ⟨.hbm, 47, rfl⟩
abbrev main_v24 : Ref sig .tc := ⟨.hbm, 48, rfl⟩
abbrev main_v25 : Ref sig .tc := ⟨.hbm, 49, rfl⟩
abbrev main_c_7 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_c_8 : Ref sig .tc := ⟨.hbm, 54, rfl⟩
abbrev main_v29 : Ref sig .tc := ⟨.hbm, 55, rfl⟩
abbrev main_v30 : Ref sig .tc := ⟨.hbm, 56, rfl⟩
abbrev main_c_9 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_c_10 : Ref sig .tc := ⟨.hbm, 66, rfl⟩
abbrev main_v39 : Ref sig .tc := ⟨.hbm, 67, rfl⟩
abbrev main_v40 : Ref sig .tc := ⟨.hbm, 68, rfl⟩
abbrev main_c_11 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_c_12 : Ref sig .tc := ⟨.hbm, 73, rfl⟩
abbrev main_c_13 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_v44 : Ref sig .tc := ⟨.hbm, 80, rfl⟩
abbrev main_call2_c : Ref sig .tc := ⟨.hbm, 81, rfl⟩
abbrev main_call2_v0 : Ref sig .tc := ⟨.hbm, 82, rfl⟩
abbrev main_call2_v1 : Ref sig .tc := ⟨.hbm, 83, rfl⟩
abbrev main_call2_c_0 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_call2_v5 : Ref sig .tc := ⟨.hbm, 88, rfl⟩
abbrev main_call2_c_1 : Ref sig .tc := ⟨.hbm, 89, rfl⟩
abbrev main_call2_c_2 : Ref sig .tc := ⟨.hbm, 90, rfl⟩
abbrev main_call2_v6 : Ref sig .tc := ⟨.hbm, 91, rfl⟩
abbrev main_call2_v7 : Ref sig .tc := ⟨.hbm, 92, rfl⟩
abbrev main_call2_v8 : Ref sig .tc := ⟨.hbm, 93, rfl⟩
abbrev main_call2_v9 : Ref sig .tc := ⟨.hbm, 94, rfl⟩
abbrev main_call2_v10 : Ref sig .tc := ⟨.hbm, 95, rfl⟩
abbrev main_call2_v11 : Ref sig .tc := ⟨.hbm, 96, rfl⟩
abbrev main_call2_c_3 : Ref sig .tc := ⟨.hbm, 97, rfl⟩
abbrev main_call2_v12 : Ref sig .tc := ⟨.hbm, 98, rfl⟩
abbrev main_call2_v13 : Ref sig .tc := ⟨.hbm, 99, rfl⟩
abbrev main_call2_c_4 : Ref sig .tc := ⟨.hbm, 100, rfl⟩
abbrev main_call2_v14 : Ref sig .tc := ⟨.hbm, 101, rfl⟩
abbrev main_v45 : Ref sig .tc := ⟨.hbm, 102, rfl⟩
abbrev main_c_14 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_cst_15 : Ref sig .tc := ⟨.hbm, 108, rfl⟩
abbrev main_call3_v0 : Ref sig .tc := ⟨.hbm, 109, rfl⟩
abbrev main_call3_v1 : Ref sig .tc := ⟨.hbm, 110, rfl⟩
abbrev main_v50 : Ref sig .tc := ⟨.hbm, 111, rfl⟩
abbrev main_call4_c : Ref sig .tc := ⟨.hbm, 112, rfl⟩
abbrev main_call4_v0 : Ref sig .tc := ⟨.hbm, 113, rfl⟩
abbrev main_call4_v1 : Ref sig .tc := ⟨.hbm, 114, rfl⟩
abbrev main_call4_c_0 : Ref sig .tc := ⟨.hbm, 115, rfl⟩
abbrev main_call4_v2 : Ref sig .tc := ⟨.hbm, 116, rfl⟩
abbrev main_call4_v3 : Ref sig .tc := ⟨.hbm, 117, rfl⟩
abbrev main_call4_v4 : Ref sig .tc := ⟨.hbm, 118, rfl⟩
abbrev main_call4_v5 : Ref sig .tc := ⟨.hbm, 119, rfl⟩
abbrev main_call4_c_1 : Ref sig .tc := ⟨.hbm, 120, rfl⟩
abbrev main_call4_c_2 : Ref sig .tc := ⟨.hbm, 121, rfl⟩
abbrev main_call4_v6 : Ref sig .tc := ⟨.hbm, 122, rfl⟩
abbrev main_call4_v7 : Ref sig .tc := ⟨.hbm, 123, rfl⟩
abbrev main_call4_v8 : Ref sig .tc := ⟨.hbm, 124, rfl⟩
abbrev main_call4_v9 : Ref sig .tc := ⟨.hbm, 125, rfl⟩
abbrev main_call4_v10 : Ref sig .tc := ⟨.hbm, 126, rfl⟩
abbrev main_call4_v11 : Ref sig .tc := ⟨.hbm, 127, rfl⟩
abbrev main_call4_c_3 : Ref sig .tc := ⟨.hbm, 128, rfl⟩
abbrev main_call4_v12 : Ref sig .tc := ⟨.hbm, 129, rfl⟩
abbrev main_call4_v13 : Ref sig .tc := ⟨.hbm, 130, rfl⟩
abbrev main_call4_cst : Ref sig .tc := ⟨.hbm, 131, rfl⟩
abbrev main_call4_v14 : Ref sig .tc := ⟨.hbm, 132, rfl⟩
abbrev main_v51 : Ref sig .tc := ⟨.hbm, 133, rfl⟩
abbrev main_cst_16 : Ref sig .tc := ⟨.hbm, 134, rfl⟩
abbrev main_call5_v0 : Ref sig .tc := ⟨.hbm, 135, rfl⟩
abbrev main_call5_v1 : Ref sig .tc := ⟨.hbm, 136, rfl⟩
abbrev main_v52 : Ref sig .tc := ⟨.hbm, 137, rfl⟩
abbrev main_v53 : Ref sig .tc := ⟨.hbm, 138, rfl⟩
abbrev main_v54 : Ref sig .tc := ⟨.hbm, 139, rfl⟩
abbrev main_v55 : Ref sig .tc := ⟨.hbm, 140, rfl⟩
abbrev main_v56 : Ref sig .tc := ⟨.hbm, 141, rfl⟩
abbrev main_v57 : Ref sig .tc := ⟨.hbm, 142, rfl⟩
abbrev main_v58 : Ref sig .tc := ⟨.hbm, 143, rfl⟩
abbrev main_v59 : Ref sig .tc := ⟨.hbm, 144, rfl⟩
abbrev main_v60 : Ref sig .tc := ⟨.hbm, 145, rfl⟩
abbrev main_v61 : Ref sig .tc := ⟨.hbm, 146, rfl⟩
abbrev main_v62 : Ref sig .tc := ⟨.hbm, 147, rfl⟩
abbrev main_v63 : Ref sig .tc := ⟨.hbm, 148, rfl⟩
abbrev main_v64 : Ref sig .tc := ⟨.hbm, 149, rfl⟩
abbrev main_v65 : Ref sig .tc := ⟨.hbm, 150, rfl⟩
abbrev main_v66 : Ref sig .tc := ⟨.hbm, 151, rfl⟩
abbrev main_v67 : Ref sig .tc := ⟨.hbm, 152, rfl⟩
abbrev main_v68 : Ref sig .tc := ⟨.hbm, 153, rfl⟩
abbrev main_v69 : Ref sig .tc := ⟨.hbm, 154, rfl⟩
abbrev main_cst_17 : Ref sig .tc := ⟨.hbm, 155, rfl⟩
abbrev main_v70 : Ref sig .tc := ⟨.hbm, 156, rfl⟩
abbrev main_v71 : Ref sig .tc := ⟨.hbm, 157, rfl⟩
abbrev main_v72 : Ref sig .tc := ⟨.hbm, 158, rfl⟩
abbrev main_v73 : Ref sig .tc := ⟨.hbm, 159, rfl⟩
abbrev main_v74 : Ref sig .tc := ⟨.hbm, 160, rfl⟩
abbrev main_v75 : Ref sig .tc := ⟨.hbm, 161, rfl⟩
abbrev main_cst_18 : Ref sig .tc := ⟨.hbm, 162, rfl⟩
abbrev main_v76 : Ref sig .tc := ⟨.hbm, 163, rfl⟩
abbrev main_cst_19 : Ref sig .tc := ⟨.hbm, 164, rfl⟩
abbrev main_v77 : Ref sig .tc := ⟨.hbm, 165, rfl⟩
abbrev main_v78 : Ref sig .tc := ⟨.hbm, 166, rfl⟩
abbrev main_cst_20 : Ref sig .tc := ⟨.hbm, 167, rfl⟩
abbrev main_v79 : Ref sig .tc := ⟨.hbm, 168, rfl⟩
abbrev main_c_21 : Ref sig .tc := ⟨.hbm, 169, rfl⟩
abbrev main_v80 : Ref sig .tc := ⟨.hbm, 170, rfl⟩
abbrev main_v81 : Ref sig .tc := ⟨.hbm, 171, rfl⟩
abbrev main_v82 : Ref sig .tc := ⟨.hbm, 172, rfl⟩
abbrev main_v83 : Ref sig .tc := ⟨.hbm, 173, rfl⟩
abbrev main_v84 : Ref sig .tc := ⟨.hbm, 174, rfl⟩
abbrev main_cst_22 : Ref sig .tc := ⟨.hbm, 175, rfl⟩
abbrev main_v85 : Ref sig .tc := ⟨.hbm, 176, rfl⟩
abbrev main_cst_23 : Ref sig .tc := ⟨.hbm, 177, rfl⟩
abbrev main_v86 : Ref sig .tc := ⟨.hbm, 178, rfl⟩
abbrev main_v87 : Ref sig .tc := ⟨.hbm, 179, rfl⟩
abbrev main_v88 : Ref sig .tc := ⟨.hbm, 180, rfl⟩
abbrev main_v89 : Ref sig .tc := ⟨.hbm, 181, rfl⟩
abbrev main_v90 : Ref sig .tc := ⟨.hbm, 182, rfl⟩
abbrev main_v91 : Ref sig .tc := ⟨.hbm, 183, rfl⟩
abbrev main_cst_24 : Ref sig .tc := ⟨.hbm, 184, rfl⟩
abbrev main_v92 : Ref sig .tc := ⟨.hbm, 185, rfl⟩
abbrev main_cst_25 : Ref sig .tc := ⟨.hbm, 186, rfl⟩
abbrev main_v93 : Ref sig .tc := ⟨.hbm, 187, rfl⟩
abbrev main_v94 : Ref sig .tc := ⟨.hbm, 188, rfl⟩
abbrev main_v95 : Ref sig .tc := ⟨.hbm, 189, rfl⟩
abbrev main_v96 : Ref sig .tc := ⟨.hbm, 190, rfl⟩
abbrev main_cst_26 : Ref sig .tc := ⟨.hbm, 191, rfl⟩
abbrev main_v97 : Ref sig .tc := ⟨.hbm, 192, rfl⟩
abbrev main_cst_27 : Ref sig .tc := ⟨.hbm, 193, rfl⟩
abbrev main_v98 : Ref sig .tc := ⟨.hbm, 194, rfl⟩
abbrev main_v99 : Ref sig .tc := ⟨.hbm, 195, rfl⟩
abbrev main_v100 : Ref sig .tc := ⟨.hbm, 196, rfl⟩
abbrev main_cst_28 : Ref sig .tc := ⟨.hbm, 197, rfl⟩
abbrev main_v101 : Ref sig .tc := ⟨.hbm, 198, rfl⟩
abbrev main_v102 : Ref sig .tc := ⟨.hbm, 199, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c25_i32 : BitVec 32 := 25#32
  let v10 : BitVec 32 := Scalar.addi c0_i32 c25_i32
  let c1_i32 : BitVec 32 := 1#32
  ⟨c0_i32, v10, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c1280_i32 : BitVec 32 := 1280#32
  let v43 : BitVec 32 := Scalar.muli arg9 c1280_i32
  v43
def k0_off1 (k0_t1 : Fin k0_t1_loop.trips) : Fin 3 → Nat :=
  let c0_28 : Index := 0#32
  let c0_29 : Index := 0#32
  let c0_i32 : BitVec 32 := 0#32
  let c1_i32 : BitVec 32 := 1#32
  let arg9 : BitVec 32 := Scf.iv c0_i32 c1_i32 k0_t1
  let c1280_i32 : BitVec 32 := 1280#32
  let v43 : BitVec 32 := Scalar.muli arg9 c1280_i32
  let v44 : BitVec 32 := v43
  let v45 : Index := Scalar.indexCast v44
  ![0, 0, v45.toNat]
@[reducible] def k0_t2_loop : Scf.Loop 32 :=
  let c0_i32_7 : BitVec 32 := 0#32
  let c25_i32_8 : BitVec 32 := 25#32
  let v14 : BitVec 32 := Scalar.addi c0_i32_7 c25_i32_8
  let c1_i32_9 : BitVec 32 := 1#32
  ⟨c0_i32_7, v14, c1_i32_9⟩
def k0_mult2 (k0_t2 : Fin k0_t2_loop.trips) : BitVec 32 :=
  let c0_i32_7 : BitVec 32 := 0#32
  let c1_i32_9 : BitVec 32 := 1#32
  let arg9 : BitVec 32 := Scf.iv c0_i32_7 c1_i32_9 k0_t2
  let c1280_i32 : BitVec 32 := 1280#32
  let v43 : BitVec 32 := Scalar.muli arg9 c1280_i32
  v43
def k0_off2 (k0_t2 : Fin k0_t2_loop.trips) : Fin 3 → Nat :=
  let c0_28 : Index := 0#32
  let c0_29 : Index := 0#32
  let c0_i32_7 : BitVec 32 := 0#32
  let c1_i32_9 : BitVec 32 := 1#32
  let arg9 : BitVec 32 := Scf.iv c0_i32_7 c1_i32_9 k0_t2
  let c1280_i32 : BitVec 32 := 1280#32
  let v43 : BitVec 32 := Scalar.muli arg9 c1280_i32
  let v44 : BitVec 32 := v43
  let v45 : Index := Scalar.indexCast v44
  ![0, 0, v45.toNat]
@[reducible] def k0_t3_loop : Scf.Loop 32 :=
  let c0_i32_16 : BitVec 32 := 0#32
  let c25_i32_17 : BitVec 32 := 25#32
  let v24 : BitVec 32 := Scalar.addi c0_i32_16 c25_i32_17
  let c1_i32_18 : BitVec 32 := 1#32
  ⟨c0_i32_16, v24, c1_i32_18⟩
def k0_mult3 (k0_t3 : Fin k0_t3_loop.trips) : BitVec 32 :=
  let c0_i32_16 : BitVec 32 := 0#32
  let c1_i32_18 : BitVec 32 := 1#32
  let arg9 : BitVec 32 := Scf.iv c0_i32_16 c1_i32_18 k0_t3
  let c1280_i32 : BitVec 32 := 1280#32
  let v43 : BitVec 32 := Scalar.muli arg9 c1280_i32
  v43
def k0_off3 (k0_t3 : Fin k0_t3_loop.trips) : Fin 3 → Nat :=
  let c0_28 : Index := 0#32
  let c0_29 : Index := 0#32
  let c0_i32_16 : BitVec 32 := 0#32
  let c1_i32_18 : BitVec 32 := 1#32
  let arg9 : BitVec 32 := Scf.iv c0_i32_16 c1_i32_18 k0_t3
  let c1280_i32 : BitVec 32 := 1280#32
  let v43 : BitVec 32 := Scalar.muli arg9 c1280_i32
  let v44 : BitVec 32 := v43
  let v45 : Index := Scalar.indexCast v44
  ![0, 0, v45.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x16x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x16x32000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x4 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x4 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S4x512_S4x511_0_1 : S4x512.Slices ![0, 1] S4x511
  bcast_S_S4x1 : S_.BroadcastsInDim S4x1 (![] : Fin 0 → Fin S4x1.rank)
  concatenates_S4x511_S4x1_S4x512_d1 : Shape.Concatenates [S4x511, S4x1] S4x512 1
  transposes_S4x512_S512x4_1_0 : S4x512.Transposes [1, 0] S512x4
  inb_S16x4_S16x4_0_0 : ∀ a, (![0, 0] : Fin 2 → Nat) a + S16x4.size a ≤ S16x4.size a
  h_S16x4 : 0 < S16x4.numel
  shapeCasts_S16x4_S16x4 : S16x4.ShapeCasts S16x4
  transposes_S16x4_p1_0_S4x16 : S16x4.Transposes [1, 0] S4x16
  shapeCasts_S4x16_S4x16x1 : S4x16.ShapeCasts S4x16x1
  h_S4x16x1280 : 0 < S4x16x1280.numel
  reduces_S4x16x1280_S4x16 : S4x16x1280.Reduces [2] S4x16
  broadcasts_S4x16x1_S4x16x1280 : S4x16x1.Broadcasts S4x16x1280
  iota_S4x16x1280_d2_w32 : S4x16x1280.Iotas .tc 32 [2]
  shapeCasts_S4x16x1_S4x16 : S4x16x1.ShapeCasts S4x16
  transposes_S4x16_p1_0_S16x4 : S4x16.Transposes [1, 0] S16x4
  transposes_S512x4_S4x512_1_0 : S512x4.Transposes [1, 0] S4x512
  bcast_S_S1 : S_.BroadcastsInDim S1 (![] : Fin 0 → Fin S1.rank)
  bcast_S_S4 : S_.BroadcastsInDim S4 (![] : Fin 0 → Fin S4.rank)
  bcast_S_S4x512 : S_.BroadcastsInDim S4x512 (![] : Fin 0 → Fin S4x512.rank)
  bcast_S4_S4x1_0 : S4.BroadcastsInDim S4x1 (![0] : Fin 1 → Fin S4x1.rank)
  bcast_S4x1_S4x512_0_1 : S4x1.BroadcastsInDim S4x512 (![0, 1] : Fin 2 → Fin S4x512.rank)
  bcast_S4x512_S4x512x1_0_1 : S4x512.BroadcastsInDim S4x512x1 (![0, 1] : Fin 2 → Fin S4x512x1.rank)
  concatenates_S4x512x1_S4x512x1_S4x512x2_d2 : Shape.Concatenates [S4x512x1, S4x512x1] S4x512x2 2
  shapeCasts_S4x512_S4x512x1 : S4x512.ShapeCasts S4x512x1
  bcast_S_S4x512x1 : S_.BroadcastsInDim S4x512x1 (![] : Fin 0 → Fin S4x512x1.rank)
  bcast_S1_S1x1x1_2 : S1.BroadcastsInDim S1x1x1 (![2] : Fin 1 → Fin S1x1x1.rank)
  bcast_S1x1x1_S4x512x1_0_1_2 : S1x1x1.BroadcastsInDim S4x512x1 (![0, 1, 2] : Fin 3 → Fin S4x512x1.rank)
  reducesTo_S4x512x1_S4x512_d2 : S4x512x1.ReducesTo [2] S4x512
  h_S_ : 0 < S_.numel
  slices_S3_S1_0 : S3.Slices ![0] S1
  shapeCasts_S1_S_ : S1.ShapeCasts S_
  slices_S3_S1_1 : S3.Slices ![1] S1
  slices_S3_S1_2 : S3.Slices ![2] S1
  reducesTo_S4x512_S_d0_1 : S4x512.ReducesTo [0, 1] S_
  slices_S4x512_S4x511_0_0 : S4x512.Slices ![0, 0] S4x511
  concatenates_S4x1_S4x511_S4x512_d1 : Shape.Concatenates [S4x1, S4x511] S4x512 1
  reducesTo_S4x511_S_d0_1 : S4x511.ReducesTo [0, 1] S_
  scatter_S4x512_S1_S4_0_1_1_0_wf : ScatterDims.WF S4x512 S1 S4 [0] [1] [1] 0
  scatter_S4x512_S4x512x2_S4x512_n_01_01_2_wf : ScatterDims.WF S4x512 S4x512x2 S4x512 [] [0, 1] [0, 1] 2
  gather_S4x512_S4x512x1_S4x512_n_1_0_0_1_2_11_wf : GatherDims.WF S4x512 S4x512x1 S4x512 [] [1] [0] [1] [0] 2 ![1, 1]
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S4x16x1280.size a ≤ S4x16x32000.size a
  k0_t2_ok : k0_t2_loop.OK
  k0_mult2_dvd : ∀ k0_t2 : Fin k0_t2_loop.trips, 128 ∣ (k0_mult2 k0_t2).toNat
  k0_off2_inb : ∀ k0_t2 : Fin k0_t2_loop.trips, ∀ a, (k0_off2 k0_t2) a + S4x16x1280.size a ≤ S4x16x32000.size a
  k0_t3_ok : k0_t3_loop.OK
  k0_mult3_dvd : ∀ k0_t3 : Fin k0_t3_loop.trips, 128 ∣ (k0_mult3 k0_t3).toNat
  k0_off3_inb : ∀ k0_t3 : Fin k0_t3_loop.trips, ∀ a, (k0_off3 k0_t3) a + S4x16x1280.size a ≤ S4x16x32000.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S4x16x32000.size a < S4x513x32000.size a
  hwx0_0 : ∀ i : grid0.Coords, EltTy.bits .f32 = 32 ∨ (Rect.unit (s := S4x513x32000) (fun a => cc0_transform_0 i a * S4x16x32000.size a) (fun a => (Pipeline.Clip.of (cc0_transform_0 i a) (S4x16x32000.size a) (S4x513x32000.size a)).extent (S4x16x32000.size a)) fun a => Pipeline.Clip.inb (Pipeline.Clip.ok_of (hstart0_0 i a))).WholeWords (EltTy.packing .f32)
  hwxs0_0 : ∀ i : grid0.Coords, EltTy.bits .f32 = 32 ∨ (Rect.unit (s := S4x16x32000) (fun _ => 0) (fun a => (Pipeline.Clip.of (cc0_transform_0 i a) (S4x16x32000.size a) (S4x513x32000.size a)).extent (S4x16x32000.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S4x16x32000.size a < S4x513x32000.size a
  hwx0_1 : ∀ i : grid0.Coords, EltTy.bits .f32 = 32 ∨ (Rect.unit (s := S4x513x32000) (fun a => cc0_transform_1 i a * S4x16x32000.size a) (fun a => (Pipeline.Clip.of (cc0_transform_1 i a) (S4x16x32000.size a) (S4x513x32000.size a)).extent (S4x16x32000.size a)) fun a => Pipeline.Clip.inb (Pipeline.Clip.ok_of (hstart0_1 i a))).WholeWords (EltTy.packing .f32)
  hwxs0_1 : ∀ i : grid0.Coords, EltTy.bits .f32 = 32 ∨ (Rect.unit (s := S4x16x32000) (fun _ => 0) (fun a => (Pipeline.Clip.of (cc0_transform_1 i a) (S4x16x32000.size a) (S4x513x32000.size a)).extent (S4x16x32000.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x4.size a ≤ S512x4.size a
  hwx0_2 : ∀ i : grid0.Coords, EltTy.bits .i32 = 32 ∨ (Rect.block (s := S512x4) S16x4.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x4.size a ≤ S512x4.size a
  hwx0_3 : ∀ i : grid0.Coords, EltTy.bits .i32 = 32 ∨ (Rect.block (s := S512x4) S16x4.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x4.size a ≤ S512x4.size a
  hwx0_4 : ∀ i : grid0.Coords, EltTy.bits .f32 = 32 ∨ (Rect.block (s := S512x4) S16x4.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x4.size a ≤ S512x4.size a
  hwx0_5 : ∀ i : grid0.Coords, EltTy.bits .f32 = 32 ∨ (Rect.block (s := S512x4) S16x4.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x4.size a ≤ S512x4.size a
  hwx0_6 : ∀ i : grid0.Coords, EltTy.bits .f32 = 32 ∨ (Rect.block (s := S512x4) S16x4.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16x4.size a ≤ S512x4.size a
  hwx0_7 : ∀ i : grid0.Coords, EltTy.bits .f32 = 32 ∨ (Rect.block (s := S512x4) S16x4.size (cc0_transform_7 i) (hinb0_7 i)).WholeWords (EltTy.packing .f32)

variable [Facts₀]

def scatter_S4x512_S1_S4_0_1_1_0 : ScatterDims S4x512 S1 S4 where
  updateWindowDims := [0]
  insertedWindowDims := [1]
  scatterDimsToOperandDims := [1]
  indexVectorDim := 0
  wf := scatter_S4x512_S1_S4_0_1_1_0_wf
def scatter_S4x512_S4x512x2_S4x512_n_01_01_2 : ScatterDims S4x512 S4x512x2 S4x512 where
  updateWindowDims := []
  insertedWindowDims := [0, 1]
  scatterDimsToOperandDims := [0, 1]
  indexVectorDim := 2
  wf := scatter_S4x512_S4x512x2_S4x512_n_01_01_2_wf
def gather_S4x512_S4x512x1_S4x512_n_1_0_0_1_2_11 : GatherDims S4x512 S4x512x1 S4x512 where
  offsetDims := []
  collapsedSliceDims := [1]
  operandBatchingDims := [0]
  startIndicesBatchingDims := [0]
  startIndexMap := [1]
  indexVectorDim := 2
  sliceSizes := ![1, 1]
  wf := gather_S4x512_S4x512x1_S4x512_n_1_0_0_1_2_11_wf

abbrev win0_0 : Pipeline.Window sig grid0 :=
  Pipeline.Window.ofSpecClip (Memref.whole main_arg0) S4x16x32000.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S4x16x32000.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v3) S16x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S16x4.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S16x4.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S16x4.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_2) S16x4.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5_3) S16x4.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x513x32000 : Shape := ⟨3, ![4, 513, 32000]⟩
abbrev S4x512 : Shape := ⟨2, ![4, 512]⟩
abbrev S3 : Shape := ⟨1, ![3]⟩
abbrev S1 : Shape := ⟨1, ![1]⟩
abbrev S_ : Shape := ⟨0, ![]⟩
abbrev S4x513 : Shape := ⟨2, ![4, 513]⟩
abbrev S4x513x1 : Shape := ⟨3, ![4, 513, 1]⟩
abbrev S4x512x32000 : Shape := ⟨3, ![4, 512, 32000]⟩
abbrev S4x512x1 : Shape := ⟨3, ![4, 512, 1]⟩
abbrev S4x512x1x1 : Shape := ⟨4, ![4, 512, 1, 1]⟩
abbrev S1x1x1x1 : Shape := ⟨4, ![1, 1, 1, 1]⟩
abbrev S4 : Shape := ⟨1, ![4]⟩
abbrev S4x1 : Shape := ⟨2, ![4, 1]⟩
abbrev S4x512x2 : Shape := ⟨3, ![4, 512, 2]⟩
abbrev S1x1x1 : Shape := ⟨3, ![1, 1, 1]⟩
abbrev S4x511 : Shape := ⟨2, ![4, 511]⟩
abbrev S4x511x32000 : Shape := ⟨3, ![4, 511, 32000]⟩
abbrev S4x511x1 : Shape := ⟨3, ![4, 511, 1]⟩
abbrev S4x511x1x1 : Shape := ⟨4, ![4, 511, 1, 1]⟩

abbrev nBuf : Space → Nat
  | .hbm => 288
  | .vmem => 0
  | .smem => 0
  | _ => 0

abbrev hbmTy0_0 (i : Nat) : BufTy := match i % 128 with
  | 0 => ⟨S4x513x32000, .f32⟩
  | 1 => ⟨S4x513x32000, .f32⟩
  | 2 => ⟨S4x512, .i32⟩
  | 3 => ⟨S4x512, .i32⟩
  | 4 => ⟨S4x512, .i32⟩
  | 5 => ⟨S4x512, .i32⟩
  | 6 => ⟨S4x512, .f32⟩
  | 7 => ⟨S4x512, .f32⟩
  | 8 => ⟨S3, .f32⟩
  | 9 => ⟨S1, .f32⟩
  | 10 => ⟨S_, .f32⟩
  | 11 => ⟨S4x513, .f32⟩
  | 12 => ⟨S_, .f32⟩
  | 13 => ⟨S4x513, .f32⟩
  | 14 => ⟨S4x513, .f32⟩
  | 15 => ⟨S4x513x1, .f32⟩
  | 16 => ⟨S4x513x32000, .f32⟩
  | 17 => ⟨S4x513x32000, .f32⟩
  | 18 => ⟨S4x513x32000, .f32⟩
  | 19 => ⟨S_, .f32⟩
  | 20 => ⟨S4x513, .f32⟩
  | 21 => ⟨S4x513x1, .f32⟩
  | 22 => ⟨S4x513x1, .f32⟩
  | 23 => ⟨S4x513x32000, .f32⟩
  | 24 => ⟨S4x513x32000, .f32⟩
  | 25 => ⟨S_, .f32⟩
  | 26 => ⟨S4x513, .f32⟩
  | 27 => ⟨S_, .f32⟩
  | 28 => ⟨S4x513, .f32⟩
  | 29 => ⟨S4x513, .f32⟩
  | 30 => ⟨S4x513x1, .f32⟩
  | 31 => ⟨S4x513x32000, .f32⟩
  | 32 => ⟨S4x513x32000, .f32⟩
  | 33 => ⟨S4x513x32000, .f32⟩
  | 34 => ⟨S_, .f32⟩
  | 35 => ⟨S4x513, .f32⟩
  | 36 => ⟨S4x513x1, .f32⟩
  | 37 => ⟨S4x513x1, .f32⟩
  | 38 => ⟨S4x513x32000, .f32⟩
  | 39 => ⟨S4x513x32000, .f32⟩
  | 40 => ⟨S4x512x32000, .f32⟩
  | 41 => ⟨S4x512x1, .i32⟩
  | 42 => ⟨S_, .i32⟩
  | 43 => ⟨S4x512x1, .i32⟩
  | 44 => ⟨S4x512x1, .i1⟩
  | 45 => ⟨S_, .i32⟩
  | 46 => ⟨S4x512x1, .i32⟩
  | 47 => ⟨S4x512x1, .i32⟩
  | 48 => ⟨S4x512x1, .i32⟩
  | 49 => ⟨S4x512x1x1, .i32⟩
  | 50 => ⟨S1, .i32⟩
  | 51 => ⟨S_, .i32⟩
  | 52 => ⟨S4x512x1x1, .i32⟩
  | 53 => ⟨S4x512x1x1, .i1⟩
  | 54 => ⟨S1x1x1x1, .i32⟩
  | 55 => ⟨S4x512x1x1, .i32⟩
  | 56 => ⟨S4x512x1x1, .i1⟩
  | 57 => ⟨S4x512x1x1, .i1⟩
  | 58 => ⟨S_, .i1⟩
  | 59 => ⟨S4x512x1, .i1⟩
  | 60 => ⟨S4x512x1, .f32⟩
  | 61 => ⟨S_, .f32⟩
  | 62 => ⟨S4x512x1, .f32⟩
  | 63 => ⟨S4x512x1, .f32⟩
  | 64 => ⟨S4x512, .f32⟩
  | 65 => ⟨S4x512, .f32⟩
  | 66 => ⟨S_, .i32⟩
  | 67 => ⟨S4x512, .i32⟩
  | 68 => ⟨S4x512, .i1⟩
  | 69 => ⟨S4x512, .f32⟩
  | 70 => ⟨S4x512, .f32⟩
  | 71 => ⟨S_, .i32⟩
  | 72 => ⟨S_, .i32⟩
  | 73 => ⟨S4x512, .i32⟩
  | 74 => ⟨S4x512, .i32⟩
  | 75 => ⟨S4, .i32⟩
  | 76 => ⟨S4x1, .i32⟩
  | 77 => ⟨S_, .f32⟩
  | 78 => ⟨S4x512, .f32⟩
  | 79 => ⟨S_, .i32⟩
  | 80 => ⟨S4x1, .i32⟩
  | 81 => ⟨S4x1, .i1⟩
  | 82 => ⟨S_, .i32⟩
  | 83 => ⟨S4x1, .i32⟩
  | 84 => ⟨S4x1, .i32⟩
  | 85 => ⟨S4x1, .i32⟩
  | 86 => ⟨S_, .i32⟩
  | 87 => ⟨S4x512, .i32⟩
  | 88 => ⟨S4x512, .i1⟩
  | 89 => ⟨S_, .i32⟩
  | 90 => ⟨S4x512, .i32⟩
  | 91 => ⟨S4x512, .i32⟩
  | 92 => ⟨S4x512, .i32⟩
  | 93 => ⟨S4x512, .i32⟩
  | 94 => ⟨S4x512x1, .i32⟩
  | 95 => ⟨S4x512x1, .i32⟩
  | 96 => ⟨S4x512x2, .i32⟩
  | 97 => ⟨S4x512, .f32⟩
  | 98 => ⟨S_, .i32⟩
  | 99 => ⟨S4x512, .i32⟩
  | 100 => ⟨S4x512, .i1⟩
  | 101 => ⟨S_, .i32⟩
  | 102 => ⟨S4x512, .i32⟩
  | 103 => ⟨S4x512, .i1⟩
  | 104 => ⟨S4x512, .i1⟩
  | 105 => ⟨S_, .i32⟩
  | 106 => ⟨S_, .i32⟩
  | 107 => ⟨S_, .i32⟩
  | 108 => ⟨S4x512, .i32⟩
  | 109 => ⟨S4x512, .i32⟩
  | 110 => ⟨S_, .i32⟩
  | 111 => ⟨S4x512, .i32⟩
  | 112 => ⟨S4x512, .i32⟩
  | 113 => ⟨S_, .i32⟩
  | 114 => ⟨S4x512, .i32⟩
  | 115 => ⟨S4x512, .i1⟩
  | 116 => ⟨S_, .i32⟩
  | 117 => ⟨S4x512, .i32⟩
  | 118 => ⟨S4x512, .i32⟩
  | 119 => ⟨S4x512, .i32⟩
  | 120 => ⟨S4x512x1, .i32⟩
  | 121 => ⟨S1, .i32⟩
  | 122 => ⟨S_, .i32⟩
  | 123 => ⟨S4x512x1, .i32⟩
  | 124 => ⟨S4x512x1, .i1⟩
  | 125 => ⟨S1x1x1, .i32⟩
  | 126 => ⟨S4x512x1, .i32⟩
  | 127 => ⟨S4x512x1, .i1⟩
  | _ => ⟨S4x513x32000, .f32⟩

abbrev hbmTy0_1 (i : Nat) : BufTy := match i % 128 with
  | 0 => ⟨S4x512x1, .i1⟩
  | 1 => ⟨S_, .i1⟩
  | 2 => ⟨S4x512, .i1⟩
  | 3 => ⟨S4x512, .i32⟩
  | 4 => ⟨S_, .i32⟩
  | 5 => ⟨S4x512, .i32⟩
  | 6 => ⟨S4x512, .i32⟩
  | 7 => ⟨S_, .i32⟩
  | 8 => ⟨S4x512, .i32⟩
  | 9 => ⟨S4x512, .i1⟩
  | 10 => ⟨S4x512, .i1⟩
  | 11 => ⟨S4x512, .f32⟩
  | 12 => ⟨S_, .f32⟩
  | 13 => ⟨S_, .f32⟩
  | 14 => ⟨S4x512, .f32⟩
  | 15 => ⟨S4x512, .f32⟩
  | 16 => ⟨S_, .i32⟩
  | 17 => ⟨S4x512, .i32⟩
  | 18 => ⟨S4x512, .i1⟩
  | 19 => ⟨S_, .i32⟩
  | 20 => ⟨S4x512, .i32⟩
  | 21 => ⟨S4x512, .i32⟩
  | 22 => ⟨S4x512, .i32⟩
  | 23 => ⟨S4x512x1, .i32⟩
  | 24 => ⟨S1, .i32⟩
  | 25 => ⟨S_, .i32⟩
  | 26 => ⟨S4x512x1, .i32⟩
  | 27 => ⟨S4x512x1, .i1⟩
  | 28 => ⟨S1x1x1, .i32⟩
  | 29 => ⟨S4x512x1, .i32⟩
  | 30 => ⟨S4x512x1, .i1⟩
  | 31 => ⟨S4x512x1, .i1⟩
  | 32 => ⟨S_, .i1⟩
  | 33 => ⟨S4x512, .i1⟩
  | 34 => ⟨S4x512, .f32⟩
  | 35 => ⟨S_, .f32⟩
  | 36 => ⟨S4x512, .f32⟩
  | 37 => ⟨S4x512, .f32⟩
  | 38 => ⟨S_, .f32⟩
  | 39 => ⟨S_, .f32⟩
  | 40 => ⟨S4x512, .f32⟩
  | 41 => ⟨S4x512, .f32⟩
  | 42 => ⟨S1, .f32⟩
  | 43 => ⟨S_, .f32⟩
  | 44 => ⟨S4x512, .f32⟩
  | 45 => ⟨S4x512, .f32⟩
  | 46 => ⟨S1, .f32⟩
  | 47 => ⟨S_, .f32⟩
  | 48 => ⟨S4x512, .f32⟩
  | 49 => ⟨S4x512, .f32⟩
  | 50 => ⟨S4x512, .f32⟩
  | 51 => ⟨S1, .f32⟩
  | 52 => ⟨S_, .f32⟩
  | 53 => ⟨S4x512, .f32⟩
  | 54 => ⟨S4x512, .f32⟩
  | 55 => ⟨S4x512, .f32⟩
  | 56 => ⟨S_, .f32⟩
  | 57 => ⟨S4x512, .f32⟩
  | 58 => ⟨S4x512, .f32⟩
  | 59 => ⟨S_, .f32⟩
  | 60 => ⟨S4x512, .f32⟩
  | 61 => ⟨S4x512, .i1⟩
  | 62 => ⟨S4x512, .f32⟩
  | 63 => ⟨S4x512, .f32⟩
  | 64 => ⟨S4x512, .f32⟩
  | 65 => ⟨S4x512, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .i1⟩
  | 74 => ⟨S4x1, .i1⟩
  | 75 => ⟨S4x511, .i1⟩
  | 76 => ⟨S4x512, .i1⟩
  | 77 => ⟨S4x512, .f32⟩
  | 78 => ⟨S4x512x32000, .f32⟩
  | 79 => ⟨S4x512x32000, .f32⟩
  | 80 => ⟨S4x512x32000, .f32⟩
  | 81 => ⟨S4x512x32000, .f32⟩
  | 82 => ⟨S4x512x32000, .f32⟩
  | 83 => ⟨S_, .f32⟩
  | 84 => ⟨S4x512, .f32⟩
  | 85 => ⟨S4x512, .f32⟩
  | 86 => ⟨S_, .f32⟩
  | 87 => ⟨S_, .f32⟩
  | 88 => ⟨S_, .f32⟩
  | 89 => ⟨S_, .f32⟩
  | 90 => ⟨S_, .f32⟩
  | 91 => ⟨S4x511, .i32⟩
  | 92 => ⟨S4x511, .i32⟩
  | 93 => ⟨S4x511, .f32⟩
  | 94 => ⟨S4x511x32000, .f32⟩
  | 95 => ⟨S4x511x1, .i32⟩
  | 96 => ⟨S_, .i32⟩
  | 97 => ⟨S4x511x1, .i32⟩
  | 98 => ⟨S4x511x1, .i1⟩
  | 99 => ⟨S_, .i32⟩
  | 100 => ⟨S4x511x1, .i32⟩
  | 101 => ⟨S4x511x1, .i32⟩
  | 102 => ⟨S4x511x1, .i32⟩
  | 103 => ⟨S4x511x1x1, .i32⟩
  | 104 => ⟨S1, .i32⟩
  | 105 => ⟨S_, .i32⟩
  | 106 => ⟨S4x511x1x1, .i32⟩
  | 107 => ⟨S4x511x1x1, .i1⟩
  | 108 => ⟨S1x1x1x1, .i32⟩
  | 109 => ⟨S4x511x1x1, .i32⟩
  | 110 => ⟨S4x511x1x1, .i1⟩
  | 111 => ⟨S4x511x1x1, .i1⟩
  | 112 => ⟨S_, .i1⟩
  | 113 => ⟨S4x511x1, .i1⟩
  | 114 => ⟨S4x511x1, .f32⟩
  | 115 => ⟨S_, .f32⟩
  | 116 => ⟨S4x511x1, .f32⟩
  | 117 => ⟨S4x511x1, .f32⟩
  | 118 => ⟨S4x511, .f32⟩
  | 119 => ⟨S4x511x32000, .f32⟩
  | 120 => ⟨S4x511x1, .i32⟩
  | 121 => ⟨S_, .i32⟩
  | 122 => ⟨S4x511x1, .i32⟩
  | 123 => ⟨S4x511x1, .i1⟩
  | 124 => ⟨S_, .i32⟩
  | 125 => ⟨S4x511x1, .i32⟩
  | 126 => ⟨S4x511x1, .i32⟩
  | 127 => ⟨S4x511x1, .i32⟩
  | _ => ⟨S4x513x32000, .f32⟩

abbrev hbmTy0_2 (i : Nat) : BufTy := match i % 128 with
  | 0 => ⟨S4x511x1x1, .i32⟩
  | 1 => ⟨S1, .i32⟩
  | 2 => ⟨S_, .i32⟩
  | 3 => ⟨S4x511x1x1, .i32⟩
  | 4 => ⟨S4x511x1x1, .i1⟩
  | 5 => ⟨S1x1x1x1, .i32⟩
  | 6 => ⟨S4x511x1x1, .i32⟩
  | 7 => ⟨S4x511x1x1, .i1⟩
  | 8 => ⟨S4x511x1x1, .i1⟩
  | 9 => ⟨S_, .i1⟩
  | 10 => ⟨S4x511x1, .i1⟩
  | 11 => ⟨S4x511x1, .f32⟩
  | 12 => ⟨S_, .f32⟩
  | 13 => ⟨S4x511x1, .f32⟩
  | 14 => ⟨S4x511x1, .f32⟩
  | 15 => ⟨S4x511, .f32⟩
  | 16 => ⟨S4x511, .f32⟩
  | 17 => ⟨S_, .f32⟩
  | 18 => ⟨S_, .f32⟩
  | 19 => ⟨S_, .f32⟩
  | 20 => ⟨S_, .f32⟩
  | 21 => ⟨S_, .f32⟩
  | 22 => ⟨S4x511, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | _ => ⟨S4x513x32000, .f32⟩

abbrev hbmTy (i : Nat) : BufTy := match i / 128 with
  | 0 => hbmTy0_0 i
  | 1 => hbmTy0_1 i
  | 2 => hbmTy0_2 i
  | _ => ⟨S4x513x32000, .f32⟩

abbrev bufTy : (tb : Table) → Fin (tcTables nBuf tb) → BufTy
  | .hbm, ⟨i, _⟩ => hbmTy i
  | _, _ => ⟨S4x513x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_cst : Ref sig .tc := ⟨.hbm, 10, rfl⟩
abbrev main_call0_v0 : Ref sig .tc := ⟨.hbm, 11, rfl⟩
abbrev main_call0_cst_0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_cst_1 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_v0 : Ref sig .tc := ⟨.hbm, 24, rfl⟩
abbrev main_call1_cst : Ref sig .tc := ⟨.hbm, 25, rfl⟩
abbrev main_call1_v0 : Ref sig .tc := ⟨.hbm, 26, rfl⟩
abbrev main_call1_cst_0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_cst_1 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_v1 : Ref sig .tc := ⟨.hbm, 39, rfl⟩
abbrev main_v2 : Ref sig .tc := ⟨.hbm, 40, rfl⟩
abbrev main_v3 : Ref sig .tc := ⟨.hbm, 41, rfl⟩
abbrev main_call2_c : Ref sig .tc := ⟨.hbm, 42, rfl⟩
abbrev main_call2_v0 : Ref sig .tc := ⟨.hbm, 43, rfl⟩
abbrev main_call2_v1 : Ref sig .tc := ⟨.hbm, 44, rfl⟩
abbrev main_call2_c_0 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_v5 : Ref sig .tc := ⟨.hbm, 49, rfl⟩
abbrev main_call2_c_1 : Ref sig .tc := ⟨.hbm, 50, rfl⟩
abbrev main_call2_c_2 : Ref sig .tc := ⟨.hbm, 51, rfl⟩
abbrev main_call2_v6 : Ref sig .tc := ⟨.hbm, 52, rfl⟩
abbrev main_call2_v7 : Ref sig .tc := ⟨.hbm, 53, rfl⟩
abbrev main_call2_v8 : Ref sig .tc := ⟨.hbm, 54, rfl⟩
abbrev main_call2_v9 : Ref sig .tc := ⟨.hbm, 55, rfl⟩
abbrev main_call2_v10 : Ref sig .tc := ⟨.hbm, 56, rfl⟩
abbrev main_call2_v11 : Ref sig .tc := ⟨.hbm, 57, rfl⟩
abbrev main_call2_c_3 : Ref sig .tc := ⟨.hbm, 58, rfl⟩
abbrev main_call2_v12 : Ref sig .tc := ⟨.hbm, 59, rfl⟩
abbrev main_call2_v13 : Ref sig .tc := ⟨.hbm, 60, rfl⟩
abbrev main_call2_cst : Ref sig .tc := ⟨.hbm, 61, rfl⟩
abbrev main_call2_v14 : Ref sig .tc := ⟨.hbm, 62, rfl⟩
abbrev main_v4 : Ref sig .tc := ⟨.hbm, 63, rfl⟩
abbrev main_v5 : Ref sig .tc := ⟨.hbm, 64, rfl⟩
abbrev main_v6 : Ref sig .tc := ⟨.hbm, 65, rfl⟩
abbrev main_c : Ref sig .tc := ⟨.hbm, 66, rfl⟩
abbrev main_v7 : Ref sig .tc := ⟨.hbm, 67, rfl⟩
abbrev main_v8 : Ref sig .tc := ⟨.hbm, 68, rfl⟩
abbrev main_v9 : Ref sig .tc := ⟨.hbm, 69, rfl⟩
abbrev main_v10 : Ref sig .tc := ⟨.hbm, 70, rfl⟩
abbrev main_c_0 : Ref sig .tc := ⟨.hbm, 71, rfl⟩
abbrev main_call3_v0 : Ref sig .tc := ⟨.hbm, 72, rfl⟩
abbrev main_call3_v1 : Ref sig .tc := ⟨.hbm, 73, rfl⟩
abbrev main_v11 : Ref sig .tc := ⟨.hbm, 74, rfl⟩
abbrev main_v12 : Ref sig .tc := ⟨.hbm, 75, rfl⟩
abbrev main_v13 : Ref sig .tc := ⟨.hbm, 76, rfl⟩
abbrev main_cst : Ref sig .tc := ⟨.hbm, 77, rfl⟩
abbrev main_v14 : Ref sig .tc := ⟨.hbm, 78, rfl⟩
abbrev main_c_1 : Ref sig .tc := ⟨.hbm, 79, rfl⟩
abbrev main_v15 : Ref sig .tc := ⟨.hbm, 80, rfl⟩
abbrev main_v16 : Ref sig .tc := ⟨.hbm, 81, rfl⟩
abbrev main_c_2 : Ref sig .tc := ⟨.hbm, 82, rfl⟩
abbrev main_v17 : Ref sig .tc := ⟨.hbm, 83, rfl⟩
abbrev main_v18 : Ref sig .tc := ⟨.hbm, 84, rfl⟩
abbrev main_v19 : Ref sig .tc := ⟨.hbm, 85, rfl⟩
abbrev main_c_3 : Ref sig .tc := ⟨.hbm, 86, rfl⟩
abbrev main_v20 : Ref sig .tc := ⟨.hbm, 87, rfl⟩
abbrev main_v21 : Ref sig .tc := ⟨.hbm, 88, rfl⟩
abbrev main_c_4 : Ref sig .tc := ⟨.hbm, 89, rfl⟩
abbrev main_v22 : Ref sig .tc := ⟨.hbm, 90, rfl⟩
abbrev main_v23 : Ref sig .tc := ⟨.hbm, 91, rfl⟩
abbrev main_v24 : Ref sig .tc := ⟨.hbm, 92, rfl⟩
abbrev main_v25 : Ref sig .tc := ⟨.hbm, 93, rfl⟩
abbrev main_v26 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_c_5 : Ref sig .tc := ⟨.hbm, 98, rfl⟩
abbrev main_v30 : Ref sig .tc := ⟨.hbm, 99, rfl⟩
abbrev main_v31 : Ref sig .tc := ⟨.hbm, 100, rfl⟩
abbrev main_c_6 : Ref sig .tc := ⟨.hbm, 101, rfl⟩
abbrev main_v32 : Ref sig .tc := ⟨.hbm, 102, rfl⟩
abbrev main_v33 : Ref sig .tc := ⟨.hbm, 103, rfl⟩
abbrev main_v34 : Ref sig .tc := ⟨.hbm, 104, rfl⟩
abbrev main_c_7 : Ref sig .tc := ⟨.hbm, 105, rfl⟩
abbrev main_c_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_call4_v3 : Ref sig .tc := ⟨.hbm, 110, rfl⟩
abbrev main_call4_v4 : Ref sig .tc := ⟨.hbm, 111, rfl⟩
abbrev main_v35 : Ref sig .tc := ⟨.hbm, 112, rfl⟩
abbrev main_call5_c : Ref sig .tc := ⟨.hbm, 113, rfl⟩
abbrev main_call5_v0 : Ref sig .tc := ⟨.hbm, 114, rfl⟩
abbrev main_call5_v1 : Ref sig .tc := ⟨.hbm, 115, rfl⟩
abbrev main_call5_c_0 : Ref sig .tc := ⟨.hbm, 116, rfl⟩
abbrev main_call5_v2 : Ref sig .tc := ⟨.hbm, 117, rfl⟩
abbrev main_call5_v3 : Ref sig .tc := ⟨.hbm, 118, rfl⟩
abbrev main_call5_v4 : Ref sig .tc := ⟨.hbm, 119, rfl⟩
abbrev main_call5_v5 : Ref sig .tc := ⟨.hbm, 120, rfl⟩
abbrev main_call5_c_1 : Ref sig .tc := ⟨.hbm, 121, rfl⟩
abbrev main_call5_c_2 : Ref sig .tc := ⟨.hbm, 122, rfl⟩
abbrev main_call5_v6 : Ref sig .tc := ⟨.hbm, 123, rfl⟩
abbrev main_call5_v7 : Ref sig .tc := ⟨.hbm, 124, rfl⟩
abbrev main_call5_v8 : Ref sig .tc := ⟨.hbm, 125, rfl⟩
abbrev main_call5_v9 : Ref sig .tc := ⟨.hbm, 126, rfl⟩
abbrev main_call5_v10 : Ref sig .tc := ⟨.hbm, 127, rfl⟩
abbrev main_call5_v11 : Ref sig .tc := ⟨.hbm, 128, rfl⟩
abbrev main_call5_c_3 : Ref sig .tc := ⟨.hbm, 129, rfl⟩
abbrev main_call5_v12 : Ref sig .tc := ⟨.hbm, 130, rfl⟩
abbrev main_call5_v13 : Ref sig .tc := ⟨.hbm, 131, rfl⟩
abbrev main_call5_c_4 : Ref sig .tc := ⟨.hbm, 132, rfl⟩
abbrev main_call5_v14 : Ref sig .tc := ⟨.hbm, 133, rfl⟩
abbrev main_v36 : Ref sig .tc := ⟨.hbm, 134, rfl⟩
abbrev main_c_9 : Ref sig .tc := ⟨.hbm, 135, rfl⟩
abbrev main_v37 : Ref sig .tc := ⟨.hbm, 136, rfl⟩
abbrev main_v38 : Ref sig .tc := ⟨.hbm, 137, rfl⟩
abbrev main_v39 : Ref sig .tc := ⟨.hbm, 138, rfl⟩
abbrev main_v40 : Ref sig .tc := ⟨.hbm, 139, rfl⟩
abbrev main_cst_10 : Ref sig .tc := ⟨.hbm, 140, rfl⟩
abbrev main_call6_v0 : Ref sig .tc := ⟨.hbm, 141, rfl⟩
abbrev main_call6_v1 : Ref sig .tc := ⟨.hbm, 142, rfl⟩
abbrev main_v41 : Ref sig .tc := ⟨.hbm, 143, rfl⟩
abbrev main_call7_c : Ref sig .tc := ⟨.hbm, 144, rfl⟩
abbrev main_call7_v0 : Ref sig .tc := ⟨.hbm, 145, rfl⟩
abbrev main_call7_v1 : Ref sig .tc := ⟨.hbm, 146, rfl⟩
abbrev main_call7_c_0 : Ref sig .tc := ⟨.hbm, 147, rfl⟩
abbrev main_call7_v2 : Ref sig .tc := ⟨.hbm, 148, rfl⟩
abbrev main_call7_v3 : Ref sig .tc := ⟨.hbm, 149, rfl⟩
abbrev main_call7_v4 : Ref sig .tc := ⟨.hbm, 150, rfl⟩
abbrev main_call7_v5 : Ref sig .tc := ⟨.hbm, 151, rfl⟩
abbrev main_call7_c_1 : Ref sig .tc := ⟨.hbm, 152, rfl⟩
abbrev main_call7_c_2 : Ref sig .tc := ⟨.hbm, 153, rfl⟩
abbrev main_call7_v6 : Ref sig .tc := ⟨.hbm, 154, rfl⟩
abbrev main_call7_v7 : Ref sig .tc := ⟨.hbm, 155, rfl⟩
abbrev main_call7_v8 : Ref sig .tc := ⟨.hbm, 156, rfl⟩
abbrev main_call7_v9 : Ref sig .tc := ⟨.hbm, 157, rfl⟩
abbrev main_call7_v10 : Ref sig .tc := ⟨.hbm, 158, rfl⟩
abbrev main_call7_v11 : Ref sig .tc := ⟨.hbm, 159, rfl⟩
abbrev main_call7_c_3 : Ref sig .tc := ⟨.hbm, 160, rfl⟩
abbrev main_call7_v12 : Ref sig .tc := ⟨.hbm, 161, rfl⟩
abbrev main_call7_v13 : Ref sig .tc := ⟨.hbm, 162, rfl⟩
abbrev main_call7_cst : Ref sig .tc := ⟨.hbm, 163, rfl⟩
abbrev main_call7_v14 : Ref sig .tc := ⟨.hbm, 164, rfl⟩
abbrev main_v42 : Ref sig .tc := ⟨.hbm, 165, rfl⟩
abbrev main_cst_11 : Ref sig .tc := ⟨.hbm, 166, rfl⟩
abbrev main_call8_v0 : Ref sig .tc := ⟨.hbm, 167, rfl⟩
abbrev main_call8_v1 : Ref sig .tc := ⟨.hbm, 168, rfl⟩
abbrev main_v43 : Ref sig .tc := ⟨.hbm, 169, rfl⟩
abbrev main_v44 : Ref sig .tc := ⟨.hbm, 170, rfl⟩
abbrev main_v45 : Ref sig .tc := ⟨.hbm, 171, rfl⟩
abbrev main_v46 : Ref sig .tc := ⟨.hbm, 172, rfl⟩
abbrev main_v47 : Ref sig .tc := ⟨.hbm, 173, rfl⟩
abbrev main_v48 : Ref sig .tc := ⟨.hbm, 174, rfl⟩
abbrev main_v49 : Ref sig .tc := ⟨.hbm, 175, rfl⟩
abbrev main_v50 : Ref sig .tc := ⟨.hbm, 176, rfl⟩
abbrev main_v51 : Ref sig .tc := ⟨.hbm, 177, rfl⟩
abbrev main_v52 : Ref sig .tc := ⟨.hbm, 178, rfl⟩
abbrev main_v53 : Ref sig .tc := ⟨.hbm, 179, rfl⟩
abbrev main_v54 : Ref sig .tc := ⟨.hbm, 180, rfl⟩
abbrev main_v55 : Ref sig .tc := ⟨.hbm, 181, rfl⟩
abbrev main_v56 : Ref sig .tc := ⟨.hbm, 182, rfl⟩
abbrev main_v57 : Ref sig .tc := ⟨.hbm, 183, rfl⟩
abbrev main_v58 : Ref sig .tc := ⟨.hbm, 184, rfl⟩
abbrev main_v59 : Ref sig .tc := ⟨.hbm, 185, rfl⟩
abbrev main_v60 : Ref sig .tc := ⟨.hbm, 186, rfl⟩
abbrev main_cst_12 : Ref sig .tc := ⟨.hbm, 187, rfl⟩
abbrev main_v61 : Ref sig .tc := ⟨.hbm, 188, rfl⟩
abbrev main_v62 : Ref sig .tc := ⟨.hbm, 189, rfl⟩
abbrev main_v63 : Ref sig .tc := ⟨.hbm, 190, rfl⟩
abbrev main_v64 : Ref sig .tc := ⟨.hbm, 191, rfl⟩
abbrev main_v65 : Ref sig .tc := ⟨.hbm, 192, rfl⟩
abbrev main_v66 : Ref sig .tc := ⟨.hbm, 193, rfl⟩
abbrev main_cst_13 : Ref sig .tc := ⟨.hbm, 194, rfl⟩
abbrev main_v67 : Ref sig .tc := ⟨.hbm, 195, rfl⟩
abbrev main_cst_14 : Ref sig .tc := ⟨.hbm, 196, rfl⟩
abbrev main_v68 : Ref sig .tc := ⟨.hbm, 197, rfl⟩
abbrev main_v69 : Ref sig .tc := ⟨.hbm, 198, rfl⟩
abbrev main_cst_15 : Ref sig .tc := ⟨.hbm, 199, rfl⟩
abbrev main_v70 : Ref sig .tc := ⟨.hbm, 200, rfl⟩
abbrev main_c_16 : Ref sig .tc := ⟨.hbm, 201, rfl⟩
abbrev main_v71 : Ref sig .tc := ⟨.hbm, 202, rfl⟩
abbrev main_v72 : Ref sig .tc := ⟨.hbm, 203, rfl⟩
abbrev main_v73 : Ref sig .tc := ⟨.hbm, 204, rfl⟩
abbrev main_v74 : Ref sig .tc := ⟨.hbm, 205, rfl⟩
abbrev main_v75 : Ref sig .tc := ⟨.hbm, 206, rfl⟩
abbrev main_v76 : Ref sig .tc := ⟨.hbm, 207, rfl⟩
abbrev main_v77 : Ref sig .tc := ⟨.hbm, 208, rfl⟩
abbrev main_v78 : Ref sig .tc := ⟨.hbm, 209, rfl⟩
abbrev main_v79 : Ref sig .tc := ⟨.hbm, 210, rfl⟩
abbrev main_cst_17 : Ref sig .tc := ⟨.hbm, 211, rfl⟩
abbrev main_v80 : Ref sig .tc := ⟨.hbm, 212, rfl⟩
abbrev main_v81 : Ref sig .tc := ⟨.hbm, 213, rfl⟩
abbrev main_cst_18 : Ref sig .tc := ⟨.hbm, 214, rfl⟩
abbrev main_v82 : Ref sig .tc := ⟨.hbm, 215, rfl⟩
abbrev main_cst_19 : Ref sig .tc := ⟨.hbm, 216, rfl⟩
abbrev main_v83 : Ref sig .tc := ⟨.hbm, 217, rfl⟩
abbrev main_v84 : Ref sig .tc := ⟨.hbm, 218, rfl⟩
abbrev main_v85 : Ref sig .tc := ⟨.hbm, 219, rfl⟩
abbrev main_v86 : Ref sig .tc := ⟨.hbm, 220, rfl⟩
abbrev main_v87 : Ref sig .tc := ⟨.hbm, 221, rfl⟩
abbrev main_v88 : Ref sig .tc := ⟨.hbm, 222, rfl⟩
abbrev main_v89 : Ref sig .tc := ⟨.hbm, 223, rfl⟩
abbrev main_call9_c : Ref sig .tc := ⟨.hbm, 224, rfl⟩
abbrev main_call9_v0 : Ref sig .tc := ⟨.hbm, 225, rfl⟩
abbrev main_call9_v1 : Ref sig .tc := ⟨.hbm, 226, rfl⟩
abbrev main_call9_c_0 : Ref sig .tc := ⟨.hbm, 227, rfl⟩
abbrev main_call9_v2 : Ref sig .tc := ⟨.hbm, 228, rfl⟩
abbrev main_call9_v3 : Ref sig .tc := ⟨.hbm, 229, rfl⟩
abbrev main_call9_v4 : Ref sig .tc := ⟨.hbm, 230, rfl⟩
abbrev main_call9_v5 : Ref sig .tc := ⟨.hbm, 231, rfl⟩
abbrev main_call9_c_1 : Ref sig .tc := ⟨.hbm, 232, rfl⟩
abbrev main_call9_c_2 : Ref sig .tc := ⟨.hbm, 233, rfl⟩
abbrev main_call9_v6 : Ref sig .tc := ⟨.hbm, 234, rfl⟩
abbrev main_call9_v7 : Ref sig .tc := ⟨.hbm, 235, rfl⟩
abbrev main_call9_v8 : Ref sig .tc := ⟨.hbm, 236, rfl⟩
abbrev main_call9_v9 : Ref sig .tc := ⟨.hbm, 237, rfl⟩
abbrev main_call9_v10 : Ref sig .tc := ⟨.hbm, 238, rfl⟩
abbrev main_call9_v11 : Ref sig .tc := ⟨.hbm, 239, rfl⟩
abbrev main_call9_c_3 : Ref sig .tc := ⟨.hbm, 240, rfl⟩
abbrev main_call9_v12 : Ref sig .tc := ⟨.hbm, 241, rfl⟩
abbrev main_call9_v13 : Ref sig .tc := ⟨.hbm, 242, rfl⟩
abbrev main_call9_cst : Ref sig .tc := ⟨.hbm, 243, rfl⟩
abbrev main_call9_v14 : Ref sig .tc := ⟨.hbm, 244, rfl⟩
abbrev main_v90 : Ref sig .tc := ⟨.hbm, 245, rfl⟩
abbrev main_v91 : Ref sig .tc := ⟨.hbm, 246, rfl⟩
abbrev main_v92 : Ref sig .tc := ⟨.hbm, 247, rfl⟩
abbrev main_v93 : Ref sig .tc := ⟨.hbm, 248, rfl⟩
abbrev main_call10_c : Ref sig .tc := ⟨.hbm, 249, rfl⟩
abbrev main_call10_v0 : Ref sig .tc := ⟨.hbm, 250, rfl⟩
abbrev main_call10_v1 : Ref sig .tc := ⟨.hbm, 251, rfl⟩
abbrev main_call10_c_0 : Ref sig .tc := ⟨.hbm, 252, rfl⟩
abbrev main_call10_v2 : Ref sig .tc := ⟨.hbm, 253, rfl⟩
abbrev main_call10_v3 : Ref sig .tc := ⟨.hbm, 254, rfl⟩
abbrev main_call10_v4 : Ref sig .tc := ⟨.hbm, 255, rfl⟩
abbrev main_call10_v5 : Ref sig .tc := ⟨.hbm, 256, rfl⟩
abbrev main_call10_c_1 : Ref sig .tc := ⟨.hbm, 257, rfl⟩
abbrev main_call10_c_2 : Ref sig .tc := ⟨.hbm, 258, rfl⟩
abbrev main_call10_v6 : Ref sig .tc := ⟨.hbm, 259, rfl⟩
abbrev main_call10_v7 : Ref sig .tc := ⟨.hbm, 260, rfl⟩
abbrev main_call10_v8 : Ref sig .tc := ⟨.hbm, 261, rfl⟩
abbrev main_call10_v9 : Ref sig .tc := ⟨.hbm, 262, rfl⟩
abbrev main_call10_v10 : Ref sig .tc := ⟨.hbm, 263, rfl⟩
abbrev main_call10_v11 : Ref sig .tc := ⟨.hbm, 264, rfl⟩
abbrev main_call10_c_3 : Ref sig .tc := ⟨.hbm, 265, rfl⟩
abbrev main_call10_v12 : Ref sig .tc := ⟨.hbm, 266, rfl⟩
abbrev main_call10_v13 : Ref sig .tc := ⟨.hbm, 267, rfl⟩
abbrev main_call10_cst : Ref sig .tc := ⟨.hbm, 268, rfl⟩
abbrev main_call10_v14 : Ref sig .tc := ⟨.hbm, 269, rfl⟩
abbrev main_v94 : Ref sig .tc := ⟨.hbm, 270, rfl⟩
abbrev main_v95 : Ref sig .tc := ⟨.hbm, 271, rfl⟩
abbrev main_v96 : Ref sig .tc := ⟨.hbm, 272, rfl⟩
abbrev main_cst_20 : Ref sig .tc := ⟨.hbm, 273, rfl⟩
abbrev main_v97 : Ref sig .tc := ⟨.hbm, 274, rfl⟩
abbrev main_cst_21 : Ref sig .tc := ⟨.hbm, 275, rfl⟩
abbrev main_v98 : Ref sig .tc := ⟨.hbm, 276, rfl⟩
abbrev main_v99 : Ref sig .tc := ⟨.hbm, 277, rfl⟩
abbrev main_v100 : Ref sig .tc := ⟨.hbm, 278, rfl⟩
abbrev main_cst_22 : Ref sig .tc := ⟨.hbm, 279, rfl⟩
abbrev main_v101 : Ref sig .tc := ⟨.hbm, 280, rfl⟩
abbrev main_cst_23 : Ref sig .tc := ⟨.hbm, 281, rfl⟩
abbrev main_v102 : Ref sig .tc := ⟨.hbm, 282, rfl⟩
abbrev main_v103 : Ref sig .tc := ⟨.hbm, 283, rfl⟩
abbrev main_v104 : Ref sig .tc := ⟨.hbm, 284, rfl⟩
abbrev main_cst_24 : Ref sig .tc := ⟨.hbm, 285, rfl⟩
abbrev main_v105 : Ref sig .tc := ⟨.hbm, 286, rfl⟩
abbrev main_v106 : Ref sig .tc := ⟨.hbm, 287, rfl⟩

abbrev nD : Nat := 1
abbrev τ : Topo := Topo.v7x

variable {F : FTy → Type} [FloatOps F]

class Facts₀ : Prop where
  reducesTo_S4x513x32000_S4x513_d2 : S4x513x32000.ReducesTo [2] S4x513
  h_S_ : 0 < S_.numel
  bcast_S_S4x513 : S_.BroadcastsInDim S4x513 (![] : Fin 0 → Fin S4x513.rank)
  bcast_S4x513_S4x513x1_0_1 : S4x513.BroadcastsInDim S4x513x1 (![0, 1] : Fin 2 → Fin S4x513x1.rank)
  bcast_S4x513x1_S4x513x32000_0_1_2 : S4x513x1.BroadcastsInDim S4x513x32000 (![0, 1, 2] : Fin 3 → Fin S4x513x32000.rank)
  slices_S4x513x32000_S4x512x32000_0_0_0 : S4x513x32000.Slices ![0, 0, 0] S4x512x32000
  bcast_S4x512_S4x512x1_0_1 : S4x512.BroadcastsInDim S4x512x1 (![0, 1] : Fin 2 → Fin S4x512x1.rank)
  bcast_S_S4x512x1 : S_.BroadcastsInDim S4x512x1 (![] : Fin 0 → Fin S4x512x1.rank)
  shapeCasts_S4x512x1_S4x512x1x1 : S4x512x1.ShapeCasts S4x512x1x1
  bcast_S_S4x512x1x1 : S_.BroadcastsInDim S4x512x1x1 (![] : Fin 0 → Fin S4x512x1x1.rank)
  bcast_S1_S1x1x1x1_3 : S1.BroadcastsInDim S1x1x1x1 (![3] : Fin 1 → Fin S1x1x1x1.rank)
  bcast_S1x1x1x1_S4x512x1x1_0_1_2_3 : S1x1x1x1.BroadcastsInDim S4x512x1x1 (![0, 1, 2, 3] : Fin 4 → Fin S4x512x1x1.rank)
  reducesTo_S4x512x1x1_S4x512x1_d3 : S4x512x1x1.ReducesTo [3] S4x512x1
  shapeCasts_S4x512x1_S4x512 : S4x512x1.ShapeCasts S4x512
  bcast_S_S4x512 : S_.BroadcastsInDim S4x512 (![] : Fin 0 → Fin S4x512.rank)
  bcast_S4_S4x1_0 : S4.BroadcastsInDim S4x1 (![0] : Fin 1 → Fin S4x1.rank)
  bcast_S_S4x1 : S_.BroadcastsInDim S4x1 (![] : Fin 0 → Fin S4x1.rank)
  bcast_S4x1_S4x512_0_1 : S4x1.BroadcastsInDim S4x512 (![0, 1] : Fin 2 → Fin S4x512.rank)
  concatenates_S4x512x1_S4x512x1_S4x512x2_d2 : Shape.Concatenates [S4x512x1, S4x512x1] S4x512x2 2
  shapeCasts_S4x512_S4x512x1 : S4x512.ShapeCasts S4x512x1
  bcast_S1_S1x1x1_2 : S1.BroadcastsInDim S1x1x1 (![2] : Fin 1 → Fin S1x1x1.rank)
  bcast_S1x1x1_S4x512x1_0_1_2 : S1x1x1.BroadcastsInDim S4x512x1 (![0, 1, 2] : Fin 3 → Fin S4x512x1.rank)
  reducesTo_S4x512x1_S4x512_d2 : S4x512x1.ReducesTo [2] S4x512
  slices_S3_S1_0 : S3.Slices ![0] S1
  shapeCasts_S1_S_ : S1.ShapeCasts S_
  slices_S3_S1_1 : S3.Slices ![1] S1
  slices_S3_S1_2 : S3.Slices ![2] S1
  reducesTo_S4x512_S_d0_1 : S4x512.ReducesTo [0, 1] S_
  slices_S4x512_S4x511_0_0 : S4x512.Slices ![0, 0] S4x511
  concatenates_S4x1_S4x511_S4x512_d1 : Shape.Concatenates [S4x1, S4x511] S4x512 1
  reducesTo_S4x512x32000_S4x512_d2 : S4x512x32000.ReducesTo [2] S4x512
  slices_S4x512_S4x511_0_1 : S4x512.Slices ![0, 1] S4x511
  slices_S4x513x32000_S4x511x32000_0_0_0 : S4x513x32000.Slices ![0, 0, 0] S4x511x32000
  bcast_S4x511_S4x511x1_0_1 : S4x511.BroadcastsInDim S4x511x1 (![0, 1] : Fin 2 → Fin S4x511x1.rank)
  bcast_S_S4x511x1 : S_.BroadcastsInDim S4x511x1 (![] : Fin 0 → Fin S4x511x1.rank)
  shapeCasts_S4x511x1_S4x511x1x1 : S4x511x1.ShapeCasts S4x511x1x1
  bcast_S_S4x511x1x1 : S_.BroadcastsInDim S4x511x1x1 (![] : Fin 0 → Fin S4x511x1x1.rank)
  bcast_S1x1x1x1_S4x511x1x1_0_1_2_3 : S1x1x1x1.BroadcastsInDim S4x511x1x1 (![0, 1, 2, 3] : Fin 4 → Fin S4x511x1x1.rank)
  reducesTo_S4x511x1x1_S4x511x1_d3 : S4x511x1x1.ReducesTo [3] S4x511x1
  shapeCasts_S4x511x1_S4x511 : S4x511x1.ShapeCasts S4x511
  reducesTo_S4x511_S_d0_1 : S4x511.ReducesTo [0, 1] S_
  gather_S4x512x32000_S4x512x1x1_S4x512x1_n_2_01_01_2_3_111_wf : GatherDims.WF S4x512x32000 S4x512x1x1 S4x512x1 [] [2] [0, 1] [2] [0, 1] 3 ![1, 1, 1]
  scatter_S4x512_S4x512x2_S4x512_n_01_01_2_wf : ScatterDims.WF S4x512 S4x512x2 S4x512 [] [0, 1] [0, 1] 2
  gather_S4x512_S4x512x1_S4x512_n_1_0_0_1_2_11_wf : GatherDims.WF S4x512 S4x512x1 S4x512 [] [1] [0] [1] [0] 2 ![1, 1]
  gather_S4x511x32000_S4x511x1x1_S4x511x1_n_2_01_01_2_3_111_wf : GatherDims.WF S4x511x32000 S4x511x1x1 S4x511x1 [] [2] [0, 1] [2] [0, 1] 3 ![1, 1, 1]

variable [Facts₀]

def gather_S4x512x32000_S4x512x1x1_S4x512x1_n_2_01_01_2_3_111 : GatherDims S4x512x32000 S4x512x1x1 S4x512x1 where
  offsetDims := []
  collapsedSliceDims := [2]
  operandBatchingDims := [0, 1]
  startIndicesBatchingDims := [0, 1]
  startIndexMap := [2]
  indexVectorDim := 3
  sliceSizes := ![1, 1, 1]
  wf := gather_S4x512x32000_S4x512x1x1_S4x512x1_n_2_01_01_2_3_111_wf
def scatter_S4x512_S4x512x2_S4x512_n_01_01_2 : ScatterDims S4x512 S4x512x2 S4x512 where
  updateWindowDims := []
  insertedWindowDims := [0, 1]
  scatterDimsToOperandDims := [0, 1]
  indexVectorDim := 2
  wf := scatter_S4x512_S4x512x2_S4x512_n_01_01_2_wf
def gather_S4x512_S4x512x1_S4x512_n_1_0_0_1_2_11 : GatherDims S4x512 S4x512x1 S4x512 where
  offsetDims := []
  collapsedSliceDims := [1]
  operandBatchingDims := [0]
  startIndicesBatchingDims := [0]
  startIndexMap := [1]
  indexVectorDim := 2
  sliceSizes := ![1, 1]
  wf := gather_S4x512_S4x512x1_S4x512_n_1_0_0_1_2_11_wf
def gather_S4x511x32000_S4x511x1x1_S4x511x1_n_2_01_01_2_3_111 : GatherDims S4x511x32000 S4x511x1x1 S4x511x1 where
  offsetDims := []
  collapsedSliceDims := [2]
  operandBatchingDims := [0, 1]
  startIndicesBatchingDims := [0, 1]
  startIndexMap := [2]
  indexVectorDim := 3
  sliceSizes := ![1, 1, 1]
  wf := gather_S4x511x32000_S4x511x1x1_S4x511x1_n_2_01_01_2_3_111_wf

class Facts : Prop extends Facts₀ where

variable [Facts]
-- ==== Proof.KHost.lean ====
import proofs.«424779_j13597866459574_3_alg».proof.Proof.Gen.Kernel.Launch
import proofs.«424779_j13597866459574_3_alg».proof.Proof.Gen.Kernel.Skeleton
import proofs.«424779_j13597866459574_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-! The host side of the program's frame: @main is six host lines, the one pipelined region, and eleven
    stretches of host lines after it. Here: what each TensorCore buffer holds when the region is entered, that
    @main reduces to the region continued by the later lines, and that no host line writes an argument array or
    an array a window of the region stages — so the arguments end as launched. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The stretches of host lines after the region, in order. -/
abbrev tailOps : List (List (HloOp τ sig (Elt F))) :=
  [hostOps1, hostOps1_1, hostOps1_2, hostOps1_3, hostOps1_4, hostOps1_5, hostOps1_6, hostOps1_7, hostOps1_8, hostOps1_9, hostOps1_10]

/-- Core `c`'s TensorCore buffer contents when the region is entered: after the six host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-! ## No host line allocates -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor

/-! ## No host line writes an argument, nor (after the region) a window's array -/

/-- A host line leaves the ten argument arrays alone. -/
abbrev KeepsArgs (op : HloOp τ sig (Elt F)) : Prop :=
  Proc.devRef (τ := τ) .tc main_arg0 ∉ op.writes
  ∧ Proc.devRef (τ := τ) .tc main_arg1 ∉ op.writes
  ∧ Proc.devRef (τ := τ) .tc main_arg2 ∉ op.writes
  ∧ Proc.devRef (τ := τ) .tc main_arg3 ∉ op.writes
  ∧ Proc.devRef (τ := τ) .tc main_arg4 ∉ op.writes
  ∧ Proc.devRef (τ := τ) .tc main_arg5 ∉ op.writes
  ∧ Proc.devRef (τ := τ) .tc main_arg6 ∉ op.writes
  ∧ Proc.devRef (τ := τ) .tc main_arg7 ∉ op.writes
  ∧ Proc.devRef (τ := τ) .tc main_arg8 ∉ op.writes
  ∧ Proc.devRef (τ := τ) .tc main_arg9 ∉ op.writes

/-- A host line leaves the arguments and the region's eight arrays alone. -/
abbrev Keeps (op : HloOp τ sig (Elt F)) : Prop :=
  Proc.devRef (τ := τ) .tc main_arg0 ∉ op.writes
  ∧ Proc.devRef (τ := τ) .tc main_arg1 ∉ op.writes
  ∧ Proc.devRef (τ := τ) .tc main_arg2 ∉ op.writes
  ∧ Proc.devRef (τ := τ) .tc main_arg3 ∉ op.writes
  ∧ Proc.devRef (τ := τ) .tc main_arg4 ∉ op.writes
  ∧ Proc.devRef (τ := τ) .tc main_arg5 ∉ op.writes
  ∧ Proc.devRef (τ := τ) .tc main_arg6 ∉ op.writes
  ∧ Proc.devRef (τ := τ) .tc main_arg7 ∉ op.writes
  ∧ Proc.devRef (τ := τ) .tc main_arg8 ∉ op.writes
  ∧ Proc.devRef (τ := τ) .tc main_arg9 ∉ op.writes
  ∧ Proc.devRef (τ := τ) .tc main_v3 ∉ op.writes
  ∧ Proc.devRef (τ := τ) .tc main_v4 ∉ op.writes
  ∧ Proc.devRef (τ := τ) .tc main_v5_0 ∉ op.writes
  ∧ Proc.devRef (τ := τ) .tc main_v5_1 ∉ op.writes
  ∧ Proc.devRef (τ := τ) .tc main_v5_2 ∉ op.writes
  ∧ Proc.devRef (τ := τ) .tc main_v5_3 ∉ op.writes

theorem hostOps0_keeps : (hostOps0 : List (HloOp τ sig (Elt F))).Forall KeepsArgs := by
  simp only [hostOps0, List.Forall, KeepsArgs, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_keeps : (hostOps1 : List (HloOp τ sig (Elt F))).Forall Keeps := by
  simp only [hostOps1, List.Forall, Keeps, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_1_keeps : (hostOps1_1 : List (HloOp τ sig (Elt F))).Forall Keeps := by
  simp only [hostOps1_1, List.Forall, Keeps, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_2_keeps : (hostOps1_2 : List (HloOp τ sig (Elt F))).Forall Keeps := by
  simp only [hostOps1_2, List.Forall, Keeps, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_3_keeps : (hostOps1_3 : List (HloOp τ sig (Elt F))).Forall Keeps := by
  simp only [hostOps1_3, List.Forall, Keeps, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_4_keeps : (hostOps1_4 : List (HloOp τ sig (Elt F))).Forall Keeps := by
  simp only [hostOps1_4, List.Forall, Keeps, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_5_keeps : (hostOps1_5 : List (HloOp τ sig (Elt F))).Forall Keeps := by
  simp only [hostOps1_5, List.Forall, Keeps, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_6_keeps : (hostOps1_6 : List (HloOp τ sig (Elt F))).Forall Keeps := by
  simp only [hostOps1_6, List.Forall, Keeps, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_7_keeps : (hostOps1_7 : List (HloOp τ sig (Elt F))).Forall Keeps := by
  simp only [hostOps1_7, List.Forall, Keeps, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_8_keeps : (hostOps1_8 : List (HloOp τ sig (Elt F))).Forall Keeps := by
  simp only [hostOps1_8, List.Forall, Keeps, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_9_keeps : (hostOps1_9 : List (HloOp τ sig (Elt F))).Forall Keeps := by
  simp only [hostOps1_9, List.Forall, Keeps, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_10_keeps : (hostOps1_10 : List (HloOp τ sig (Elt F))).Forall Keeps := by
  simp only [hostOps1_10, List.Forall, Keeps, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)

/-- Membership in the list of stretches, case by case. -/
theorem tail_cases {P : List (HloOp τ sig (Elt F)) → Prop}
    (h0 : P hostOps1) (h1 : P hostOps1_1) (h2 : P hostOps1_2) (h3 : P hostOps1_3) (h4 : P hostOps1_4) (h5 : P hostOps1_5) (h6 : P hostOps1_6) (h7 : P hostOps1_7) (h8 : P hostOps1_8) (h9 : P hostOps1_9) (h10 : P hostOps1_10) :
    ∀ ops ∈ (tailOps : List (List (HloOp τ sig (Elt F)))), P ops := by
  intro ops hops
  simp only [tailOps, List.mem_cons, List.mem_nil_iff, or_false] at hops
  rcases hops with rfl | rfl | rfl | rfl | rfl | rfl | rfl | rfl | rfl | rfl | rfl
  · exact h0
  · exact h1
  · exact h2
  · exact h3
  · exact h4
  · exact h5
  · exact h6
  · exact h7
  · exact h8
  · exact h9
  · exact h10

theorem tail_keeps : ∀ ops ∈ (tailOps : List (List (HloOp τ sig (Elt F)))), ∀ op ∈ ops, Keeps op :=
  tail_cases (P := fun ops => ∀ op ∈ ops, Keeps op)
    (List.forall_iff_forall_mem.mp hostOps1_keeps)
    (List.forall_iff_forall_mem.mp hostOps1_1_keeps)
    (List.forall_iff_forall_mem.mp hostOps1_2_keeps)
    (List.forall_iff_forall_mem.mp hostOps1_3_keeps)
    (List.forall_iff_forall_mem.mp hostOps1_4_keeps)
    (List.forall_iff_forall_mem.mp hostOps1_5_keeps)
    (List.forall_iff_forall_mem.mp hostOps1_6_keeps)
    (List.forall_iff_forall_mem.mp hostOps1_7_keeps)
    (List.forall_iff_forall_mem.mp hostOps1_8_keeps)
    (List.forall_iff_forall_mem.mp hostOps1_9_keeps)
    (List.forall_iff_forall_mem.mp hostOps1_10_keeps)

/-! ## @main around the region -/

/-- @main is the host lines before the region, the region, and the host lines after it: it reduces to the region
    CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later lines touch the pipeline's arrays and the bypassing buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  exact tail_cases (P := fun ops => ∀ op ∈ ops, op.bufs ⊆ _)
    (fun op hop => Pipeline.sub_ucRefs op ((List.forall_iff_forall_mem.mp hostOps1_sub) op hop))
    (fun op hop => Pipeline.sub_ucRefs op ((List.forall_iff_forall_mem.mp hostOps1_1_sub) op hop))
    (fun op hop => Pipeline.sub_ucRefs op ((List.forall_iff_forall_mem.mp hostOps1_2_sub) op hop))
    (fun op hop => Pipeline.sub_ucRefs op ((List.forall_iff_forall_mem.mp hostOps1_3_sub) op hop))
    (fun op hop => Pipeline.sub_ucRefs op ((List.forall_iff_forall_mem.mp hostOps1_4_sub) op hop))
    (fun op hop => Pipeline.sub_ucRefs op ((List.forall_iff_forall_mem.mp hostOps1_5_sub) op hop))
    (fun op hop => Pipeline.sub_ucRefs op ((List.forall_iff_forall_mem.mp hostOps1_6_sub) op hop))
    (fun op hop => Pipeline.sub_ucRefs op ((List.forall_iff_forall_mem.mp hostOps1_7_sub) op hop))
    (fun op hop => Pipeline.sub_ucRefs op ((List.forall_iff_forall_mem.mp hostOps1_8_sub) op hop))
    (fun op hop => Pipeline.sub_ucRefs op ((List.forall_iff_forall_mem.mp hostOps1_9_sub) op hop))
    (fun op hop => Pipeline.sub_ucRefs op ((List.forall_iff_forall_mem.mp hostOps1_10_sub) op hop))

/-- They allocate nothing. -/
theorem sfx_fresh : ∀ ops ∈ (tailOps : List (List (HloOp τ sig (Elt F)))), ∀ op ∈ ops, op.fresh = ∅ :=
  tail_cases (P := fun ops => ∀ op ∈ ops, op.fresh = ∅)
    (List.forall_iff_forall_mem.mp hostOps1_fresh)
    (List.forall_iff_forall_mem.mp hostOps1_1_fresh)
    (List.forall_iff_forall_mem.mp hostOps1_2_fresh)
    (List.forall_iff_forall_mem.mp hostOps1_3_fresh)
    (List.forall_iff_forall_mem.mp hostOps1_4_fresh)
    (List.forall_iff_forall_mem.mp hostOps1_5_fresh)
    (List.forall_iff_forall_mem.mp hostOps1_6_fresh)
    (List.forall_iff_forall_mem.mp hostOps1_7_fresh)
    (List.forall_iff_forall_mem.mp hostOps1_8_fresh)
    (List.forall_iff_forall_mem.mp hostOps1_9_fresh)
    (List.forall_iff_forall_mem.mp hostOps1_10_fresh)

/-- And write no array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop w
  obtain ⟨h0, h1, -, -, -, -, -, -, -, -, h3, h4, h50, h51, h52, h53⟩ := tail_keeps ops hops op hop
  fin_cases w
  · exact h0
  · exact h1
  · exact h3
  · exact h4
  · exact h50
  · exact h51
  · exact h52
  · exact h53

/-! ## The arguments as the region finds them, and as the later lines leave them -/

/-- No host line before the region writes an argument: the region finds each as launched. -/
theorem V_keeps (c : Dev nD) (b : Ref sig .tc) (hb : ∀ op ∈ (hostOps0 : List (HloOp τ sig (Elt F))), Proc.devRef (τ := τ) .tc b ∉ op.writes) :
    V m c b = m ((c : Thread nD τ).loc b) :=
  StableHlo.after_of_forall_not_mem (b := Proc.devRef .tc b) _ _ (by
    simp only [List.flatten_cons, List.flatten_nil, List.append_nil]; exact hb)

theorem V_main_arg0 (c : Dev nD) : V m c main_arg0 = m ((c : Thread nD τ).loc main_arg0) :=
  V_keeps m c main_arg0 fun op hop => (List.forall_iff_forall_mem.mp hostOps0_keeps op hop).1
theorem V_main_arg1 (c : Dev nD) : V m c main_arg1 = m ((c : Thread nD τ).loc main_arg1) :=
  V_keeps m c main_arg1 fun op hop => (List.forall_iff_forall_mem.mp hostOps0_keeps op hop).2.1
theorem V_main_arg2 (c : Dev nD) : V m c main_arg2 = m ((c : Thread nD τ).loc main_arg2) :=
  V_keeps m c main_arg2 fun op hop => (List.forall_iff_forall_mem.mp hostOps0_keeps op hop).2.2.1
theorem V_main_arg3 (c : Dev nD) : V m c main_arg3 = m ((c : Thread nD τ).loc main_arg3) :=
  V_keeps m c main_arg3 fun op hop => (List.forall_iff_forall_mem.mp hostOps0_keeps op hop).2.2.2.1
theorem V_main_arg4 (c : Dev nD) : V m c main_arg4 = m ((c : Thread nD τ).loc main_arg4) :=
  V_keeps m c main_arg4 fun op hop => (List.forall_iff_forall_mem.mp hostOps0_keeps op hop).2.2.2.2.1
theorem V_main_arg5 (c : Dev nD) : V m c main_arg5 = m ((c : Thread nD τ).loc main_arg5) :=
  V_keeps m c main_arg5 fun op hop => (List.forall_iff_forall_mem.mp hostOps0_keeps op hop).2.2.2.2.2.1
theorem V_main_arg6 (c : Dev nD) : V m c main_arg6 = m ((c : Thread nD τ).loc main_arg6) :=
  V_keeps m c main_arg6 fun op hop => (List.forall_iff_forall_mem.mp hostOps0_keeps op hop).2.2.2.2.2.2.1
theorem V_main_arg7 (c : Dev nD) : V m c main_arg7 = m ((c : Thread nD τ).loc main_arg7) :=
  V_keeps m c main_arg7 fun op hop => (List.forall_iff_forall_mem.mp hostOps0_keeps op hop).2.2.2.2.2.2.2.1
theorem V_main_arg8 (c : Dev nD) : V m c main_arg8 = m ((c : Thread nD τ).loc main_arg8) :=
  V_keeps m c main_arg8 fun op hop => (List.forall_iff_forall_mem.mp hostOps0_keeps op hop).2.2.2.2.2.2.2.2.1
theorem V_main_arg9 (c : Dev nD) : V m c main_arg9 = m ((c : Thread nD τ).loc main_arg9) :=
  V_keeps m c main_arg9 fun op hop => (List.forall_iff_forall_mem.mp hostOps0_keeps op hop).2.2.2.2.2.2.2.2.2

/-- No host line after the region writes an argument that is no window's array: it ends as launched. -/
theorem W_keeps (dats : (p : Fin _) → (c : Dev nD) → Dat τ (Elt F) Unit ℕ (UR sig nD τ) ℕ (cfgs p) c) (c : Dev nD) (b : Ref sig .tc)
    (hb : ∀ ops ∈ (tailOps : List (List (HloOp τ sig (Elt F)))), ∀ op ∈ ops, Proc.devRef (τ := τ) .tc b ∉ op.writes)
    (hne : ∀ w, Pipeline.arrRef spec0 w ≠ b) :
    Pipeline.afterTail₀ cfgs dats 0 (V0 m) tailOps c b = V m c b := by
  unfold Pipeline.afterTail₀
  rw [StableHlo.after_of_forall_not_mem (b := Proc.devRef .tc b) _ _ (fun op hop => by
      obtain ⟨ops, hops, hop'⟩ := List.mem_flatten.mp hop
      exact hb ops hops op hop'),
    Pipeline.withArrays_of_ne _ c (V0 m c) _ b hne]

theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) :=
  (W_keeps m dats c main_arg2 (fun ops hops op hop => (tail_keeps ops hops op hop).2.2.1)
    (by exact (by decide : ∀ w, Pipeline.arrRef spec0 w ≠ main_arg2))).trans (V_main_arg2 m c)
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) :=
  (W_keeps m dats c main_arg3 (fun ops hops op hop => (tail_keeps ops hops op hop).2.2.2.1)
    (by exact (by decide : ∀ w, Pipeline.arrRef spec0 w ≠ main_arg3))).trans (V_main_arg3 m c)
theorem W_main_arg4 (dats : (p : Fin _) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) :=
  (W_keeps m dats c main_arg4 (fun ops hops op hop => (tail_keeps ops hops op hop).2.2.2.2.1)
    (by exact (by decide : ∀ w, Pipeline.arrRef spec0 w ≠ main_arg4))).trans (V_main_arg4 m c)
theorem W_main_arg5 (dats : (p : Fin _) → (c : Dev nD) → Dat τ (Elt F) Unit ℕ (UR sig nD τ) ℕ (cfgs p) c) (c : Dev nD) :
    Pipeline.afterTail₀ cfgs dats 0 (V0 m) tailOps c main_arg5 = m ((c : Thread nD τ).loc main_arg5) :=
  (W_keeps m dats c main_arg5 (fun ops hops op hop => (tail_keeps ops hops op hop).2.2.2.2.2.1)
    (by exact (by decide : ∀ w, Pipeline.arrRef spec0 w ≠ main_arg5))).trans (V_main_arg5 m c)
theorem W_main_arg6 (dats : (p : Fin _) → (c : Dev nD) → Dat τ (Elt F) Unit ℕ (UR sig nD τ) ℕ (cfgs p) c) (c : Dev nD) :
    Pipeline.afterTail₀ cfgs dats 0 (V0 m) tailOps c main_arg6 = m ((c : Thread nD τ).loc main_arg6) :=
  (W_keeps m dats c main_arg6 (fun ops hops op hop => (tail_keeps ops hops op hop).2.2.2.2.2.2.1)
    (by exact (by decide : ∀ w, Pipeline.arrRef spec0 w ≠ main_arg6))).trans (V_main_arg6 m c)
theorem W_main_arg7 (dats : (p : Fin _) → (c : Dev nD) → Dat τ (Elt F) Unit ℕ (UR sig nD τ) ℕ (cfgs p) c) (c : Dev nD) :
    Pipeline.afterTail₀ cfgs dats 0 (V0 m) tailOps c main_arg7 = m ((c : Thread nD τ).loc main_arg7) :=
  (W_keeps m dats c main_arg7 (fun ops hops op hop => (tail_keeps ops hops op hop).2.2.2.2.2.2.2.1)
    (by exact (by decide : ∀ w, Pipeline.arrRef spec0 w ≠ main_arg7))).trans (V_main_arg7 m c)
theorem W_main_arg8 (dats : (p : Fin _) → (c : Dev nD) → Dat τ (Elt F) Unit ℕ (UR sig nD τ) ℕ (cfgs p) c) (c : Dev nD) :
    Pipeline.afterTail₀ cfgs dats 0 (V0 m) tailOps c main_arg8 = m ((c : Thread nD τ).loc main_arg8) :=
  (W_keeps m dats c main_arg8 (fun ops hops op hop => (tail_keeps ops hops op hop).2.2.2.2.2.2.2.2.1)
    (by exact (by decide : ∀ w, Pipeline.arrRef spec0 w ≠ main_arg8))).trans (V_main_arg8 m c)
theorem W_main_arg9 (dats : (p : Fin _) → (c : Dev nD) → Dat τ (Elt F) Unit ℕ (UR sig nD τ) ℕ (cfgs p) c) (c : Dev nD) :
    Pipeline.afterTail₀ cfgs dats 0 (V0 m) tailOps c main_arg9 = m ((c : Thread nD τ).loc main_arg9) :=
  (W_keeps m dats c main_arg9 (fun ops hops op hop => (tail_keeps ops hops op hop).2.2.2.2.2.2.2.2.2.1)
    (by exact (by decide : ∀ w, Pipeline.arrRef spec0 w ≠ main_arg9))).trans (V_main_arg9 m c)

/-! ## The windows' blocks -/

/-- Window `w`'s block at point `t`, read off its array as the region finds it (its part inside the array). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The logits arrays have 513 rows and the grid's 32 blocks of 16 rows end at row 512: no block of window 0 is cut. -/
theorem xsize0_0 : ∀ (t : Fin cfg0.N) (a : Fin win0_0.shape.rank), win0_0.xsize (grid0.coords t) a = win0_0.size a :=
  (by decide +kernel : ∀ (t : Fin grid0.N) (a : Fin win0_0.shape.rank), win0_0.xsize (grid0.coords t) a = win0_0.size a)

theorem moved0_0 (t : Fin cfg0.N) (j : win0_0.block.Idx) : win0_0.moved (grid0.coords t) j = true :=
  (win0_0.moved_iff _ j).mpr fun a => by rw [xsize0_0 t a]; exact (j a).isLt

/-- So a fetch fills the whole staging buffer, whatever it held. -/
theorem fill0_0 {α : Type} (t : Fin cfg0.N) (d d' : win0_0.block.Idx → α) (g : (win0_0.xblock (grid0.coords t)).Idx → α) :
    win0_0.fill (grid0.coords t) d g = win0_0.fill (grid0.coords t) d' g := by
  funext j; unfold Pipeline.Window.fill; rw [dif_pos (moved0_0 t j), dif_pos (moved0_0 t j)]

/-- Window 0's staging buffer after its fetch at point `t`: the block of the array, all of it. -/
def fblk0 (c : Dev nD) (t : Fin cfg0.N) : S4x16x32000.Idx → Elt F .f32 :=
  win0_0.fill (grid0.coords t) (fun _ => Scalar.ofBits .f32 0#32) (iblk m c 0 t)

/-- Input window 0 is fetched at every point, so its current staging buffer holds its block there. -/
theorem before0_0_of {c : Dev nD} (dat : Dat τ (Elt F) Unit ℕ (UR sig nD τ) ℕ cfg0 c) (hA : dat.A 0 = V m c (Pipeline.arrRef spec0 0))
    (t : Fin cfg0.N) (d) : dat.before 0 t d = fblk0 m c t := by
  unfold Dat.before; rw [if_pos (fetch0_0 t)]
  unfold Dat.fetched Dat.blockOf fblk0 iblk; rw [hA]
  exact fill0_0 t d _ _

/-- The logits arrays have 513 rows and the grid's 32 blocks of 16 rows end at row 512: no block of window 1 is cut. -/
theorem xsize0_1 : ∀ (t : Fin cfg0.N) (a : Fin win0_1.shape.rank), win0_1.xsize (grid0.coords t) a = win0_1.size a :=
  (by decide +kernel : ∀ (t : Fin grid0.N) (a : Fin win0_1.shape.rank), win0_1.xsize (grid0.coords t) a = win0_1.size a)

theorem moved0_1 (t : Fin cfg0.N) (j : win0_1.block.Idx) : win0_1.moved (grid0.coords t) j = true :=
  (win0_1.moved_iff _ j).mpr fun a => by rw [xsize0_1 t a]; exact (j a).isLt

/-- So a fetch fills the whole staging buffer, whatever it held. -/
theorem fill0_1 {α : Type} (t : Fin cfg0.N) (d d' : win0_1.block.Idx → α) (g : (win0_1.xblock (grid0.coords t)).Idx → α) :
    win0_1.fill (grid0.coords t) d g = win0_1.fill (grid0.coords t) d' g := by
  funext j; unfold Pipeline.Window.fill; rw [dif_pos (moved0_1 t j), dif_pos (moved0_1 t j)]

/-- Window 1's staging buffer after its fetch at point `t`: the block of the array, all of it. -/
def fblk1 (c : Dev nD) (t : Fin cfg0.N) : S4x16x32000.Idx → Elt F .f32 :=
  win0_1.fill (grid0.coords t) (fun _ => Scalar.ofBits .f32 0#32) (iblk m c 1 t)

/-- Input window 1 is fetched at every point, so its current staging buffer holds its block there. -/
theorem before0_1_of {c : Dev nD} (dat : Dat τ (Elt F) Unit ℕ (UR sig nD τ) ℕ cfg0 c) (hA : dat.A 1 = V m c (Pipeline.arrRef spec0 1))
    (t : Fin cfg0.N) (d) : dat.before 1 t d = fblk1 m c t := by
  unfold Dat.before; rw [if_pos (fetch0_1 t)]
  unfold Dat.fetched Dat.blockOf fblk1 iblk; rw [hA]
  exact fill0_1 t d _ _

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents, a run to the
    library's frame post read at the ten argument arrays — the two staged ones through their windows, the
    others among the bypassing buffers — is the frame claim's post, at any `F`. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h c).1 0).trans (((dats 0 c).arrAt_in 0 rfl _).trans ((hA c 0).trans (V_main_arg0 m c))),
     ((h c).1 1).trans (((dats 0 c).arrAt_in 1 rfl _).trans ((hA c 1).trans (V_main_arg1 m c))),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c),
     ((h c).2 main_arg5 (Pipeline.mem_restRefs_of main_arg5 (by decide) (by decide))).trans (W_main_arg5 m dats c),
     ((h c).2 main_arg6 (Pipeline.mem_restRefs_of main_arg6 (by decide) (by decide))).trans (W_main_arg6 m dats c),
     ((h c).2 main_arg7 (Pipeline.mem_restRefs_of main_arg7 (by decide) (by decide))).trans (W_main_arg7 m dats c),
     ((h c).2 main_arg8 (Pipeline.mem_restRefs_of main_arg8 (by decide) (by decide))).trans (W_main_arg8 m dats c),
     ((h c).2 main_arg9 (Pipeline.mem_restRefs_of main_arg9 (by decide) (by decide))).trans (W_main_arg9 m dats c)⟩) h

end Cert.Kernel.Hand

end
-- ==== Proof.KRun.lean ====
import proofs.«424779_j13597866459574_3_alg».proof.Proof.Gen.Kernel.Launch
import proofs.«424779_j13597866459574_3_alg».proof.Proof.Gen.Kernel.Skeleton
import proofs.«424779_j13597866459574_3_alg».proof.Proof.Gen.Kernel.Points
import Idealize.ShloMosaic.Lib.Pipeline.FrameBody
import Idealize.ShloMosaic.Lib.Ring
import Idealize.ShloMosaic.Lib.Tactic
import proofs.«424779_j13597866459574_3_alg».proof.Proof.Gen.Kernel.Loops

/-! The kernel body run once on whole staging memrefs: the two logits blocks and the two index blocks at their
    contents, the four result buffers at anything. It loads the index blocks, goes through its three counted
    loops over the vocabulary chunks (each by its invariant: the carried value before a trip), and stores each
    result block whole. What each result buffer ends with is the run's own find. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- One staging buffer of a result window, through which its contents are stated (the choice does not matter). -/
abbrev VO4 : View sig .tc .vmem S16x4 .f32 := (Memref.whole cc0_stg4_0 : Memref sig .tc .vmem S16x4 .f32).view
abbrev VO5 : View sig .tc .vmem S16x4 .f32 := (Memref.whole cc0_stg5_0 : Memref sig .tc .vmem S16x4 .f32).view
abbrev VO6 : View sig .tc .vmem S16x4 .f32 := (Memref.whole cc0_stg6_0 : Memref sig .tc .vmem S16x4 .f32).view
abbrev VO7 : View sig .tc .vmem S16x4 .f32 := (Memref.whole cc0_stg7_0 : Memref sig .tc .vmem S16x4 .f32).view

/-- Each window's current staging memref at point `t`, spelled as the pipeline passes it, and its wholeness. -/
abbrev ms0 (t : Fin cfg0.N) : Memref sig .tc .vmem S4x16x32000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4x16x32000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S16x4 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S16x4 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S16x4 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S16x4 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S16x4 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S16x4 .f32 := win0_7.stage (cfg0.slots t 7)
abbrev hs7 (t : Fin cfg0.N) : (ms7 t).IsWhole := hstage0_7 ((cfg0.slots t 7).cast nbuf0_7)

set_option maxHeartbeats 4000000 in
/-- What the body's stores leave in each result's staging memref, as pieces, WITH the proof that from the inputs'
    memrefs at their contents and the results' at anything the body runs to the continuation holding the inputs'
    as they were and each result's buffer with its pieces written. -/
noncomputable def kernelRun0 (c : Dev nD) (i : grid0.Coords) (arg1 : Memref sig .tc .vmem S4x16x32000 .f32) (harg1 : arg1.IsWhole) (arg2 : Memref sig .tc .vmem S4x16x32000 .f32) (harg2 : arg2.IsWhole) (arg3 : Memref sig .tc .vmem S16x4 .i32) (harg3 : arg3.IsWhole) (arg4 : Memref sig .tc .vmem S16x4 .i32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S16x4 .f32) (harg8 : arg8.IsWhole)
    (x0 : Vec F S4x16x32000 .f32) (x1 : Vec F S4x16x32000 .f32) (x2 : Vec F S16x4 .i32) (x3 : Vec F S16x4 .i32) :
    Σ' (L4 : List (View.Piece (Elt F) S16x4 .f32)) (L5 : List (View.Piece (Elt F) S16x4 .f32)) (L6 : List (View.Piece (Elt F) S16x4 .f32)),
    { L7 : List (View.Piece (Elt F) S16x4 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1
                ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)) -∗ K ⟨⟩))
          ⊢ wp frame (wpE (defs₀ (F := F)) Variants.none c none) E (cc0__kernel i arg1 harg1 arg2 harg2 arg3 harg3 arg4 harg4 arg5 harg5 arg6 harg6 arg7 harg7 arg8 harg8) K } := by
  refine ⟨?_, ?_, ?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
    obtain rfl := harg1.eq_unread hf0
    obtain rfl := harg2.eq_unread hf1
    obtain rfl := harg3.eq_unread hf2
    obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    iexists _; iexact H7

end Cert.Kernel.Hand

end
-- ==== Proof.KFrame.lean ====
import proofs.«424779_j13597866459574_3_alg».proof.Proof.KHost
import proofs.«424779_j13597866459574_3_alg».proof.Proof.KRun

/-! The frame of the program: the proof data of its one pipeline (each input window's staging buffer holds its
    block, each result window's what the body's run left there), the body obligation at every grid point from
    that run, the launch around the region, and the frame claim: every weakly fair execution of @main
    terminates without a fault and leaves the ten argument arrays as launched. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the run leaves in each result buffer -/

/-- The run's one store into result 0 covers its block. -/
theorem cover4 (c : Dev nD) (i : grid0.Coords) (arg1 : Memref sig .tc .vmem S4x16x32000 .f32) (harg1 : arg1.IsWhole) (arg2 : Memref sig .tc .vmem S4x16x32000 .f32) (harg2 : arg2.IsWhole) (arg3 : Memref sig .tc .vmem S16x4 .i32) (harg3 : arg3.IsWhole) (arg4 : Memref sig .tc .vmem S16x4 .i32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S16x4 .f32) (harg8 : arg8.IsWhole) (x0 : Vec F S4x16x32000 .f32) (x1 : Vec F S4x16x32000 .f32) (x2 : Vec F S16x4 .i32) (x3 : Vec F S16x4 .i32) (y : S16x4.Idx) :
    ∃ pc ∈ (kernelRun0 c i arg1 harg1 arg2 harg2 arg3 harg3 arg4 harg4 arg5 harg5 arg6 harg6 arg7 harg7 arg8 harg8 x0 x1 x2 x3).1, y ∈ pc.1.set :=
  View.cover_of_tiledL (kernelRun0 c i arg1 harg1 arg2 harg2 arg3 harg3 arg4 harg4 arg5 harg5 arg6 harg6 arg7 harg7 arg8 harg8 x0 x1 x2 x3).1 S16x4.size (by sl_kernel_rfl) y

/-- What the run leaves in result 0's staging buffer: its pieces read back over junk. -/
def out4 (c : Dev nD) (i : grid0.Coords) (arg1 : Memref sig .tc .vmem S4x16x32000 .f32) (harg1 : arg1.IsWhole) (arg2 : Memref sig .tc .vmem S4x16x32000 .f32) (harg2 : arg2.IsWhole) (arg3 : Memref sig .tc .vmem S16x4 .i32) (harg3 : arg3.IsWhole) (arg4 : Memref sig .tc .vmem S16x4 .i32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S16x4 .f32) (harg8 : arg8.IsWhole) (x0 : Vec F S4x16x32000 .f32) (x1 : Vec F S4x16x32000 .f32) (x2 : Vec F S16x4 .i32) (x3 : Vec F S16x4 .i32) : Vec F S16x4 .f32 :=
  VO4.read (Elt F) (VO4.writes (Elt F) VO4.junk (kernelRun0 c i arg1 harg1 arg2 harg2 arg3 harg3 arg4 harg4 arg5 harg5 arg6 harg6 arg7 harg7 arg8 harg8 x0 x1 x2 x3).1)

/-- The run's one store into result 1 covers its block. -/
theorem cover5 (c : Dev nD) (i : grid0.Coords) (arg1 : Memref sig .tc .vmem S4x16x32000 .f32) (harg1 : arg1.IsWhole) (arg2 : Memref sig .tc .vmem S4x16x32000 .f32) (harg2 : arg2.IsWhole) (arg3 : Memref sig .tc .vmem S16x4 .i32) (harg3 : arg3.IsWhole) (arg4 : Memref sig .tc .vmem S16x4 .i32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S16x4 .f32) (harg8 : arg8.IsWhole) (x0 : Vec F S4x16x32000 .f32) (x1 : Vec F S4x16x32000 .f32) (x2 : Vec F S16x4 .i32) (x3 : Vec F S16x4 .i32) (y : S16x4.Idx) :
    ∃ pc ∈ (kernelRun0 c i arg1 harg1 arg2 harg2 arg3 harg3 arg4 harg4 arg5 harg5 arg6 harg6 arg7 harg7 arg8 harg8 x0 x1 x2 x3).2.1, y ∈ pc.1.set :=
  View.cover_of_tiledL (kernelRun0 c i arg1 harg1 arg2 harg2 arg3 harg3 arg4 harg4 arg5 harg5 arg6 harg6 arg7 harg7 arg8 harg8 x0 x1 x2 x3).2.1 S16x4.size (by sl_kernel_rfl) y

/-- What the run leaves in result 1's staging buffer: its pieces read back over junk. -/
def out5 (c : Dev nD) (i : grid0.Coords) (arg1 : Memref sig .tc .vmem S4x16x32000 .f32) (harg1 : arg1.IsWhole) (arg2 : Memref sig .tc .vmem S4x16x32000 .f32) (harg2 : arg2.IsWhole) (arg3 : Memref sig .tc .vmem S16x4 .i32) (harg3 : arg3.IsWhole) (arg4 : Memref sig .tc .vmem S16x4 .i32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S16x4 .f32) (harg8 : arg8.IsWhole) (x0 : Vec F S4x16x32000 .f32) (x1 : Vec F S4x16x32000 .f32) (x2 : Vec F S16x4 .i32) (x3 : Vec F S16x4 .i32) : Vec F S16x4 .f32 :=
  VO5.read (Elt F) (VO5.writes (Elt F) VO5.junk (kernelRun0 c i arg1 harg1 arg2 harg2 arg3 harg3 arg4 harg4 arg5 harg5 arg6 harg6 arg7 harg7 arg8 harg8 x0 x1 x2 x3).2.1)

/-- The run's one store into result 2 covers its block. -/
theorem cover6 (c : Dev nD) (i : grid0.Coords) (arg1 : Memref sig .tc .vmem S4x16x32000 .f32) (harg1 : arg1.IsWhole) (arg2 : Memref sig .tc .vmem S4x16x32000 .f32) (harg2 : arg2.IsWhole) (arg3 : Memref sig .tc .vmem S16x4 .i32) (harg3 : arg3.IsWhole) (arg4 : Memref sig .tc .vmem S16x4 .i32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S16x4 .f32) (harg8 : arg8.IsWhole) (x0 : Vec F S4x16x32000 .f32) (x1 : Vec F S4x16x32000 .f32) (x2 : Vec F S16x4 .i32) (x3 : Vec F S16x4 .i32) (y : S16x4.Idx) :
    ∃ pc ∈ (kernelRun0 c i arg1 harg1 arg2 harg2 arg3 harg3 arg4 harg4 arg5 harg5 arg6 harg6 arg7 harg7 arg8 harg8 x0 x1 x2 x3).2.2.1, y ∈ pc.1.set :=
  View.cover_of_tiledL (kernelRun0 c i arg1 harg1 arg2 harg2 arg3 harg3 arg4 harg4 arg5 harg5 arg6 harg6 arg7 harg7 arg8 harg8 x0 x1 x2 x3).2.2.1 S16x4.size (by sl_kernel_rfl) y

/-- What the run leaves in result 2's staging buffer: its pieces read back over junk. -/
def out6 (c : Dev nD) (i : grid0.Coords) (arg1 : Memref sig .tc .vmem S4x16x32000 .f32) (harg1 : arg1.IsWhole) (arg2 : Memref sig .tc .vmem S4x16x32000 .f32) (harg2 : arg2.IsWhole) (arg3 : Memref sig .tc .vmem S16x4 .i32) (harg3 : arg3.IsWhole) (arg4 : Memref sig .tc .vmem S16x4 .i32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S16x4 .f32) (harg8 : arg8.IsWhole) (x0 : Vec F S4x16x32000 .f32) (x1 : Vec F S4x16x32000 .f32) (x2 : Vec F S16x4 .i32) (x3 : Vec F S16x4 .i32) : Vec F S16x4 .f32 :=
  VO6.read (Elt F) (VO6.writes (Elt F) VO6.junk (kernelRun0 c i arg1 harg1 arg2 harg2 arg3 harg3 arg4 harg4 arg5 harg5 arg6 harg6 arg7 harg7 arg8 harg8 x0 x1 x2 x3).2.2.1)

/-- The run's one store into result 3 covers its block. -/
theorem cover7 (c : Dev nD) (i : grid0.Coords) (arg1 : Memref sig .tc .vmem S4x16x32000 .f32) (harg1 : arg1.IsWhole) (arg2 : Memref sig .tc .vmem S4x16x32000 .f32) (harg2 : arg2.IsWhole) (arg3 : Memref sig .tc .vmem S16x4 .i32) (harg3 : arg3.IsWhole) (arg4 : Memref sig .tc .vmem S16x4 .i32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S16x4 .f32) (harg8 : arg8.IsWhole) (x0 : Vec F S4x16x32000 .f32) (x1 : Vec F S4x16x32000 .f32) (x2 : Vec F S16x4 .i32) (x3 : Vec F S16x4 .i32) (y : S16x4.Idx) :
    ∃ pc ∈ (kernelRun0 c i arg1 harg1 arg2 harg2 arg3 harg3 arg4 harg4 arg5 harg5 arg6 harg6 arg7 harg7 arg8 harg8 x0 x1 x2 x3).2.2.2.1, y ∈ pc.1.set :=
  View.cover_of_tiledL (kernelRun0 c i arg1 harg1 arg2 harg2 arg3 harg3 arg4 harg4 arg5 harg5 arg6 harg6 arg7 harg7 arg8 harg8 x0 x1 x2 x3).2.2.2.1 S16x4.size (by sl_kernel_rfl) y

/-- What the run leaves in result 3's staging buffer: its pieces read back over junk. -/
def out7 (c : Dev nD) (i : grid0.Coords) (arg1 : Memref sig .tc .vmem S4x16x32000 .f32) (harg1 : arg1.IsWhole) (arg2 : Memref sig .tc .vmem S4x16x32000 .f32) (harg2 : arg2.IsWhole) (arg3 : Memref sig .tc .vmem S16x4 .i32) (harg3 : arg3.IsWhole) (arg4 : Memref sig .tc .vmem S16x4 .i32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S16x4 .f32) (harg8 : arg8.IsWhole) (x0 : Vec F S4x16x32000 .f32) (x1 : Vec F S4x16x32000 .f32) (x2 : Vec F S16x4 .i32) (x3 : Vec F S16x4 .i32) : Vec F S16x4 .f32 :=
  VO7.read (Elt F) (VO7.writes (Elt F) VO7.junk (kernelRun0 c i arg1 harg1 arg2 harg2 arg3 harg3 arg4 harg4 arg5 harg5 arg6 harg6 arg7 harg7 arg8 harg8 x0 x1 x2 x3).2.2.2.1)

/-- What result window 4's staging buffer holds after the body at point `t`. -/
def out4At (c : Dev nD) (t : Fin cfg0.N) : Vec F S16x4 .f32 :=
  out4 c (grid0.coords t) (ms0 t) (hs0 t) (ms1 t) (hs1 t) (ms2 t) (hs2 t) (ms3 t) (hs3 t) (ms4 t) (hs4 t) (ms5 t) (hs5 t) (ms6 t) (hs6 t) (ms7 t) (hs7 t) (fblk0 m c t) (fblk1 m c t) (iblk m c 2 t) (iblk m c 3 t)
/-- What result window 5's staging buffer holds after the body at point `t`. -/
def out5At (c : Dev nD) (t : Fin cfg0.N) : Vec F S16x4 .f32 :=
  out5 c (grid0.coords t) (ms0 t) (hs0 t) (ms1 t) (hs1 t) (ms2 t) (hs2 t) (ms3 t) (hs3 t) (ms4 t) (hs4 t) (ms5 t) (hs5 t) (ms6 t) (hs6 t) (ms7 t) (hs7 t) (fblk0 m c t) (fblk1 m c t) (iblk m c 2 t) (iblk m c 3 t)
/-- What result window 6's staging buffer holds after the body at point `t`. -/
def out6At (c : Dev nD) (t : Fin cfg0.N) : Vec F S16x4 .f32 :=
  out6 c (grid0.coords t) (ms0 t) (hs0 t) (ms1 t) (hs1 t) (ms2 t) (hs2 t) (ms3 t) (hs3 t) (ms4 t) (hs4 t) (ms5 t) (hs5 t) (ms6 t) (hs6 t) (ms7 t) (hs7 t) (fblk0 m c t) (fblk1 m c t) (iblk m c 2 t) (iblk m c 3 t)
/-- What result window 7's staging buffer holds after the body at point `t`. -/
def out7At (c : Dev nD) (t : Fin cfg0.N) : Vec F S16x4 .f32 :=
  out7 c (grid0.coords t) (ms0 t) (hs0 t) (ms1 t) (hs1 t) (ms2 t) (hs2 t) (ms3 t) (hs3 t) (ms4 t) (hs4 t) (ms5 t) (hs5 t) (ms6 t) (hs6 t) (ms7 t) (hs7 t) (fblk0 m c t) (fblk1 m c t) (iblk m c 2 t) (iblk m c 3 t)

/-! ## The pipeline's proof data -/

/-- The proof data of the one pipeline on core `c`: the arrays as the region finds them; after the body at point
    `t` each input's buffer at its block and each result's at what the run left; the invariant the scoped rest and
    the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => fblk0 m c t
    | ⟨1, _⟩ => fblk1 m c t
    | ⟨2, _⟩ => iblk m c 2 t
    | ⟨3, _⟩ => iblk m c 3 t
    | ⟨4, _⟩ => out4At m c t
    | ⟨5, _⟩ => out5At m c t
    | ⟨6, _⟩ => out6At m c t
    | ⟨7, _⟩ => out7At m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = fblk0 m c t := by dsimp only [dats]
theorem after0_1 (c : Dev nD) (t : Fin cfg0.N) : (dats m 0 c).after 1 t = fblk1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out4At m c t := by dsimp only [dats]
theorem after0_5 (c : Dev nD) (t : Fin cfg0.N) : (dats m 0 c).after 5 t = out5At m c t := by dsimp only [dats]
theorem after0_6 (c : Dev nD) (t : Fin cfg0.N) : (dats m 0 c).after 6 t = out6At m c t := by dsimp only [dats]
theorem after0_7 (c : Dev nD) (t : Fin cfg0.N) : (dats m 0 c).after 7 t = out7At m c t := by dsimp only [dats]

theorem before0_0 (c : Dev nD) (t : Fin cfg0.N) (d) : (dats m 0 c).before 0 t d = fblk0 m c t :=
  before0_0_of m (dats m 0 c) (A_eq m c 0) t d
theorem before0_1 (c : Dev nD) (t : Fin cfg0.N) (d) : (dats m 0 c).before 1 t d = fblk1 m c t :=
  before0_1_of m (dats m 0 c) (A_eq m c 1) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t))

set_option maxHeartbeats 1000000 in
/-- The body at any point: the inputs' memrefs hold their blocks, so the run applies; the invariant passes through
    unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  unfold out4At out5At out6At out7At
  unfold out4 out5 out6 out7
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0 c (grid0.coords t) _ _ _ _ _ _ _ _ _ _ _ _ _ _ _ _ (fblk0 m c t) (fblk1 m c t) (iblk m c 2 t) (iblk m c 3 t)).2.2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, ⟨%e4, H4⟩, ⟨%e5, H5⟩, ⟨%e6, H6⟩, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover4 c _ _ _ _ _ _ _ _ _ _ _ _ _ _ _ _ _ _ _ _ _)
  isplitl [H5]
  · unfold owns; iexists _; isplitr
    swap; · iexact H5
    ipureintro; exact View.read_writes_of_cover _ _ _ _ _ (cover5 c _ _ _ _ _ _ _ _ _ _ _ _ _ _ _ _ _ _ _ _ _)
  isplitl [H6]
  · unfold owns; iexists _; isplitr
    swap; · iexact H6
    ipureintro; exact View.read_writes_of_cover _ _ _ _ _ (cover6 c _ _ _ _ _ _ _ _ _ _ _ _ _ _ _ _ _ _ _ _ _)
  · unfold owns; iexists _; isplitr
    swap; · iexact H7
    ipureintro; exact View.read_writes_of_cover _ _ _ _ _ (cover7 c _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main on the TensorCores terminates, and
    every final state has every array of the pipeline at what the library computes from the proof data and every
    other unscoped buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- THE FRAME, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.Kernel.Hand

end
-- ==== Proof.KIHost.lean ====
import proofs.«424779_j13597866459574_3_alg».proof.Proof.Gen.KernelIdeal.Launch
import proofs.«424779_j13597866459574_3_alg».proof.Proof.Gen.KernelIdeal.Skeleton
import proofs.«424779_j13597866459574_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-! The host side of the program's frame: @main is six host lines, the one pipelined region, and eleven
    stretches of host lines after it. Here: what each TensorCore buffer holds when the region is entered, that
    @main reduces to the region continued by the later lines, and that no host line writes an argument array or
    an array a window of the region stages — so the arguments end as launched. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The stretches of host lines after the region, in order. -/
abbrev tailOps : List (List (HloOp τ sig (Elt F))) :=
  [hostOps1, hostOps1_1, hostOps1_2, hostOps1_3, hostOps1_4, hostOps1_5, hostOps1_6, hostOps1_7, hostOps1_8, hostOps1_9, hostOps1_10]

/-- Core `c`'s TensorCore buffer contents when the region is entered: after the six host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-! ## No host line allocates -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor

/-! ## No host line writes an argument, nor (after the region) a window's array -/

/-- A host line leaves the ten argument arrays alone. -/
abbrev KeepsArgs (op : HloOp τ sig (Elt F)) : Prop :=
  Proc.devRef (τ := τ) .tc main_arg0 ∉ op.writes
  ∧ Proc.devRef (τ := τ) .tc main_arg1 ∉ op.writes
  ∧ Proc.devRef (τ := τ) .tc main_arg2 ∉ op.writes
  ∧ Proc.devRef (τ := τ) .tc main_arg3 ∉ op.writes
  ∧ Proc.devRef (τ := τ) .tc main_arg4 ∉ op.writes
  ∧ Proc.devRef (τ := τ) .tc main_arg5 ∉ op.writes
  ∧ Proc.devRef (τ := τ) .tc main_arg6 ∉ op.writes
  ∧ Proc.devRef (τ := τ) .tc main_arg7 ∉ op.writes
  ∧ Proc.devRef (τ := τ) .tc main_arg8 ∉ op.writes
  ∧ Proc.devRef (τ := τ) .tc main_arg9 ∉ op.writes

/-- A host line leaves the arguments and the region's eight arrays alone. -/
abbrev Keeps (op : HloOp τ sig (Elt F)) : Prop :=
  Proc.devRef (τ := τ) .tc main_arg0 ∉ op.writes
  ∧ Proc.devRef (τ := τ) .tc main_arg1 ∉ op.writes
  ∧ Proc.devRef (τ := τ) .tc main_arg2 ∉ op.writes
  ∧ Proc.devRef (τ := τ) .tc main_arg3 ∉ op.writes
  ∧ Proc.devRef (τ := τ) .tc main_arg4 ∉ op.writes
  ∧ Proc.devRef (τ := τ) .tc main_arg5 ∉ op.writes
  ∧ Proc.devRef (τ := τ) .tc main_arg6 ∉ op.writes
  ∧ Proc.devRef (τ := τ) .tc main_arg7 ∉ op.writes
  ∧ Proc.devRef (τ := τ) .tc main_arg8 ∉ op.writes
  ∧ Proc.devRef (τ := τ) .tc main_arg9 ∉ op.writes
  ∧ Proc.devRef (τ := τ) .tc main_v3 ∉ op.writes
  ∧ Proc.devRef (τ := τ) .tc main_v4 ∉ op.writes
  ∧ Proc.devRef (τ := τ) .tc main_v5_0 ∉ op.writes
  ∧ Proc.devRef (τ := τ) .tc main_v5_1 ∉ op.writes
  ∧ Proc.devRef (τ := τ) .tc main_v5_2 ∉ op.writes
  ∧ Proc.devRef (τ := τ) .tc main_v5_3 ∉ op.writes

theorem hostOps0_keeps : (hostOps0 : List (HloOp τ sig (Elt F))).Forall KeepsArgs := by
  simp only [hostOps0, List.Forall, KeepsArgs, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_keeps : (hostOps1 : List (HloOp τ sig (Elt F))).Forall Keeps := by
  simp only [hostOps1, List.Forall, Keeps, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_1_keeps : (hostOps1_1 : List (HloOp τ sig (Elt F))).Forall Keeps := by
  simp only [hostOps1_1, List.Forall, Keeps, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_2_keeps : (hostOps1_2 : List (HloOp τ sig (Elt F))).Forall Keeps := by
  simp only [hostOps1_2, List.Forall, Keeps, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_3_keeps : (hostOps1_3 : List (HloOp τ sig (Elt F))).Forall Keeps := by
  simp only [hostOps1_3, List.Forall, Keeps, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_4_keeps : (hostOps1_4 : List (HloOp τ sig (Elt F))).Forall Keeps := by
  simp only [hostOps1_4, List.Forall, Keeps, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_5_keeps : (hostOps1_5 : List (HloOp τ sig (Elt F))).Forall Keeps := by
  simp only [hostOps1_5, List.Forall, Keeps, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_6_keeps : (hostOps1_6 : List (HloOp τ sig (Elt F))).Forall Keeps := by
  simp only [hostOps1_6, List.Forall, Keeps, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_7_keeps : (hostOps1_7 : List (HloOp τ sig (Elt F))).Forall Keeps := by
  simp only [hostOps1_7, List.Forall, Keeps, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_8_keeps : (hostOps1_8 : List (HloOp τ sig (Elt F))).Forall Keeps := by
  simp only [hostOps1_8, List.Forall, Keeps, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_9_keeps : (hostOps1_9 : List (HloOp τ sig (Elt F))).Forall Keeps := by
  simp only [hostOps1_9, List.Forall, Keeps, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps1_10_keeps : (hostOps1_10 : List (HloOp τ sig (Elt F))).Forall Keeps := by
  simp only [hostOps1_10, List.Forall, Keeps, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)

/-- Membership in the list of stretches, case by case. -/
theorem tail_cases {P : List (HloOp τ sig (Elt F)) → Prop}
    (h0 : P hostOps1) (h1 : P hostOps1_1) (h2 : P hostOps1_2) (h3 : P hostOps1_3) (h4 : P hostOps1_4) (h5 : P hostOps1_5) (h6 : P hostOps1_6) (h7 : P hostOps1_7) (h8 : P hostOps1_8) (h9 : P hostOps1_9) (h10 : P hostOps1_10) :
    ∀ ops ∈ (tailOps : List (List (HloOp τ sig (Elt F)))), P ops := by
  intro ops hops
  simp only [tailOps, List.mem_cons, List.mem_nil_iff, or_false] at hops
  rcases hops with rfl | rfl | rfl | rfl | rfl | rfl | rfl | rfl | rfl | rfl | rfl
  · exact h0
  · exact h1
  · exact h2
  · exact h3
  · exact h4
  · exact h5
  · exact h6
  · exact h7
  · exact h8
  · exact h9
  · exact h10

theorem tail_keeps : ∀ ops ∈ (tailOps : List (List (HloOp τ sig (Elt F)))), ∀ op ∈ ops, Keeps op :=
  tail_cases (P := fun ops => ∀ op ∈ ops, Keeps op)
    (List.forall_iff_forall_mem.mp hostOps1_keeps)
    (List.forall_iff_forall_mem.mp hostOps1_1_keeps)
    (List.forall_iff_forall_mem.mp hostOps1_2_keeps)
    (List.forall_iff_forall_mem.mp hostOps1_3_keeps)
    (List.forall_iff_forall_mem.mp hostOps1_4_keeps)
    (List.forall_iff_forall_mem.mp hostOps1_5_keeps)
    (List.forall_iff_forall_mem.mp hostOps1_6_keeps)
    (List.forall_iff_forall_mem.mp hostOps1_7_keeps)
    (List.forall_iff_forall_mem.mp hostOps1_8_keeps)
    (List.forall_iff_forall_mem.mp hostOps1_9_keeps)
    (List.forall_iff_forall_mem.mp hostOps1_10_keeps)

/-! ## @main around the region -/

/-- @main is the host lines before the region, the region, and the host lines after it: it reduces to the region
    CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later lines touch the pipeline's arrays and the bypassing buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  exact tail_cases (P := fun ops => ∀ op ∈ ops, op.bufs ⊆ _)
    (fun op hop => Pipeline.sub_ucRefs op ((List.forall_iff_forall_mem.mp hostOps1_sub) op hop))
    (fun op hop => Pipeline.sub_ucRefs op ((List.forall_iff_forall_mem.mp hostOps1_1_sub) op hop))
    (fun op hop => Pipeline.sub_ucRefs op ((List.forall_iff_forall_mem.mp hostOps1_2_sub) op hop))
    (fun op hop => Pipeline.sub_ucRefs op ((List.forall_iff_forall_mem.mp hostOps1_3_sub) op hop))
    (fun op hop => Pipeline.sub_ucRefs op ((List.forall_iff_forall_mem.mp hostOps1_4_sub) op hop))
    (fun op hop => Pipeline.sub_ucRefs op ((List.forall_iff_forall_mem.mp hostOps1_5_sub) op hop))
    (fun op hop => Pipeline.sub_ucRefs op ((List.forall_iff_forall_mem.mp hostOps1_6_sub) op hop))
    (fun op hop => Pipeline.sub_ucRefs op ((List.forall_iff_forall_mem.mp hostOps1_7_sub) op hop))
    (fun op hop => Pipeline.sub_ucRefs op ((List.forall_iff_forall_mem.mp hostOps1_8_sub) op hop))
    (fun op hop => Pipeline.sub_ucRefs op ((List.forall_iff_forall_mem.mp hostOps1_9_sub) op hop))
    (fun op hop => Pipeline.sub_ucRefs op ((List.forall_iff_forall_mem.mp hostOps1_10_sub) op hop))

/-- They allocate nothing. -/
theorem sfx_fresh : ∀ ops ∈ (tailOps : List (List (HloOp τ sig (Elt F)))), ∀ op ∈ ops, op.fresh = ∅ :=
  tail_cases (P := fun ops => ∀ op ∈ ops, op.fresh = ∅)
    (List.forall_iff_forall_mem.mp hostOps1_fresh)
    (List.forall_iff_forall_mem.mp hostOps1_1_fresh)
    (List.forall_iff_forall_mem.mp hostOps1_2_fresh)
    (List.forall_iff_forall_mem.mp hostOps1_3_fresh)
    (List.forall_iff_forall_mem.mp hostOps1_4_fresh)
    (List.forall_iff_forall_mem.mp hostOps1_5_fresh)
    (List.forall_iff_forall_mem.mp hostOps1_6_fresh)
    (List.forall_iff_forall_mem.mp hostOps1_7_fresh)
    (List.forall_iff_forall_mem.mp hostOps1_8_fresh)
    (List.forall_iff_forall_mem.mp hostOps1_9_fresh)
    (List.forall_iff_forall_mem.mp hostOps1_10_fresh)

/-- And write no array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop w
  obtain ⟨h0, h1, -, -, -, -, -, -, -, -, h3, h4, h50, h51, h52, h53⟩ := tail_keeps ops hops op hop
  fin_cases w
  · exact h0
  · exact h1
  · exact h3
  · exact h4
  · exact h50
  · exact h51
  · exact h52
  · exact h53

/-! ## The arguments as the region finds them, and as the later lines leave them -/

/-- No host line before the region writes an argument: the region finds each as launched. -/
theorem V_keeps (c : Dev nD) (b : Ref sig .tc) (hb : ∀ op ∈ (hostOps0 : List (HloOp τ sig (Elt F))), Proc.devRef (τ := τ) .tc b ∉ op.writes) :
    V m c b = m ((c : Thread nD τ).loc b) :=
  StableHlo.after_of_forall_not_mem (b := Proc.devRef .tc b) _ _ (by
    simp only [List.flatten_cons, List.flatten_nil, List.append_nil]; exact hb)

theorem V_main_arg0 (c : Dev nD) : V m c main_arg0 = m ((c : Thread nD τ).loc main_arg0) :=
  V_keeps m c main_arg0 fun op hop => (List.forall_iff_forall_mem.mp hostOps0_keeps op hop).1
theorem V_main_arg1 (c : Dev nD) : V m c main_arg1 = m ((c : Thread nD τ).loc main_arg1) :=
  V_keeps m c main_arg1 fun op hop => (List.forall_iff_forall_mem.mp hostOps0_keeps op hop).2.1
theorem V_main_arg2 (c : Dev nD) : V m c main_arg2 = m ((c : Thread nD τ).loc main_arg2) :=
  V_keeps m c main_arg2 fun op hop => (List.forall_iff_forall_mem.mp hostOps0_keeps op hop).2.2.1
theorem V_main_arg3 (c : Dev nD) : V m c main_arg3 = m ((c : Thread nD τ).loc main_arg3) :=
  V_keeps m c main_arg3 fun op hop => (List.forall_iff_forall_mem.mp hostOps0_keeps op hop).2.2.2.1
theorem V_main_arg4 (c : Dev nD) : V m c main_arg4 = m ((c : Thread nD τ).loc main_arg4) :=
  V_keeps m c main_arg4 fun op hop => (List.forall_iff_forall_mem.mp hostOps0_keeps op hop).2.2.2.2.1
theorem V_main_arg5 (c : Dev nD) : V m c main_arg5 = m ((c : Thread nD τ).loc main_arg5) :=
  V_keeps m c main_arg5 fun op hop => (List.forall_iff_forall_mem.mp hostOps0_keeps op hop).2.2.2.2.2.1
theorem V_main_arg6 (c : Dev nD) : V m c main_arg6 = m ((c : Thread nD τ).loc main_arg6) :=
  V_keeps m c main_arg6 fun op hop => (List.forall_iff_forall_mem.mp hostOps0_keeps op hop).2.2.2.2.2.2.1
theorem V_main_arg7 (c : Dev nD) : V m c main_arg7 = m ((c : Thread nD τ).loc main_arg7) :=
  V_keeps m c main_arg7 fun op hop => (List.forall_iff_forall_mem.mp hostOps0_keeps op hop).2.2.2.2.2.2.2.1
theorem V_main_arg8 (c : Dev nD) : V m c main_arg8 = m ((c : Thread nD τ).loc main_arg8) :=
  V_keeps m c main_arg8 fun op hop => (List.forall_iff_forall_mem.mp hostOps0_keeps op hop).2.2.2.2.2.2.2.2.1
theorem V_main_arg9 (c : Dev nD) : V m c main_arg9 = m ((c : Thread nD τ).loc main_arg9) :=
  V_keeps m c main_arg9 fun op hop => (List.forall_iff_forall_mem.mp hostOps0_keeps op hop).2.2.2.2.2.2.2.2.2

/-- No host line after the region writes an argument that is no window's array: it ends as launched. -/
theorem W_keeps (dats : (p : Fin _) → (c : Dev nD) → Dat τ (Elt F) Unit ℕ (UR sig nD τ) ℕ (cfgs p) c) (c : Dev nD) (b : Ref sig .tc)
    (hb : ∀ ops ∈ (tailOps : List (List (HloOp τ sig (Elt F)))), ∀ op ∈ ops, Proc.devRef (τ := τ) .tc b ∉ op.writes)
    (hne : ∀ w, Pipeline.arrRef spec0 w ≠ b) :
    Pipeline.afterTail₀ cfgs dats 0 (V0 m) tailOps c b = V m c b := by
  unfold Pipeline.afterTail₀
  rw [StableHlo.after_of_forall_not_mem (b := Proc.devRef .tc b) _ _ (fun op hop => by
      obtain ⟨ops, hops, hop'⟩ := List.mem_flatten.mp hop
      exact hb ops hops op hop'),
    Pipeline.withArrays_of_ne _ c (V0 m c) _ b hne]

theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) :=
  (W_keeps m dats c main_arg2 (fun ops hops op hop => (tail_keeps ops hops op hop).2.2.1)
    (by exact (by decide : ∀ w, Pipeline.arrRef spec0 w ≠ main_arg2))).trans (V_main_arg2 m c)
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) :=
  (W_keeps m dats c main_arg3 (fun ops hops op hop => (tail_keeps ops hops op hop).2.2.2.1)
    (by exact (by decide : ∀ w, Pipeline.arrRef spec0 w ≠ main_arg3))).trans (V_main_arg3 m c)
theorem W_main_arg4 (dats : (p : Fin _) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) :=
  (W_keeps m dats c main_arg4 (fun ops hops op hop => (tail_keeps ops hops op hop).2.2.2.2.1)
    (by exact (by decide : ∀ w, Pipeline.arrRef spec0 w ≠ main_arg4))).trans (V_main_arg4 m c)
theorem W_main_arg5 (dats : (p : Fin _) → (c : Dev nD) → Dat τ (Elt F) Unit ℕ (UR sig nD τ) ℕ (cfgs p) c) (c : Dev nD) :
    Pipeline.afterTail₀ cfgs dats 0 (V0 m) tailOps c main_arg5 = m ((c : Thread nD τ).loc main_arg5) :=
  (W_keeps m dats c main_arg5 (fun ops hops op hop => (tail_keeps ops hops op hop).2.2.2.2.2.1)
    (by exact (by decide : ∀ w, Pipeline.arrRef spec0 w ≠ main_arg5))).trans (V_main_arg5 m c)
theorem W_main_arg6 (dats : (p : Fin _) → (c : Dev nD) → Dat τ (Elt F) Unit ℕ (UR sig nD τ) ℕ (cfgs p) c) (c : Dev nD) :
    Pipeline.afterTail₀ cfgs dats 0 (V0 m) tailOps c main_arg6 = m ((c : Thread nD τ).loc main_arg6) :=
  (W_keeps m dats c main_arg6 (fun ops hops op hop => (tail_keeps ops hops op hop).2.2.2.2.2.2.1)
    (by exact (by decide : ∀ w, Pipeline.arrRef spec0 w ≠ main_arg6))).trans (V_main_arg6 m c)
theorem W_main_arg7 (dats : (p : Fin _) → (c : Dev nD) → Dat τ (Elt F) Unit ℕ (UR sig nD τ) ℕ (cfgs p) c) (c : Dev nD) :
    Pipeline.afterTail₀ cfgs dats 0 (V0 m) tailOps c main_arg7 = m ((c : Thread nD τ).loc main_arg7) :=
  (W_keeps m dats c main_arg7 (fun ops hops op hop => (tail_keeps ops hops op hop).2.2.2.2.2.2.2.1)
    (by exact (by decide : ∀ w, Pipeline.arrRef spec0 w ≠ main_arg7))).trans (V_main_arg7 m c)
theorem W_main_arg8 (dats : (p : Fin _) → (c : Dev nD) → Dat τ (Elt F) Unit ℕ (UR sig nD τ) ℕ (cfgs p) c) (c : Dev nD) :
    Pipeline.afterTail₀ cfgs dats 0 (V0 m) tailOps c main_arg8 = m ((c : Thread nD τ).loc main_arg8) :=
  (W_keeps m dats c main_arg8 (fun ops hops op hop => (tail_keeps ops hops op hop).2.2.2.2.2.2.2.2.1)
    (by exact (by decide : ∀ w, Pipeline.arrRef spec0 w ≠ main_arg8))).trans (V_main_arg8 m c)
theorem W_main_arg9 (dats : (p : Fin _) → (c : Dev nD) → Dat τ (Elt F) Unit ℕ (UR sig nD τ) ℕ (cfgs p) c) (c : Dev nD) :
    Pipeline.afterTail₀ cfgs dats 0 (V0 m) tailOps c main_arg9 = m ((c : Thread nD τ).loc main_arg9) :=
  (W_keeps m dats c main_arg9 (fun ops hops op hop => (tail_keeps ops hops op hop).2.2.2.2.2.2.2.2.2.1)
    (by exact (by decide : ∀ w, Pipeline.arrRef spec0 w ≠ main_arg9))).trans (V_main_arg9 m c)

/-! ## The windows' blocks -/

/-- Window `w`'s block at point `t`, read off its array as the region finds it (its part inside the array). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The logits arrays have 513 rows and the grid's 32 blocks of 16 rows end at row 512: no block of window 0 is cut. -/
theorem xsize0_0 : ∀ (t : Fin cfg0.N) (a : Fin win0_0.shape.rank), win0_0.xsize (grid0.coords t) a = win0_0.size a :=
  (by decide +kernel : ∀ (t : Fin grid0.N) (a : Fin win0_0.shape.rank), win0_0.xsize (grid0.coords t) a = win0_0.size a)

theorem moved0_0 (t : Fin cfg0.N) (j : win0_0.block.Idx) : win0_0.moved (grid0.coords t) j = true :=
  (win0_0.moved_iff _ j).mpr fun a => by rw [xsize0_0 t a]; exact (j a).isLt

/-- So a fetch fills the whole staging buffer, whatever it held. -/
theorem fill0_0 {α : Type} (t : Fin cfg0.N) (d d' : win0_0.block.Idx → α) (g : (win0_0.xblock (grid0.coords t)).Idx → α) :
    win0_0.fill (grid0.coords t) d g = win0_0.fill (grid0.coords t) d' g := by
  funext j; unfold Pipeline.Window.fill; rw [dif_pos (moved0_0 t j), dif_pos (moved0_0 t j)]

/-- Window 0's staging buffer after its fetch at point `t`: the block of the array, all of it. -/
def fblk0 (c : Dev nD) (t : Fin cfg0.N) : S4x16x32000.Idx → Elt F .f32 :=
  win0_0.fill (grid0.coords t) (fun _ => Scalar.ofBits .f32 0#32) (iblk m c 0 t)

/-- Input window 0 is fetched at every point, so its current staging buffer holds its block there. -/
theorem before0_0_of {c : Dev nD} (dat : Dat τ (Elt F) Unit ℕ (UR sig nD τ) ℕ cfg0 c) (hA : dat.A 0 = V m c (Pipeline.arrRef spec0 0))
    (t : Fin cfg0.N) (d) : dat.before 0 t d = fblk0 m c t := by
  unfold Dat.before; rw [if_pos (fetch0_0 t)]
  unfold Dat.fetched Dat.blockOf fblk0 iblk; rw [hA]
  exact fill0_0 t d _ _

/-- The logits arrays have 513 rows and the grid's 32 blocks of 16 rows end at row 512: no block of window 1 is cut. -/
theorem xsize0_1 : ∀ (t : Fin cfg0.N) (a : Fin win0_1.shape.rank), win0_1.xsize (grid0.coords t) a = win0_1.size a :=
  (by decide +kernel : ∀ (t : Fin grid0.N) (a : Fin win0_1.shape.rank), win0_1.xsize (grid0.coords t) a = win0_1.size a)

theorem moved0_1 (t : Fin cfg0.N) (j : win0_1.block.Idx) : win0_1.moved (grid0.coords t) j = true :=
  (win0_1.moved_iff _ j).mpr fun a => by rw [xsize0_1 t a]; exact (j a).isLt

/-- So a fetch fills the whole staging buffer, whatever it held. -/
theorem fill0_1 {α : Type} (t : Fin cfg0.N) (d d' : win0_1.block.Idx → α) (g : (win0_1.xblock (grid0.coords t)).Idx → α) :
    win0_1.fill (grid0.coords t) d g = win0_1.fill (grid0.coords t) d' g := by
  funext j; unfold Pipeline.Window.fill; rw [dif_pos (moved0_1 t j), dif_pos (moved0_1 t j)]

/-- Window 1's staging buffer after its fetch at point `t`: the block of the array, all of it. -/
def fblk1 (c : Dev nD) (t : Fin cfg0.N) : S4x16x32000.Idx → Elt F .f32 :=
  win0_1.fill (grid0.coords t) (fun _ => Scalar.ofBits .f32 0#32) (iblk m c 1 t)

/-- Input window 1 is fetched at every point, so its current staging buffer holds its block there. -/
theorem before0_1_of {c : Dev nD} (dat : Dat τ (Elt F) Unit ℕ (UR sig nD τ) ℕ cfg0 c) (hA : dat.A 1 = V m c (Pipeline.arrRef spec0 1))
    (t : Fin cfg0.N) (d) : dat.before 1 t d = fblk1 m c t := by
  unfold Dat.before; rw [if_pos (fetch0_1 t)]
  unfold Dat.fetched Dat.blockOf fblk1 iblk; rw [hA]
  exact fill0_1 t d _ _

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents, a run to the
    library's frame post read at the ten argument arrays — the two staged ones through their windows, the
    others among the bypassing buffers — is the frame claim's post, at any `F`. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h c).1 0).trans (((dats 0 c).arrAt_in 0 rfl _).trans ((hA c 0).trans (V_main_arg0 m c))),
     ((h c).1 1).trans (((dats 0 c).arrAt_in 1 rfl _).trans ((hA c 1).trans (V_main_arg1 m c))),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c),
     ((h c).2 main_arg5 (Pipeline.mem_restRefs_of main_arg5 (by decide) (by decide))).trans (W_main_arg5 m dats c),
     ((h c).2 main_arg6 (Pipeline.mem_restRefs_of main_arg6 (by decide) (by decide))).trans (W_main_arg6 m dats c),
     ((h c).2 main_arg7 (Pipeline.mem_restRefs_of main_arg7 (by decide) (by decide))).trans (W_main_arg7 m dats c),
     ((h c).2 main_arg8 (Pipeline.mem_restRefs_of main_arg8 (by decide) (by decide))).trans (W_main_arg8 m dats c),
     ((h c).2 main_arg9 (Pipeline.mem_restRefs_of main_arg9 (by decide) (by decide))).trans (W_main_arg9 m dats c)⟩) h

end Cert.KernelIdeal.Hand

end
-- ==== Proof.KIRun.lean ====
import proofs.«424779_j13597866459574_3_alg».proof.Proof.Gen.KernelIdeal.Launch
import proofs.«424779_j13597866459574_3_alg».proof.Proof.Gen.KernelIdeal.Skeleton
import proofs.«424779_j13597866459574_3_alg».proof.Proof.Gen.KernelIdeal.Points
import Idealize.ShloMosaic.Lib.Pipeline.FrameBody
import Idealize.ShloMosaic.Lib.Ring
import Idealize.ShloMosaic.Lib.Tactic
import proofs.«424779_j13597866459574_3_alg».proof.Proof.Gen.KernelIdeal.Loops

/-! The kernel body run once on whole staging memrefs: the two logits blocks and the two index blocks at their
    contents, the four result buffers at anything. It loads the index blocks, goes through its three counted
    loops over the vocabulary chunks (each by its invariant: the carried value before a trip), and stores each
    result block whole. What each result buffer ends with is the run's own find. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- One staging buffer of a result window, through which its contents are stated (the choice does not matter). -/
abbrev VO4 : View sig .tc .vmem S16x4 .f32 := (Memref.whole cc0_stg4_0 : Memref sig .tc .vmem S16x4 .f32).view
abbrev VO5 : View sig .tc .vmem S16x4 .f32 := (Memref.whole cc0_stg5_0 : Memref sig .tc .vmem S16x4 .f32).view
abbrev VO6 : View sig .tc .vmem S16x4 .f32 := (Memref.whole cc0_stg6_0 : Memref sig .tc .vmem S16x4 .f32).view
abbrev VO7 : View sig .tc .vmem S16x4 .f32 := (Memref.whole cc0_stg7_0 : Memref sig .tc .vmem S16x4 .f32).view

/-- Each window's current staging memref at point `t`, spelled as the pipeline passes it, and its wholeness. -/
abbrev ms0 (t : Fin cfg0.N) : Memref sig .tc .vmem S4x16x32000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4x16x32000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S16x4 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S16x4 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S16x4 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S16x4 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S16x4 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S16x4 .f32 := win0_7.stage (cfg0.slots t 7)
abbrev hs7 (t : Fin cfg0.N) : (ms7 t).IsWhole := hstage0_7 ((cfg0.slots t 7).cast nbuf0_7)

set_option maxHeartbeats 4000000 in
/-- What the body's stores leave in each result's staging memref, as pieces, WITH the proof that from the inputs'
    memrefs at their contents and the results' at anything the body runs to the continuation holding the inputs'
    as they were and each result's buffer with its pieces written. -/
noncomputable def kernelRun0 (c : Dev nD) (i : grid0.Coords) (arg1 : Memref sig .tc .vmem S4x16x32000 .f32) (harg1 : arg1.IsWhole) (arg2 : Memref sig .tc .vmem S4x16x32000 .f32) (harg2 : arg2.IsWhole) (arg3 : Memref sig .tc .vmem S16x4 .i32) (harg3 : arg3.IsWhole) (arg4 : Memref sig .tc .vmem S16x4 .i32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S16x4 .f32) (harg8 : arg8.IsWhole)
    (x0 : Vec F S4x16x32000 .f32) (x1 : Vec F S4x16x32000 .f32) (x2 : Vec F S16x4 .i32) (x3 : Vec F S16x4 .i32) :
    Σ' (L4 : List (View.Piece (Elt F) S16x4 .f32)) (L5 : List (View.Piece (Elt F) S16x4 .f32)) (L6 : List (View.Piece (Elt F) S16x4 .f32)),
    { L7 : List (View.Piece (Elt F) S16x4 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1
                ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)) -∗ K ⟨⟩))
          ⊢ wp frame (wpE (defs₀ (F := F)) Variants.none c none) E (cc0__kernel i arg1 harg1 arg2 harg2 arg3 harg3 arg4 harg4 arg5 harg5 arg6 harg6 arg7 harg7 arg8 harg8) K } := by
  refine ⟨?_, ?_, ?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
    obtain rfl := harg1.eq_unread hf0
    obtain rfl := harg2.eq_unread hf1
    obtain rfl := harg3.eq_unread hf2
    obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    iexists _; iexact H7

end Cert.KernelIdeal.Hand

end
-- ==== Proof.KIFrame.lean ====
import proofs.«424779_j13597866459574_3_alg».proof.Proof.KIHost
import proofs.«424779_j13597866459574_3_alg».proof.Proof.KIRun

/-! The frame of the program: the proof data of its one pipeline (each input window's staging buffer holds its
    block, each result window's what the body's run left there), the body obligation at every grid point from
    that run, the launch around the region, and the frame claim: every weakly fair execution of @main
    terminates without a fault and leaves the ten argument arrays as launched. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the run leaves in each result buffer -/

/-- The run's one store into result 0 covers its block. -/
theorem cover4 (c : Dev nD) (i : grid0.Coords) (arg1 : Memref sig .tc .vmem S4x16x32000 .f32) (harg1 : arg1.IsWhole) (arg2 : Memref sig .tc .vmem S4x16x32000 .f32) (harg2 : arg2.IsWhole) (arg3 : Memref sig .tc .vmem S16x4 .i32) (harg3 : arg3.IsWhole) (arg4 : Memref sig .tc .vmem S16x4 .i32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S16x4 .f32) (harg8 : arg8.IsWhole) (x0 : Vec F S4x16x32000 .f32) (x1 : Vec F S4x16x32000 .f32) (x2 : Vec F S16x4 .i32) (x3 : Vec F S16x4 .i32) (y : S16x4.Idx) :
    ∃ pc ∈ (kernelRun0 c i arg1 harg1 arg2 harg2 arg3 harg3 arg4 harg4 arg5 harg5 arg6 harg6 arg7 harg7 arg8 harg8 x0 x1 x2 x3).1, y ∈ pc.1.set :=
  View.cover_of_tiledL (kernelRun0 c i arg1 harg1 arg2 harg2 arg3 harg3 arg4 harg4 arg5 harg5 arg6 harg6 arg7 harg7 arg8 harg8 x0 x1 x2 x3).1 S16x4.size (by sl_kernel_rfl) y

/-- What the run leaves in result 0's staging buffer: its pieces read back over junk. -/
def out4 (c : Dev nD) (i : grid0.Coords) (arg1 : Memref sig .tc .vmem S4x16x32000 .f32) (harg1 : arg1.IsWhole) (arg2 : Memref sig .tc .vmem S4x16x32000 .f32) (harg2 : arg2.IsWhole) (arg3 : Memref sig .tc .vmem S16x4 .i32) (harg3 : arg3.IsWhole) (arg4 : Memref sig .tc .vmem S16x4 .i32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S16x4 .f32) (harg8 : arg8.IsWhole) (x0 : Vec F S4x16x32000 .f32) (x1 : Vec F S4x16x32000 .f32) (x2 : Vec F S16x4 .i32) (x3 : Vec F S16x4 .i32) : Vec F S16x4 .f32 :=
  VO4.read (Elt F) (VO4.writes (Elt F) VO4.junk (kernelRun0 c i arg1 harg1 arg2 harg2 arg3 harg3 arg4 harg4 arg5 harg5 arg6 harg6 arg7 harg7 arg8 harg8 x0 x1 x2 x3).1)

/-- The run's one store into result 1 covers its block. -/
theorem cover5 (c : Dev nD) (i : grid0.Coords) (arg1 : Memref sig .tc .vmem S4x16x32000 .f32) (harg1 : arg1.IsWhole) (arg2 : Memref sig .tc .vmem S4x16x32000 .f32) (harg2 : arg2.IsWhole) (arg3 : Memref sig .tc .vmem S16x4 .i32) (harg3 : arg3.IsWhole) (arg4 : Memref sig .tc .vmem S16x4 .i32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S16x4 .f32) (harg8 : arg8.IsWhole) (x0 : Vec F S4x16x32000 .f32) (x1 : Vec F S4x16x32000 .f32) (x2 : Vec F S16x4 .i32) (x3 : Vec F S16x4 .i32) (y : S16x4.Idx) :
    ∃ pc ∈ (kernelRun0 c i arg1 harg1 arg2 harg2 arg3 harg3 arg4 harg4 arg5 harg5 arg6 harg6 arg7 harg7 arg8 harg8 x0 x1 x2 x3).2.1, y ∈ pc.1.set :=
  View.cover_of_tiledL (kernelRun0 c i arg1 harg1 arg2 harg2 arg3 harg3 arg4 harg4 arg5 harg5 arg6 harg6 arg7 harg7 arg8 harg8 x0 x1 x2 x3).2.1 S16x4.size (by sl_kernel_rfl) y

/-- What the run leaves in result 1's staging buffer: its pieces read back over junk. -/
def out5 (c : Dev nD) (i : grid0.Coords) (arg1 : Memref sig .tc .vmem S4x16x32000 .f32) (harg1 : arg1.IsWhole) (arg2 : Memref sig .tc .vmem S4x16x32000 .f32) (harg2 : arg2.IsWhole) (arg3 : Memref sig .tc .vmem S16x4 .i32) (harg3 : arg3.IsWhole) (arg4 : Memref sig .tc .vmem S16x4 .i32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S16x4 .f32) (harg8 : arg8.IsWhole) (x0 : Vec F S4x16x32000 .f32) (x1 : Vec F S4x16x32000 .f32) (x2 : Vec F S16x4 .i32) (x3 : Vec F S16x4 .i32) : Vec F S16x4 .f32 :=
  VO5.read (Elt F) (VO5.writes (Elt F) VO5.junk (kernelRun0 c i arg1 harg1 arg2 harg2 arg3 harg3 arg4 harg4 arg5 harg5 arg6 harg6 arg7 harg7 arg8 harg8 x0 x1 x2 x3).2.1)

/-- The run's one store into result 2 covers its block. -/
theorem cover6 (c : Dev nD) (i : grid0.Coords) (arg1 : Memref sig .tc .vmem S4x16x32000 .f32) (harg1 : arg1.IsWhole) (arg2 : Memref sig .tc .vmem S4x16x32000 .f32) (harg2 : arg2.IsWhole) (arg3 : Memref sig .tc .vmem S16x4 .i32) (harg3 : arg3.IsWhole) (arg4 : Memref sig .tc .vmem S16x4 .i32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S16x4 .f32) (harg8 : arg8.IsWhole) (x0 : Vec F S4x16x32000 .f32) (x1 : Vec F S4x16x32000 .f32) (x2 : Vec F S16x4 .i32) (x3 : Vec F S16x4 .i32) (y : S16x4.Idx) :
    ∃ pc ∈ (kernelRun0 c i arg1 harg1 arg2 harg2 arg3 harg3 arg4 harg4 arg5 harg5 arg6 harg6 arg7 harg7 arg8 harg8 x0 x1 x2 x3).2.2.1, y ∈ pc.1.set :=
  View.cover_of_tiledL (kernelRun0 c i arg1 harg1 arg2 harg2 arg3 harg3 arg4 harg4 arg5 harg5 arg6 harg6 arg7 harg7 arg8 harg8 x0 x1 x2 x3).2.2.1 S16x4.size (by sl_kernel_rfl) y

/-- What the run leaves in result 2's staging buffer: its pieces read back over junk. -/
def out6 (c : Dev nD) (i : grid0.Coords) (arg1 : Memref sig .tc .vmem S4x16x32000 .f32) (harg1 : arg1.IsWhole) (arg2 : Memref sig .tc .vmem S4x16x32000 .f32) (harg2 : arg2.IsWhole) (arg3 : Memref sig .tc .vmem S16x4 .i32) (harg3 : arg3.IsWhole) (arg4 : Memref sig .tc .vmem S16x4 .i32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S16x4 .f32) (harg8 : arg8.IsWhole) (x0 : Vec F S4x16x32000 .f32) (x1 : Vec F S4x16x32000 .f32) (x2 : Vec F S16x4 .i32) (x3 : Vec F S16x4 .i32) : Vec F S16x4 .f32 :=
  VO6.read (Elt F) (VO6.writes (Elt F) VO6.junk (kernelRun0 c i arg1 harg1 arg2 harg2 arg3 harg3 arg4 harg4 arg5 harg5 arg6 harg6 arg7 harg7 arg8 harg8 x0 x1 x2 x3).2.2.1)

/-- The run's one store into result 3 covers its block. -/
theorem cover7 (c : Dev nD) (i : grid0.Coords) (arg1 : Memref sig .tc .vmem S4x16x32000 .f32) (harg1 : arg1.IsWhole) (arg2 : Memref sig .tc .vmem S4x16x32000 .f32) (harg2 : arg2.IsWhole) (arg3 : Memref sig .tc .vmem S16x4 .i32) (harg3 : arg3.IsWhole) (arg4 : Memref sig .tc .vmem S16x4 .i32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S16x4 .f32) (harg8 : arg8.IsWhole) (x0 : Vec F S4x16x32000 .f32) (x1 : Vec F S4x16x32000 .f32) (x2 : Vec F S16x4 .i32) (x3 : Vec F S16x4 .i32) (y : S16x4.Idx) :
    ∃ pc ∈ (kernelRun0 c i arg1 harg1 arg2 harg2 arg3 harg3 arg4 harg4 arg5 harg5 arg6 harg6 arg7 harg7 arg8 harg8 x0 x1 x2 x3).2.2.2.1, y ∈ pc.1.set :=
  View.cover_of_tiledL (kernelRun0 c i arg1 harg1 arg2 harg2 arg3 harg3 arg4 harg4 arg5 harg5 arg6 harg6 arg7 harg7 arg8 harg8 x0 x1 x2 x3).2.2.2.1 S16x4.size (by sl_kernel_rfl) y

/-- What the run leaves in result 3's staging buffer: its pieces read back over junk. -/
def out7 (c : Dev nD) (i : grid0.Coords) (arg1 : Memref sig .tc .vmem S4x16x32000 .f32) (harg1 : arg1.IsWhole) (arg2 : Memref sig .tc .vmem S4x16x32000 .f32) (harg2 : arg2.IsWhole) (arg3 : Memref sig .tc .vmem S16x4 .i32) (harg3 : arg3.IsWhole) (arg4 : Memref sig .tc .vmem S16x4 .i32) (harg4 : arg4.IsWhole) (arg5 : Memref sig .tc .vmem S16x4 .f32) (harg5 : arg5.IsWhole) (arg6 : Memref sig .tc .vmem S16x4 .f32) (harg6 : arg6.IsWhole) (arg7 : Memref sig .tc .vmem S16x4 .f32) (harg7 : arg7.IsWhole) (arg8 : Memref sig .tc .vmem S16x4 .f32) (harg8 : arg8.IsWhole) (x0 : Vec F S4x16x32000 .f32) (x1 : Vec F S4x16x32000 .f32) (x2 : Vec F S16x4 .i32) (x3 : Vec F S16x4 .i32) : Vec F S16x4 .f32 :=
  VO7.read (Elt F) (VO7.writes (Elt F) VO7.junk (kernelRun0 c i arg1 harg1 arg2 harg2 arg3 harg3 arg4 harg4 arg5 harg5 arg6 harg6 arg7 harg7 arg8 harg8 x0 x1 x2 x3).2.2.2.1)

/-- What result window 4's staging buffer holds after the body at point `t`. -/
def out4At (c : Dev nD) (t : Fin cfg0.N) : Vec F S16x4 .f32 :=
  out4 c (grid0.coords t) (ms0 t) (hs0 t) (ms1 t) (hs1 t) (ms2 t) (hs2 t) (ms3 t) (hs3 t) (ms4 t) (hs4 t) (ms5 t) (hs5 t) (ms6 t) (hs6 t) (ms7 t) (hs7 t) (fblk0 m c t) (fblk1 m c t) (iblk m c 2 t) (iblk m c 3 t)
/-- What result window 5's staging buffer holds after the body at point `t`. -/
def out5At (c : Dev nD) (t : Fin cfg0.N) : Vec F S16x4 .f32 :=
  out5 c (grid0.coords t) (ms0 t) (hs0 t) (ms1 t) (hs1 t) (ms2 t) (hs2 t) (ms3 t) (hs3 t) (ms4 t) (hs4 t) (ms5 t) (hs5 t) (ms6 t) (hs6 t) (ms7 t) (hs7 t) (fblk0 m c t) (fblk1 m c t) (iblk m c 2 t) (iblk m c 3 t)
/-- What result window 6's staging buffer holds after the body at point `t`. -/
def out6At (c : Dev nD) (t : Fin cfg0.N) : Vec F S16x4 .f32 :=
  out6 c (grid0.coords t) (ms0 t) (hs0 t) (ms1 t) (hs1 t) (ms2 t) (hs2 t) (ms3 t) (hs3 t) (ms4 t) (hs4 t) (ms5 t) (hs5 t) (ms6 t) (hs6 t) (ms7 t) (hs7 t) (fblk0 m c t) (fblk1 m c t) (iblk m c 2 t) (iblk m c 3 t)
/-- What result window 7's staging buffer holds after the body at point `t`. -/
def out7At (c : Dev nD) (t : Fin cfg0.N) : Vec F S16x4 .f32 :=
  out7 c (grid0.coords t) (ms0 t) (hs0 t) (ms1 t) (hs1 t) (ms2 t) (hs2 t) (ms3 t) (hs3 t) (ms4 t) (hs4 t) (ms5 t) (hs5 t) (ms6 t) (hs6 t) (ms7 t) (hs7 t) (fblk0 m c t) (fblk1 m c t) (iblk m c 2 t) (iblk m c 3 t)

/-! ## The pipeline's proof data -/

/-- The proof data of the one pipeline on core `c`: the arrays as the region finds them; after the body at point
    `t` each input's buffer at its block and each result's at what the run left; the invariant the scoped rest and
    the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => fblk0 m c t
    | ⟨1, _⟩ => fblk1 m c t
    | ⟨2, _⟩ => iblk m c 2 t
    | ⟨3, _⟩ => iblk m c 3 t
    | ⟨4, _⟩ => out4At m c t
    | ⟨5, _⟩ => out5At m c t
    | ⟨6, _⟩ => out6At m c t
    | ⟨7, _⟩ => out7At m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = fblk0 m c t := by dsimp only [dats]
theorem after0_1 (c : Dev nD) (t : Fin cfg0.N) : (dats m 0 c).after 1 t = fblk1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out4At m c t := by dsimp only [dats]
theorem after0_5 (c : Dev nD) (t : Fin cfg0.N) : (dats m 0 c).after 5 t = out5At m c t := by dsimp only [dats]
theorem after0_6 (c : Dev nD) (t : Fin cfg0.N) : (dats m 0 c).after 6 t = out6At m c t := by dsimp only [dats]
theorem after0_7 (c : Dev nD) (t : Fin cfg0.N) : (dats m 0 c).after 7 t = out7At m c t := by dsimp only [dats]

theorem before0_0 (c : Dev nD) (t : Fin cfg0.N) (d) : (dats m 0 c).before 0 t d = fblk0 m c t :=
  before0_0_of m (dats m 0 c) (A_eq m c 0) t d
theorem before0_1 (c : Dev nD) (t : Fin cfg0.N) (d) : (dats m 0 c).before 1 t d = fblk1 m c t :=
  before0_1_of m (dats m 0 c) (A_eq m c 1) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t))

set_option maxHeartbeats 1000000 in
/-- The body at any point: the inputs' memrefs hold their blocks, so the run applies; the invariant passes through
    unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  unfold out4At out5At out6At out7At
  unfold out4 out5 out6 out7
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0 c (grid0.coords t) _ _ _ _ _ _ _ _ _ _ _ _ _ _ _ _ (fblk0 m c t) (fblk1 m c t) (iblk m c 2 t) (iblk m c 3 t)).2.2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, ⟨%e4, H4⟩, ⟨%e5, H5⟩, ⟨%e6, H6⟩, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover4 c _ _ _ _ _ _ _ _ _ _ _ _ _ _ _ _ _ _ _ _ _)
  isplitl [H5]
  · unfold owns; iexists _; isplitr
    swap; · iexact H5
    ipureintro; exact View.read_writes_of_cover _ _ _ _ _ (cover5 c _ _ _ _ _ _ _ _ _ _ _ _ _ _ _ _ _ _ _ _ _)
  isplitl [H6]
  · unfold owns; iexists _; isplitr
    swap; · iexact H6
    ipureintro; exact View.read_writes_of_cover _ _ _ _ _ (cover6 c _ _ _ _ _ _ _ _ _ _ _ _ _ _ _ _ _ _ _ _ _)
  · unfold owns; iexists _; isplitr
    swap; · iexact H7
    ipureintro; exact View.read_writes_of_cover _ _ _ _ _ (cover7 c _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main on the TensorCores terminates, and
    every final state has every array of the pipeline at what the library computes from the proof data and every
    other unscoped buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- THE FRAME, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.KernelIdeal.Hand

end
-- ==== Proof.RefFrame.lean ====
import proofs.«424779_j13597866459574_3_alg».proof.Proof.RunP
import Idealize.ShloMosaic.Lib.StableHlo.Run

/-! The reference program is a straight line of 278 host operations: every weakly fair execution of it terminates
    with each buffer at the operations' composed value of the launch contents. None of the operations allocates
    and none writes an argument array, so the ten arguments end as launched. -/

set_option maxRecDepth 16384

noncomputable section

namespace Cert.RefRun

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

/-- No operation allocates. -/
theorem ops_fresh : (ops : List (HloOp τ sig (Elt F))).Forall fun op => op.fresh = ∅ := by
  simp only [List.Forall]; repeat' constructor

/-- An operation leaves the ten argument arrays alone. -/
abbrev KeepsArgs (op : HloOp τ sig (Elt F)) : Prop :=
  Proc.devRef (τ := τ) .tc main_arg0 ∉ op.writes
  ∧ Proc.devRef (τ := τ) .tc main_arg1 ∉ op.writes
  ∧ Proc.devRef (τ := τ) .tc main_arg2 ∉ op.writes
  ∧ Proc.devRef (τ := τ) .tc main_arg3 ∉ op.writes
  ∧ Proc.devRef (τ := τ) .tc main_arg4 ∉ op.writes
  ∧ Proc.devRef (τ := τ) .tc main_arg5 ∉ op.writes
  ∧ Proc.devRef (τ := τ) .tc main_arg6 ∉ op.writes
  ∧ Proc.devRef (τ := τ) .tc main_arg7 ∉ op.writes
  ∧ Proc.devRef (τ := τ) .tc main_arg8 ∉ op.writes
  ∧ Proc.devRef (τ := τ) .tc main_arg9 ∉ op.writes

set_option maxHeartbeats 4000000 in
theorem ops_keeps : (ops : List (HloOp τ sig (Elt F))).Forall KeepsArgs := by
  simp only [ops, List.Forall, KeepsArgs, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)

/-- The run of @main as the list of its operations: every buffer ends at the operations' composed value. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after (ops (F := F)) (launchContents m d) (Proc.devRef .tc b) :=
  run_seq scopedRefs_eq scopedSems_eq defs main (fun _ => ops) main_eq (fun _ => ops_sub) m ρ
    (fun _ => List.forall_iff_forall_mem.mp ops_fresh)

/-- An argument array after the operations holds its launch contents. -/
theorem arg_kept (m : (ℓ : Loc nD τ sig) → Buf (Elt F) ℓ) (c : Dev nD) (b : Ref sig .tc)
    (hb : ∀ op ∈ (ops : List (HloOp τ sig (Elt F))), Proc.devRef (τ := τ) .tc b ∉ op.writes) :
    after (ops (F := F)) (launchContents m c) (Proc.devRef .tc b) = m ((c.tc : Thread nD τ).loc b) :=
  (StableHlo.after_of_forall_not_mem (b := Proc.devRef .tc b) _ _ hb).trans rfl

theorem kept_main_arg0 (m : (ℓ : Loc nD τ sig) → Buf (Elt F) ℓ) (c : Dev nD) :
    after (ops (F := F)) (launchContents m c) (Proc.devRef .tc main_arg0) = m ((c.tc : Thread nD τ).loc main_arg0) :=
  arg_kept m c main_arg0 fun op hop => (List.forall_iff_forall_mem.mp ops_keeps op hop).1
theorem kept_main_arg1 (m : (ℓ : Loc nD τ sig) → Buf (Elt F) ℓ) (c : Dev nD) :
    after (ops (F := F)) (launchContents m c) (Proc.devRef .tc main_arg1) = m ((c.tc : Thread nD τ).loc main_arg1) :=
  arg_kept m c main_arg1 fun op hop => (List.forall_iff_forall_mem.mp ops_keeps op hop).2.1
theorem kept_main_arg2 (m : (ℓ : Loc nD τ sig) → Buf (Elt F) ℓ) (c : Dev nD) :
    after (ops (F := F)) (launchContents m c) (Proc.devRef .tc main_arg2) = m ((c.tc : Thread nD τ).loc main_arg2) :=
  arg_kept m c main_arg2 fun op hop => (List.forall_iff_forall_mem.mp ops_keeps op hop).2.2.1
theorem kept_main_arg3 (m : (ℓ : Loc nD τ sig) → Buf (Elt F) ℓ) (c : Dev nD) :
    after (ops (F := F)) (launchContents m c) (Proc.devRef .tc main_arg3) = m ((c.tc : Thread nD τ).loc main_arg3) :=
  arg_kept m c main_arg3 fun op hop => (List.forall_iff_forall_mem.mp ops_keeps op hop).2.2.2.1
theorem kept_main_arg4 (m : (ℓ : Loc nD τ sig) → Buf (Elt F) ℓ) (c : Dev nD) :
    after (ops (F := F)) (launchContents m c) (Proc.devRef .tc main_arg4) = m ((c.tc : Thread nD τ).loc main_arg4) :=
  arg_kept m c main_arg4 fun op hop => (List.forall_iff_forall_mem.mp ops_keeps op hop).2.2.2.2.1
theorem kept_main_arg5 (m : (ℓ : Loc nD τ sig) → Buf (Elt F) ℓ) (c : Dev nD) :
    after (ops (F := F)) (launchContents m c) (Proc.devRef .tc main_arg5) = m ((c.tc : Thread nD τ).loc main_arg5) :=
  arg_kept m c main_arg5 fun op hop => (List.forall_iff_forall_mem.mp ops_keeps op hop).2.2.2.2.2.1
theorem kept_main_arg6 (m : (ℓ : Loc nD τ sig) → Buf (Elt F) ℓ) (c : Dev nD) :
    after (ops (F := F)) (launchContents m c) (Proc.devRef .tc main_arg6) = m ((c.tc : Thread nD τ).loc main_arg6) :=
  arg_kept m c main_arg6 fun op hop => (List.forall_iff_forall_mem.mp ops_keeps op hop).2.2.2.2.2.2.1
theorem kept_main_arg7 (m : (ℓ : Loc nD τ sig) → Buf (Elt F) ℓ) (c : Dev nD) :
    after (ops (F := F)) (launchContents m c) (Proc.devRef .tc main_arg7) = m ((c.tc : Thread nD τ).loc main_arg7) :=
  arg_kept m c main_arg7 fun op hop => (List.forall_iff_forall_mem.mp ops_keeps op hop).2.2.2.2.2.2.2.1
theorem kept_main_arg8 (m : (ℓ : Loc nD τ sig) → Buf (Elt F) ℓ) (c : Dev nD) :
    after (ops (F := F)) (launchContents m c) (Proc.devRef .tc main_arg8) = m ((c.tc : Thread nD τ).loc main_arg8) :=
  arg_kept m c main_arg8 fun op hop => (List.forall_iff_forall_mem.mp ops_keeps op hop).2.2.2.2.2.2.2.2.1
theorem kept_main_arg9 (m : (ℓ : Loc nD τ sig) → Buf (Elt F) ℓ) (c : Dev nD) :
    after (ops (F := F)) (launchContents m c) (Proc.devRef .tc main_arg9) = m ((c.tc : Thread nD τ).loc main_arg9) :=
  arg_kept m c main_arg9 fun op hop => (List.forall_iff_forall_mem.mp ops_keeps op hop).2.2.2.2.2.2.2.2.2

/-- THE FRAME of the reference, at any `F`. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨(h c main_arg0).trans (kept_main_arg0 m c),
     (h c main_arg1).trans (kept_main_arg1 m c),
     (h c main_arg2).trans (kept_main_arg2 m c),
     (h c main_arg3).trans (kept_main_arg3 m c),
     (h c main_arg4).trans (kept_main_arg4 m c),
     (h c main_arg5).trans (kept_main_arg5 m c),
     (h c main_arg6).trans (kept_main_arg6 m c),
     (h c main_arg7).trans (kept_main_arg7 m c),
     (h c main_arg8).trans (kept_main_arg8 m c),
     (h c main_arg9).trans (kept_main_arg9 m c)⟩) (run_after m ρ)

end Cert.RefRun

end
-- ==== Proof.RefTailCut.lean ====
import proofs.«424779_j13597866459574_3_alg».proof.Proof.RunP
import Idealize.ShloMosaic.Lib.StableHlo.Run

/-! The reference program's 278 host operations, cut after the two log-softmax calls: the first thirty operations
    compute the two log-softmax arrays, the remaining 248 read those two arrays and the arguments. -/

set_option maxRecDepth 16384

noncomputable section

namespace Cert.RefTail

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

/-- The operations of the two log-softmax calls: the first thirty. -/
abbrev opsA : List (HloOp τ sig (Elt F)) :=
  [ TRef.nullary (TRef.of (T := ⟨S_, .f32⟩) main_call0_cst) (constant S_ .f32 0xFF800000#32),
    TRef.binary (TRef.of (T := ⟨S4x513x32000, .f32⟩) main_arg0) (TRef.of (T := ⟨S_, .f32⟩) main_call0_cst) (TRef.of (T := ⟨S4x513, .f32⟩) main_call0_v0) (fun x v => Host.reduce FloatOps.maximumf x v reducesTo_S4x513x32000_S4x513_d2 h_S_),
    TRef.nullary (TRef.of (T := ⟨S_, .f32⟩) main_call0_cst_0) (constant S_ .f32 0xFF800000#32),
    TRef.unary (TRef.of (T := ⟨S_, .f32⟩) main_call0_cst_0) (TRef.of (T := ⟨S4x513, .f32⟩) main_call0_v1) (broadcastInDim S4x513 ![] bcast_S_S4x513),
    TRef.binary (TRef.of (T := ⟨S4x513, .f32⟩) main_call0_v1) (TRef.of (T := ⟨S4x513, .f32⟩) main_call0_v0) (TRef.of (T := ⟨S4x513, .f32⟩) main_call0_v2) maximumf,
    TRef.unary (TRef.of (T := ⟨S4x513, .f32⟩) main_call0_v2) (TRef.of (T := ⟨S4x513x1, .f32⟩) main_call0_v3) (broadcastInDim S4x513x1 ![0, 1] bcast_S4x513_S4x513x1_0_1),
    TRef.unary (TRef.of (T := ⟨S4x513x1, .f32⟩) main_call0_v3) (TRef.of (T := ⟨S4x513x32000, .f32⟩) main_call0_v4) (broadcastInDim S4x513x32000 ![0, 1, 2] bcast_S4x513x1_S4x513x32000_0_1_2),
    TRef.binary (TRef.of (T := ⟨S4x513x32000, .f32⟩) main_arg0) (TRef.of (T := ⟨S4x513x32000, .f32⟩) main_call0_v4) (TRef.of (T := ⟨S4x513x32000, .f32⟩) main_call0_v5) subf,
    TRef.unary (TRef.of (T := ⟨S4x513x32000, .f32⟩) main_call0_v5) (TRef.of (T := ⟨S4x513x32000, .f32⟩) main_call0_v6) Host.exp,
    TRef.nullary (TRef.of (T := ⟨S_, .f32⟩) main_call0_cst_1) (constant S_ .f32 0x00000000#32),
    TRef.binary (TRef.of (T := ⟨S4x513x32000, .f32⟩) main_call0_v6) (TRef.of (T := ⟨S_, .f32⟩) main_call0_cst_1) (TRef.of (T := ⟨S4x513, .f32⟩) main_call0_v7) (fun x v => Host.reduceAdd x v reducesTo_S4x513x32000_S4x513_d2 h_S_),
    TRef.unary (TRef.of (T := ⟨S4x513, .f32⟩) main_call0_v7) (TRef.of (T := ⟨S4x513x1, .f32⟩) main_call0_v8) (broadcastInDim S4x513x1 ![0, 1] bcast_S4x513_S4x513x1_0_1),
    TRef.unary (TRef.of (T := ⟨S4x513x1, .f32⟩) main_call0_v8) (TRef.of (T := ⟨S4x513x1, .f32⟩) main_call0_v9) Host.log,
    TRef.unary (TRef.of (T := ⟨S4x513x1, .f32⟩) main_call0_v9) (TRef.of (T := ⟨S4x513x32000, .f32⟩) main_call0_v10) (broadcastInDim S4x513x32000 ![0, 1, 2] bcast_S4x513x1_S4x513x32000_0_1_2),
    TRef.binary (TRef.of (T := ⟨S4x513x32000, .f32⟩) main_call0_v5) (TRef.of (T := ⟨S4x513x32000, .f32⟩) main_call0_v10) (TRef.of (T := ⟨S4x513x32000, .f32⟩) main_v0) subf,
    TRef.nullary (TRef.of (T := ⟨S_, .f32⟩) main_call1_cst) (constant S_ .f32 0xFF800000#32),
    TRef.binary (TRef.of (T := ⟨S4x513x32000, .f32⟩) main_arg1) (TRef.of (T := ⟨S_, .f32⟩) main_call1_cst) (TRef.of (T := ⟨S4x513, .f32⟩) main_call1_v0) (fun x v => Host.reduce FloatOps.maximumf x v reducesTo_S4x513x32000_S4x513_d2 h_S_),
    TRef.nullary (TRef.of (T := ⟨S_, .f32⟩) main_call1_cst_0) (constant S_ .f32 0xFF800000#32),
    TRef.unary (TRef.of (T := ⟨S_, .f32⟩) main_call1_cst_0) (TRef.of (T := ⟨S4x513, .f32⟩) main_call1_v1) (broadcastInDim S4x513 ![] bcast_S_S4x513),
    TRef.binary (TRef.of (T := ⟨S4x513, .f32⟩) main_call1_v1) (TRef.of (T := ⟨S4x513, .f32⟩) main_call1_v0) (TRef.of (T := ⟨S4x513, .f32⟩) main_call1_v2) maximumf,
    TRef.unary (TRef.of (T := ⟨S4x513, .f32⟩) main_call1_v2) (TRef.of (T := ⟨S4x513x1, .f32⟩) main_call1_v3) (broadcastInDim S4x513x1 ![0, 1] bcast_S4x513_S4x513x1_0_1),
    TRef.unary (TRef.of (T := ⟨S4x513x1, .f32⟩) main_call1_v3) (TRef.of (T := ⟨S4x513x32000, .f32⟩) main_call1_v4) (broadcastInDim S4x513x32000 ![0, 1, 2] bcast_S4x513x1_S4x513x32000_0_1_2),
    TRef.binary (TRef.of (T := ⟨S4x513x32000, .f32⟩) main_arg1) (TRef.of (T := ⟨S4x513x32000, .f32⟩) main_call1_v4) (TRef.of (T := ⟨S4x513x32000, .f32⟩) main_call1_v5) subf,
    TRef.unary (TRef.of (T := ⟨S4x513x32000, .f32⟩) main_call1_v5) (TRef.of (T := ⟨S4x513x32000, .f32⟩) main_call1_v6) Host.exp,
    TRef.nullary (TRef.of (T := ⟨S_, .f32⟩) main_call1_cst_1) (constant S_ .f32 0x00000000#32),
    TRef.binary (TRef.of (T := ⟨S4x513x32000, .f32⟩) main_call1_v6) (TRef.of (T := ⟨S_, .f32⟩) main_call1_cst_1) (TRef.of (T := ⟨S4x513, .f32⟩) main_call1_v7) (fun x v => Host.reduceAdd x v reducesTo_S4x513x32000_S4x513_d2 h_S_),
    TRef.unary (TRef.of (T := ⟨S4x513, .f32⟩) main_call1_v7) (TRef.of (T := ⟨S4x513x1, .f32⟩) main_call1_v8) (broadcastInDim S4x513x1 ![0, 1] bcast_S4x513_S4x513x1_0_1),
    TRef.unary (TRef.of (T := ⟨S4x513x1, .f32⟩) main_call1_v8) (TRef.of (T := ⟨S4x513x1, .f32⟩) main_call1_v9) Host.log,
    TRef.unary (TRef.of (T := ⟨S4x513x1, .f32⟩) main_call1_v9) (TRef.of (T := ⟨S4x513x32000, .f32⟩) main_call1_v10) (broadcastInDim S4x513x32000 ![0, 1, 2] bcast_S4x513x1_S4x513x32000_0_1_2),
    TRef.binary (TRef.of (T := ⟨S4x513x32000, .f32⟩) main_call1_v5) (TRef.of (T := ⟨S4x513x32000, .f32⟩) main_call1_v10) (TRef.of (T := ⟨S4x513x32000, .f32⟩) main_v1) subf ]

/-- The operations after the two log-softmax calls. -/
abbrev opsB : List (HloOp τ sig (Elt F)) :=
  [ unary main_v0 main_v2 ((extractStridedSlice S4x512x32000 ![0, 0, 0] · slices_S4x513x32000_S4x512x32000_0_0_0) : (⟨S4x513x32000, .f32⟩ : BufTy).Contents (Elt F) → (⟨S4x512x32000, .f32⟩ : BufTy).Contents (Elt F)),
    unary main_arg2 main_v3 (broadcastInDim S4x512x1 ![0, 1] bcast_S4x512_S4x512x1_0_1 : (⟨S4x512, .i32⟩ : BufTy).Contents (Elt F) → (⟨S4x512x1, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S4x512x1, .i32⟩) main_call2_v0) (broadcastInDim S4x512x1 ![] bcast_S_S4x512x1),
    TRef.binary (TRef.of (T := ⟨S4x512x1, .i32⟩) main_v3) (TRef.of (T := ⟨S4x512x1, .i32⟩) main_call2_v0) (TRef.of (T := ⟨S4x512x1, .i1⟩) main_call2_v1) (cmpi .slt),
    TRef.nullary (TRef.of (T := ⟨S_, .i32⟩) main_call2_c_0) (constantI S_ 32 32000#32),
    TRef.unary (TRef.of (T := ⟨S_, .i32⟩) main_call2_c_0) (TRef.of (T := ⟨S4x512x1, .i32⟩) main_call2_v2) (broadcastInDim S4x512x1 ![] bcast_S_S4x512x1),
    TRef.binary (TRef.of (T := ⟨S4x512x1, .i32⟩) main_v3) (TRef.of (T := ⟨S4x512x1, .i32⟩) main_call2_v2) (TRef.of (T := ⟨S4x512x1, .i32⟩) main_call2_v3) addi,
    TRef.ternary (TRef.of (T := ⟨S4x512x1, .i1⟩) main_call2_v1) (TRef.of (T := ⟨S4x512x1, .i32⟩) main_call2_v3) (TRef.of (T := ⟨S4x512x1, .i32⟩) main_v3) (TRef.of (T := ⟨S4x512x1, .i32⟩) main_call2_v4) select,
    TRef.reshape (TRef.of (T := ⟨S4x512x1, .i32⟩) main_call2_v4) (TRef.of (T := ⟨S4x512x1x1, .i32⟩) main_call2_v5) rfl shapeCasts_S4x512x1_S4x512x1x1,
    TRef.nullary (TRef.of (T := ⟨S1, .i32⟩) main_call2_c_1) (constantI S1 32 31999#32),
    TRef.nullary (TRef.of (T := ⟨S_, .i32⟩) main_call2_c_2) (constantI S_ 32 0#32),
    TRef.unary (TRef.of (T := ⟨S_, .i32⟩) main_call2_c_2) (TRef.of (T := ⟨S4x512x1x1, .i32⟩) main_call2_v6) (broadcastInDim S4x512x1x1 ![] bcast_S_S4x512x1x1),
    TRef.binary (TRef.of (T := ⟨S4x512x1x1, .i32⟩) main_call2_v5) (TRef.of (T := ⟨S4x512x1x1, .i32⟩) main_call2_v6) (TRef.of (T := ⟨S4x512x1x1, .i1⟩) main_call2_v7) (cmpi .sge),
    TRef.unary (TRef.of (T := ⟨S1, .i32⟩) main_call2_c_1) (TRef.of (T := ⟨S1x1x1x1, .i32⟩) main_call2_v8) (broadcastInDim S1x1x1x1 ![3] bcast_S1_S1x1x1x1_3),
    TRef.unary (TRef.of (T := ⟨S1x1x1x1, .i32⟩) main_call2_v8) (TRef.of (T := ⟨S4x512x1x1, .i32⟩) main_call2_v9) (broadcastInDim S4x512x1x1 ![0, 1, 2, 3] bcast_S1x1x1x1_S4x512x1x1_0_1_2_3),
    TRef.binary (TRef.of (T := ⟨S4x512x1x1, .i32⟩) main_call2_v5) (TRef.of (T := ⟨S4x512x1x1, .i32⟩) main_call2_v9) (TRef.of (T := ⟨S4x512x1x1, .i1⟩) main_call2_v10) (cmpi .sle),
    TRef.binary (TRef.of (T := ⟨S4x512x1x1, .i1⟩) main_call2_v7) (TRef.of (T := ⟨S4x512x1x1, .i1⟩) main_call2_v10) (TRef.of (T := ⟨S4x512x1x1, .i1⟩) main_call2_v11) andi,
    TRef.nullary (TRef.of (T := ⟨S_, .i1⟩) main_call2_c_3) (constantI S_ 1 1#1),
    TRef.binary (TRef.of (T := ⟨S4x512x1x1, .i1⟩) main_call2_v11) (TRef.of (T := ⟨S_, .i1⟩) main_call2_c_3) (TRef.of (T := ⟨S4x512x1, .i1⟩) main_call2_v12) (fun x v => Host.reduce IntOp.andi x v reducesTo_S4x512x1x1_S4x512x1_d3 h_S_),
    TRef.binary (TRef.of (T := ⟨S4x512x32000, .f32⟩) main_v2) (TRef.of (T := ⟨S4x512x1x1, .i32⟩) main_call2_v5) (TRef.of (T := ⟨S4x512x1, .f32⟩) main_call2_v13) (fun x i => Host.gather gather_S4x512x32000_S4x512x1x1_S4x512x1_n_2_01_01_2_3_111 x i),
    TRef.nullary (TRef.of (T := ⟨S_, .f32⟩) main_call2_cst) (constant S_ .f32 0x7FC00000#32),
    TRef.unary (TRef.of (T := ⟨S_, .f32⟩) main_call2_cst) (TRef.of (T := ⟨S4x512x1, .f32⟩) main_call2_v14) (broadcastInDim S4x512x1 ![] bcast_S_S4x512x1),
    TRef.ternary (TRef.of (T := ⟨S4x512x1, .i1⟩) main_call2_v12) (TRef.of (T := ⟨S4x512x1, .f32⟩) main_call2_v13) (TRef.of (T := ⟨S4x512x1, .f32⟩) main_call2_v14) (TRef.of (T := ⟨S4x512x1, .f32⟩) main_v4) select,
    reshape main_v4 main_v5 rfl shapeCasts_S4x512x1_S4x512,
    unary main_v5 main_v6 (Host.negf : (⟨S4x512, .f32⟩ : BufTy).Contents (Elt F) → (⟨S4x512, .f32⟩ : BufTy).Contents (Elt F)),
    nullary main_c (constantI S_ 32 4294967295#32),
    unary main_c main_v7 (broadcastInDim S4x512 ![] bcast_S_S4x512 : (⟨S_, .i32⟩ : BufTy).Contents (Elt F) → (⟨S4x512, .i32⟩ : BufTy).Contents (Elt F)),
    binary main_arg4 main_v7 main_v8 (cmpi .ne : (⟨S4x512, .i32⟩ : BufTy).Contents (Elt F) → (⟨S4x512, .i32⟩ : BufTy).Contents (Elt F) → (⟨S4x512, .i1⟩ : BufTy).Contents (Elt F)),
    unary main_v8 main_v9 (uitofp .f32 : (⟨S4x512, .i1⟩ : BufTy).Contents (Elt F) → (⟨S4x512, .f32⟩ : BufTy).Contents (Elt F)),
    binary main_v6 main_v9 main_v10 (mulf : (⟨S4x512, .f32⟩ : BufTy).Contents (Elt F) → (⟨S4x512, .f32⟩ : BufTy).Contents (Elt F) → (⟨S4x512, .f32⟩ : BufTy).Contents (Elt F)),
    nullary main_c_0 (constantI S_ 32 0#32),
    TRef.unary (TRef.of (T := ⟨S_, .i32⟩) main_c_0) (TRef.of (T := ⟨S_, .i32⟩) main_call3_v0) id,
    TRef.unary (TRef.of (T := ⟨S_, .i32⟩) main_call3_v0) (TRef.of (T := ⟨S4x512, .i32⟩) main_call3_v1) (broadcastInDim S4x512 ![] bcast_S_S4x512),
    TRef.ternary (TRef.of (T := ⟨S4x512, .i1⟩) main_v8) (TRef.of (T := ⟨S4x512, .i32⟩) main_arg4) (TRef.of (T := ⟨S4x512, .i32⟩) main_call3_v1) (TRef.of (T := ⟨S4x512, .i32⟩) main_v11) select,
    nullary main_v12 (iotaInDim S4 32 0),
    unary main_v12 main_v13 (broadcastInDim S4x1 ![0] bcast_S4_S4x1_0 : (⟨S4, .i32⟩ : BufTy).Contents (Elt F) → (⟨S4x1, .i32⟩ : BufTy).Contents (Elt F)),
    nullary main_cst (constant S_ .f32 0x00000000#32),
    unary main_cst main_v14 (broadcastInDim S4x512 ![] bcast_S_S4x512 : (⟨S_, .f32⟩ : BufTy).Contents (Elt F) → (⟨S4x512, .f32⟩ : BufTy).Contents (Elt F)),
    nullary main_c_1 (constantI S_ 32 0#32),
    unary main_c_1 main_v15 (broadcastInDim S4x1 ![] bcast_S_S4x1 : (⟨S_, .i32⟩ : BufTy).Contents (Elt F) → (⟨S4x1, .i32⟩ : BufTy).Contents (Elt F)),
    binary main_v13 main_v15 main_v16 (cmpi .slt : (⟨S4x1, .i32⟩ : BufTy).Contents (Elt F) → (⟨S4x1, .i32⟩ : BufTy).Contents (Elt F) → (⟨S4x1, .i1⟩ : BufTy).Contents (Elt F)),
    nullary main_c_2 (constantI S_ 32 4#32),
    unary main_c_2 main_v17 (broadcastInDim S4x1 ![] bcast_S_S4x1 : (⟨S_, .i32⟩ : BufTy).Contents (Elt F) → (⟨S4x1, .i32⟩ : BufTy).Contents (Elt F)),
    binary main_v13 main_v17 main_v18 (addi : (⟨S4x1, .i32⟩ : BufTy).Contents (Elt F) → (⟨S4x1, .i32⟩ : BufTy).Contents (Elt F) → (⟨S4x1, .i32⟩ : BufTy).Contents (Elt F)),
    ternary main_v16 main_v18 main_v13 main_v19 (select : (⟨S4x1, .i1⟩ : BufTy).Contents (Elt F) → (⟨S4x1, .i32⟩ : BufTy).Contents (Elt F) → (⟨S4x1, .i32⟩ : BufTy).Contents (Elt F) → (⟨S4x1, .i32⟩ : BufTy).Contents (Elt F)),
    nullary main_c_3 (constantI S_ 32 0#32),
    unary main_c_3 main_v20 (broadcastInDim S4x512 ![] bcast_S_S4x512 : (⟨S_, .i32⟩ : BufTy).Contents (Elt F) → (⟨S4x512, .i32⟩ : BufTy).Contents (Elt F)),
    binary main_v11 main_v20 main_v21 (cmpi .slt : (⟨S4x512, .i32⟩ : BufTy).Contents (Elt F) → (⟨S4x512, .i32⟩ : BufTy).Contents (Elt F) → (⟨S4x512, .i1⟩ : BufTy).Contents (Elt F)),
    nullary main_c_4 (constantI S_ 32 512#32),
    unary main_c_4 main_v22 (broadcastInDim S4x512 ![] bcast_S_S4x512 : (⟨S_, .i32⟩ : BufTy).Contents (Elt F) → (⟨S4x512, .i32⟩ : BufTy).Contents (Elt F)),
    binary main_v11 main_v22 main_v23 (addi : (⟨S4x512, .i32⟩ : BufTy).Contents (Elt F) → (⟨S4x512, .i32⟩ : BufTy).Contents (Elt F) → (⟨S4x512, .i32⟩ : BufTy).Contents (Elt F)),
    ternary main_v21 main_v23 main_v11 main_v24 (select : (⟨S4x512, .i1⟩ : BufTy).Contents (Elt F) → (⟨S4x512, .i32⟩ : BufTy).Contents (Elt F) → (⟨S4x512, .i32⟩ : BufTy).Contents (Elt F) → (⟨S4x512, .i32⟩ : BufTy).Contents (Elt F)),
    unary main_v19 main_v25 (broadcastInDim S4x512 ![0, 1] bcast_S4x1_S4x512_0_1 : (⟨S4x1, .i32⟩ : BufTy).Contents (Elt F) → (⟨S4x512, .i32⟩ : BufTy).Contents (Elt F)),
    unary main_v25 main_v26 (broadcastInDim S4x512x1 ![0, 1] bcast_S4x512_S4x512x1_0_1 : (⟨S4x512, .i32⟩ : BufTy).Contents (Elt F) → (⟨S4x512x1, .i32⟩ : BufTy).Contents (Elt F)),
    unary main_v24 main_v27 (broadcastInDim S4x512x1 ![0, 1] bcast_S4x512_S4x512x1_0_1 : (⟨S4x512, .i32⟩ : BufTy).Contents (Elt F) → (⟨S4x512x1, .i32⟩ : BufTy).Contents (Elt F)),
    binary main_v26 main_v27 main_v28 ((fun a b => concatenate S4x512x2 2 [⟨S4x512x1, a⟩, ⟨S4x512x1, b⟩] concatenates_S4x512x1_S4x512x1_S4x512x2_d2) : (⟨S4x512x1, .i32⟩ : BufTy).Contents (Elt F) → (⟨S4x512x1, .i32⟩ : BufTy).Contents (Elt F) → (⟨S4x512x2, .i32⟩ : BufTy).Contents (Elt F)),
    ternary main_v14 main_v28 main_v10 main_v29 ((fun x i u => Host.scatterAdd scatter_S4x512_S4x512x2_S4x512_n_01_01_2 x i u) : (⟨S4x512, .f32⟩ : BufTy).Contents (Elt F) → (⟨S4x512x2, .i32⟩ : BufTy).Contents (Elt F) → (⟨S4x512, .f32⟩ : BufTy).Contents (Elt F) → (⟨S4x512, .f32⟩ : BufTy).Contents (Elt F)),
    nullary main_c_5 (constantI S_ 32 0#32),
    unary main_c_5 main_v30 (broadcastInDim S4x512 ![] bcast_S_S4x512 : (⟨S_, .i32⟩ : BufTy).Contents (Elt F) → (⟨S4x512, .i32⟩ : BufTy).Contents (Elt F)),
    binary main_arg4 main_v30 main_v31 (cmpi .sge : (⟨S4x512, .i32⟩ : BufTy).Contents (Elt F) → (⟨S4x512, .i32⟩ : BufTy).Contents (Elt F) → (⟨S4x512, .i1⟩ : BufTy).Contents (Elt F)),
    nullary main_c_6 (constantI S_ 32 512#32),
    unary main_c_6 main_v32 (broadcastInDim S4x512 ![] bcast_S_S4x512 : (⟨S_, .i32⟩ : BufTy).Contents (Elt F) → (⟨S4x512, .i32⟩ : BufTy).Contents (Elt F)),
    binary main_arg4 main_v32 main_v33 (cmpi .slt : (⟨S4x512, .i32⟩ : BufTy).Contents (Elt F) → (⟨S4x512, .i32⟩ : BufTy).Contents (Elt F) → (⟨S4x512, .i1⟩ : BufTy).Contents (Elt F)),
    binary main_v31 main_v33 main_v34 (andi : (⟨S4x512, .i1⟩ : BufTy).Contents (Elt F) → (⟨S4x512, .i1⟩ : BufTy).Contents (Elt F) → (⟨S4x512, .i1⟩ : BufTy).Contents (Elt F)),
    nullary main_c_7 (constantI S_ 32 0#32),
    nullary main_c_8 (constantI S_ 32 511#32),
    TRef.unary (TRef.of (T := ⟨S_, .i32⟩) main_c_7) (TRef.of (T := ⟨S_, .i32⟩) main_call4_v0) id,
    TRef.unary (TRef.of (T := ⟨S_, .i32⟩) main_call4_v0) (TRef.of (T := ⟨S4x512, .i32⟩) main_call4_v1) (broadcastInDim S4x512 ![] bcast_S_S4x512),
    TRef.binary (TRef.of (T := ⟨S4x512, .i32⟩) main_call4_v1) (TRef.of (T := ⟨S4x512, .i32⟩) main_arg4) (TRef.of (T := ⟨S4x512, .i32⟩) main_call4_v2) maxsi,
    TRef.unary (TRef.of (T := ⟨S_, .i32⟩) main_c_8) (TRef.of (T := ⟨S_, .i32⟩) main_call4_v3) id,
    TRef.unary (TRef.of (T := ⟨S_, .i32⟩) main_call4_v3) (TRef.of (T := ⟨S4x512, .i32⟩) main_call4_v4) (broadcastInDim S4x512 ![] bcast_S_S4x512),
    TRef.binary (TRef.of (T := ⟨S4x512, .i32⟩) main_call4_v4) (TRef.of (T := ⟨S4x512, .i32⟩) main_call4_v2) (TRef.of (T := ⟨S4x512, .i32⟩) main_v35) minsi,
    TRef.nullary (TRef.of (T := ⟨S_, .i32⟩) main_call5_c) (constantI S_ 32 0#32),
    TRef.unary (TRef.of (T := ⟨S_, .i32⟩) main_call5_c) (TRef.of (T := ⟨S4x512, .i32⟩) main_call5_v0) (broadcastInDim S4x512 ![] bcast_S_S4x512),
    TRef.binary (TRef.of (T := ⟨S4x512, .i32⟩) main_v35) (TRef.of (T := ⟨S4x512, .i32⟩) main_call5_v0) (TRef.of (T := ⟨S4x512, .i1⟩) main_call5_v1) (cmpi .slt),
    TRef.nullary (TRef.of (T := ⟨S_, .i32⟩) main_call5_c_0) (constantI S_ 32 512#32),
    TRef.unary (TRef.of (T := ⟨S_, .i32⟩) main_call5_c_0) (TRef.of (T := ⟨S4x512, .i32⟩) main_call5_v2) (broadcastInDim S4x512 ![] bcast_S_S4x512),
    TRef.binary (TRef.of (T := ⟨S4x512, .i32⟩) main_v35) (TRef.of (T := ⟨S4x512, .i32⟩) main_call5_v2) (TRef.of (T := ⟨S4x512, .i32⟩) main_call5_v3) addi,
    TRef.ternary (TRef.of (T := ⟨S4x512, .i1⟩) main_call5_v1) (TRef.of (T := ⟨S4x512, .i32⟩) main_call5_v3) (TRef.of (T := ⟨S4x512, .i32⟩) main_v35) (TRef.of (T := ⟨S4x512, .i32⟩) main_call5_v4) select,
    TRef.reshape (TRef.of (T := ⟨S4x512, .i32⟩) main_call5_v4) (TRef.of (T := ⟨S4x512x1, .i32⟩) main_call5_v5) rfl shapeCasts_S4x512_S4x512x1,
    TRef.nullary (TRef.of (T := ⟨S1, .i32⟩) main_call5_c_1) (constantI S1 32 511#32),
    TRef.nullary (TRef.of (T := ⟨S_, .i32⟩) main_call5_c_2) (constantI S_ 32 0#32),
    TRef.unary (TRef.of (T := ⟨S_, .i32⟩) main_call5_c_2) (TRef.of (T := ⟨S4x512x1, .i32⟩) main_call5_v6) (broadcastInDim S4x512x1 ![] bcast_S_S4x512x1),
    TRef.binary (TRef.of (T := ⟨S4x512x1, .i32⟩) main_call5_v5) (TRef.of (T := ⟨S4x512x1, .i32⟩) main_call5_v6) (TRef.of (T := ⟨S4x512x1, .i1⟩) main_call5_v7) (cmpi .sge),
    TRef.unary (TRef.of (T := ⟨S1, .i32⟩) main_call5_c_1) (TRef.of (T := ⟨S1x1x1, .i32⟩) main_call5_v8) (broadcastInDim S1x1x1 ![2] bcast_S1_S1x1x1_2),
    TRef.unary (TRef.of (T := ⟨S1x1x1, .i32⟩) main_call5_v8) (TRef.of (T := ⟨S4x512x1, .i32⟩) main_call5_v9) (broadcastInDim S4x512x1 ![0, 1, 2] bcast_S1x1x1_S4x512x1_0_1_2),
    TRef.binary (TRef.of (T := ⟨S4x512x1, .i32⟩) main_call5_v5) (TRef.of (T := ⟨S4x512x1, .i32⟩) main_call5_v9) (TRef.of (T := ⟨S4x512x1, .i1⟩) main_call5_v10) (cmpi .sle),
    TRef.binary (TRef.of (T := ⟨S4x512x1, .i1⟩) main_call5_v7) (TRef.of (T := ⟨S4x512x1, .i1⟩) main_call5_v10) (TRef.of (T := ⟨S4x512x1, .i1⟩) main_call5_v11) andi,
    TRef.nullary (TRef.of (T := ⟨S_, .i1⟩) main_call5_c_3) (constantI S_ 1 1#1),
    TRef.binary (TRef.of (T := ⟨S4x512x1, .i1⟩) main_call5_v11) (TRef.of (T := ⟨S_, .i1⟩) main_call5_c_3) (TRef.of (T := ⟨S4x512, .i1⟩) main_call5_v12) (fun x v => Host.reduce IntOp.andi x v reducesTo_S4x512x1_S4x512_d2 h_S_),
    TRef.binary (TRef.of (T := ⟨S4x512, .i32⟩) main_arg5) (TRef.of (T := ⟨S4x512x1, .i32⟩) main_call5_v5) (TRef.of (T := ⟨S4x512, .i32⟩) main_call5_v13) (fun x i => Host.gather gather_S4x512_S4x512x1_S4x512_n_1_0_0_1_2_11 x i),
    TRef.nullary (TRef.of (T := ⟨S_, .i32⟩) main_call5_c_4) (constantI S_ 32 2147483648#32),
    TRef.unary (TRef.of (T := ⟨S_, .i32⟩) main_call5_c_4) (TRef.of (T := ⟨S4x512, .i32⟩) main_call5_v14) (broadcastInDim S4x512 ![] bcast_S_S4x512),
    TRef.ternary (TRef.of (T := ⟨S4x512, .i1⟩) main_call5_v12) (TRef.of (T := ⟨S4x512, .i32⟩) main_call5_v13) (TRef.of (T := ⟨S4x512, .i32⟩) main_call5_v14) (TRef.of (T := ⟨S4x512, .i32⟩) main_v36) select,
    nullary main_c_9 (constantI S_ 32 4294967295#32),
    unary main_c_9 main_v37 (broadcastInDim S4x512 ![] bcast_S_S4x512 : (⟨S_, .i32⟩ : BufTy).Contents (Elt F) → (⟨S4x512, .i32⟩ : BufTy).Contents (Elt F)),
    binary main_v36 main_v37 main_v38 (cmpi .ne : (⟨S4x512, .i32⟩ : BufTy).Contents (Elt F) → (⟨S4x512, .i32⟩ : BufTy).Contents (Elt F) → (⟨S4x512, .i1⟩ : BufTy).Contents (Elt F)),
    binary main_v34 main_v38 main_v39 (andi : (⟨S4x512, .i1⟩ : BufTy).Contents (Elt F) → (⟨S4x512, .i1⟩ : BufTy).Contents (Elt F) → (⟨S4x512, .i1⟩ : BufTy).Contents (Elt F)),
    unary main_v36 main_v40 (sitofp .f32 : (⟨S4x512, .i32⟩ : BufTy).Contents (Elt F) → (⟨S4x512, .f32⟩ : BufTy).Contents (Elt F)),
    nullary main_cst_10 (constant S_ .f32 0x00000000#32),
    TRef.unary (TRef.of (T := ⟨S_, .f32⟩) main_cst_10) (TRef.of (T := ⟨S_, .f32⟩) main_call6_v0) id,
    TRef.unary (TRef.of (T := ⟨S_, .f32⟩) main_call6_v0) (TRef.of (T := ⟨S4x512, .f32⟩) main_call6_v1) (broadcastInDim S4x512 ![] bcast_S_S4x512),
    TRef.ternary (TRef.of (T := ⟨S4x512, .i1⟩) main_v39) (TRef.of (T := ⟨S4x512, .f32⟩) main_v40) (TRef.of (T := ⟨S4x512, .f32⟩) main_call6_v1) (TRef.of (T := ⟨S4x512, .f32⟩) main_v41) select,
    TRef.nullary (TRef.of (T := ⟨S_, .i32⟩) main_call7_c) (constantI S_ 32 0#32),
    TRef.unary (TRef.of (T := ⟨S_, .i32⟩) main_call7_c) (TRef.of (T := ⟨S4x512, .i32⟩) main_call7_v0) (broadcastInDim S4x512 ![] bcast_S_S4x512),
    TRef.binary (TRef.of (T := ⟨S4x512, .i32⟩) main_v35) (TRef.of (T := ⟨S4x512, .i32⟩) main_call7_v0) (TRef.of (T := ⟨S4x512, .i1⟩) main_call7_v1) (cmpi .slt),
    TRef.nullary (TRef.of (T := ⟨S_, .i32⟩) main_call7_c_0) (constantI S_ 32 512#32),
    TRef.unary (TRef.of (T := ⟨S_, .i32⟩) main_call7_c_0) (TRef.of (T := ⟨S4x512, .i32⟩) main_call7_v2) (broadcastInDim S4x512 ![] bcast_S_S4x512),
    TRef.binary (TRef.of (T := ⟨S4x512, .i32⟩) main_v35) (TRef.of (T := ⟨S4x512, .i32⟩) main_call7_v2) (TRef.of (T := ⟨S4x512, .i32⟩) main_call7_v3) addi,
    TRef.ternary (TRef.of (T := ⟨S4x512, .i1⟩) main_call7_v1) (TRef.of (T := ⟨S4x512, .i32⟩) main_call7_v3) (TRef.of (T := ⟨S4x512, .i32⟩) main_v35) (TRef.of (T := ⟨S4x512, .i32⟩) main_call7_v4) select,
    TRef.reshape (TRef.of (T := ⟨S4x512, .i32⟩) main_call7_v4) (TRef.of (T := ⟨S4x512x1, .i32⟩) main_call7_v5) rfl shapeCasts_S4x512_S4x512x1,
    TRef.nullary (TRef.of (T := ⟨S1, .i32⟩) main_call7_c_1) (constantI S1 32 511#32),
    TRef.nullary (TRef.of (T := ⟨S_, .i32⟩) main_call7_c_2) (constantI S_ 32 0#32),
    TRef.unary (TRef.of (T := ⟨S_, .i32⟩) main_call7_c_2) (TRef.of (T := ⟨S4x512x1, .i32⟩) main_call7_v6) (broadcastInDim S4x512x1 ![] bcast_S_S4x512x1),
    TRef.binary (TRef.of (T := ⟨S4x512x1, .i32⟩) main_call7_v5) (TRef.of (T := ⟨S4x512x1, .i32⟩) main_call7_v6) (TRef.of (T := ⟨S4x512x1, .i1⟩) main_call7_v7) (cmpi .sge),
    TRef.unary (TRef.of (T := ⟨S1, .i32⟩) main_call7_c_1) (TRef.of (T := ⟨S1x1x1, .i32⟩) main_call7_v8) (broadcastInDim S1x1x1 ![2] bcast_S1_S1x1x1_2),
    TRef.unary (TRef.of (T := ⟨S1x1x1, .i32⟩) main_call7_v8) (TRef.of (T := ⟨S4x512x1, .i32⟩) main_call7_v9) (broadcastInDim S4x512x1 ![0, 1, 2] bcast_S1x1x1_S4x512x1_0_1_2),
    TRef.binary (TRef.of (T := ⟨S4x512x1, .i32⟩) main_call7_v5) (TRef.of (T := ⟨S4x512x1, .i32⟩) main_call7_v9) (TRef.of (T := ⟨S4x512x1, .i1⟩) main_call7_v10) (cmpi .sle),
    TRef.binary (TRef.of (T := ⟨S4x512x1, .i1⟩) main_call7_v7) (TRef.of (T := ⟨S4x512x1, .i1⟩) main_call7_v10) (TRef.of (T := ⟨S4x512x1, .i1⟩) main_call7_v11) andi,
    TRef.nullary (TRef.of (T := ⟨S_, .i1⟩) main_call7_c_3) (constantI S_ 1 1#1),
    TRef.binary (TRef.of (T := ⟨S4x512x1, .i1⟩) main_call7_v11) (TRef.of (T := ⟨S_, .i1⟩) main_call7_c_3) (TRef.of (T := ⟨S4x512, .i1⟩) main_call7_v12) (fun x v => Host.reduce IntOp.andi x v reducesTo_S4x512x1_S4x512_d2 h_S_),
    TRef.binary (TRef.of (T := ⟨S4x512, .f32⟩) main_arg6) (TRef.of (T := ⟨S4x512x1, .i32⟩) main_call7_v5) (TRef.of (T := ⟨S4x512, .f32⟩) main_call7_v13) (fun x i => Host.gather gather_S4x512_S4x512x1_S4x512_n_1_0_0_1_2_11 x i),
    TRef.nullary (TRef.of (T := ⟨S_, .f32⟩) main_call7_cst) (constant S_ .f32 0x7FC00000#32),
    TRef.unary (TRef.of (T := ⟨S_, .f32⟩) main_call7_cst) (TRef.of (T := ⟨S4x512, .f32⟩) main_call7_v14) (broadcastInDim S4x512 ![] bcast_S_S4x512),
    TRef.ternary (TRef.of (T := ⟨S4x512, .i1⟩) main_call7_v12) (TRef.of (T := ⟨S4x512, .f32⟩) main_call7_v13) (TRef.of (T := ⟨S4x512, .f32⟩) main_call7_v14) (TRef.of (T := ⟨S4x512, .f32⟩) main_v42) select,
    nullary main_cst_11 (constant S_ .f32 0x00000000#32),
    TRef.unary (TRef.of (T := ⟨S_, .f32⟩) main_cst_11) (TRef.of (T := ⟨S_, .f32⟩) main_call8_v0) id,
    TRef.unary (TRef.of (T := ⟨S_, .f32⟩) main_call8_v0) (TRef.of (T := ⟨S4x512, .f32⟩) main_call8_v1) (broadcastInDim S4x512 ![] bcast_S_S4x512),
    TRef.ternary (TRef.of (T := ⟨S4x512, .i1⟩) main_v39) (TRef.of (T := ⟨S4x512, .f32⟩) main_v42) (TRef.of (T := ⟨S4x512, .f32⟩) main_call8_v1) (TRef.of (T := ⟨S4x512, .f32⟩) main_v43) select,
    unary main_arg8 main_v44 ((extractStridedSlice S1 ![0] · slices_S3_S1_0) : (⟨S3, .f32⟩ : BufTy).Contents (Elt F) → (⟨S1, .f32⟩ : BufTy).Contents (Elt F)),
    reshape main_v44 main_v45 rfl shapeCasts_S1_S_,
    unary main_v45 main_v46 (broadcastInDim S4x512 ![] bcast_S_S4x512 : (⟨S_, .f32⟩ : BufTy).Contents (Elt F) → (⟨S4x512, .f32⟩ : BufTy).Contents (Elt F)),
    binary main_v29 main_v46 main_v47 (mulf : (⟨S4x512, .f32⟩ : BufTy).Contents (Elt F) → (⟨S4x512, .f32⟩ : BufTy).Contents (Elt F) → (⟨S4x512, .f32⟩ : BufTy).Contents (Elt F)),
    unary main_arg8 main_v48 ((extractStridedSlice S1 ![1] · slices_S3_S1_1) : (⟨S3, .f32⟩ : BufTy).Contents (Elt F) → (⟨S1, .f32⟩ : BufTy).Contents (Elt F)),
    reshape main_v48 main_v49 rfl shapeCasts_S1_S_,
    unary main_v49 main_v50 (broadcastInDim S4x512 ![] bcast_S_S4x512 : (⟨S_, .f32⟩ : BufTy).Contents (Elt F) → (⟨S4x512, .f32⟩ : BufTy).Contents (Elt F)),
    binary main_v41 main_v50 main_v51 (mulf : (⟨S4x512, .f32⟩ : BufTy).Contents (Elt F) → (⟨S4x512, .f32⟩ : BufTy).Contents (Elt F) → (⟨S4x512, .f32⟩ : BufTy).Contents (Elt F)),
    binary main_v47 main_v51 main_v52 (addf : (⟨S4x512, .f32⟩ : BufTy).Contents (Elt F) → (⟨S4x512, .f32⟩ : BufTy).Contents (Elt F) → (⟨S4x512, .f32⟩ : BufTy).Contents (Elt F)),
    unary main_arg8 main_v53 ((extractStridedSlice S1 ![2] · slices_S3_S1_2) : (⟨S3, .f32⟩ : BufTy).Contents (Elt F) → (⟨S1, .f32⟩ : BufTy).Contents (Elt F)),
    reshape main_v53 main_v54 rfl shapeCasts_S1_S_,
    unary main_v54 main_v55 (broadcastInDim S4x512 ![] bcast_S_S4x512 : (⟨S_, .f32⟩ : BufTy).Contents (Elt F) → (⟨S4x512, .f32⟩ : BufTy).Contents (Elt F)),
    binary main_v43 main_v55 main_v56 (mulf : (⟨S4x512, .f32⟩ : BufTy).Contents (Elt F) → (⟨S4x512, .f32⟩ : BufTy).Contents (Elt F) → (⟨S4x512, .f32⟩ : BufTy).Contents (Elt F)),
    binary main_v52 main_v56 main_v57 (addf : (⟨S4x512, .f32⟩ : BufTy).Contents (Elt F) → (⟨S4x512, .f32⟩ : BufTy).Contents (Elt F) → (⟨S4x512, .f32⟩ : BufTy).Contents (Elt F)),
    reshape main_arg9 main_v58 rfl shapeCasts_S1_S_,
    unary main_v58 main_v59 (broadcastInDim S4x512 ![] bcast_S_S4x512 : (⟨S_, .f32⟩ : BufTy).Contents (Elt F) → (⟨S4x512, .f32⟩ : BufTy).Contents (Elt F)),
    binary main_v57 main_v59 main_v60 (addf : (⟨S4x512, .f32⟩ : BufTy).Contents (Elt F) → (⟨S4x512, .f32⟩ : BufTy).Contents (Elt F) → (⟨S4x512, .f32⟩ : BufTy).Contents (Elt F)),
    nullary main_cst_12 (constant S_ .f32 0xBF800000#32),
    unary main_cst_12 main_v61 (broadcastInDim S4x512 ![] bcast_S_S4x512 : (⟨S_, .f32⟩ : BufTy).Contents (Elt F) → (⟨S4x512, .f32⟩ : BufTy).Contents (Elt F)),
    binary main_arg7 main_v61 main_v62 (cmpf .une : (⟨S4x512, .f32⟩ : BufTy).Contents (Elt F) → (⟨S4x512, .f32⟩ : BufTy).Contents (Elt F) → (⟨S4x512, .i1⟩ : BufTy).Contents (Elt F)),
    unary main_v62 main_v63 (uitofp .f32 : (⟨S4x512, .i1⟩ : BufTy).Contents (Elt F) → (⟨S4x512, .f32⟩ : BufTy).Contents (Elt F)),
    binary main_arg7 main_v60 main_v64 (subf : (⟨S4x512, .f32⟩ : BufTy).Contents (Elt F) → (⟨S4x512, .f32⟩ : BufTy).Contents (Elt F) → (⟨S4x512, .f32⟩ : BufTy).Contents (Elt F)),
    binary main_v64 main_v64 main_v65 (mulf : (⟨S4x512, .f32⟩ : BufTy).Contents (Elt F) → (⟨S4x512, .f32⟩ : BufTy).Contents (Elt F) → (⟨S4x512, .f32⟩ : BufTy).Contents (Elt F)),
    binary main_v65 main_v63 main_v66 (mulf : (⟨S4x512, .f32⟩ : BufTy).Contents (Elt F) → (⟨S4x512, .f32⟩ : BufTy).Contents (Elt F) → (⟨S4x512, .f32⟩ : BufTy).Contents (Elt F)),
    nullary main_cst_13 (constant S_ .f32 0x00000000#32),
    binary main_v66 main_cst_13 main_v67 ((fun x v => Host.reduceAdd x v reducesTo_S4x512_S_d0_1 h_S_) : (⟨S4x512, .f32⟩ : BufTy).Contents (Elt F) → (⟨S_, .f32⟩ : BufTy).Contents (Elt F) → (⟨S_, .f32⟩ : BufTy).Contents (Elt F)),
    nullary main_cst_14 (constant S_ .f32 0x00000000#32),
    binary main_v63 main_cst_14 main_v68 ((fun x v => Host.reduceAdd x v reducesTo_S4x512_S_d0_1 h_S_) : (⟨S4x512, .f32⟩ : BufTy).Contents (Elt F) → (⟨S_, .f32⟩ : BufTy).Contents (Elt F) → (⟨S_, .f32⟩ : BufTy).Contents (Elt F)),
    binary main_v67 main_v68 main_v69 (Host.divf : (⟨S_, .f32⟩ : BufTy).Contents (Elt F) → (⟨S_, .f32⟩ : BufTy).Contents (Elt F) → (⟨S_, .f32⟩ : BufTy).Contents (Elt F)),
    nullary main_cst_15 (constant S_ .f32 0x3F800000#32),
    binary main_cst_15 main_v69 main_v70 (mulf : (⟨S_, .f32⟩ : BufTy).Contents (Elt F) → (⟨S_, .f32⟩ : BufTy).Contents (Elt F) → (⟨S_, .f32⟩ : BufTy).Contents (Elt F)),
    nullary main_c_16 (constantI S_ 1 0#1),
    unary main_c_16 main_v71 (broadcastInDim S4x1 ![] bcast_S_S4x1 : (⟨S_, .i1⟩ : BufTy).Contents (Elt F) → (⟨S4x1, .i1⟩ : BufTy).Contents (Elt F)),
    unary main_v8 main_v72 ((extractStridedSlice S4x511 ![0, 0] · slices_S4x512_S4x511_0_0) : (⟨S4x512, .i1⟩ : BufTy).Contents (Elt F) → (⟨S4x511, .i1⟩ : BufTy).Contents (Elt F)),
    binary main_v71 main_v72 main_v73 ((fun a b => concatenate S4x512 1 [⟨S4x1, a⟩, ⟨S4x511, b⟩] concatenates_S4x1_S4x511_S4x512_d1) : (⟨S4x1, .i1⟩ : BufTy).Contents (Elt F) → (⟨S4x511, .i1⟩ : BufTy).Contents (Elt F) → (⟨S4x512, .i1⟩ : BufTy).Contents (Elt F)),
    unary main_v73 main_v74 (uitofp .f32 : (⟨S4x512, .i1⟩ : BufTy).Contents (Elt F) → (⟨S4x512, .f32⟩ : BufTy).Contents (Elt F)),
    unary main_v0 main_v75 ((extractStridedSlice S4x512x32000 ![0, 0, 0] · slices_S4x513x32000_S4x512x32000_0_0_0) : (⟨S4x513x32000, .f32⟩ : BufTy).Contents (Elt F) → (⟨S4x512x32000, .f32⟩ : BufTy).Contents (Elt F)),
    unary main_v1 main_v76 ((extractStridedSlice S4x512x32000 ![0, 0, 0] · slices_S4x513x32000_S4x512x32000_0_0_0) : (⟨S4x513x32000, .f32⟩ : BufTy).Contents (Elt F) → (⟨S4x512x32000, .f32⟩ : BufTy).Contents (Elt F)),
    unary main_v76 main_v77 (Host.exp : (⟨S4x512x32000, .f32⟩ : BufTy).Contents (Elt F) → (⟨S4x512x32000, .f32⟩ : BufTy).Contents (Elt F)),
    binary main_v76 main_v75 main_v78 (subf : (⟨S4x512x32000, .f32⟩ : BufTy).Contents (Elt F) → (⟨S4x512x32000, .f32⟩ : BufTy).Contents (Elt F) → (⟨S4x512x32000, .f32⟩ : BufTy).Contents (Elt F)),
    binary main_v77 main_v78 main_v79 (mulf : (⟨S4x512x32000, .f32⟩ : BufTy).Contents (Elt F) → (⟨S4x512x32000, .f32⟩ : BufTy).Contents (Elt F) → (⟨S4x512x32000, .f32⟩ : BufTy).Contents (Elt F)),
    nullary main_cst_17 (constant S_ .f32 0x00000000#32),
    binary main_v79 main_cst_17 main_v80 ((fun x v => Host.reduceAdd x v reducesTo_S4x512x32000_S4x512_d2 h_S_) : (⟨S4x512x32000, .f32⟩ : BufTy).Contents (Elt F) → (⟨S_, .f32⟩ : BufTy).Contents (Elt F) → (⟨S4x512, .f32⟩ : BufTy).Contents (Elt F)),
    binary main_v80 main_v74 main_v81 (mulf : (⟨S4x512, .f32⟩ : BufTy).Contents (Elt F) → (⟨S4x512, .f32⟩ : BufTy).Contents (Elt F) → (⟨S4x512, .f32⟩ : BufTy).Contents (Elt F)),
    nullary main_cst_18 (constant S_ .f32 0x00000000#32),
    binary main_v81 main_cst_18 main_v82 ((fun x v => Host.reduceAdd x v reducesTo_S4x512_S_d0_1 h_S_) : (⟨S4x512, .f32⟩ : BufTy).Contents (Elt F) → (⟨S_, .f32⟩ : BufTy).Contents (Elt F) → (⟨S_, .f32⟩ : BufTy).Contents (Elt F)),
    nullary main_cst_19 (constant S_ .f32 0x00000000#32),
    binary main_v74 main_cst_19 main_v83 ((fun x v => Host.reduceAdd x v reducesTo_S4x512_S_d0_1 h_S_) : (⟨S4x512, .f32⟩ : BufTy).Contents (Elt F) → (⟨S_, .f32⟩ : BufTy).Contents (Elt F) → (⟨S_, .f32⟩ : BufTy).Contents (Elt F)),
    binary main_v82 main_v83 main_v84 (Host.divf : (⟨S_, .f32⟩ : BufTy).Contents (Elt F) → (⟨S_, .f32⟩ : BufTy).Contents (Elt F) → (⟨S_, .f32⟩ : BufTy).Contents (Elt F)),
    unary main_arg2 main_v85 ((extractStridedSlice S4x511 ![0, 1] · slices_S4x512_S4x511_0_1) : (⟨S4x512, .i32⟩ : BufTy).Contents (Elt F) → (⟨S4x511, .i32⟩ : BufTy).Contents (Elt F)),
    unary main_arg3 main_v86 ((extractStridedSlice S4x511 ![0, 1] · slices_S4x512_S4x511_0_1) : (⟨S4x512, .i32⟩ : BufTy).Contents (Elt F) → (⟨S4x511, .i32⟩ : BufTy).Contents (Elt F)),
    unary main_v86 main_v87 (sitofp .f32 : (⟨S4x511, .i32⟩ : BufTy).Contents (Elt F) → (⟨S4x511, .f32⟩ : BufTy).Contents (Elt F)),
    unary main_v0 main_v88 ((extractStridedSlice S4x511x32000 ![0, 0, 0] · slices_S4x513x32000_S4x511x32000_0_0_0) : (⟨S4x513x32000, .f32⟩ : BufTy).Contents (Elt F) → (⟨S4x511x32000, .f32⟩ : BufTy).Contents (Elt F)),
    unary main_v85 main_v89 (broadcastInDim S4x511x1 ![0, 1] bcast_S4x511_S4x511x1_0_1 : (⟨S4x511, .i32⟩ : BufTy).Contents (Elt F) → (⟨S4x511x1, .i32⟩ : BufTy).Contents (Elt F)),
    TRef.nullary (TRef.of (T := ⟨S_, .i32⟩) main_call9_c) (constantI S_ 32 0#32),
    TRef.unary (TRef.of (T := ⟨S_, .i32⟩) main_call9_c) (TRef.of (T := ⟨S4x511x1, .i32⟩) main_call9_v0) (broadcastInDim S4x511x1 ![] bcast_S_S4x511x1),
    TRef.binary (TRef.of (T := ⟨S4x511x1, .i32⟩) main_v89) (TRef.of (T := ⟨S4x511x1, .i32⟩) main_call9_v0) (TRef.of (T := ⟨S4x511x1, .i1⟩) main_call9_v1) (cmpi .slt),
    TRef.nullary (TRef.of (T := ⟨S_, .i32⟩) main_call9_c_0) (constantI S_ 32 32000#32),
    TRef.unary (TRef.of (T := ⟨S_, .i32⟩) main_call9_c_0) (TRef.of (T := ⟨S4x511x1, .i32⟩) main_call9_v2) (broadcastInDim S4x511x1 ![] bcast_S_S4x511x1),
    TRef.binary (TRef.of (T := ⟨S4x511x1, .i32⟩) main_v89) (TRef.of (T := ⟨S4x511x1, .i32⟩) main_call9_v2) (TRef.of (T := ⟨S4x511x1, .i32⟩) main_call9_v3) addi,
    TRef.ternary (TRef.of (T := ⟨S4x511x1, .i1⟩) main_call9_v1) (TRef.of (T := ⟨S4x511x1, .i32⟩) main_call9_v3) (TRef.of (T := ⟨S4x511x1, .i32⟩) main_v89) (TRef.of (T := ⟨S4x511x1, .i32⟩) main_call9_v4) select,
    TRef.reshape (TRef.of (T := ⟨S4x511x1, .i32⟩) main_call9_v4) (TRef.of (T := ⟨S4x511x1x1, .i32⟩) main_call9_v5) rfl shapeCasts_S4x511x1_S4x511x1x1,
    TRef.nullary (TRef.of (T := ⟨S1, .i32⟩) main_call9_c_1) (constantI S1 32 31999#32),
    TRef.nullary (TRef.of (T := ⟨S_, .i32⟩) main_call9_c_2) (constantI S_ 32 0#32),
    TRef.unary (TRef.of (T := ⟨S_, .i32⟩) main_call9_c_2) (TRef.of (T := ⟨S4x511x1x1, .i32⟩) main_call9_v6) (broadcastInDim S4x511x1x1 ![] bcast_S_S4x511x1x1),
    TRef.binary (TRef.of (T := ⟨S4x511x1x1, .i32⟩) main_call9_v5) (TRef.of (T := ⟨S4x511x1x1, .i32⟩) main_call9_v6) (TRef.of (T := ⟨S4x511x1x1, .i1⟩) main_call9_v7) (cmpi .sge),
    TRef.unary (TRef.of (T := ⟨S1, .i32⟩) main_call9_c_1) (TRef.of (T := ⟨S1x1x1x1, .i32⟩) main_call9_v8) (broadcastInDim S1x1x1x1 ![3] bcast_S1_S1x1x1x1_3),
    TRef.unary (TRef.of (T := ⟨S1x1x1x1, .i32⟩) main_call9_v8) (TRef.of (T := ⟨S4x511x1x1, .i32⟩) main_call9_v9) (broadcastInDim S4x511x1x1 ![0, 1, 2, 3] bcast_S1x1x1x1_S4x511x1x1_0_1_2_3),
    TRef.binary (TRef.of (T := ⟨S4x511x1x1, .i32⟩) main_call9_v5) (TRef.of (T := ⟨S4x511x1x1, .i32⟩) main_call9_v9) (TRef.of (T := ⟨S4x511x1x1, .i1⟩) main_call9_v10) (cmpi .sle),
    TRef.binary (TRef.of (T := ⟨S4x511x1x1, .i1⟩) main_call9_v7) (TRef.of (T := ⟨S4x511x1x1, .i1⟩) main_call9_v10) (TRef.of (T := ⟨S4x511x1x1, .i1⟩) main_call9_v11) andi,
    TRef.nullary (TRef.of (T := ⟨S_, .i1⟩) main_call9_c_3) (constantI S_ 1 1#1),
    TRef.binary (TRef.of (T := ⟨S4x511x1x1, .i1⟩) main_call9_v11) (TRef.of (T := ⟨S_, .i1⟩) main_call9_c_3) (TRef.of (T := ⟨S4x511x1, .i1⟩) main_call9_v12) (fun x v => Host.reduce IntOp.andi x v reducesTo_S4x511x1x1_S4x511x1_d3 h_S_),
    TRef.binary (TRef.of (T := ⟨S4x511x32000, .f32⟩) main_v88) (TRef.of (T := ⟨S4x511x1x1, .i32⟩) main_call9_v5) (TRef.of (T := ⟨S4x511x1, .f32⟩) main_call9_v13) (fun x i => Host.gather gather_S4x511x32000_S4x511x1x1_S4x511x1_n_2_01_01_2_3_111 x i),
    TRef.nullary (TRef.of (T := ⟨S_, .f32⟩) main_call9_cst) (constant S_ .f32 0x7FC00000#32),
    TRef.unary (TRef.of (T := ⟨S_, .f32⟩) main_call9_cst) (TRef.of (T := ⟨S4x511x1, .f32⟩) main_call9_v14) (broadcastInDim S4x511x1 ![] bcast_S_S4x511x1),
    TRef.ternary (TRef.of (T := ⟨S4x511x1, .i1⟩) main_call9_v12) (TRef.of (T := ⟨S4x511x1, .f32⟩) main_call9_v13) (TRef.of (T := ⟨S4x511x1, .f32⟩) main_call9_v14) (TRef.of (T := ⟨S4x511x1, .f32⟩) main_v90) select,
    reshape main_v90 main_v91 rfl shapeCasts_S4x511x1_S4x511,
    unary main_v1 main_v92 ((extractStridedSlice S4x511x32000 ![0, 0, 0] · slices_S4x513x32000_S4x511x32000_0_0_0) : (⟨S4x513x32000, .f32⟩ : BufTy).Contents (Elt F) → (⟨S4x511x32000, .f32⟩ : BufTy).Contents (Elt F)),
    unary main_v85 main_v93 (broadcastInDim S4x511x1 ![0, 1] bcast_S4x511_S4x511x1_0_1 : (⟨S4x511, .i32⟩ : BufTy).Contents (Elt F) → (⟨S4x511x1, .i32⟩ : BufTy).Contents (Elt F)),
    TRef.nullary (TRef.of (T := ⟨S_, .i32⟩) main_call10_c) (constantI S_ 32 0#32),
    TRef.unary (TRef.of (T := ⟨S_, .i32⟩) main_call10_c) (TRef.of (T := ⟨S4x511x1, .i32⟩) main_call10_v0) (broadcastInDim S4x511x1 ![] bcast_S_S4x511x1),
    TRef.binary (TRef.of (T := ⟨S4x511x1, .i32⟩) main_v93) (TRef.of (T := ⟨S4x511x1, .i32⟩) main_call10_v0) (TRef.of (T := ⟨S4x511x1, .i1⟩) main_call10_v1) (cmpi .slt),
    TRef.nullary (TRef.of (T := ⟨S_, .i32⟩) main_call10_c_0) (constantI S_ 32 32000#32),
    TRef.unary (TRef.of (T := ⟨S_, .i32⟩) main_call10_c_0) (TRef.of (T := ⟨S4x511x1, .i32⟩) main_call10_v2) (broadcastInDim S4x511x1 ![] bcast_S_S4x511x1),
    TRef.binary (TRef.of (T := ⟨S4x511x1, .i32⟩) main_v93) (TRef.of (T := ⟨S4x511x1, .i32⟩) main_call10_v2) (TRef.of (T := ⟨S4x511x1, .i32⟩) main_call10_v3) addi,
    TRef.ternary (TRef.of (T := ⟨S4x511x1, .i1⟩) main_call10_v1) (TRef.of (T := ⟨S4x511x1, .i32⟩) main_call10_v3) (TRef.of (T := ⟨S4x511x1, .i32⟩) main_v93) (TRef.of (T := ⟨S4x511x1, .i32⟩) main_call10_v4) select,
    TRef.reshape (TRef.of (T := ⟨S4x511x1, .i32⟩) main_call10_v4) (TRef.of (T := ⟨S4x511x1x1, .i32⟩) main_call10_v5) rfl shapeCasts_S4x511x1_S4x511x1x1,
    TRef.nullary (TRef.of (T := ⟨S1, .i32⟩) main_call10_c_1) (constantI S1 32 31999#32),
    TRef.nullary (TRef.of (T := ⟨S_, .i32⟩) main_call10_c_2) (constantI S_ 32 0#32),
    TRef.unary (TRef.of (T := ⟨S_, .i32⟩) main_call10_c_2) (TRef.of (T := ⟨S4x511x1x1, .i32⟩) main_call10_v6) (broadcastInDim S4x511x1x1 ![] bcast_S_S4x511x1x1),
    TRef.binary (TRef.of (T := ⟨S4x511x1x1, .i32⟩) main_call10_v5) (TRef.of (T := ⟨S4x511x1x1, .i32⟩) main_call10_v6) (TRef.of (T := ⟨S4x511x1x1, .i1⟩) main_call10_v7) (cmpi .sge),
    TRef.unary (TRef.of (T := ⟨S1, .i32⟩) main_call10_c_1) (TRef.of (T := ⟨S1x1x1x1, .i32⟩) main_call10_v8) (broadcastInDim S1x1x1x1 ![3] bcast_S1_S1x1x1x1_3),
    TRef.unary (TRef.of (T := ⟨S1x1x1x1, .i32⟩) main_call10_v8) (TRef.of (T := ⟨S4x511x1x1, .i32⟩) main_call10_v9) (broadcastInDim S4x511x1x1 ![0, 1, 2, 3] bcast_S1x1x1x1_S4x511x1x1_0_1_2_3),
    TRef.binary (TRef.of (T := ⟨S4x511x1x1, .i32⟩) main_call10_v5) (TRef.of (T := ⟨S4x511x1x1, .i32⟩) main_call10_v9) (TRef.of (T := ⟨S4x511x1x1, .i1⟩) main_call10_v10) (cmpi .sle),
    TRef.binary (TRef.of (T := ⟨S4x511x1x1, .i1⟩) main_call10_v7) (TRef.of (T := ⟨S4x511x1x1, .i1⟩) main_call10_v10) (TRef.of (T := ⟨S4x511x1x1, .i1⟩) main_call10_v11) andi,
    TRef.nullary (TRef.of (T := ⟨S_, .i1⟩) main_call10_c_3) (constantI S_ 1 1#1),
    TRef.binary (TRef.of (T := ⟨S4x511x1x1, .i1⟩) main_call10_v11) (TRef.of (T := ⟨S_, .i1⟩) main_call10_c_3) (TRef.of (T := ⟨S4x511x1, .i1⟩) main_call10_v12) (fun x v => Host.reduce IntOp.andi x v reducesTo_S4x511x1x1_S4x511x1_d3 h_S_),
    TRef.binary (TRef.of (T := ⟨S4x511x32000, .f32⟩) main_v92) (TRef.of (T := ⟨S4x511x1x1, .i32⟩) main_call10_v5) (TRef.of (T := ⟨S4x511x1, .f32⟩) main_call10_v13) (fun x i => Host.gather gather_S4x511x32000_S4x511x1x1_S4x511x1_n_2_01_01_2_3_111 x i),
    TRef.nullary (TRef.of (T := ⟨S_, .f32⟩) main_call10_cst) (constant S_ .f32 0x7FC00000#32),
    TRef.unary (TRef.of (T := ⟨S_, .f32⟩) main_call10_cst) (TRef.of (T := ⟨S4x511x1, .f32⟩) main_call10_v14) (broadcastInDim S4x511x1 ![] bcast_S_S4x511x1),
    TRef.ternary (TRef.of (T := ⟨S4x511x1, .i1⟩) main_call10_v12) (TRef.of (T := ⟨S4x511x1, .f32⟩) main_call10_v13) (TRef.of (T := ⟨S4x511x1, .f32⟩) main_call10_v14) (TRef.of (T := ⟨S4x511x1, .f32⟩) main_v94) select,
    reshape main_v94 main_v95 rfl shapeCasts_S4x511x1_S4x511,
    binary main_v91 main_v87 main_v96 (mulf : (⟨S4x511, .f32⟩ : BufTy).Contents (Elt F) → (⟨S4x511, .f32⟩ : BufTy).Contents (Elt F) → (⟨S4x511, .f32⟩ : BufTy).Contents (Elt F)),
    nullary main_cst_20 (constant S_ .f32 0x00000000#32),
    binary main_v96 main_cst_20 main_v97 ((fun x v => Host.reduceAdd x v reducesTo_S4x511_S_d0_1 h_S_) : (⟨S4x511, .f32⟩ : BufTy).Contents (Elt F) → (⟨S_, .f32⟩ : BufTy).Contents (Elt F) → (⟨S_, .f32⟩ : BufTy).Contents (Elt F)),
    nullary main_cst_21 (constant S_ .f32 0x00000000#32),
    binary main_v87 main_cst_21 main_v98 ((fun x v => Host.reduceAdd x v reducesTo_S4x511_S_d0_1 h_S_) : (⟨S4x511, .f32⟩ : BufTy).Contents (Elt F) → (⟨S_, .f32⟩ : BufTy).Contents (Elt F) → (⟨S_, .f32⟩ : BufTy).Contents (Elt F)),
    binary main_v97 main_v98 main_v99 (Host.divf : (⟨S_, .f32⟩ : BufTy).Contents (Elt F) → (⟨S_, .f32⟩ : BufTy).Contents (Elt F) → (⟨S_, .f32⟩ : BufTy).Contents (Elt F)),
    binary main_v95 main_v87 main_v100 (mulf : (⟨S4x511, .f32⟩ : BufTy).Contents (Elt F) → (⟨S4x511, .f32⟩ : BufTy).Contents (Elt F) → (⟨S4x511, .f32⟩ : BufTy).Contents (Elt F)),
    nullary main_cst_22 (constant S_ .f32 0x00000000#32),
    binary main_v100 main_cst_22 main_v101 ((fun x v => Host.reduceAdd x v reducesTo_S4x511_S_d0_1 h_S_) : (⟨S4x511, .f32⟩ : BufTy).Contents (Elt F) → (⟨S_, .f32⟩ : BufTy).Contents (Elt F) → (⟨S_, .f32⟩ : BufTy).Contents (Elt F)),
    nullary main_cst_23 (constant S_ .f32 0x00000000#32),
    binary main_v87 main_cst_23 main_v102 ((fun x v => Host.reduceAdd x v reducesTo_S4x511_S_d0_1 h_S_) : (⟨S4x511, .f32⟩ : BufTy).Contents (Elt F) → (⟨S_, .f32⟩ : BufTy).Contents (Elt F) → (⟨S_, .f32⟩ : BufTy).Contents (Elt F)),
    binary main_v101 main_v102 main_v103 (Host.divf : (⟨S_, .f32⟩ : BufTy).Contents (Elt F) → (⟨S_, .f32⟩ : BufTy).Contents (Elt F) → (⟨S_, .f32⟩ : BufTy).Contents (Elt F)),
    binary main_v99 main_v103 main_v104 (subf : (⟨S_, .f32⟩ : BufTy).Contents (Elt F) → (⟨S_, .f32⟩ : BufTy).Contents (Elt F) → (⟨S_, .f32⟩ : BufTy).Contents (Elt F)),
    nullary main_cst_24 (constant S_ .f32 0x3E99999A#32),
    binary main_cst_24 main_v84 main_v105 (mulf : (⟨S_, .f32⟩ : BufTy).Contents (Elt F) → (⟨S_, .f32⟩ : BufTy).Contents (Elt F) → (⟨S_, .f32⟩ : BufTy).Contents (Elt F)),
    binary main_v70 main_v105 main_v106 (addf : (⟨S_, .f32⟩ : BufTy).Contents (Elt F) → (⟨S_, .f32⟩ : BufTy).Contents (Elt F) → (⟨S_, .f32⟩ : BufTy).Contents (Elt F)) ]

set_option maxHeartbeats 4000000 in
/-- The program's operations are those of the two calls followed by the rest. -/
theorem ops_split : (ops : List (HloOp τ sig (Elt F))) = opsA ++ opsB := rfl

end Cert.RefTail

end
-- ==== Proof.RefTailCast.lean ====
import Idealize.ShloMosaic.Lib.StableHlo

/-! Contents moved along a typed reference's type equation to its buffer's own type, and back, are unchanged. -/

namespace Cert.RefTail

open Idealize.ShloMosaic Idealize.ShloMosaic.StableHlo

/-- Contents moved to a buffer's own type and back are the contents. -/
theorem ofBuf_toBuf {sig : RefSig} {Val : EltTy → Type} {T : BufTy} (x : TRef sig T) (v : T.Contents Val) :
    x.ofBuf (x.toBuf v) = v := by
  unfold TRef.ofBuf TRef.toBuf
  rw [cast_cast, cast_eq]

end Cert.RefTail
-- ==== Proof.RefTailA.lean ====
import proofs.«424779_j13597866459574_3_alg».proof.Proof.ReadP
import proofs.«424779_j13597866459574_3_alg».proof.Proof.RefTailCut
import proofs.«424779_j13597866459574_3_alg».proof.Proof.RefTailCast
import Idealize.ShloMosaic.Lib.StableHlo.Run

/-! Operations 1 to 30 of the reference program's 278, the two log-softmax calls: what they leave in main_v0 and main_v1, as stage functions of the first two arguments, and the argument arrays they do not touch. -/

set_option maxRecDepth 16384

noncomputable section

namespace Cert.RefTail

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

set_option maxHeartbeats 4000000 in
/-- `main_v0` after this stretch of operations is its stage function, given the stages it reads from before the stretch. -/
theorem opsA_main_v0 (W : Valuation τ sig (Elt F)) (x0 : (⟨S4x513x32000, .f32⟩ : BufTy).Contents (Elt F))
    (ha0 : W (Proc.devRef .tc main_arg0) = x0) :
    StableHlo.after (opsA (F := F)) W (Proc.devRef .tc main_v0)
      = Cert.ReferenceIdeal.ReadP.val_main_v0 (F := F) x0 := by
  subst ha0
  after_results_simp
  simp only [Cert.ReferenceIdeal.ReadP.val_main_call0_cst, Cert.ReferenceIdeal.ReadP.val_main_call0_v0, Cert.ReferenceIdeal.ReadP.val_main_call0_cst_0, Cert.ReferenceIdeal.ReadP.val_main_call0_v1, Cert.ReferenceIdeal.ReadP.val_main_call0_v2, Cert.ReferenceIdeal.ReadP.val_main_call0_v3, Cert.ReferenceIdeal.ReadP.val_main_call0_v4, Cert.ReferenceIdeal.ReadP.val_main_call0_v5, Cert.ReferenceIdeal.ReadP.val_main_call0_v6, Cert.ReferenceIdeal.ReadP.val_main_call0_cst_1, Cert.ReferenceIdeal.ReadP.val_main_call0_v7, Cert.ReferenceIdeal.ReadP.val_main_call0_v8, Cert.ReferenceIdeal.ReadP.val_main_call0_v9, Cert.ReferenceIdeal.ReadP.val_main_call0_v10, Cert.ReferenceIdeal.ReadP.val_main_v0]
  simp only [ofBuf_toBuf]
  rfl

set_option maxHeartbeats 4000000 in
/-- `main_v1` after this stretch of operations is its stage function, given the stages it reads from before the stretch. -/
theorem opsA_main_v1 (W : Valuation τ sig (Elt F)) (x1 : (⟨S4x513x32000, .f32⟩ : BufTy).Contents (Elt F))
    (ha1 : W (Proc.devRef .tc main_arg1) = x1) :
    StableHlo.after (opsA (F := F)) W (Proc.devRef .tc main_v1)
      = Cert.ReferenceIdeal.ReadP.val_main_v1 (F := F) x1 := by
  subst ha1
  after_results_simp
  simp only [Cert.ReferenceIdeal.ReadP.val_main_call1_cst, Cert.ReferenceIdeal.ReadP.val_main_call1_v0, Cert.ReferenceIdeal.ReadP.val_main_call1_cst_0, Cert.ReferenceIdeal.ReadP.val_main_call1_v1, Cert.ReferenceIdeal.ReadP.val_main_call1_v2, Cert.ReferenceIdeal.ReadP.val_main_call1_v3, Cert.ReferenceIdeal.ReadP.val_main_call1_v4, Cert.ReferenceIdeal.ReadP.val_main_call1_v5, Cert.ReferenceIdeal.ReadP.val_main_call1_v6, Cert.ReferenceIdeal.ReadP.val_main_call1_cst_1, Cert.ReferenceIdeal.ReadP.val_main_call1_v7, Cert.ReferenceIdeal.ReadP.val_main_call1_v8, Cert.ReferenceIdeal.ReadP.val_main_call1_v9, Cert.ReferenceIdeal.ReadP.val_main_call1_v10, Cert.ReferenceIdeal.ReadP.val_main_v1]
  simp only [ofBuf_toBuf]
  rfl

/-- An operation leaves alone the arrays that later operations still read. -/
abbrev opsAKeeps (op : HloOp τ sig (Elt F)) : Prop :=
  Proc.devRef (τ := τ) .tc main_arg2 ∉ op.writes
  ∧ Proc.devRef (τ := τ) .tc main_arg3 ∉ op.writes
  ∧ Proc.devRef (τ := τ) .tc main_arg4 ∉ op.writes
  ∧ Proc.devRef (τ := τ) .tc main_arg5 ∉ op.writes
  ∧ Proc.devRef (τ := τ) .tc main_arg6 ∉ op.writes
  ∧ Proc.devRef (τ := τ) .tc main_arg7 ∉ op.writes
  ∧ Proc.devRef (τ := τ) .tc main_arg8 ∉ op.writes
  ∧ Proc.devRef (τ := τ) .tc main_arg9 ∉ op.writes

set_option maxHeartbeats 4000000 in
/-- None of this stretch's operations writes one of them. -/
theorem opsA_keeps : (opsA : List (HloOp τ sig (Elt F))).Forall opsAKeeps := by
  simp only [opsA, List.Forall, opsAKeeps, StableHlo.nullary_writes, StableHlo.unary_writes, StableHlo.binary_writes, StableHlo.ternary_writes, StableHlo.reshape_writes, Finset.mem_singleton]
  repeat' apply And.intro
  all_goals exact StableHlo.devRef_ne_of_ne (by decide)

theorem opsA_keep_main_arg2 (W : Valuation τ sig (Elt F)) :
    StableHlo.after (opsA (F := F)) W (Proc.devRef .tc main_arg2) = W (Proc.devRef .tc main_arg2) :=
  StableHlo.after_of_forall_not_mem _ _ fun op hop => (List.forall_iff_forall_mem.mp opsA_keeps op hop).1
theorem opsA_keep_main_arg3 (W : Valuation τ sig (Elt F)) :
    StableHlo.after (opsA (F := F)) W (Proc.devRef .tc main_arg3) = W (Proc.devRef .tc main_arg3) :=
  StableHlo.after_of_forall_not_mem _ _ fun op hop => (List.forall_iff_forall_mem.mp opsA_keeps op hop).2.1
theorem opsA_keep_main_arg4 (W : Valuation τ sig (Elt F)) :
    StableHlo.after (opsA (F := F)) W (Proc.devRef .tc main_arg4) = W (Proc.devRef .tc main_arg4) :=
  StableHlo.after_of_forall_not_mem _ _ fun op hop => (List.forall_iff_forall_mem.mp opsA_keeps op hop).2.2.1
theorem opsA_keep_main_arg5 (W : Valuation τ sig (Elt F)) :
    StableHlo.after (opsA (F := F)) W (Proc.devRef .tc main_arg5) = W (Proc.devRef .tc main_arg5) :=
  StableHlo.after_of_forall_not_mem _ _ fun op hop => (List.forall_iff_forall_mem.mp opsA_keeps op hop).2.2.2.1
theorem opsA_keep_main_arg6 (W : Valuation τ sig (Elt F)) :
    StableHlo.after (opsA (F := F)) W (Proc.devRef .tc main_arg6) = W (Proc.devRef .tc main_arg6) :=
  StableHlo.after_of_forall_not_mem _ _ fun op hop => (List.forall_iff_forall_mem.mp opsA_keeps op hop).2.2.2.2.1
theorem opsA_keep_main_arg7 (W : Valuation τ sig (Elt F)) :
    StableHlo.after (opsA (F := F)) W (Proc.devRef .tc main_arg7) = W (Proc.devRef .tc main_arg7) :=
  StableHlo.after_of_forall_not_mem _ _ fun op hop => (List.forall_iff_forall_mem.mp opsA_keeps op hop).2.2.2.2.2.1
theorem opsA_keep_main_arg8 (W : Valuation τ sig (Elt F)) :
    StableHlo.after (opsA (F := F)) W (Proc.devRef .tc main_arg8) = W (Proc.devRef .tc main_arg8) :=
  StableHlo.after_of_forall_not_mem _ _ fun op hop => (List.forall_iff_forall_mem.mp opsA_keeps op hop).2.2.2.2.2.2.1
theorem opsA_keep_main_arg9 (W : Valuation τ sig (Elt F)) :
    StableHlo.after (opsA (F := F)) W (Proc.devRef .tc main_arg9) = W (Proc.devRef .tc main_arg9) :=
  StableHlo.after_of_forall_not_mem _ _ fun op hop => (List.forall_iff_forall_mem.mp opsA_keeps op hop).2.2.2.2.2.2.2

end Cert.RefTail

end
-- ==== Proof.RefTailB1.lean ====
import proofs.«424779_j13597866459574_3_alg».proof.Proof.ReadP
import proofs.«424779_j13597866459574_3_alg».proof.Proof.RefTailCast
import Idealize.ShloMosaic.Lib.StableHlo.Run

/-! Operations 31 to 86 of the reference program's 278: what they leave in main_v8, main_v10, main_v14, main_v26, main_v27, as stage functions of the arguments, and the arrays they do not touch. -/

set_option maxRecDepth 16384

noncomputable section

namespace Cert.RefTail

open Cert.ReferenceIdeal Cert.ReferenceIdeal.Gen
open Idealize.ShloMosaic Idealize.ShloMosaic.TcCoe Idealize.SL.Sem Idealize.ShloMosaic.StableHlo

variable {F : FTy → Type} [FloatOps F]

/-- Operations 31 to 86 of the reference program, in order. -/
abbrev winB1 : List (HloOp τ sig (Elt F)) :=
  [ unary main_v0 main_v2 ((extractStridedSlice S4x512x32000 ![0, 0, 0] · slices_S4x513x32000_S4x512x32000_0_0_0) : (⟨S4x513x32000, .f32⟩ : BufTy).Contents (Elt F) → (⟨S4x512x32000, .f32⟩ : BufTy).Contents (Elt F)),
    unary main_arg2 main_v3 (broadcastInDim S4x512x1 ![0, 1] bcast_S4x512_S4x512x1_0_1 : (⟨S4x512, .i32⟩ : BufTy).Contents (Elt F) → (⟨S4x512x1, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S4x512x1, .i32⟩) main_call2_v0) (broadcastInDim S4x512x1 ![] bcast_S_S4x512x1),
    TRef.binary (TRef.of (T := ⟨S4x512x1, .i32⟩) main_v3) (TRef.of (T := ⟨S4x512x1, .i32⟩) main_call2_v0) (TRef.of (T := ⟨S4x512x1, .i1⟩) main_call2_v1) (cmpi .slt),
    TRef.nullary (TRef.of (T := ⟨S_, .i32⟩) main_call2_c_0) (constantI S_ 32 32000#32),
    TRef.unary (TRef.of (T := ⟨S_, .i32⟩) main_call2_c_0) (TRef.of (T := ⟨S4x512x1, .i32⟩) main_call2_v2) (broadcastInDim S4x512x1 ![] bcast_S_S4x512x1),
    TRef.binary (TRef.of (T := ⟨S4x512x1, .i32⟩) main_v3) (TRef.of (T := ⟨S4x512x1, .i32⟩) main_call2_v2) (TRef.of (T := ⟨S4x512x1, .i32⟩) main_call2_v3) addi,
    TRef.ternary (TRef.of (T := ⟨S4x512x1, .i1⟩) main_call2_v1) (TRef.of (T := ⟨S4x512x1, .i32⟩) main_call2_v3) (TRef.of (T := ⟨S4x512x1, .i32⟩) main_v3) (TRef.of (T := ⟨S4x512x1, .i32⟩) main_call2_v4) select,
    TRef.reshape (TRef.of (T := ⟨S4x512x1, .i32⟩) main_call2_v4) (TRef.of (T := ⟨S4x512x1x1, .i32⟩) main_call2_v5) rfl shapeCasts_S4x512x1_S4x512x1x1,
    TRef.nullary (TRef.of (T := ⟨S1, .i32⟩) main_call2_c_1) (constantI S1 32 31999#32),
    TRef.nullary (TRef.of (T := ⟨S_, .i32⟩) main_call2_c_2) (constantI S_ 32 0#32),
    TRef.unary (TRef.of (T := ⟨S_, .i32⟩) main_call2_c_2) (TRef.of (T := ⟨S4x512x1x1, .i32⟩) main_call2_v6) (broadcastInDim S4x512x1x1 ![] bcast_S_S4x512x1x1),
    TRef.binary (TRef.of (T := ⟨S4x512x1x1, .i32⟩) main_call2_v5) (TRef.of (T := ⟨S4x512x1x1, .i32⟩) main_call2_v6) (TRef.of (T := ⟨S4x512x1x1, .i1⟩) main_call2_v7) (cmpi .sge),
    TRef.unary (TRef.of (T := ⟨S1, .i32⟩) main_call2_c_1) (TRef.of (T := ⟨S1x1x1x1, .i32⟩) main_call2_v8) (broadcastInDim S1x1x1x1 ![3] bcast_S1_S1x1x1x1_3),
    TRef.unary (TRef.of (T := ⟨S1x1x1x1, .i32⟩) main_call2_v8) (TRef.of (T := ⟨S4x512x1x1, .i32⟩) main_call2_v9) (broadcastInDim S4x512x1x1 ![0, 1, 2, 3] bcast_S1x1x1x1_S4x512x1x1_0_1_2_3),
    TRef.binary (TRef.of (T := ⟨S4x512x1x1, .i32⟩) main_call2_v5) (TRef.of (T := ⟨S4x512x1x1, .i32⟩) main_call2_v9) (TRef.of (T := ⟨S4x512x1x1, .i1⟩) main_call2_v10) (cmpi .sle),
    TRef.binary (TRef.of (T := ⟨S4x512x1x1, .i1⟩) main_call2_v7) (TRef.of (T := ⟨S4x512x1x1, .i1⟩) main_call2_v10) (TRef.of (T := ⟨S4x512x1x1, .i1⟩) main_call2_v11) andi,
    TRef.nullary (TRef.of (T := ⟨S_, .i1⟩) main_call2_c_3) (constantI S_ 1 1#1),
    TRef.binary (TRef.of (T := ⟨S4x512x1x1, .i1⟩) main_call2_v11) (TRef.of (T := ⟨S_, .i1⟩) main_call2_c_3) (TRef.of (T := ⟨S4x512x1, .i1⟩) main_call2_v12) (fun x v => Host.reduce IntOp.andi x v reducesTo_S4x512x1x1_S4x512x1_d3 h_S_),
    TRef.binary (TRef.of (T := ⟨S4x512x32000, .f32⟩) main_v2) (TRef.of (T := ⟨S4x512x1x1, .i32⟩) main_call2_v5) (TRef.of (T := ⟨S4x512x1, .f32⟩) main_call2_v13) (fun x i => Host.gather gather_S4x512x32000_S4x512x1x1_S4x512x1_n_2_01_01_2_3_111 x i),
    TRef.nullary (TRef.of (T := ⟨S_, .f32⟩) main_call2_cst) (constant S_ .f32 0x7FC00000#32),
    TRef.unary (TRef.of (T := ⟨S_, .f32⟩) main_call2_cst) (TRef.of (T := ⟨S4x512x1, .f32⟩) main_call2_v14) (broadcastInDim S4x512x1 ![] bcast_S_S4x512x1),
    TRef.ternary (TRef.of (T := ⟨S4x512x1, .i1⟩) main_call2_v12) (TRef.of (T := ⟨S4x512x1, .f32⟩) main_call2_v13) (TRef.of (T := ⟨S4x512x1, .f32⟩) main_call2_v14) (TRef.of (T := ⟨S4x512x1, .f32⟩) main_v4) select,
    reshape main_v4 main_v5 rfl shapeCasts_S4x512x1_S4x512,
    unary main_v5 main_v6 (Host.negf : (⟨S4x512, .f32⟩ : BufTy).Contents (Elt F) → (⟨S4x512, .f32⟩ : BufTy).Contents (Elt F)),
    nullary main_c (constantI S_ 32 4294967295#32),
    unary main_c main_v7 (broadcastInDim S4x512 ![] bcast_S_S4x512 : (⟨S_, .i32⟩ : BufTy).Contents (Elt F) → (⟨S4x512, .i32⟩ : BufTy).Contents (Elt F)),
    binary main_arg4 main_v7 main_v8 (cmpi .ne : (⟨S4x512, .i32⟩ : BufTy).Contents (Elt F) → (⟨S4x512, .i32⟩ : BufTy).Contents (Elt F) → (⟨S4x512, .i1⟩ : BufTy).Contents (Elt F)),
    unary main_v8 main_v9 (uitofp .f32 : (⟨S4x512, .i1⟩ : BufTy).Contents (Elt F) → (⟨S4x512, .f32⟩ : BufTy).Contents (Elt F)),
    binary main_v6 main_v9 main_v10 (mulf : (⟨S4x512, .f32⟩ : BufTy).Contents (Elt F) → (⟨S4x512, .f32⟩ : BufTy).Contents (Elt F) → (⟨S4x512, .f32⟩ : BufTy).Contents (Elt F)),
    nullary main_c_0 (constantI S_ 32 0#32),
    TRef.unary (TRef.of (T := ⟨S_, .i32⟩) main_c_0) (TRef.of (T := ⟨S_, .i32⟩) main_call3_v0) id,
    TRef.unary (TRef.of (T := ⟨S_, .i32⟩) main_call3_v0) (TRef.of (T := ⟨S4x512, .i32⟩) main_call3_v1) (broadcastInDim S4x512 ![] bcast_S_S4x512),
    TRef.ternary (TRef.of (T := ⟨S4x512, .i1⟩) main_v8) (TRef.of (T := ⟨S4x512, .i32⟩) main_arg4) (TRef.of (T := ⟨S4x512, .i32⟩) main_call3_v1) (TRef.of (T := ⟨S4x512, .i32⟩) main_v11) select,
    nullary main_v12 (iotaInDim S4 32 0),
    unary main_v12 main_v13 (broadcastInDim S4x1 ![0] bcast_S4_S4x1_0 : (⟨S4, .i32⟩ : BufTy).Contents (Elt F) → (⟨S4x1, .i32⟩ : BufTy).Contents (Elt F)),
    nullary main_cst (constant S_ .f32 0x00000000#32),
    unary main_cst main_v14 (broadcastInDim S4x512 ![] bcast_S_S4x512 : (⟨S_, .f32⟩ : BufTy).Contents (Elt F) → (⟨S4x512, .f32⟩ : BufTy).Contents (Elt F)),
    nullary main_c_1 (constantI S_ 32 0#32),
    unary main_c_1 main_v15 (broadcastInDim S4x1 ![] bcast_S_S4x1 : (⟨S_, .i32⟩ : BufTy).Contents (Elt F) → (⟨S4x1, .i32⟩ : BufTy).Contents (Elt F)),
    binary main_v13 main_v15 main_v16 (cmpi .slt : (⟨S4x1, .i32⟩ : BufTy).Contents (Elt F) → (⟨S4x1, .i32⟩ : BufTy).Contents (Elt F) → (⟨S4x1, .i1⟩ : BufTy).Contents (Elt F)),
    nullary main_c_2 (constantI S_ 32 4#32),
    unary main_c_2 main_v17 (broadcastInDim S4x1 ![] bcast_S_S4x1 : (⟨S_, .i32⟩ : BufTy).Contents (Elt F) → (⟨S4x1, .i32⟩ : BufTy).Contents (Elt F)),
    binary main_v13 main_v17 main_v18 (addi : (⟨S4x1, .i32⟩ : BufTy).Contents (Elt F) → (⟨S4x1, .i32⟩ : BufTy).Contents (Elt F) → (⟨S4x1, .i32⟩ : BufTy).Contents (Elt F)),
    ternary main_v16 main_v18 main_v13 main_v19 (select : (⟨S4x1, .i1⟩ : BufTy).Contents (Elt F) → (⟨S4x1, .i32⟩ : BufTy).Contents (Elt F) → (⟨S4x1, .i32⟩ : BufTy).Contents (Elt F) → (⟨S4x1, .i32⟩ : BufTy).Contents (Elt F)),
    nullary main_c_3 (constantI S_ 32 0#32),
    unary main_c_3 main_v20 (broadcastInDim S4x512 ![] bcast_S_S4x512 : (⟨S_, .i32⟩ : BufTy).Contents (Elt F) → (⟨S4x512, .i32⟩ : BufTy).Contents (Elt F)),
    binary main_v11 main_v20 main_v21 (cmpi .slt : (⟨S4x512, .i32⟩ : BufTy).Contents (Elt F) → (⟨S4x512, .i32⟩ : BufTy).Contents (Elt F) → (⟨S4x512, .i1⟩ : BufTy).Contents (Elt F)),
    nullary main_c_4 (constantI S_ 32 512#32),
    unary main_c_4 main_v22 (broadcastInDim S4x512 ![] bcast_S_S4x512 : (⟨S_, .i32⟩ : BufTy).Contents (Elt F) → (⟨S4x512, .i32⟩ : BufTy).Contents (Elt F)),
    binary main_v11 main_v22 main_v23 (addi : (⟨S4x512, .i32⟩ : BufTy).Contents (Elt F) → (⟨S4x512, .i32⟩ : BufTy).Contents (Elt F) → (⟨S4x512, .i32⟩ : BufTy).Contents (Elt F)),
    ternary main_v21 main_v23 main_v11 main_v24 (select : (⟨S4x512, .i1⟩ : BufTy).Contents (Elt F) → (⟨S4x512, .i32⟩ : BufTy).Contents (Elt F) → (⟨S4x512, .i32⟩ : BufTy).Contents (Elt F) → (⟨S4x512, .i32⟩ : BufTy).Contents (Elt F)),
    unary main_v19 main_v25 (broadcastInDim S4x512 ![0, 1] bcast_S4x1_S4x512_0_1 : (⟨S4x1, .i32⟩ : BufTy).Contents (Elt F) → (⟨S4x512, .i32⟩ : BufTy).Contents (Elt F)),
    unary main_v25 main_v26 (broadcastInDim S4x512x1 ![0, 1] bcast_S4x512_S4x512x1_0_1 : (⟨S4x512, .i32⟩ : BufTy).Contents (Elt F) → (⟨S4x512x1, .i32⟩ : BufTy).Contents (Elt F)),
    unary main_v24 main_v27 (broadcastInDim S4x512x1 ![0, 1] bcast_S4x512_S4x512x1_0_1 : (⟨S4x512, .i32⟩ : BufTy).Contents (Elt F) → (⟨S4x512x1, .i32⟩ : BufTy).Contents (Elt F)) ]

set_option maxHeartbeats 4000000 in
/-- `main_v8` after this stretch of operations is its stage function, given the stages it reads from before the stretch. -/
theorem winB1_main_v8 (W : Valuation τ sig (Elt F)) (x4 : (⟨S4x512, .i32⟩ : BufTy).Contents (Elt F))
    (ha4 : W (Proc.devRef .tc main_arg4) = x4) :
    StableHlo.after (winB1 (F := F)) W (Proc.devRef .tc main_v8)
      = Cert.ReferenceIdeal.ReadP.val_main_v8 (F := F) x4 := by
  subst ha4
  after_results_simp
  simp only [Cert.ReferenceIdeal.ReadP.val_main_c, Cert.ReferenceIdeal.ReadP.val_main_v7, Cert.ReferenceIdeal.ReadP.val_main_v8]

set_option maxHeartbeats 4000000 in
/-- `main_v10` after this stretch of operations is its stage function, given the stages it reads from before the stretch. -/
theorem winB1_main_v10 (W : Valuation τ sig (Elt F)) (x0 : (⟨S4x513x32000, .f32⟩ : BufTy).Contents (Elt F)) (x2 : (⟨S4x512, .i32⟩ : BufTy).Contents (Elt F)) (x4 : (⟨S4x512, .i32⟩ : BufTy).Contents (Elt F))
    (ha2 : W (Proc.devRef .tc main_arg2) = x2)
    (ha4 : W (Proc.devRef .tc main_arg4) = x4)
    (h_v0 : W (Proc.devRef .tc main_v0) = Cert.ReferenceIdeal.ReadP.val_main_v0 (F := F) x0) :
    StableHlo.after (winB1 (F := F)) W (Proc.devRef .tc main_v10)
      = Cert.ReferenceIdeal.ReadP.val_main_v10 (F := F) x0 x2 x4 := by
  subst ha2 ha4
  after_results_simp
  simp only [h_v0]
  simp only [Cert.ReferenceIdeal.ReadP.val_main_v2, Cert.ReferenceIdeal.ReadP.val_main_v3, Cert.ReferenceIdeal.ReadP.val_main_call2_c, Cert.ReferenceIdeal.ReadP.val_main_call2_v0, Cert.ReferenceIdeal.ReadP.val_main_call2_v1, Cert.ReferenceIdeal.ReadP.val_main_call2_c_0, Cert.ReferenceIdeal.ReadP.val_main_call2_v2, Cert.ReferenceIdeal.ReadP.val_main_call2_v3, Cert.ReferenceIdeal.ReadP.val_main_call2_v4, Cert.ReferenceIdeal.ReadP.val_main_call2_v5, Cert.ReferenceIdeal.ReadP.val_main_call2_c_1, Cert.ReferenceIdeal.ReadP.val_main_call2_c_2, Cert.ReferenceIdeal.ReadP.val_main_call2_v6, Cert.ReferenceIdeal.ReadP.val_main_call2_v7, Cert.ReferenceIdeal.ReadP.val_main_call2_v8, Cert.ReferenceIdeal.ReadP.val_main_call2_v9, Cert.ReferenceIdeal.ReadP.val_main_call2_v10, Cert.ReferenceIdeal.ReadP.val_main_call2_v11, Cert.ReferenceIdeal.ReadP.val_main_call2_c_3, Cert.ReferenceIdeal.ReadP.val_main_call2_v12, Cert.ReferenceIdeal.ReadP.val_main_call2_v13, Cert.ReferenceIdeal.ReadP.val_main_call2_cst, Cert.ReferenceIdeal.ReadP.val_main_call2_v14, Cert.ReferenceIdeal.ReadP.val_main_v4, Cert.ReferenceIdeal.ReadP.val_main_v5, Cert.ReferenceIdeal.ReadP.val_main_v6, Cert.ReferenceIdeal.ReadP.val_main_c, Cert.ReferenceIdeal.ReadP.val_main_v7, Cert.ReferenceIdeal.ReadP.val_main_v8, Cert.ReferenceIdeal.ReadP.val_main_v9, Cert.ReferenceIdeal.ReadP.val_main_v10]
  simp only [ofBuf_toBuf]
  rfl

set_option maxHeartbeats 4000000 in
/-- `main_v14` after this stretch of operations is its stage function, given the stages it reads from before the stretch. -/
theorem winB1_main_v14 (W : Valuation τ sig (Elt F))
    :
    StableHlo.after (winB1 (F := F)) W (Proc.devRef .tc main_v14)
      = Cert.ReferenceIdeal.ReadP.val_main_v14 (F := F) := by
  after_results_simp
  simp only [Cert.ReferenceIdeal.ReadP.val_main_cst, Cert.ReferenceIdeal.ReadP.val_main_v14]

set_option maxHeartbeats 4000000 in
/-- `main_v26` after this stretch of operations is its stage function, given the stages it reads from before the stretch. -/
theorem winB1_main_v26 (W : Valuation τ sig (Elt F))
    :
    StableHlo.after (winB1 (F := F)) W (Proc.devRef .tc main_v26)
      = Cert.ReferenceIdeal.ReadP.val_main_v26 (F := F) := by
  after_results_simp
  simp only [Cert.ReferenceIdeal.ReadP.val_main_v12, Cert.ReferenceIdeal.ReadP.val_main_v13, Cert.ReferenceIdeal.ReadP.val_main_c_1, Cert.ReferenceIdeal.ReadP.val_main_v15, Cert.ReferenceIdeal.ReadP.val_main_v16, Cert.ReferenceIdeal.ReadP.val_main_c_2, Cert.ReferenceIdeal.ReadP.val_main_v17, Cert.ReferenceIdeal.ReadP.val_main_v18, Cert.ReferenceIdeal.ReadP.val_main_v19, Cert.ReferenceIdeal.ReadP.val_main_v25, Cert.ReferenceIdeal.ReadP.val_main_v26]

set_option maxHeartbeats 4000000 in
/-- `main_v27` after this stretch of operations is its stage function, given the stages it reads from before the stretch. -/
theorem winB1_main_v27 (W : Valuation τ sig (Elt F)) (x4 : (⟨S4x512, .i32⟩ : BufTy).Contents (Elt F))
    (ha4 : W (Proc.devRef .tc main_arg4) = x4) :
    StableHlo.after (winB1 (F := F)) W (Proc.devRef .tc main_v27)
      = Cert.ReferenceIdeal.ReadP.val_main_v27 (F := F) x4 := by
  subst ha4
  after_results_simp
  simp only [Cert.ReferenceIdeal.ReadP.val_main_c, Cert.ReferenceIdeal.ReadP.val_main_v7, Cert.ReferenceIdeal.ReadP.val_main_v8, Cert.ReferenceIdeal.ReadP.val_main_c_0, Cert.ReferenceIdeal.ReadP.val_main_call3_v0, Cert.ReferenceIdeal.ReadP.val_main_call3_v1, Cert.ReferenceIdeal.ReadP.val_main_v11, Cert.ReferenceIdeal.ReadP.val_main_c_3, Cert.ReferenceIdeal.ReadP.val_main_v20, Cert.ReferenceIdeal.ReadP.val_main_v21, Cert.ReferenceIdeal.ReadP.val_main_c_4, Cert.ReferenceIdeal.ReadP.val_main_v22, Cert.ReferenceIdeal.ReadP.val_main_v23, Cert.ReferenceIdeal.ReadP.val_main_v24, Cert.ReferenceIdeal.ReadP.val_main_v27]
  simp only [ofBuf_toBuf]
  rfl

/-- An operation leaves alone the arrays that later operations still read. -/
abbrev winB1Keeps (op : HloOp τ sig (Elt F)) : Prop :=
  Proc.devRef (τ := τ) .tc main_arg2 ∉ op.writes
  ∧ Proc.devRef (τ := τ) .tc main_arg3 ∉ op.writes
  ∧ Proc.devRef (τ := τ) .tc main_arg4 ∉ op.writes
  ∧ Proc.devRef (τ := τ) .tc main_arg5 ∉ op.writes
  ∧ Proc.devRef (τ := τ) .tc main_arg6 ∉ op.writes
  ∧ Proc.devRef (τ := τ) .tc main_arg7 ∉ op.writes
  ∧ Proc.devRef (τ := τ) .tc main_arg8 ∉ op.writes
  ∧ Proc.devRef (τ := τ) .tc main_arg9 ∉ op.writes
  ∧ Proc.devRef (τ := τ) .tc main_v0 ∉ op.writes
  ∧ Proc.devRef (τ := τ) .tc main_v1 ∉ op.writes

set_option maxHeartbeats 4000000 in
/-- None of this stretch's operations writes one of them. -/
theorem winB1_keeps : (winB1 : List (HloOp τ sig (Elt F))).Forall winB1Keeps := by
  simp only [winB1, List.Forall, winB1Keeps, StableHlo.nullary_writes, StableHlo.unary_writes, StableHlo.binary_writes, StableHlo.ternary_writes, StableHlo.reshape_writes, Finset.mem_singleton]
  repeat' apply And.intro
  all_goals exact StableHlo.devRef_ne_of_ne (by decide)

theorem winB1_keep_main_arg2 (W : Valuation τ sig (Elt F)) :
    StableHlo.after (winB1 (F := F)) W (Proc.devRef .tc main_arg2) = W (Proc.devRef .tc main_arg2) :=
  StableHlo.after_of_forall_not_mem _ _ fun op hop => (List.forall_iff_forall_mem.mp winB1_keeps op hop).1
theorem winB1_keep_main_arg3 (W : Valuation τ sig (Elt F)) :
    StableHlo.after (winB1 (F := F)) W (Proc.devRef .tc main_arg3) = W (Proc.devRef .tc main_arg3) :=
  StableHlo.after_of_forall_not_mem _ _ fun op hop => (List.forall_iff_forall_mem.mp winB1_keeps op hop).2.1
theorem winB1_keep_main_arg4 (W : Valuation τ sig (Elt F)) :
    StableHlo.after (winB1 (F := F)) W (Proc.devRef .tc main_arg4) = W (Proc.devRef .tc main_arg4) :=
  StableHlo.after_of_forall_not_mem _ _ fun op hop => (List.forall_iff_forall_mem.mp winB1_keeps op hop).2.2.1
theorem winB1_keep_main_arg5 (W : Valuation τ sig (Elt F)) :
    StableHlo.after (winB1 (F := F)) W (Proc.devRef .tc main_arg5) = W (Proc.devRef .tc main_arg5) :=
  StableHlo.after_of_forall_not_mem _ _ fun op hop => (List.forall_iff_forall_mem.mp winB1_keeps op hop).2.2.2.1
theorem winB1_keep_main_arg6 (W : Valuation τ sig (Elt F)) :
    StableHlo.after (winB1 (F := F)) W (Proc.devRef .tc main_arg6) = W (Proc.devRef .tc main_arg6) :=
  StableHlo.after_of_forall_not_mem _ _ fun op hop => (List.forall_iff_forall_mem.mp winB1_keeps op hop).2.2.2.2.1
theorem winB1_keep_main_arg7 (W : Valuation τ sig (Elt F)) :
    StableHlo.after (winB1 (F := F)) W (Proc.devRef .tc main_arg7) = W (Proc.devRef .tc main_arg7) :=
  StableHlo.after_of_forall_not_mem _ _ fun op hop => (List.forall_iff_forall_mem.mp winB1_keeps op hop).2.2.2.2.2.1
theorem winB1_keep_main_arg8 (W : Valuation τ sig (Elt F)) :
    StableHlo.after (winB1 (F := F)) W (Proc.devRef .tc main_arg8) = W (Proc.devRef .tc main_arg8) :=
  StableHlo.after_of_forall_not_mem _ _ fun op hop => (List.forall_iff_forall_mem.mp winB1_keeps op hop).2.2.2.2.2.2.1
theorem winB1_keep_main_arg9 (W : Valuation τ sig (Elt F)) :
    StableHlo.after (winB1 (F := F)) W (Proc.devRef .tc main_arg9) = W (Proc.devRef .tc main_arg9) :=
  StableHlo.after_of_forall_not_mem _ _ fun op hop => (List.forall_iff_forall_mem.mp winB1_keeps op hop).2.2.2.2.2.2.2.1
theorem winB1_keep_main_v0 (W : Valuation τ sig (Elt F)) :
    StableHlo.after (winB1 (F := F)) W (Proc.devRef .tc main_v0) = W (Proc.devRef .tc main_v0) :=
  StableHlo.after_of_forall_not_mem _ _ fun op hop => (List.forall_iff_forall_mem.mp winB1_keeps op hop).2.2.2.2.2.2.2.2.1
theorem winB1_keep_main_v1 (W : Valuation τ sig (Elt F)) :
    StableHlo.after (winB1 (F := F)) W (Proc.devRef .tc main_v1) = W (Proc.devRef .tc main_v1) :=
  StableHlo.after_of_forall_not_mem _ _ fun op hop => (List.forall_iff_forall_mem.mp winB1_keeps op hop).2.2.2.2.2.2.2.2.2

end Cert.RefTail

end
-- ==== Proof.RefTailB2.lean ====
import proofs.«424779_j13597866459574_3_alg».proof.Proof.ReadP
import proofs.«424779_j13597866459574_3_alg».proof.Proof.RefTailCast
import Idealize.ShloMosaic.Lib.StableHlo.Run

/-! Operations 87 to 177 of the reference program's 278: what they leave in main_v60, as stage functions of the arguments, and the arrays they do not touch. -/

set_option maxRecDepth 16384

noncomputable section

namespace Cert.RefTail

open Cert.ReferenceIdeal Cert.ReferenceIdeal.Gen
open Idealize.ShloMosaic Idealize.ShloMosaic.TcCoe Idealize.SL.Sem Idealize.ShloMosaic.StableHlo

variable {F : FTy → Type} [FloatOps F]

/-- Operations 87 to 177 of the reference program, in order. -/
abbrev winB2 : List (HloOp τ sig (Elt F)) :=
  [ binary main_v26 main_v27 main_v28 ((fun a b => concatenate S4x512x2 2 [⟨S4x512x1, a⟩, ⟨S4x512x1, b⟩] concatenates_S4x512x1_S4x512x1_S4x512x2_d2) : (⟨S4x512x1, .i32⟩ : BufTy).Contents (Elt F) → (⟨S4x512x1, .i32⟩ : BufTy).Contents (Elt F) → (⟨S4x512x2, .i32⟩ : BufTy).Contents (Elt F)),
    ternary main_v14 main_v28 main_v10 main_v29 ((fun x i u => Host.scatterAdd scatter_S4x512_S4x512x2_S4x512_n_01_01_2 x i u) : (⟨S4x512, .f32⟩ : BufTy).Contents (Elt F) → (⟨S4x512x2, .i32⟩ : BufTy).Contents (Elt F) → (⟨S4x512, .f32⟩ : BufTy).Contents (Elt F) → (⟨S4x512, .f32⟩ : BufTy).Contents (Elt F)),
    nullary main_c_5 (constantI S_ 32 0#32),
    unary main_c_5 main_v30 (broadcastInDim S4x512 ![] bcast_S_S4x512 : (⟨S_, .i32⟩ : BufTy).Contents (Elt F) → (⟨S4x512, .i32⟩ : BufTy).Contents (Elt F)),
    binary main_arg4 main_v30 main_v31 (cmpi .sge : (⟨S4x512, .i32⟩ : BufTy).Contents (Elt F) → (⟨S4x512, .i32⟩ : BufTy).Contents (Elt F) → (⟨S4x512, .i1⟩ : BufTy).Contents (Elt F)),
    nullary main_c_6 (constantI S_ 32 512#32),
    unary main_c_6 main_v32 (broadcastInDim S4x512 ![] bcast_S_S4x512 : (⟨S_, .i32⟩ : BufTy).Contents (Elt F) → (⟨S4x512, .i32⟩ : BufTy).Contents (Elt F)),
    binary main_arg4 main_v32 main_v33 (cmpi .slt : (⟨S4x512, .i32⟩ : BufTy).Contents (Elt F) → (⟨S4x512, .i32⟩ : BufTy).Contents (Elt F) → (⟨S4x512, .i1⟩ : BufTy).Contents (Elt F)),
    binary main_v31 main_v33 main_v34 (andi : (⟨S4x512, .i1⟩ : BufTy).Contents (Elt F) → (⟨S4x512, .i1⟩ : BufTy).Contents (Elt F) → (⟨S4x512, .i1⟩ : BufTy).Contents (Elt F)),
    nullary main_c_7 (constantI S_ 32 0#32),
    nullary main_c_8 (constantI S_ 32 511#32),
    TRef.unary (TRef.of (T := ⟨S_, .i32⟩) main_c_7) (TRef.of (T := ⟨S_, .i32⟩) main_call4_v0) id,
    TRef.unary (TRef.of (T := ⟨S_, .i32⟩) main_call4_v0) (TRef.of (T := ⟨S4x512, .i32⟩) main_call4_v1) (broadcastInDim S4x512 ![] bcast_S_S4x512),
    TRef.binary (TRef.of (T := ⟨S4x512, .i32⟩) main_call4_v1) (TRef.of (T := ⟨S4x512, .i32⟩) main_arg4) (TRef.of (T := ⟨S4x512, .i32⟩) main_call4_v2) maxsi,
    TRef.unary (TRef.of (T := ⟨S_, .i32⟩) main_c_8) (TRef.of (T := ⟨S_, .i32⟩) main_call4_v3) id,
    TRef.unary (TRef.of (T := ⟨S_, .i32⟩) main_call4_v3) (TRef.of (T := ⟨S4x512, .i32⟩) main_call4_v4) (broadcastInDim S4x512 ![] bcast_S_S4x512),
    TRef.binary (TRef.of (T := ⟨S4x512, .i32⟩) main_call4_v4) (TRef.of (T := ⟨S4x512, .i32⟩) main_call4_v2) (TRef.of (T := ⟨S4x512, .i32⟩) main_v35) minsi,
    TRef.nullary (TRef.of (T := ⟨S_, .i32⟩) main_call5_c) (constantI S_ 32 0#32),
    TRef.unary (TRef.of (T := ⟨S_, .i32⟩) main_call5_c) (TRef.of (T := ⟨S4x512, .i32⟩) main_call5_v0) (broadcastInDim S4x512 ![] bcast_S_S4x512),
    TRef.binary (TRef.of (T := ⟨S4x512, .i32⟩) main_v35) (TRef.of (T := ⟨S4x512, .i32⟩) main_call5_v0) (TRef.of (T := ⟨S4x512, .i1⟩) main_call5_v1) (cmpi .slt),
    TRef.nullary (TRef.of (T := ⟨S_, .i32⟩) main_call5_c_0) (constantI S_ 32 512#32),
    TRef.unary (TRef.of (T := ⟨S_, .i32⟩) main_call5_c_0) (TRef.of (T := ⟨S4x512, .i32⟩) main_call5_v2) (broadcastInDim S4x512 ![] bcast_S_S4x512),
    TRef.binary (TRef.of (T := ⟨S4x512, .i32⟩) main_v35) (TRef.of (T := ⟨S4x512, .i32⟩) main_call5_v2) (TRef.of (T := ⟨S4x512, .i32⟩) main_call5_v3) addi,
    TRef.ternary (TRef.of (T := ⟨S4x512, .i1⟩) main_call5_v1) (TRef.of (T := ⟨S4x512, .i32⟩) main_call5_v3) (TRef.of (T := ⟨S4x512, .i32⟩) main_v35) (TRef.of (T := ⟨S4x512, .i32⟩) main_call5_v4) select,
    TRef.reshape (TRef.of (T := ⟨S4x512, .i32⟩) main_call5_v4) (TRef.of (T := ⟨S4x512x1, .i32⟩) main_call5_v5) rfl shapeCasts_S4x512_S4x512x1,
    TRef.nullary (TRef.of (T := ⟨S1, .i32⟩) main_call5_c_1) (constantI S1 32 511#32),
    TRef.nullary (TRef.of (T := ⟨S_, .i32⟩) main_call5_c_2) (constantI S_ 32 0#32),
    TRef.unary (TRef.of (T := ⟨S_, .i32⟩) main_call5_c_2) (TRef.of (T := ⟨S4x512x1, .i32⟩) main_call5_v6) (broadcastInDim S4x512x1 ![] bcast_S_S4x512x1),
    TRef.binary (TRef.of (T := ⟨S4x512x1, .i32⟩) main_call5_v5) (TRef.of (T := ⟨S4x512x1, .i32⟩) main_call5_v6) (TRef.of (T := ⟨S4x512x1, .i1⟩) main_call5_v7) (cmpi .sge),
    TRef.unary (TRef.of (T := ⟨S1, .i32⟩) main_call5_c_1) (TRef.of (T := ⟨S1x1x1, .i32⟩) main_call5_v8) (broadcastInDim S1x1x1 ![2] bcast_S1_S1x1x1_2),
    TRef.unary (TRef.of (T := ⟨S1x1x1, .i32⟩) main_call5_v8) (TRef.of (T := ⟨S4x512x1, .i32⟩) main_call5_v9) (broadcastInDim S4x512x1 ![0, 1, 2] bcast_S1x1x1_S4x512x1_0_1_2),
    TRef.binary (TRef.of (T := ⟨S4x512x1, .i32⟩) main_call5_v5) (TRef.of (T := ⟨S4x512x1, .i32⟩) main_call5_v9) (TRef.of (T := ⟨S4x512x1, .i1⟩) main_call5_v10) (cmpi .sle),
    TRef.binary (TRef.of (T := ⟨S4x512x1, .i1⟩) main_call5_v7) (TRef.of (T := ⟨S4x512x1, .i1⟩) main_call5_v10) (TRef.of (T := ⟨S4x512x1, .i1⟩) main_call5_v11) andi,
    TRef.nullary (TRef.of (T := ⟨S_, .i1⟩) main_call5_c_3) (constantI S_ 1 1#1),
    TRef.binary (TRef.of (T := ⟨S4x512x1, .i1⟩) main_call5_v11) (TRef.of (T := ⟨S_, .i1⟩) main_call5_c_3) (TRef.of (T := ⟨S4x512, .i1⟩) main_call5_v12) (fun x v => Host.reduce IntOp.andi x v reducesTo_S4x512x1_S4x512_d2 h_S_),
    TRef.binary (TRef.of (T := ⟨S4x512, .i32⟩) main_arg5) (TRef.of (T := ⟨S4x512x1, .i32⟩) main_call5_v5) (TRef.of (T := ⟨S4x512, .i32⟩) main_call5_v13) (fun x i => Host.gather gather_S4x512_S4x512x1_S4x512_n_1_0_0_1_2_11 x i),
    TRef.nullary (TRef.of (T := ⟨S_, .i32⟩) main_call5_c_4) (constantI S_ 32 2147483648#32),
    TRef.unary (TRef.of (T := ⟨S_, .i32⟩) main_call5_c_4) (TRef.of (T := ⟨S4x512, .i32⟩) main_call5_v14) (broadcastInDim S4x512 ![] bcast_S_S4x512),
    TRef.ternary (TRef.of (T := ⟨S4x512, .i1⟩) main_call5_v12) (TRef.of (T := ⟨S4x512, .i32⟩) main_call5_v13) (TRef.of (T := ⟨S4x512, .i32⟩) main_call5_v14) (TRef.of (T := ⟨S4x512, .i32⟩) main_v36) select,
    nullary main_c_9 (constantI S_ 32 4294967295#32),
    unary main_c_9 main_v37 (broadcastInDim S4x512 ![] bcast_S_S4x512 : (⟨S_, .i32⟩ : BufTy).Contents (Elt F) → (⟨S4x512, .i32⟩ : BufTy).Contents (Elt F)),
    binary main_v36 main_v37 main_v38 (cmpi .ne : (⟨S4x512, .i32⟩ : BufTy).Contents (Elt F) → (⟨S4x512, .i32⟩ : BufTy).Contents (Elt F) → (⟨S4x512, .i1⟩ : BufTy).Contents (Elt F)),
    binary main_v34 main_v38 main_v39 (andi : (⟨S4x512, .i1⟩ : BufTy).Contents (Elt F) → (⟨S4x512, .i1⟩ : BufTy).Contents (Elt F) → (⟨S4x512, .i1⟩ : BufTy).Contents (Elt F)),
    unary main_v36 main_v40 (sitofp .f32 : (⟨S4x512, .i32⟩ : BufTy).Contents (Elt F) → (⟨S4x512, .f32⟩ : BufTy).Contents (Elt F)),
    nullary main_cst_10 (constant S_ .f32 0x00000000#32),
    TRef.unary (TRef.of (T := ⟨S_, .f32⟩) main_cst_10) (TRef.of (T := ⟨S_, .f32⟩) main_call6_v0) id,
    TRef.unary (TRef.of (T := ⟨S_, .f32⟩) main_call6_v0) (TRef.of (T := ⟨S4x512, .f32⟩) main_call6_v1) (broadcastInDim S4x512 ![] bcast_S_S4x512),
    TRef.ternary (TRef.of (T := ⟨S4x512, .i1⟩) main_v39) (TRef.of (T := ⟨S4x512, .f32⟩) main_v40) (TRef.of (T := ⟨S4x512, .f32⟩) main_call6_v1) (TRef.of (T := ⟨S4x512, .f32⟩) main_v41) select,
    TRef.nullary (TRef.of (T := ⟨S_, .i32⟩) main_call7_c) (constantI S_ 32 0#32),
    TRef.unary (TRef.of (T := ⟨S_, .i32⟩) main_call7_c) (TRef.of (T := ⟨S4x512, .i32⟩) main_call7_v0) (broadcastInDim S4x512 ![] bcast_S_S4x512),
    TRef.binary (TRef.of (T := ⟨S4x512, .i32⟩) main_v35) (TRef.of (T := ⟨S4x512, .i32⟩) main_call7_v0) (TRef.of (T := ⟨S4x512, .i1⟩) main_call7_v1) (cmpi .slt),
    TRef.nullary (TRef.of (T := ⟨S_, .i32⟩) main_call7_c_0) (constantI S_ 32 512#32),
    TRef.unary (TRef.of (T := ⟨S_, .i32⟩) main_call7_c_0) (TRef.of (T := ⟨S4x512, .i32⟩) main_call7_v2) (broadcastInDim S4x512 ![] bcast_S_S4x512),
    TRef.binary (TRef.of (T := ⟨S4x512, .i32⟩) main_v35) (TRef.of (T := ⟨S4x512, .i32⟩) main_call7_v2) (TRef.of (T := ⟨S4x512, .i32⟩) main_call7_v3) addi,
    TRef.ternary (TRef.of (T := ⟨S4x512, .i1⟩) main_call7_v1) (TRef.of (T := ⟨S4x512, .i32⟩) main_call7_v3) (TRef.of (T := ⟨S4x512, .i32⟩) main_v35) (TRef.of (T := ⟨S4x512, .i32⟩) main_call7_v4) select,
    TRef.reshape (TRef.of (T := ⟨S4x512, .i32⟩) main_call7_v4) (TRef.of (T := ⟨S4x512x1, .i32⟩) main_call7_v5) rfl shapeCasts_S4x512_S4x512x1,
    TRef.nullary (TRef.of (T := ⟨S1, .i32⟩) main_call7_c_1) (constantI S1 32 511#32),
    TRef.nullary (TRef.of (T := ⟨S_, .i32⟩) main_call7_c_2) (constantI S_ 32 0#32),
    TRef.unary (TRef.of (T := ⟨S_, .i32⟩) main_call7_c_2) (TRef.of (T := ⟨S4x512x1, .i32⟩) main_call7_v6) (broadcastInDim S4x512x1 ![] bcast_S_S4x512x1),
    TRef.binary (TRef.of (T := ⟨S4x512x1, .i32⟩) main_call7_v5) (TRef.of (T := ⟨S4x512x1, .i32⟩) main_call7_v6) (TRef.of (T := ⟨S4x512x1, .i1⟩) main_call7_v7) (cmpi .sge),
    TRef.unary (TRef.of (T := ⟨S1, .i32⟩) main_call7_c_1) (TRef.of (T := ⟨S1x1x1, .i32⟩) main_call7_v8) (broadcastInDim S1x1x1 ![2] bcast_S1_S1x1x1_2),
    TRef.unary (TRef.of (T := ⟨S1x1x1, .i32⟩) main_call7_v8) (TRef.of (T := ⟨S4x512x1, .i32⟩) main_call7_v9) (broadcastInDim S4x512x1 ![0, 1, 2] bcast_S1x1x1_S4x512x1_0_1_2),
    TRef.binary (TRef.of (T := ⟨S4x512x1, .i32⟩) main_call7_v5) (TRef.of (T := ⟨S4x512x1, .i32⟩) main_call7_v9) (TRef.of (T := ⟨S4x512x1, .i1⟩) main_call7_v10) (cmpi .sle),
    TRef.binary (TRef.of (T := ⟨S4x512x1, .i1⟩) main_call7_v7) (TRef.of (T := ⟨S4x512x1, .i1⟩) main_call7_v10) (TRef.of (T := ⟨S4x512x1, .i1⟩) main_call7_v11) andi,
    TRef.nullary (TRef.of (T := ⟨S_, .i1⟩) main_call7_c_3) (constantI S_ 1 1#1),
    TRef.binary (TRef.of (T := ⟨S4x512x1, .i1⟩) main_call7_v11) (TRef.of (T := ⟨S_, .i1⟩) main_call7_c_3) (TRef.of (T := ⟨S4x512, .i1⟩) main_call7_v12) (fun x v => Host.reduce IntOp.andi x v reducesTo_S4x512x1_S4x512_d2 h_S_),
    TRef.binary (TRef.of (T := ⟨S4x512, .f32⟩) main_arg6) (TRef.of (T := ⟨S4x512x1, .i32⟩) main_call7_v5) (TRef.of (T := ⟨S4x512, .f32⟩) main_call7_v13) (fun x i => Host.gather gather_S4x512_S4x512x1_S4x512_n_1_0_0_1_2_11 x i),
    TRef.nullary (TRef.of (T := ⟨S_, .f32⟩) main_call7_cst) (constant S_ .f32 0x7FC00000#32),
    TRef.unary (TRef.of (T := ⟨S_, .f32⟩) main_call7_cst) (TRef.of (T := ⟨S4x512, .f32⟩) main_call7_v14) (broadcastInDim S4x512 ![] bcast_S_S4x512),
    TRef.ternary (TRef.of (T := ⟨S4x512, .i1⟩) main_call7_v12) (TRef.of (T := ⟨S4x512, .f32⟩) main_call7_v13) (TRef.of (T := ⟨S4x512, .f32⟩) main_call7_v14) (TRef.of (T := ⟨S4x512, .f32⟩) main_v42) select,
    nullary main_cst_11 (constant S_ .f32 0x00000000#32),
    TRef.unary (TRef.of (T := ⟨S_, .f32⟩) main_cst_11) (TRef.of (T := ⟨S_, .f32⟩) main_call8_v0) id,
    TRef.unary (TRef.of (T := ⟨S_, .f32⟩) main_call8_v0) (TRef.of (T := ⟨S4x512, .f32⟩) main_call8_v1) (broadcastInDim S4x512 ![] bcast_S_S4x512),
    TRef.ternary (TRef.of (T := ⟨S4x512, .i1⟩) main_v39) (TRef.of (T := ⟨S4x512, .f32⟩) main_v42) (TRef.of (T := ⟨S4x512, .f32⟩) main_call8_v1) (TRef.of (T := ⟨S4x512, .f32⟩) main_v43) select,
    unary main_arg8 main_v44 ((extractStridedSlice S1 ![0] · slices_S3_S1_0) : (⟨S3, .f32⟩ : BufTy).Contents (Elt F) → (⟨S1, .f32⟩ : BufTy).Contents (Elt F)),
    reshape main_v44 main_v45 rfl shapeCasts_S1_S_,
    unary main_v45 main_v46 (broadcastInDim S4x512 ![] bcast_S_S4x512 : (⟨S_, .f32⟩ : BufTy).Contents (Elt F) → (⟨S4x512, .f32⟩ : BufTy).Contents (Elt F)),
    binary main_v29 main_v46 main_v47 (mulf : (⟨S4x512, .f32⟩ : BufTy).Contents (Elt F) → (⟨S4x512, .f32⟩ : BufTy).Contents (Elt F) → (⟨S4x512, .f32⟩ : BufTy).Contents (Elt F)),
    unary main_arg8 main_v48 ((extractStridedSlice S1 ![1] · slices_S3_S1_1) : (⟨S3, .f32⟩ : BufTy).Contents (Elt F) → (⟨S1, .f32⟩ : BufTy).Contents (Elt F)),
    reshape main_v48 main_v49 rfl shapeCasts_S1_S_,
    unary main_v49 main_v50 (broadcastInDim S4x512 ![] bcast_S_S4x512 : (⟨S_, .f32⟩ : BufTy).Contents (Elt F) → (⟨S4x512, .f32⟩ : BufTy).Contents (Elt F)),
    binary main_v41 main_v50 main_v51 (mulf : (⟨S4x512, .f32⟩ : BufTy).Contents (Elt F) → (⟨S4x512, .f32⟩ : BufTy).Contents (Elt F) → (⟨S4x512, .f32⟩ : BufTy).Contents (Elt F)),
    binary main_v47 main_v51 main_v52 (addf : (⟨S4x512, .f32⟩ : BufTy).Contents (Elt F) → (⟨S4x512, .f32⟩ : BufTy).Contents (Elt F) → (⟨S4x512, .f32⟩ : BufTy).Contents (Elt F)),
    unary main_arg8 main_v53 ((extractStridedSlice S1 ![2] · slices_S3_S1_2) : (⟨S3, .f32⟩ : BufTy).Contents (Elt F) → (⟨S1, .f32⟩ : BufTy).Contents (Elt F)),
    reshape main_v53 main_v54 rfl shapeCasts_S1_S_,
    unary main_v54 main_v55 (broadcastInDim S4x512 ![] bcast_S_S4x512 : (⟨S_, .f32⟩ : BufTy).Contents (Elt F) → (⟨S4x512, .f32⟩ : BufTy).Contents (Elt F)),
    binary main_v43 main_v55 main_v56 (mulf : (⟨S4x512, .f32⟩ : BufTy).Contents (Elt F) → (⟨S4x512, .f32⟩ : BufTy).Contents (Elt F) → (⟨S4x512, .f32⟩ : BufTy).Contents (Elt F)),
    binary main_v52 main_v56 main_v57 (addf : (⟨S4x512, .f32⟩ : BufTy).Contents (Elt F) → (⟨S4x512, .f32⟩ : BufTy).Contents (Elt F) → (⟨S4x512, .f32⟩ : BufTy).Contents (Elt F)),
    reshape main_arg9 main_v58 rfl shapeCasts_S1_S_,
    unary main_v58 main_v59 (broadcastInDim S4x512 ![] bcast_S_S4x512 : (⟨S_, .f32⟩ : BufTy).Contents (Elt F) → (⟨S4x512, .f32⟩ : BufTy).Contents (Elt F)),
    binary main_v57 main_v59 main_v60 (addf : (⟨S4x512, .f32⟩ : BufTy).Contents (Elt F) → (⟨S4x512, .f32⟩ : BufTy).Contents (Elt F) → (⟨S4x512, .f32⟩ : BufTy).Contents (Elt F)) ]

set_option maxHeartbeats 4000000 in
/-- `main_v60` after this stretch of operations is its stage function, given the stages it reads from before the stretch. -/
theorem winB2_main_v60 (W : Valuation τ sig (Elt F)) (x0 : (⟨S4x513x32000, .f32⟩ : BufTy).Contents (Elt F)) (x2 : (⟨S4x512, .i32⟩ : BufTy).Contents (Elt F)) (x4 : (⟨S4x512, .i32⟩ : BufTy).Contents (Elt F)) (x5 : (⟨S4x512, .i32⟩ : BufTy).Contents (Elt F)) (x6 : (⟨S4x512, .f32⟩ : BufTy).Contents (Elt F)) (x8 : (⟨S3, .f32⟩ : BufTy).Contents (Elt F)) (x9 : (⟨S1, .f32⟩ : BufTy).Contents (Elt F))
    (ha4 : W (Proc.devRef .tc main_arg4) = x4)
    (ha5 : W (Proc.devRef .tc main_arg5) = x5)
    (ha6 : W (Proc.devRef .tc main_arg6) = x6)
    (ha8 : W (Proc.devRef .tc main_arg8) = x8)
    (ha9 : W (Proc.devRef .tc main_arg9) = x9)
    (h_v10 : W (Proc.devRef .tc main_v10) = Cert.ReferenceIdeal.ReadP.val_main_v10 (F := F) x0 x2 x4)
    (h_v14 : W (Proc.devRef .tc main_v14) = Cert.ReferenceIdeal.ReadP.val_main_v14 (F := F))
    (h_v26 : W (Proc.devRef .tc main_v26) = Cert.ReferenceIdeal.ReadP.val_main_v26 (F := F))
    (h_v27 : W (Proc.devRef .tc main_v27) = Cert.ReferenceIdeal.ReadP.val_main_v27 (F := F) x4) :
    StableHlo.after (winB2 (F := F)) W (Proc.devRef .tc main_v60)
      = Cert.ReferenceIdeal.ReadP.val_main_v60 (F := F) x0 x2 x4 x5 x6 x8 x9 := by
  subst ha4 ha5 ha6 ha8 ha9
  after_results_simp
  rw [h_v26, h_v27]
  simp only [h_v10, h_v14]
  simp only [Cert.ReferenceIdeal.ReadP.val_main_v28, Cert.ReferenceIdeal.ReadP.val_main_v29, Cert.ReferenceIdeal.ReadP.val_main_c_5, Cert.ReferenceIdeal.ReadP.val_main_v30, Cert.ReferenceIdeal.ReadP.val_main_v31, Cert.ReferenceIdeal.ReadP.val_main_c_6, Cert.ReferenceIdeal.ReadP.val_main_v32, Cert.ReferenceIdeal.ReadP.val_main_v33, Cert.ReferenceIdeal.ReadP.val_main_v34, Cert.ReferenceIdeal.ReadP.val_main_c_7, Cert.ReferenceIdeal.ReadP.val_main_c_8, Cert.ReferenceIdeal.ReadP.val_main_call4_v0, Cert.ReferenceIdeal.ReadP.val_main_call4_v1, Cert.ReferenceIdeal.ReadP.val_main_call4_v2, Cert.ReferenceIdeal.ReadP.val_main_call4_v3, Cert.ReferenceIdeal.ReadP.val_main_call4_v4, Cert.ReferenceIdeal.ReadP.val_main_v35, Cert.ReferenceIdeal.ReadP.val_main_call5_c, Cert.ReferenceIdeal.ReadP.val_main_call5_v0, Cert.ReferenceIdeal.ReadP.val_main_call5_v1, Cert.ReferenceIdeal.ReadP.val_main_call5_c_0, Cert.ReferenceIdeal.ReadP.val_main_call5_v2, Cert.ReferenceIdeal.ReadP.val_main_call5_v3, Cert.ReferenceIdeal.ReadP.val_main_call5_v4, Cert.ReferenceIdeal.ReadP.val_main_call5_v5, Cert.ReferenceIdeal.ReadP.val_main_call5_c_1, Cert.ReferenceIdeal.ReadP.val_main_call5_c_2, Cert.ReferenceIdeal.ReadP.val_main_call5_v6, Cert.ReferenceIdeal.ReadP.val_main_call5_v7, Cert.ReferenceIdeal.ReadP.val_main_call5_v8, Cert.ReferenceIdeal.ReadP.val_main_call5_v9, Cert.ReferenceIdeal.ReadP.val_main_call5_v10, Cert.ReferenceIdeal.ReadP.val_main_call5_v11, Cert.ReferenceIdeal.ReadP.val_main_call5_c_3, Cert.ReferenceIdeal.ReadP.val_main_call5_v12, Cert.ReferenceIdeal.ReadP.val_main_call5_v13, Cert.ReferenceIdeal.ReadP.val_main_call5_c_4, Cert.ReferenceIdeal.ReadP.val_main_call5_v14, Cert.ReferenceIdeal.ReadP.val_main_v36, Cert.ReferenceIdeal.ReadP.val_main_c_9, Cert.ReferenceIdeal.ReadP.val_main_v37, Cert.ReferenceIdeal.ReadP.val_main_v38, Cert.ReferenceIdeal.ReadP.val_main_v39, Cert.ReferenceIdeal.ReadP.val_main_v40, Cert.ReferenceIdeal.ReadP.val_main_cst_10, Cert.ReferenceIdeal.ReadP.val_main_call6_v0, Cert.ReferenceIdeal.ReadP.val_main_call6_v1, Cert.ReferenceIdeal.ReadP.val_main_v41, Cert.ReferenceIdeal.ReadP.val_main_call7_c, Cert.ReferenceIdeal.ReadP.val_main_call7_v0, Cert.ReferenceIdeal.ReadP.val_main_call7_v1, Cert.ReferenceIdeal.ReadP.val_main_call7_c_0, Cert.ReferenceIdeal.ReadP.val_main_call7_v2, Cert.ReferenceIdeal.ReadP.val_main_call7_v3, Cert.ReferenceIdeal.ReadP.val_main_call7_v4, Cert.ReferenceIdeal.ReadP.val_main_call7_v5, Cert.ReferenceIdeal.ReadP.val_main_call7_c_1, Cert.ReferenceIdeal.ReadP.val_main_call7_c_2, Cert.ReferenceIdeal.ReadP.val_main_call7_v6, Cert.ReferenceIdeal.ReadP.val_main_call7_v7, Cert.ReferenceIdeal.ReadP.val_main_call7_v8, Cert.ReferenceIdeal.ReadP.val_main_call7_v9, Cert.ReferenceIdeal.ReadP.val_main_call7_v10, Cert.ReferenceIdeal.ReadP.val_main_call7_v11, Cert.ReferenceIdeal.ReadP.val_main_call7_c_3, Cert.ReferenceIdeal.ReadP.val_main_call7_v12, Cert.ReferenceIdeal.ReadP.val_main_call7_v13, Cert.ReferenceIdeal.ReadP.val_main_call7_cst, Cert.ReferenceIdeal.ReadP.val_main_call7_v14, Cert.ReferenceIdeal.ReadP.val_main_v42, Cert.ReferenceIdeal.ReadP.val_main_cst_11, Cert.ReferenceIdeal.ReadP.val_main_call8_v0, Cert.ReferenceIdeal.ReadP.val_main_call8_v1, Cert.ReferenceIdeal.ReadP.val_main_v43, Cert.ReferenceIdeal.ReadP.val_main_v44, Cert.ReferenceIdeal.ReadP.val_main_v45, Cert.ReferenceIdeal.ReadP.val_main_v46, Cert.ReferenceIdeal.ReadP.val_main_v47, Cert.ReferenceIdeal.ReadP.val_main_v48, Cert.ReferenceIdeal.ReadP.val_main_v49, Cert.ReferenceIdeal.ReadP.val_main_v50, Cert.ReferenceIdeal.ReadP.val_main_v51, Cert.ReferenceIdeal.ReadP.val_main_v52, Cert.ReferenceIdeal.ReadP.val_main_v53, Cert.ReferenceIdeal.ReadP.val_main_v54, Cert.ReferenceIdeal.ReadP.val_main_v55, Cert.ReferenceIdeal.ReadP.val_main_v56, Cert.ReferenceIdeal.ReadP.val_main_v57, Cert.ReferenceIdeal.ReadP.val_main_v58, Cert.ReferenceIdeal.ReadP.val_main_v59, Cert.ReferenceIdeal.ReadP.val_main_v60]
  simp only [ofBuf_toBuf]
  rfl

/-- An operation leaves alone the arrays that later operations still read. -/
abbrev winB2Keeps (op : HloOp τ sig (Elt F)) : Prop :=
  Proc.devRef (τ := τ) .tc main_arg2 ∉ op.writes
  ∧ Proc.devRef (τ := τ) .tc main_arg3 ∉ op.writes
  ∧ Proc.devRef (τ := τ) .tc main_arg7 ∉ op.writes
  ∧ Proc.devRef (τ := τ) .tc main_v0 ∉ op.writes
  ∧ Proc.devRef (τ := τ) .tc main_v1 ∉ op.writes
  ∧ Proc.devRef (τ := τ) .tc main_v8 ∉ op.writes

set_option maxHeartbeats 4000000 in
/-- None of this stretch's operations writes one of them. -/
theorem winB2_keeps : (winB2 : List (HloOp τ sig (Elt F))).Forall winB2Keeps := by
  simp only [winB2, List.Forall, winB2Keeps, StableHlo.nullary_writes, StableHlo.unary_writes, StableHlo.binary_writes, StableHlo.ternary_writes, StableHlo.reshape_writes, Finset.mem_singleton]
  repeat' apply And.intro
  all_goals exact StableHlo.devRef_ne_of_ne (by decide)

theorem winB2_keep_main_arg2 (W : Valuation τ sig (Elt F)) :
    StableHlo.after (winB2 (F := F)) W (Proc.devRef .tc main_arg2) = W (Proc.devRef .tc main_arg2) :=
  StableHlo.after_of_forall_not_mem _ _ fun op hop => (List.forall_iff_forall_mem.mp winB2_keeps op hop).1
theorem winB2_keep_main_arg3 (W : Valuation τ sig (Elt F)) :
    StableHlo.after (winB2 (F := F)) W (Proc.devRef .tc main_arg3) = W (Proc.devRef .tc main_arg3) :=
  StableHlo.after_of_forall_not_mem _ _ fun op hop => (List.forall_iff_forall_mem.mp winB2_keeps op hop).2.1
theorem winB2_keep_main_arg7 (W : Valuation τ sig (Elt F)) :
    StableHlo.after (winB2 (F := F)) W (Proc.devRef .tc main_arg7) = W (Proc.devRef .tc main_arg7) :=
  StableHlo.after_of_forall_not_mem _ _ fun op hop => (List.forall_iff_forall_mem.mp winB2_keeps op hop).2.2.1
theorem winB2_keep_main_v0 (W : Valuation τ sig (Elt F)) :
    StableHlo.after (winB2 (F := F)) W (Proc.devRef .tc main_v0) = W (Proc.devRef .tc main_v0) :=
  StableHlo.after_of_forall_not_mem _ _ fun op hop => (List.forall_iff_forall_mem.mp winB2_keeps op hop).2.2.2.1
theorem winB2_keep_main_v1 (W : Valuation τ sig (Elt F)) :
    StableHlo.after (winB2 (F := F)) W (Proc.devRef .tc main_v1) = W (Proc.devRef .tc main_v1) :=
  StableHlo.after_of_forall_not_mem _ _ fun op hop => (List.forall_iff_forall_mem.mp winB2_keeps op hop).2.2.2.2.1
theorem winB2_keep_main_v8 (W : Valuation τ sig (Elt F)) :
    StableHlo.after (winB2 (F := F)) W (Proc.devRef .tc main_v8) = W (Proc.devRef .tc main_v8) :=
  StableHlo.after_of_forall_not_mem _ _ fun op hop => (List.forall_iff_forall_mem.mp winB2_keeps op hop).2.2.2.2.2

end Cert.RefTail

end
-- ==== Proof.RefTailB3.lean ====
import proofs.«424779_j13597866459574_3_alg».proof.Proof.ReadP
import proofs.«424779_j13597866459574_3_alg».proof.Proof.RefTailCast
import Idealize.ShloMosaic.Lib.StableHlo.Run

/-! Operations 178 to 194 of the reference program's 278: what they leave in main_v69, main_v70, main_v71, main_v72, as stage functions of the arguments, and the arrays they do not touch. -/

set_option maxRecDepth 16384

noncomputable section

namespace Cert.RefTail

open Cert.ReferenceIdeal Cert.ReferenceIdeal.Gen
open Idealize.ShloMosaic Idealize.ShloMosaic.TcCoe Idealize.SL.Sem Idealize.ShloMosaic.StableHlo

variable {F : FTy → Type} [FloatOps F]

/-- Operations 178 to 194 of the reference program, in order. -/
abbrev winB3 : List (HloOp τ sig (Elt F)) :=
  [ nullary main_cst_12 (constant S_ .f32 0xBF800000#32),
    unary main_cst_12 main_v61 (broadcastInDim S4x512 ![] bcast_S_S4x512 : (⟨S_, .f32⟩ : BufTy).Contents (Elt F) → (⟨S4x512, .f32⟩ : BufTy).Contents (Elt F)),
    binary main_arg7 main_v61 main_v62 (cmpf .une : (⟨S4x512, .f32⟩ : BufTy).Contents (Elt F) → (⟨S4x512, .f32⟩ : BufTy).Contents (Elt F) → (⟨S4x512, .i1⟩ : BufTy).Contents (Elt F)),
    unary main_v62 main_v63 (uitofp .f32 : (⟨S4x512, .i1⟩ : BufTy).Contents (Elt F) → (⟨S4x512, .f32⟩ : BufTy).Contents (Elt F)),
    binary main_arg7 main_v60 main_v64 (subf : (⟨S4x512, .f32⟩ : BufTy).Contents (Elt F) → (⟨S4x512, .f32⟩ : BufTy).Contents (Elt F) → (⟨S4x512, .f32⟩ : BufTy).Contents (Elt F)),
    binary main_v64 main_v64 main_v65 (mulf : (⟨S4x512, .f32⟩ : BufTy).Contents (Elt F) → (⟨S4x512, .f32⟩ : BufTy).Contents (Elt F) → (⟨S4x512, .f32⟩ : BufTy).Contents (Elt F)),
    binary main_v65 main_v63 main_v66 (mulf : (⟨S4x512, .f32⟩ : BufTy).Contents (Elt F) → (⟨S4x512, .f32⟩ : BufTy).Contents (Elt F) → (⟨S4x512, .f32⟩ : BufTy).Contents (Elt F)),
    nullary main_cst_13 (constant S_ .f32 0x00000000#32),
    binary main_v66 main_cst_13 main_v67 ((fun x v => Host.reduceAdd x v reducesTo_S4x512_S_d0_1 h_S_) : (⟨S4x512, .f32⟩ : BufTy).Contents (Elt F) → (⟨S_, .f32⟩ : BufTy).Contents (Elt F) → (⟨S_, .f32⟩ : BufTy).Contents (Elt F)),
    nullary main_cst_14 (constant S_ .f32 0x00000000#32),
    binary main_v63 main_cst_14 main_v68 ((fun x v => Host.reduceAdd x v reducesTo_S4x512_S_d0_1 h_S_) : (⟨S4x512, .f32⟩ : BufTy).Contents (Elt F) → (⟨S_, .f32⟩ : BufTy).Contents (Elt F) → (⟨S_, .f32⟩ : BufTy).Contents (Elt F)),
    binary main_v67 main_v68 main_v69 (Host.divf : (⟨S_, .f32⟩ : BufTy).Contents (Elt F) → (⟨S_, .f32⟩ : BufTy).Contents (Elt F) → (⟨S_, .f32⟩ : BufTy).Contents (Elt F)),
    nullary main_cst_15 (constant S_ .f32 0x3F800000#32),
    binary main_cst_15 main_v69 main_v70 (mulf : (⟨S_, .f32⟩ : BufTy).Contents (Elt F) → (⟨S_, .f32⟩ : BufTy).Contents (Elt F) → (⟨S_, .f32⟩ : BufTy).Contents (Elt F)),
    nullary main_c_16 (constantI S_ 1 0#1),
    unary main_c_16 main_v71 (broadcastInDim S4x1 ![] bcast_S_S4x1 : (⟨S_, .i1⟩ : BufTy).Contents (Elt F) → (⟨S4x1, .i1⟩ : BufTy).Contents (Elt F)),
    unary main_v8 main_v72 ((extractStridedSlice S4x511 ![0, 0] · slices_S4x512_S4x511_0_0) : (⟨S4x512, .i1⟩ : BufTy).Contents (Elt F) → (⟨S4x511, .i1⟩ : BufTy).Contents (Elt F)) ]

set_option maxHeartbeats 4000000 in
/-- `main_v69` after this stretch of operations is its stage function, given the stages it reads from before the stretch. -/
theorem winB3_main_v69 (W : Valuation τ sig (Elt F)) (x0 : (⟨S4x513x32000, .f32⟩ : BufTy).Contents (Elt F)) (x2 : (⟨S4x512, .i32⟩ : BufTy).Contents (Elt F)) (x4 : (⟨S4x512, .i32⟩ : BufTy).Contents (Elt F)) (x5 : (⟨S4x512, .i32⟩ : BufTy).Contents (Elt F)) (x6 : (⟨S4x512, .f32⟩ : BufTy).Contents (Elt F)) (x7 : (⟨S4x512, .f32⟩ : BufTy).Contents (Elt F)) (x8 : (⟨S3, .f32⟩ : BufTy).Contents (Elt F)) (x9 : (⟨S1, .f32⟩ : BufTy).Contents (Elt F))
    (ha7 : W (Proc.devRef .tc main_arg7) = x7)
    (h_v60 : W (Proc.devRef .tc main_v60) = Cert.ReferenceIdeal.ReadP.val_main_v60 (F := F) x0 x2 x4 x5 x6 x8 x9) :
    StableHlo.after (winB3 (F := F)) W (Proc.devRef .tc main_v69)
      = Cert.ReferenceIdeal.ReadP.val_main_v69 (F := F) x0 x2 x4 x5 x6 x7 x8 x9 := by
  subst ha7
  after_results_simp
  simp only [h_v60]
  simp only [Cert.ReferenceIdeal.ReadP.val_main_cst_12, Cert.ReferenceIdeal.ReadP.val_main_v61, Cert.ReferenceIdeal.ReadP.val_main_v62, Cert.ReferenceIdeal.ReadP.val_main_v63, Cert.ReferenceIdeal.ReadP.val_main_v64, Cert.ReferenceIdeal.ReadP.val_main_v65, Cert.ReferenceIdeal.ReadP.val_main_v66, Cert.ReferenceIdeal.ReadP.val_main_cst_13, Cert.ReferenceIdeal.ReadP.val_main_v67, Cert.ReferenceIdeal.ReadP.val_main_cst_14, Cert.ReferenceIdeal.ReadP.val_main_v68, Cert.ReferenceIdeal.ReadP.val_main_v69]

set_option maxHeartbeats 4000000 in
/-- `main_v70` after this stretch of operations is its stage function, given the stages it reads from before the stretch. -/
theorem winB3_main_v70 (W : Valuation τ sig (Elt F)) (x0 : (⟨S4x513x32000, .f32⟩ : BufTy).Contents (Elt F)) (x2 : (⟨S4x512, .i32⟩ : BufTy).Contents (Elt F)) (x4 : (⟨S4x512, .i32⟩ : BufTy).Contents (Elt F)) (x5 : (⟨S4x512, .i32⟩ : BufTy).Contents (Elt F)) (x6 : (⟨S4x512, .f32⟩ : BufTy).Contents (Elt F)) (x7 : (⟨S4x512, .f32⟩ : BufTy).Contents (Elt F)) (x8 : (⟨S3, .f32⟩ : BufTy).Contents (Elt F)) (x9 : (⟨S1, .f32⟩ : BufTy).Contents (Elt F))
    (ha7 : W (Proc.devRef .tc main_arg7) = x7)
    (h_v60 : W (Proc.devRef .tc main_v60) = Cert.ReferenceIdeal.ReadP.val_main_v60 (F := F) x0 x2 x4 x5 x6 x8 x9) :
    StableHlo.after (winB3 (F := F)) W (Proc.devRef .tc main_v70)
      = Cert.ReferenceIdeal.ReadP.val_main_v70 (F := F) x0 x2 x4 x5 x6 x7 x8 x9 := by
  subst ha7
  after_results_simp
  simp only [h_v60]
  simp only [Cert.ReferenceIdeal.ReadP.val_main_cst_12, Cert.ReferenceIdeal.ReadP.val_main_v61, Cert.ReferenceIdeal.ReadP.val_main_v62, Cert.ReferenceIdeal.ReadP.val_main_v63, Cert.ReferenceIdeal.ReadP.val_main_v64, Cert.ReferenceIdeal.ReadP.val_main_v65, Cert.ReferenceIdeal.ReadP.val_main_v66, Cert.ReferenceIdeal.ReadP.val_main_cst_13, Cert.ReferenceIdeal.ReadP.val_main_v67, Cert.ReferenceIdeal.ReadP.val_main_cst_14, Cert.ReferenceIdeal.ReadP.val_main_v68, Cert.ReferenceIdeal.ReadP.val_main_v69, Cert.ReferenceIdeal.ReadP.val_main_cst_15, Cert.ReferenceIdeal.ReadP.val_main_v70]

set_option maxHeartbeats 4000000 in
/-- `main_v71` after this stretch of operations is its stage function, given the stages it reads from before the stretch. -/
theorem winB3_main_v71 (W : Valuation τ sig (Elt F))
    :
    StableHlo.after (winB3 (F := F)) W (Proc.devRef .tc main_v71)
      = Cert.ReferenceIdeal.ReadP.val_main_v71 (F := F) := by
  after_results_simp
  simp only [Cert.ReferenceIdeal.ReadP.val_main_c_16, Cert.ReferenceIdeal.ReadP.val_main_v71]

set_option maxHeartbeats 4000000 in
/-- `main_v72` after this stretch of operations is its stage function, given the stages it reads from before the stretch. -/
theorem winB3_main_v72 (W : Valuation τ sig (Elt F)) (x4 : (⟨S4x512, .i32⟩ : BufTy).Contents (Elt F))
    (h_v8 : W (Proc.devRef .tc main_v8) = Cert.ReferenceIdeal.ReadP.val_main_v8 (F := F) x4) :
    StableHlo.after (winB3 (F := F)) W (Proc.devRef .tc main_v72)
      = Cert.ReferenceIdeal.ReadP.val_main_v72 (F := F) x4 := by
  after_results_simp
  simp only [h_v8]
  simp only [Cert.ReferenceIdeal.ReadP.val_main_v72]

/-- An operation leaves alone the arrays that later operations still read. -/
abbrev winB3Keeps (op : HloOp τ sig (Elt F)) : Prop :=
  Proc.devRef (τ := τ) .tc main_arg2 ∉ op.writes
  ∧ Proc.devRef (τ := τ) .tc main_arg3 ∉ op.writes
  ∧ Proc.devRef (τ := τ) .tc main_v0 ∉ op.writes
  ∧ Proc.devRef (τ := τ) .tc main_v1 ∉ op.writes
  ∧ Proc.devRef (τ := τ) .tc main_v60 ∉ op.writes

set_option maxHeartbeats 4000000 in
/-- None of this stretch's operations writes one of them. -/
theorem winB3_keeps : (winB3 : List (HloOp τ sig (Elt F))).Forall winB3Keeps := by
  simp only [winB3, List.Forall, winB3Keeps, StableHlo.nullary_writes, StableHlo.unary_writes, StableHlo.binary_writes, StableHlo.ternary_writes, StableHlo.reshape_writes, Finset.mem_singleton]
  repeat' apply And.intro
  all_goals exact StableHlo.devRef_ne_of_ne (by decide)

theorem winB3_keep_main_arg2 (W : Valuation τ sig (Elt F)) :
    StableHlo.after (winB3 (F := F)) W (Proc.devRef .tc main_arg2) = W (Proc.devRef .tc main_arg2) :=
  StableHlo.after_of_forall_not_mem _ _ fun op hop => (List.forall_iff_forall_mem.mp winB3_keeps op hop).1
theorem winB3_keep_main_arg3 (W : Valuation τ sig (Elt F)) :
    StableHlo.after (winB3 (F := F)) W (Proc.devRef .tc main_arg3) = W (Proc.devRef .tc main_arg3) :=
  StableHlo.after_of_forall_not_mem _ _ fun op hop => (List.forall_iff_forall_mem.mp winB3_keeps op hop).2.1
theorem winB3_keep_main_v0 (W : Valuation τ sig (Elt F)) :
    StableHlo.after (winB3 (F := F)) W (Proc.devRef .tc main_v0) = W (Proc.devRef .tc main_v0) :=
  StableHlo.after_of_forall_not_mem _ _ fun op hop => (List.forall_iff_forall_mem.mp winB3_keeps op hop).2.2.1
theorem winB3_keep_main_v1 (W : Valuation τ sig (Elt F)) :
    StableHlo.after (winB3 (F := F)) W (Proc.devRef .tc main_v1) = W (Proc.devRef .tc main_v1) :=
  StableHlo.after_of_forall_not_mem _ _ fun op hop => (List.forall_iff_forall_mem.mp winB3_keeps op hop).2.2.2.1
theorem winB3_keep_main_v60 (W : Valuation τ sig (Elt F)) :
    StableHlo.after (winB3 (F := F)) W (Proc.devRef .tc main_v60) = W (Proc.devRef .tc main_v60) :=
  StableHlo.after_of_forall_not_mem _ _ fun op hop => (List.forall_iff_forall_mem.mp winB3_keeps op hop).2.2.2.2

end Cert.RefTail

end
-- ==== Proof.RefTailB4.lean ====
import proofs.«424779_j13597866459574_3_alg».proof.Proof.ReadP
import proofs.«424779_j13597866459574_3_alg».proof.Proof.RefTailCast
import Idealize.ShloMosaic.Lib.StableHlo.Run

/-! Operations 195 to 209 of the reference program's 278: what they leave in main_v84, as stage functions of the arguments, and the arrays they do not touch. -/

set_option maxRecDepth 16384

noncomputable section

namespace Cert.RefTail

open Cert.ReferenceIdeal Cert.ReferenceIdeal.Gen
open Idealize.ShloMosaic Idealize.ShloMosaic.TcCoe Idealize.SL.Sem Idealize.ShloMosaic.StableHlo

variable {F : FTy → Type} [FloatOps F]

/-- Operations 195 to 209 of the reference program, in order. -/
abbrev winB4 : List (HloOp τ sig (Elt F)) :=
  [ binary main_v71 main_v72 main_v73 ((fun a b => concatenate S4x512 1 [⟨S4x1, a⟩, ⟨S4x511, b⟩] concatenates_S4x1_S4x511_S4x512_d1) : (⟨S4x1, .i1⟩ : BufTy).Contents (Elt F) → (⟨S4x511, .i1⟩ : BufTy).Contents (Elt F) → (⟨S4x512, .i1⟩ : BufTy).Contents (Elt F)),
    unary main_v73 main_v74 (uitofp .f32 : (⟨S4x512, .i1⟩ : BufTy).Contents (Elt F) → (⟨S4x512, .f32⟩ : BufTy).Contents (Elt F)),
    unary main_v0 main_v75 ((extractStridedSlice S4x512x32000 ![0, 0, 0] · slices_S4x513x32000_S4x512x32000_0_0_0) : (⟨S4x513x32000, .f32⟩ : BufTy).Contents (Elt F) → (⟨S4x512x32000, .f32⟩ : BufTy).Contents (Elt F)),
    unary main_v1 main_v76 ((extractStridedSlice S4x512x32000 ![0, 0, 0] · slices_S4x513x32000_S4x512x32000_0_0_0) : (⟨S4x513x32000, .f32⟩ : BufTy).Contents (Elt F) → (⟨S4x512x32000, .f32⟩ : BufTy).Contents (Elt F)),
    unary main_v76 main_v77 (Host.exp : (⟨S4x512x32000, .f32⟩ : BufTy).Contents (Elt F) → (⟨S4x512x32000, .f32⟩ : BufTy).Contents (Elt F)),
    binary main_v76 main_v75 main_v78 (subf : (⟨S4x512x32000, .f32⟩ : BufTy).Contents (Elt F) → (⟨S4x512x32000, .f32⟩ : BufTy).Contents (Elt F) → (⟨S4x512x32000, .f32⟩ : BufTy).Contents (Elt F)),
    binary main_v77 main_v78 main_v79 (mulf : (⟨S4x512x32000, .f32⟩ : BufTy).Contents (Elt F) → (⟨S4x512x32000, .f32⟩ : BufTy).Contents (Elt F) → (⟨S4x512x32000, .f32⟩ : BufTy).Contents (Elt F)),
    nullary main_cst_17 (constant S_ .f32 0x00000000#32),
    binary main_v79 main_cst_17 main_v80 ((fun x v => Host.reduceAdd x v reducesTo_S4x512x32000_S4x512_d2 h_S_) : (⟨S4x512x32000, .f32⟩ : BufTy).Contents (Elt F) → (⟨S_, .f32⟩ : BufTy).Contents (Elt F) → (⟨S4x512, .f32⟩ : BufTy).Contents (Elt F)),
    binary main_v80 main_v74 main_v81 (mulf : (⟨S4x512, .f32⟩ : BufTy).Contents (Elt F) → (⟨S4x512, .f32⟩ : BufTy).Contents (Elt F) → (⟨S4x512, .f32⟩ : BufTy).Contents (Elt F)),
    nullary main_cst_18 (constant S_ .f32 0x00000000#32),
    binary main_v81 main_cst_18 main_v82 ((fun x v => Host.reduceAdd x v reducesTo_S4x512_S_d0_1 h_S_) : (⟨S4x512, .f32⟩ : BufTy).Contents (Elt F) → (⟨S_, .f32⟩ : BufTy).Contents (Elt F) → (⟨S_, .f32⟩ : BufTy).Contents (Elt F)),
    nullary main_cst_19 (constant S_ .f32 0x00000000#32),
    binary main_v74 main_cst_19 main_v83 ((fun x v => Host.reduceAdd x v reducesTo_S4x512_S_d0_1 h_S_) : (⟨S4x512, .f32⟩ : BufTy).Contents (Elt F) → (⟨S_, .f32⟩ : BufTy).Contents (Elt F) → (⟨S_, .f32⟩ : BufTy).Contents (Elt F)),
    binary main_v82 main_v83 main_v84 (Host.divf : (⟨S_, .f32⟩ : BufTy).Contents (Elt F) → (⟨S_, .f32⟩ : BufTy).Contents (Elt F) → (⟨S_, .f32⟩ : BufTy).Contents (Elt F)) ]

set_option maxHeartbeats 4000000 in
/-- `main_v84` after this stretch of operations is its stage function, given the stages it reads from before the stretch. -/
theorem winB4_main_v84 (W : Valuation τ sig (Elt F)) (x0 : (⟨S4x513x32000, .f32⟩ : BufTy).Contents (Elt F)) (x1 : (⟨S4x513x32000, .f32⟩ : BufTy).Contents (Elt F)) (x4 : (⟨S4x512, .i32⟩ : BufTy).Contents (Elt F))
    (h_v0 : W (Proc.devRef .tc main_v0) = Cert.ReferenceIdeal.ReadP.val_main_v0 (F := F) x0)
    (h_v1 : W (Proc.devRef .tc main_v1) = Cert.ReferenceIdeal.ReadP.val_main_v1 (F := F) x1)
    (h_v71 : W (Proc.devRef .tc main_v71) = Cert.ReferenceIdeal.ReadP.val_main_v71 (F := F))
    (h_v72 : W (Proc.devRef .tc main_v72) = Cert.ReferenceIdeal.ReadP.val_main_v72 (F := F) x4) :
    StableHlo.after (winB4 (F := F)) W (Proc.devRef .tc main_v84)
      = Cert.ReferenceIdeal.ReadP.val_main_v84 (F := F) x0 x1 x4 := by
  after_results_simp
  rw [h_v71, h_v72]
  simp only [h_v0, h_v1]
  simp only [Cert.ReferenceIdeal.ReadP.val_main_v73, Cert.ReferenceIdeal.ReadP.val_main_v74, Cert.ReferenceIdeal.ReadP.val_main_v75, Cert.ReferenceIdeal.ReadP.val_main_v76, Cert.ReferenceIdeal.ReadP.val_main_v77, Cert.ReferenceIdeal.ReadP.val_main_v78, Cert.ReferenceIdeal.ReadP.val_main_v79, Cert.ReferenceIdeal.ReadP.val_main_cst_17, Cert.ReferenceIdeal.ReadP.val_main_v80, Cert.ReferenceIdeal.ReadP.val_main_v81, Cert.ReferenceIdeal.ReadP.val_main_cst_18, Cert.ReferenceIdeal.ReadP.val_main_v82, Cert.ReferenceIdeal.ReadP.val_main_cst_19, Cert.ReferenceIdeal.ReadP.val_main_v83, Cert.ReferenceIdeal.ReadP.val_main_v84]

/-- An operation leaves alone the arrays that later operations still read. -/
abbrev winB4Keeps (op : HloOp τ sig (Elt F)) : Prop :=
  Proc.devRef (τ := τ) .tc main_arg2 ∉ op.writes
  ∧ Proc.devRef (τ := τ) .tc main_arg3 ∉ op.writes
  ∧ Proc.devRef (τ := τ) .tc main_v0 ∉ op.writes
  ∧ Proc.devRef (τ := τ) .tc main_v1 ∉ op.writes
  ∧ Proc.devRef (τ := τ) .tc main_v60 ∉ op.writes
  ∧ Proc.devRef (τ := τ) .tc main_v69 ∉ op.writes
  ∧ Proc.devRef (τ := τ) .tc main_v70 ∉ op.writes

set_option maxHeartbeats 4000000 in
/-- None of this stretch's operations writes one of them. -/
theorem winB4_keeps : (winB4 : List (HloOp τ sig (Elt F))).Forall winB4Keeps := by
  simp only [winB4, List.Forall, winB4Keeps, StableHlo.nullary_writes, StableHlo.unary_writes, StableHlo.binary_writes, StableHlo.ternary_writes, StableHlo.reshape_writes, Finset.mem_singleton]
  repeat' apply And.intro
  all_goals exact StableHlo.devRef_ne_of_ne (by decide)

theorem winB4_keep_main_arg2 (W : Valuation τ sig (Elt F)) :
    StableHlo.after (winB4 (F := F)) W (Proc.devRef .tc main_arg2) = W (Proc.devRef .tc main_arg2) :=
  StableHlo.after_of_forall_not_mem _ _ fun op hop => (List.forall_iff_forall_mem.mp winB4_keeps op hop).1
theorem winB4_keep_main_arg3 (W : Valuation τ sig (Elt F)) :
    StableHlo.after (winB4 (F := F)) W (Proc.devRef .tc main_arg3) = W (Proc.devRef .tc main_arg3) :=
  StableHlo.after_of_forall_not_mem _ _ fun op hop => (List.forall_iff_forall_mem.mp winB4_keeps op hop).2.1
theorem winB4_keep_main_v0 (W : Valuation τ sig (Elt F)) :
    StableHlo.after (winB4 (F := F)) W (Proc.devRef .tc main_v0) = W (Proc.devRef .tc main_v0) :=
  StableHlo.after_of_forall_not_mem _ _ fun op hop => (List.forall_iff_forall_mem.mp winB4_keeps op hop).2.2.1
theorem winB4_keep_main_v1 (W : Valuation τ sig (Elt F)) :
    StableHlo.after (winB4 (F := F)) W (Proc.devRef .tc main_v1) = W (Proc.devRef .tc main_v1) :=
  StableHlo.after_of_forall_not_mem _ _ fun op hop => (List.forall_iff_forall_mem.mp winB4_keeps op hop).2.2.2.1
theorem winB4_keep_main_v60 (W : Valuation τ sig (Elt F)) :
    StableHlo.after (winB4 (F := F)) W (Proc.devRef .tc main_v60) = W (Proc.devRef .tc main_v60) :=
  StableHlo.after_of_forall_not_mem _ _ fun op hop => (List.forall_iff_forall_mem.mp winB4_keeps op hop).2.2.2.2.1
theorem winB4_keep_main_v69 (W : Valuation τ sig (Elt F)) :
    StableHlo.after (winB4 (F := F)) W (Proc.devRef .tc main_v69) = W (Proc.devRef .tc main_v69) :=
  StableHlo.after_of_forall_not_mem _ _ fun op hop => (List.forall_iff_forall_mem.mp winB4_keeps op hop).2.2.2.2.2.1
theorem winB4_keep_main_v70 (W : Valuation τ sig (Elt F)) :
    StableHlo.after (winB4 (F := F)) W (Proc.devRef .tc main_v70) = W (Proc.devRef .tc main_v70) :=
  StableHlo.after_of_forall_not_mem _ _ fun op hop => (List.forall_iff_forall_mem.mp winB4_keeps op hop).2.2.2.2.2.2

end Cert.RefTail

end
-- ==== Proof.RefTailB5.lean ====
import proofs.«424779_j13597866459574_3_alg».proof.Proof.ReadP
import proofs.«424779_j13597866459574_3_alg».proof.Proof.RefTailCast
import Idealize.ShloMosaic.Lib.StableHlo.Run

/-! Operations 210 to 278 of the reference program's 278: what they leave in main_v99, main_v104, main_v106, as stage functions of the arguments, and the arrays they do not touch. -/

set_option maxRecDepth 16384

noncomputable section

namespace Cert.RefTail

open Cert.ReferenceIdeal Cert.ReferenceIdeal.Gen
open Idealize.ShloMosaic Idealize.ShloMosaic.TcCoe Idealize.SL.Sem Idealize.ShloMosaic.StableHlo

variable {F : FTy → Type} [FloatOps F]

/-- Operations 210 to 278 of the reference program, in order. -/
abbrev winB5 : List (HloOp τ sig (Elt F)) :=
  [ unary main_arg2 main_v85 ((extractStridedSlice S4x511 ![0, 1] · slices_S4x512_S4x511_0_1) : (⟨S4x512, .i32⟩ : BufTy).Contents (Elt F) → (⟨S4x511, .i32⟩ : BufTy).Contents (Elt F)),
    unary main_arg3 main_v86 ((extractStridedSlice S4x511 ![0, 1] · slices_S4x512_S4x511_0_1) : (⟨S4x512, .i32⟩ : BufTy).Contents (Elt F) → (⟨S4x511, .i32⟩ : BufTy).Contents (Elt F)),
    unary main_v86 main_v87 (sitofp .f32 : (⟨S4x511, .i32⟩ : BufTy).Contents (Elt F) → (⟨S4x511, .f32⟩ : BufTy).Contents (Elt F)),
    unary main_v0 main_v88 ((extractStridedSlice S4x511x32000 ![0, 0, 0] · slices_S4x513x32000_S4x511x32000_0_0_0) : (⟨S4x513x32000, .f32⟩ : BufTy).Contents (Elt F) → (⟨S4x511x32000, .f32⟩ : BufTy).Contents (Elt F)),
    unary main_v85 main_v89 (broadcastInDim S4x511x1 ![0, 1] bcast_S4x511_S4x511x1_0_1 : (⟨S4x511, .i32⟩ : BufTy).Contents (Elt F) → (⟨S4x511x1, .i32⟩ : BufTy).Contents (Elt F)),
    TRef.nullary (TRef.of (T := ⟨S_, .i32⟩) main_call9_c) (constantI S_ 32 0#32),
    TRef.unary (TRef.of (T := ⟨S_, .i32⟩) main_call9_c) (TRef.of (T := ⟨S4x511x1, .i32⟩) main_call9_v0) (broadcastInDim S4x511x1 ![] bcast_S_S4x511x1),
    TRef.binary (TRef.of (T := ⟨S4x511x1, .i32⟩) main_v89) (TRef.of (T := ⟨S4x511x1, .i32⟩) main_call9_v0) (TRef.of (T := ⟨S4x511x1, .i1⟩) main_call9_v1) (cmpi .slt),
    TRef.nullary (TRef.of (T := ⟨S_, .i32⟩) main_call9_c_0) (constantI S_ 32 32000#32),
    TRef.unary (TRef.of (T := ⟨S_, .i32⟩) main_call9_c_0) (TRef.of (T := ⟨S4x511x1, .i32⟩) main_call9_v2) (broadcastInDim S4x511x1 ![] bcast_S_S4x511x1),
    TRef.binary (TRef.of (T := ⟨S4x511x1, .i32⟩) main_v89) (TRef.of (T := ⟨S4x511x1, .i32⟩) main_call9_v2) (TRef.of (T := ⟨S4x511x1, .i32⟩) main_call9_v3) addi,
    TRef.ternary (TRef.of (T := ⟨S4x511x1, .i1⟩) main_call9_v1) (TRef.of (T := ⟨S4x511x1, .i32⟩) main_call9_v3) (TRef.of (T := ⟨S4x511x1, .i32⟩) main_v89) (TRef.of (T := ⟨S4x511x1, .i32⟩) main_call9_v4) select,
    TRef.reshape (TRef.of (T := ⟨S4x511x1, .i32⟩) main_call9_v4) (TRef.of (T := ⟨S4x511x1x1, .i32⟩) main_call9_v5) rfl shapeCasts_S4x511x1_S4x511x1x1,
    TRef.nullary (TRef.of (T := ⟨S1, .i32⟩) main_call9_c_1) (constantI S1 32 31999#32),
    TRef.nullary (TRef.of (T := ⟨S_, .i32⟩) main_call9_c_2) (constantI S_ 32 0#32),
    TRef.unary (TRef.of (T := ⟨S_, .i32⟩) main_call9_c_2) (TRef.of (T := ⟨S4x511x1x1, .i32⟩) main_call9_v6) (broadcastInDim S4x511x1x1 ![] bcast_S_S4x511x1x1),
    TRef.binary (TRef.of (T := ⟨S4x511x1x1, .i32⟩) main_call9_v5) (TRef.of (T := ⟨S4x511x1x1, .i32⟩) main_call9_v6) (TRef.of (T := ⟨S4x511x1x1, .i1⟩) main_call9_v7) (cmpi .sge),
    TRef.unary (TRef.of (T := ⟨S1, .i32⟩) main_call9_c_1) (TRef.of (T := ⟨S1x1x1x1, .i32⟩) main_call9_v8) (broadcastInDim S1x1x1x1 ![3] bcast_S1_S1x1x1x1_3),
    TRef.unary (TRef.of (T := ⟨S1x1x1x1, .i32⟩) main_call9_v8) (TRef.of (T := ⟨S4x511x1x1, .i32⟩) main_call9_v9) (broadcastInDim S4x511x1x1 ![0, 1, 2, 3] bcast_S1x1x1x1_S4x511x1x1_0_1_2_3),
    TRef.binary (TRef.of (T := ⟨S4x511x1x1, .i32⟩) main_call9_v5) (TRef.of (T := ⟨S4x511x1x1, .i32⟩) main_call9_v9) (TRef.of (T := ⟨S4x511x1x1, .i1⟩) main_call9_v10) (cmpi .sle),
    TRef.binary (TRef.of (T := ⟨S4x511x1x1, .i1⟩) main_call9_v7) (TRef.of (T := ⟨S4x511x1x1, .i1⟩) main_call9_v10) (TRef.of (T := ⟨S4x511x1x1, .i1⟩) main_call9_v11) andi,
    TRef.nullary (TRef.of (T := ⟨S_, .i1⟩) main_call9_c_3) (constantI S_ 1 1#1),
    TRef.binary (TRef.of (T := ⟨S4x511x1x1, .i1⟩) main_call9_v11) (TRef.of (T := ⟨S_, .i1⟩) main_call9_c_3) (TRef.of (T := ⟨S4x511x1, .i1⟩) main_call9_v12) (fun x v => Host.reduce IntOp.andi x v reducesTo_S4x511x1x1_S4x511x1_d3 h_S_),
    TRef.binary (TRef.of (T := ⟨S4x511x32000, .f32⟩) main_v88) (TRef.of (T := ⟨S4x511x1x1, .i32⟩) main_call9_v5) (TRef.of (T := ⟨S4x511x1, .f32⟩) main_call9_v13) (fun x i => Host.gather gather_S4x511x32000_S4x511x1x1_S4x511x1_n_2_01_01_2_3_111 x i),
    TRef.nullary (TRef.of (T := ⟨S_, .f32⟩) main_call9_cst) (constant S_ .f32 0x7FC00000#32),
    TRef.unary (TRef.of (T := ⟨S_, .f32⟩) main_call9_cst) (TRef.of (T := ⟨S4x511x1, .f32⟩) main_call9_v14) (broadcastInDim S4x511x1 ![] bcast_S_S4x511x1),
    TRef.ternary (TRef.of (T := ⟨S4x511x1, .i1⟩) main_call9_v12) (TRef.of (T := ⟨S4x511x1, .f32⟩) main_call9_v13) (TRef.of (T := ⟨S4x511x1, .f32⟩) main_call9_v14) (TRef.of (T := ⟨S4x511x1, .f32⟩) main_v90) select,
    reshape main_v90 main_v91 rfl shapeCasts_S4x511x1_S4x511,
    unary main_v1 main_v92 ((extractStridedSlice S4x511x32000 ![0, 0, 0] · slices_S4x513x32000_S4x511x32000_0_0_0) : (⟨S4x513x32000, .f32⟩ : BufTy).Contents (Elt F) → (⟨S4x511x32000, .f32⟩ : BufTy).Contents (Elt F)),
    unary main_v85 main_v93 (broadcastInDim S4x511x1 ![0, 1] bcast_S4x511_S4x511x1_0_1 : (⟨S4x511, .i32⟩ : BufTy).Contents (Elt F) → (⟨S4x511x1, .i32⟩ : BufTy).Contents (Elt F)),
    TRef.nullary (TRef.of (T := ⟨S_, .i32⟩) main_call10_c) (constantI S_ 32 0#32),
    TRef.unary (TRef.of (T := ⟨S_, .i32⟩) main_call10_c) (TRef.of (T := ⟨S4x511x1, .i32⟩) main_call10_v0) (broadcastInDim S4x511x1 ![] bcast_S_S4x511x1),
    TRef.binary (TRef.of (T := ⟨S4x511x1, .i32⟩) main_v93) (TRef.of (T := ⟨S4x511x1, .i32⟩) main_call10_v0) (TRef.of (T := ⟨S4x511x1, .i1⟩) main_call10_v1) (cmpi .slt),
    TRef.nullary (TRef.of (T := ⟨S_, .i32⟩) main_call10_c_0) (constantI S_ 32 32000#32),
    TRef.unary (TRef.of (T := ⟨S_, .i32⟩) main_call10_c_0) (TRef.of (T := ⟨S4x511x1, .i32⟩) main_call10_v2) (broadcastInDim S4x511x1 ![] bcast_S_S4x511x1),
    TRef.binary (TRef.of (T := ⟨S4x511x1, .i32⟩) main_v93) (TRef.of (T := ⟨S4x511x1, .i32⟩) main_call10_v2) (TRef.of (T := ⟨S4x511x1, .i32⟩) main_call10_v3) addi,
    TRef.ternary (TRef.of (T := ⟨S4x511x1, .i1⟩) main_call10_v1) (TRef.of (T := ⟨S4x511x1, .i32⟩) main_call10_v3) (TRef.of (T := ⟨S4x511x1, .i32⟩) main_v93) (TRef.of (T := ⟨S4x511x1, .i32⟩) main_call10_v4) select,
    TRef.reshape (TRef.of (T := ⟨S4x511x1, .i32⟩) main_call10_v4) (TRef.of (T := ⟨S4x511x1x1, .i32⟩) main_call10_v5) rfl shapeCasts_S4x511x1_S4x511x1x1,
    TRef.nullary (TRef.of (T := ⟨S1, .i32⟩) main_call10_c_1) (constantI S1 32 31999#32),
    TRef.nullary (TRef.of (T := ⟨S_, .i32⟩) main_call10_c_2) (constantI S_ 32 0#32),
    TRef.unary (TRef.of (T := ⟨S_, .i32⟩) main_call10_c_2) (TRef.of (T := ⟨S4x511x1x1, .i32⟩) main_call10_v6) (broadcastInDim S4x511x1x1 ![] bcast_S_S4x511x1x1),
    TRef.binary (TRef.of (T := ⟨S4x511x1x1, .i32⟩) main_call10_v5) (TRef.of (T := ⟨S4x511x1x1, .i32⟩) main_call10_v6) (TRef.of (T := ⟨S4x511x1x1, .i1⟩) main_call10_v7) (cmpi .sge),
    TRef.unary (TRef.of (T := ⟨S1, .i32⟩) main_call10_c_1) (TRef.of (T := ⟨S1x1x1x1, .i32⟩) main_call10_v8) (broadcastInDim S1x1x1x1 ![3] bcast_S1_S1x1x1x1_3),
    TRef.unary (TRef.of (T := ⟨S1x1x1x1, .i32⟩) main_call10_v8) (TRef.of (T := ⟨S4x511x1x1, .i32⟩) main_call10_v9) (broadcastInDim S4x511x1x1 ![0, 1, 2, 3] bcast_S1x1x1x1_S4x511x1x1_0_1_2_3),
    TRef.binary (TRef.of (T := ⟨S4x511x1x1, .i32⟩) main_call10_v5) (TRef.of (T := ⟨S4x511x1x1, .i32⟩) main_call10_v9) (TRef.of (T := ⟨S4x511x1x1, .i1⟩) main_call10_v10) (cmpi .sle),
    TRef.binary (TRef.of (T := ⟨S4x511x1x1, .i1⟩) main_call10_v7) (TRef.of (T := ⟨S4x511x1x1, .i1⟩) main_call10_v10) (TRef.of (T := ⟨S4x511x1x1, .i1⟩) main_call10_v11) andi,
    TRef.nullary (TRef.of (T := ⟨S_, .i1⟩) main_call10_c_3) (constantI S_ 1 1#1),
    TRef.binary (TRef.of (T := ⟨S4x511x1x1, .i1⟩) main_call10_v11) (TRef.of (T := ⟨S_, .i1⟩) main_call10_c_3) (TRef.of (T := ⟨S4x511x1, .i1⟩) main_call10_v12) (fun x v => Host.reduce IntOp.andi x v reducesTo_S4x511x1x1_S4x511x1_d3 h_S_),
    TRef.binary (TRef.of (T := ⟨S4x511x32000, .f32⟩) main_v92) (TRef.of (T := ⟨S4x511x1x1, .i32⟩) main_call10_v5) (TRef.of (T := ⟨S4x511x1, .f32⟩) main_call10_v13) (fun x i => Host.gather gather_S4x511x32000_S4x511x1x1_S4x511x1_n_2_01_01_2_3_111 x i),
    TRef.nullary (TRef.of (T := ⟨S_, .f32⟩) main_call10_cst) (constant S_ .f32 0x7FC00000#32),
    TRef.unary (TRef.of (T := ⟨S_, .f32⟩) main_call10_cst) (TRef.of (T := ⟨S4x511x1, .f32⟩) main_call10_v14) (broadcastInDim S4x511x1 ![] bcast_S_S4x511x1),
    TRef.ternary (TRef.of (T := ⟨S4x511x1, .i1⟩) main_call10_v12) (TRef.of (T := ⟨S4x511x1, .f32⟩) main_call10_v13) (TRef.of (T := ⟨S4x511x1, .f32⟩) main_call10_v14) (TRef.of (T := ⟨S4x511x1, .f32⟩) main_v94) select,
    reshape main_v94 main_v95 rfl shapeCasts_S4x511x1_S4x511,
    binary main_v91 main_v87 main_v96 (mulf : (⟨S4x511, .f32⟩ : BufTy).Contents (Elt F) → (⟨S4x511, .f32⟩ : BufTy).Contents (Elt F) → (⟨S4x511, .f32⟩ : BufTy).Contents (Elt F)),
    nullary main_cst_20 (constant S_ .f32 0x00000000#32),
    binary main_v96 main_cst_20 main_v97 ((fun x v => Host.reduceAdd x v reducesTo_S4x511_S_d0_1 h_S_) : (⟨S4x511, .f32⟩ : BufTy).Contents (Elt F) → (⟨S_, .f32⟩ : BufTy).Contents (Elt F) → (⟨S_, .f32⟩ : BufTy).Contents (Elt F)),
    nullary main_cst_21 (constant S_ .f32 0x00000000#32),
    binary main_v87 main_cst_21 main_v98 ((fun x v => Host.reduceAdd x v reducesTo_S4x511_S_d0_1 h_S_) : (⟨S4x511, .f32⟩ : BufTy).Contents (Elt F) → (⟨S_, .f32⟩ : BufTy).Contents (Elt F) → (⟨S_, .f32⟩ : BufTy).Contents (Elt F)),
    binary main_v97 main_v98 main_v99 (Host.divf : (⟨S_, .f32⟩ : BufTy).Contents (Elt F) → (⟨S_, .f32⟩ : BufTy).Contents (Elt F) → (⟨S_, .f32⟩ : BufTy).Contents (Elt F)),
    binary main_v95 main_v87 main_v100 (mulf : (⟨S4x511, .f32⟩ : BufTy).Contents (Elt F) → (⟨S4x511, .f32⟩ : BufTy).Contents (Elt F) → (⟨S4x511, .f32⟩ : BufTy).Contents (Elt F)),
    nullary main_cst_22 (constant S_ .f32 0x00000000#32),
    binary main_v100 main_cst_22 main_v101 ((fun x v => Host.reduceAdd x v reducesTo_S4x511_S_d0_1 h_S_) : (⟨S4x511, .f32⟩ : BufTy).Contents (Elt F) → (⟨S_, .f32⟩ : BufTy).Contents (Elt F) → (⟨S_, .f32⟩ : BufTy).Contents (Elt F)),
    nullary main_cst_23 (constant S_ .f32 0x00000000#32),
    binary main_v87 main_cst_23 main_v102 ((fun x v => Host.reduceAdd x v reducesTo_S4x511_S_d0_1 h_S_) : (⟨S4x511, .f32⟩ : BufTy).Contents (Elt F) → (⟨S_, .f32⟩ : BufTy).Contents (Elt F) → (⟨S_, .f32⟩ : BufTy).Contents (Elt F)),
    binary main_v101 main_v102 main_v103 (Host.divf : (⟨S_, .f32⟩ : BufTy).Contents (Elt F) → (⟨S_, .f32⟩ : BufTy).Contents (Elt F) → (⟨S_, .f32⟩ : BufTy).Contents (Elt F)),
    binary main_v99 main_v103 main_v104 (subf : (⟨S_, .f32⟩ : BufTy).Contents (Elt F) → (⟨S_, .f32⟩ : BufTy).Contents (Elt F) → (⟨S_, .f32⟩ : BufTy).Contents (Elt F)),
    nullary main_cst_24 (constant S_ .f32 0x3E99999A#32),
    binary main_cst_24 main_v84 main_v105 (mulf : (⟨S_, .f32⟩ : BufTy).Contents (Elt F) → (⟨S_, .f32⟩ : BufTy).Contents (Elt F) → (⟨S_, .f32⟩ : BufTy).Contents (Elt F)),
    binary main_v70 main_v105 main_v106 (addf : (⟨S_, .f32⟩ : BufTy).Contents (Elt F) → (⟨S_, .f32⟩ : BufTy).Contents (Elt F) → (⟨S_, .f32⟩ : BufTy).Contents (Elt F)) ]

set_option maxHeartbeats 4000000 in
/-- `main_v99` after this stretch of operations is its stage function, given the stages it reads from before the stretch. -/
theorem winB5_main_v99 (W : Valuation τ sig (Elt F)) (x0 : (⟨S4x513x32000, .f32⟩ : BufTy).Contents (Elt F)) (x2 : (⟨S4x512, .i32⟩ : BufTy).Contents (Elt F)) (x3 : (⟨S4x512, .i32⟩ : BufTy).Contents (Elt F))
    (ha2 : W (Proc.devRef .tc main_arg2) = x2)
    (ha3 : W (Proc.devRef .tc main_arg3) = x3)
    (h_v0 : W (Proc.devRef .tc main_v0) = Cert.ReferenceIdeal.ReadP.val_main_v0 (F := F) x0) :
    StableHlo.after (winB5 (F := F)) W (Proc.devRef .tc main_v99)
      = Cert.ReferenceIdeal.ReadP.val_main_v99 (F := F) x0 x2 x3 := by
  subst ha2 ha3
  after_results_simp
  simp only [h_v0]
  simp only [Cert.ReferenceIdeal.ReadP.val_main_v85, Cert.ReferenceIdeal.ReadP.val_main_v86, Cert.ReferenceIdeal.ReadP.val_main_v87, Cert.ReferenceIdeal.ReadP.val_main_v88, Cert.ReferenceIdeal.ReadP.val_main_v89, Cert.ReferenceIdeal.ReadP.val_main_call9_c, Cert.ReferenceIdeal.ReadP.val_main_call9_v0, Cert.ReferenceIdeal.ReadP.val_main_call9_v1, Cert.ReferenceIdeal.ReadP.val_main_call9_c_0, Cert.ReferenceIdeal.ReadP.val_main_call9_v2, Cert.ReferenceIdeal.ReadP.val_main_call9_v3, Cert.ReferenceIdeal.ReadP.val_main_call9_v4, Cert.ReferenceIdeal.ReadP.val_main_call9_v5, Cert.ReferenceIdeal.ReadP.val_main_call9_c_1, Cert.ReferenceIdeal.ReadP.val_main_call9_c_2, Cert.ReferenceIdeal.ReadP.val_main_call9_v6, Cert.ReferenceIdeal.ReadP.val_main_call9_v7, Cert.ReferenceIdeal.ReadP.val_main_call9_v8, Cert.ReferenceIdeal.ReadP.val_main_call9_v9, Cert.ReferenceIdeal.ReadP.val_main_call9_v10, Cert.ReferenceIdeal.ReadP.val_main_call9_v11, Cert.ReferenceIdeal.ReadP.val_main_call9_c_3, Cert.ReferenceIdeal.ReadP.val_main_call9_v12, Cert.ReferenceIdeal.ReadP.val_main_call9_v13, Cert.ReferenceIdeal.ReadP.val_main_call9_cst, Cert.ReferenceIdeal.ReadP.val_main_call9_v14, Cert.ReferenceIdeal.ReadP.val_main_v90, Cert.ReferenceIdeal.ReadP.val_main_v91, Cert.ReferenceIdeal.ReadP.val_main_v96, Cert.ReferenceIdeal.ReadP.val_main_cst_20, Cert.ReferenceIdeal.ReadP.val_main_v97, Cert.ReferenceIdeal.ReadP.val_main_cst_21, Cert.ReferenceIdeal.ReadP.val_main_v98, Cert.ReferenceIdeal.ReadP.val_main_v99]
  simp only [ofBuf_toBuf]
  rfl

set_option maxHeartbeats 4000000 in
/-- `main_v104` after this stretch of operations is its stage function, given the stages it reads from before the stretch. -/
theorem winB5_main_v104 (W : Valuation τ sig (Elt F)) (x0 : (⟨S4x513x32000, .f32⟩ : BufTy).Contents (Elt F)) (x1 : (⟨S4x513x32000, .f32⟩ : BufTy).Contents (Elt F)) (x2 : (⟨S4x512, .i32⟩ : BufTy).Contents (Elt F)) (x3 : (⟨S4x512, .i32⟩ : BufTy).Contents (Elt F))
    (ha2 : W (Proc.devRef .tc main_arg2) = x2)
    (ha3 : W (Proc.devRef .tc main_arg3) = x3)
    (h_v0 : W (Proc.devRef .tc main_v0) = Cert.ReferenceIdeal.ReadP.val_main_v0 (F := F) x0)
    (h_v1 : W (Proc.devRef .tc main_v1) = Cert.ReferenceIdeal.ReadP.val_main_v1 (F := F) x1) :
    StableHlo.after (winB5 (F := F)) W (Proc.devRef .tc main_v104)
      = Cert.ReferenceIdeal.ReadP.val_main_v104 (F := F) x0 x1 x2 x3 := by
  subst ha2 ha3
  after_results_simp
  simp only [h_v0, h_v1]
  simp only [Cert.ReferenceIdeal.ReadP.val_main_v85, Cert.ReferenceIdeal.ReadP.val_main_v86, Cert.ReferenceIdeal.ReadP.val_main_v87, Cert.ReferenceIdeal.ReadP.val_main_v88, Cert.ReferenceIdeal.ReadP.val_main_v89, Cert.ReferenceIdeal.ReadP.val_main_call9_c, Cert.ReferenceIdeal.ReadP.val_main_call9_v0, Cert.ReferenceIdeal.ReadP.val_main_call9_v1, Cert.ReferenceIdeal.ReadP.val_main_call9_c_0, Cert.ReferenceIdeal.ReadP.val_main_call9_v2, Cert.ReferenceIdeal.ReadP.val_main_call9_v3, Cert.ReferenceIdeal.ReadP.val_main_call9_v4, Cert.ReferenceIdeal.ReadP.val_main_call9_v5, Cert.ReferenceIdeal.ReadP.val_main_call9_c_1, Cert.ReferenceIdeal.ReadP.val_main_call9_c_2, Cert.ReferenceIdeal.ReadP.val_main_call9_v6, Cert.ReferenceIdeal.ReadP.val_main_call9_v7, Cert.ReferenceIdeal.ReadP.val_main_call9_v8, Cert.ReferenceIdeal.ReadP.val_main_call9_v9, Cert.ReferenceIdeal.ReadP.val_main_call9_v10, Cert.ReferenceIdeal.ReadP.val_main_call9_v11, Cert.ReferenceIdeal.ReadP.val_main_call9_c_3, Cert.ReferenceIdeal.ReadP.val_main_call9_v12, Cert.ReferenceIdeal.ReadP.val_main_call9_v13, Cert.ReferenceIdeal.ReadP.val_main_call9_cst, Cert.ReferenceIdeal.ReadP.val_main_call9_v14, Cert.ReferenceIdeal.ReadP.val_main_v90, Cert.ReferenceIdeal.ReadP.val_main_v91, Cert.ReferenceIdeal.ReadP.val_main_v92, Cert.ReferenceIdeal.ReadP.val_main_v93, Cert.ReferenceIdeal.ReadP.val_main_call10_c, Cert.ReferenceIdeal.ReadP.val_main_call10_v0, Cert.ReferenceIdeal.ReadP.val_main_call10_v1, Cert.ReferenceIdeal.ReadP.val_main_call10_c_0, Cert.ReferenceIdeal.ReadP.val_main_call10_v2, Cert.ReferenceIdeal.ReadP.val_main_call10_v3, Cert.ReferenceIdeal.ReadP.val_main_call10_v4, Cert.ReferenceIdeal.ReadP.val_main_call10_v5, Cert.ReferenceIdeal.ReadP.val_main_call10_c_1, Cert.ReferenceIdeal.ReadP.val_main_call10_c_2, Cert.ReferenceIdeal.ReadP.val_main_call10_v6, Cert.ReferenceIdeal.ReadP.val_main_call10_v7, Cert.ReferenceIdeal.ReadP.val_main_call10_v8, Cert.ReferenceIdeal.ReadP.val_main_call10_v9, Cert.ReferenceIdeal.ReadP.val_main_call10_v10, Cert.ReferenceIdeal.ReadP.val_main_call10_v11, Cert.ReferenceIdeal.ReadP.val_main_call10_c_3, Cert.ReferenceIdeal.ReadP.val_main_call10_v12, Cert.ReferenceIdeal.ReadP.val_main_call10_v13, Cert.ReferenceIdeal.ReadP.val_main_call10_cst, Cert.ReferenceIdeal.ReadP.val_main_call10_v14, Cert.ReferenceIdeal.ReadP.val_main_v94, Cert.ReferenceIdeal.ReadP.val_main_v95, Cert.ReferenceIdeal.ReadP.val_main_v96, Cert.ReferenceIdeal.ReadP.val_main_cst_20, Cert.ReferenceIdeal.ReadP.val_main_v97, Cert.ReferenceIdeal.ReadP.val_main_cst_21, Cert.ReferenceIdeal.ReadP.val_main_v98, Cert.ReferenceIdeal.ReadP.val_main_v99, Cert.ReferenceIdeal.ReadP.val_main_v100, Cert.ReferenceIdeal.ReadP.val_main_cst_22, Cert.ReferenceIdeal.ReadP.val_main_v101, Cert.ReferenceIdeal.ReadP.val_main_cst_23, Cert.ReferenceIdeal.ReadP.val_main_v102, Cert.ReferenceIdeal.ReadP.val_main_v103, Cert.ReferenceIdeal.ReadP.val_main_v104]
  simp only [ofBuf_toBuf]
  rfl

set_option maxHeartbeats 4000000 in
/-- `main_v106` after this stretch of operations is its stage function, given the stages it reads from before the stretch. -/
theorem winB5_main_v106 (W : Valuation τ sig (Elt F)) (x0 : (⟨S4x513x32000, .f32⟩ : BufTy).Contents (Elt F)) (x1 : (⟨S4x513x32000, .f32⟩ : BufTy).Contents (Elt F)) (x2 : (⟨S4x512, .i32⟩ : BufTy).Contents (Elt F)) (x4 : (⟨S4x512, .i32⟩ : BufTy).Contents (Elt F)) (x5 : (⟨S4x512, .i32⟩ : BufTy).Contents (Elt F)) (x6 : (⟨S4x512, .f32⟩ : BufTy).Contents (Elt F)) (x7 : (⟨S4x512, .f32⟩ : BufTy).Contents (Elt F)) (x8 : (⟨S3, .f32⟩ : BufTy).Contents (Elt F)) (x9 : (⟨S1, .f32⟩ : BufTy).Contents (Elt F))
    (h_v70 : W (Proc.devRef .tc main_v70) = Cert.ReferenceIdeal.ReadP.val_main_v70 (F := F) x0 x2 x4 x5 x6 x7 x8 x9)
    (h_v84 : W (Proc.devRef .tc main_v84) = Cert.ReferenceIdeal.ReadP.val_main_v84 (F := F) x0 x1 x4) :
    StableHlo.after (winB5 (F := F)) W (Proc.devRef .tc main_v106)
      = Cert.ReferenceIdeal.ReadP.val_main_v106 (F := F) x0 x1 x2 x4 x5 x6 x7 x8 x9 := by
  after_results_simp
  simp only [h_v70, h_v84]
  simp only [Cert.ReferenceIdeal.ReadP.val_main_cst_24, Cert.ReferenceIdeal.ReadP.val_main_v105, Cert.ReferenceIdeal.ReadP.val_main_v106]

/-- An operation leaves alone the arrays that later operations still read. -/
abbrev winB5Keeps (op : HloOp τ sig (Elt F)) : Prop :=
  Proc.devRef (τ := τ) .tc main_v60 ∉ op.writes
  ∧ Proc.devRef (τ := τ) .tc main_v69 ∉ op.writes
  ∧ Proc.devRef (τ := τ) .tc main_v84 ∉ op.writes

set_option maxHeartbeats 4000000 in
/-- None of this stretch's operations writes one of them. -/
theorem winB5_keeps : (winB5 : List (HloOp τ sig (Elt F))).Forall winB5Keeps := by
  simp only [winB5, List.Forall, winB5Keeps, StableHlo.nullary_writes, StableHlo.unary_writes, StableHlo.binary_writes, StableHlo.ternary_writes, StableHlo.reshape_writes, Finset.mem_singleton]
  repeat' apply And.intro
  all_goals exact StableHlo.devRef_ne_of_ne (by decide)

theorem winB5_keep_main_v60 (W : Valuation τ sig (Elt F)) :
    StableHlo.after (winB5 (F := F)) W (Proc.devRef .tc main_v60) = W (Proc.devRef .tc main_v60) :=
  StableHlo.after_of_forall_not_mem _ _ fun op hop => (List.forall_iff_forall_mem.mp winB5_keeps op hop).1
theorem winB5_keep_main_v69 (W : Valuation τ sig (Elt F)) :
    StableHlo.after (winB5 (F := F)) W (Proc.devRef .tc main_v69) = W (Proc.devRef .tc main_v69) :=
  StableHlo.after_of_forall_not_mem _ _ fun op hop => (List.forall_iff_forall_mem.mp winB5_keeps op hop).2.1
theorem winB5_keep_main_v84 (W : Valuation τ sig (Elt F)) :
    StableHlo.after (winB5 (F := F)) W (Proc.devRef .tc main_v84) = W (Proc.devRef .tc main_v84) :=
  StableHlo.after_of_forall_not_mem _ _ fun op hop => (List.forall_iff_forall_mem.mp winB5_keeps op hop).2.2

end Cert.RefTail

end
-- ==== Proof.RefTail.lean ====
import proofs.«424779_j13597866459574_3_alg».proof.Proof.RunP
import proofs.«424779_j13597866459574_3_alg».proof.Proof.ReadP
import proofs.«424779_j13597866459574_3_alg».proof.Proof.RefTailCut
import proofs.«424779_j13597866459574_3_alg».proof.Proof.RefTailA
import proofs.«424779_j13597866459574_3_alg».proof.Proof.RefTailB1
import proofs.«424779_j13597866459574_3_alg».proof.Proof.RefTailB2
import proofs.«424779_j13597866459574_3_alg».proof.Proof.RefTailB3
import proofs.«424779_j13597866459574_3_alg».proof.Proof.RefTailB4
import proofs.«424779_j13597866459574_3_alg».proof.Proof.RefTailB5
import Idealize.ShloMosaic.Lib.StableHlo.Run

/-! The reference program's six results, as its list of 278 host operations leaves them, are its stage functions of the ten arguments. The list is cut into six stretches — the two log-softmax calls, then five more, the two concatenations each opening a stretch — and the stages are carried from stretch to stretch. -/

set_option maxRecDepth 16384

noncomputable section

namespace Cert.RefTail

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

set_option maxHeartbeats 4000000 in
/-- The operations after the two calls, as five stretches: the second and the fourth begin with a concatenation. -/
theorem opsB_split : (opsB : List (HloOp τ sig (Elt F))) = winB1 ++ (winB2 ++ (winB3 ++ (winB4 ++ winB5))) := rfl

/-- Running the program's operations is running the six stretches one after the other. -/
theorem after_ops (V : Valuation τ sig (Elt F)) :
    StableHlo.after (ops (F := F)) V = (StableHlo.after (winB5 (F := F)) (StableHlo.after (winB4 (F := F)) (StableHlo.after (winB3 (F := F)) (StableHlo.after (winB2 (F := F)) (StableHlo.after (winB1 (F := F)) (StableHlo.after (opsA (F := F)) V)))))) := by
  rw [ops_split, opsB_split]
  simp only [StableHlo.after_append]

/-! After stretch 1 (operations 1 to 30). -/

theorem f1_main_v0 (V : Valuation τ sig (Elt F)) :
    (StableHlo.after (opsA (F := F)) V) (Proc.devRef .tc main_v0) = Cert.ReferenceIdeal.ReadP.val_main_v0 (F := F) (V (Proc.devRef .tc main_arg0)) :=
  opsA_main_v0 V (V (Proc.devRef .tc main_arg0)) rfl

theorem f1_main_v1 (V : Valuation τ sig (Elt F)) :
    (StableHlo.after (opsA (F := F)) V) (Proc.devRef .tc main_v1) = Cert.ReferenceIdeal.ReadP.val_main_v1 (F := F) (V (Proc.devRef .tc main_arg1)) :=
  opsA_main_v1 V (V (Proc.devRef .tc main_arg1)) rfl

theorem f1_main_arg2 (V : Valuation τ sig (Elt F)) :
    (StableHlo.after (opsA (F := F)) V) (Proc.devRef .tc main_arg2) = V (Proc.devRef .tc main_arg2) :=
  opsA_keep_main_arg2 V

theorem f1_main_arg3 (V : Valuation τ sig (Elt F)) :
    (StableHlo.after (opsA (F := F)) V) (Proc.devRef .tc main_arg3) = V (Proc.devRef .tc main_arg3) :=
  opsA_keep_main_arg3 V

theorem f1_main_arg4 (V : Valuation τ sig (Elt F)) :
    (StableHlo.after (opsA (F := F)) V) (Proc.devRef .tc main_arg4) = V (Proc.devRef .tc main_arg4) :=
  opsA_keep_main_arg4 V

theorem f1_main_arg5 (V : Valuation τ sig (Elt F)) :
    (StableHlo.after (opsA (F := F)) V) (Proc.devRef .tc main_arg5) = V (Proc.devRef .tc main_arg5) :=
  opsA_keep_main_arg5 V

theorem f1_main_arg6 (V : Valuation τ sig (Elt F)) :
    (StableHlo.after (opsA (F := F)) V) (Proc.devRef .tc main_arg6) = V (Proc.devRef .tc main_arg6) :=
  opsA_keep_main_arg6 V

theorem f1_main_arg7 (V : Valuation τ sig (Elt F)) :
    (StableHlo.after (opsA (F := F)) V) (Proc.devRef .tc main_arg7) = V (Proc.devRef .tc main_arg7) :=
  opsA_keep_main_arg7 V

theorem f1_main_arg8 (V : Valuation τ sig (Elt F)) :
    (StableHlo.after (opsA (F := F)) V) (Proc.devRef .tc main_arg8) = V (Proc.devRef .tc main_arg8) :=
  opsA_keep_main_arg8 V

theorem f1_main_arg9 (V : Valuation τ sig (Elt F)) :
    (StableHlo.after (opsA (F := F)) V) (Proc.devRef .tc main_arg9) = V (Proc.devRef .tc main_arg9) :=
  opsA_keep_main_arg9 V

/-! After stretch 2 (operations 31 to 86). -/

theorem f2_main_v8 (V : Valuation τ sig (Elt F)) :
    (StableHlo.after (winB1 (F := F)) (StableHlo.after (opsA (F := F)) V)) (Proc.devRef .tc main_v8) = Cert.ReferenceIdeal.ReadP.val_main_v8 (F := F) (V (Proc.devRef .tc main_arg4)) :=
  winB1_main_v8 (StableHlo.after (opsA (F := F)) V) (V (Proc.devRef .tc main_arg4)) (f1_main_arg4 V)

theorem f2_main_v10 (V : Valuation τ sig (Elt F)) :
    (StableHlo.after (winB1 (F := F)) (StableHlo.after (opsA (F := F)) V)) (Proc.devRef .tc main_v10) = Cert.ReferenceIdeal.ReadP.val_main_v10 (F := F) (V (Proc.devRef .tc main_arg0)) (V (Proc.devRef .tc main_arg2)) (V (Proc.devRef .tc main_arg4)) :=
  winB1_main_v10 (StableHlo.after (opsA (F := F)) V) (V (Proc.devRef .tc main_arg0)) (V (Proc.devRef .tc main_arg2)) (V (Proc.devRef .tc main_arg4)) (f1_main_arg2 V) (f1_main_arg4 V) (f1_main_v0 V)

theorem f2_main_v14 (V : Valuation τ sig (Elt F)) :
    (StableHlo.after (winB1 (F := F)) (StableHlo.after (opsA (F := F)) V)) (Proc.devRef .tc main_v14) = Cert.ReferenceIdeal.ReadP.val_main_v14 (F := F) :=
  winB1_main_v14 (StableHlo.after (opsA (F := F)) V)

theorem f2_main_v26 (V : Valuation τ sig (Elt F)) :
    (StableHlo.after (winB1 (F := F)) (StableHlo.after (opsA (F := F)) V)) (Proc.devRef .tc main_v26) = Cert.ReferenceIdeal.ReadP.val_main_v26 (F := F) :=
  winB1_main_v26 (StableHlo.after (opsA (F := F)) V)

theorem f2_main_v27 (V : Valuation τ sig (Elt F)) :
    (StableHlo.after (winB1 (F := F)) (StableHlo.after (opsA (F := F)) V)) (Proc.devRef .tc main_v27) = Cert.ReferenceIdeal.ReadP.val_main_v27 (F := F) (V (Proc.devRef .tc main_arg4)) :=
  winB1_main_v27 (StableHlo.after (opsA (F := F)) V) (V (Proc.devRef .tc main_arg4)) (f1_main_arg4 V)

theorem f2_main_v0 (V : Valuation τ sig (Elt F)) :
    (StableHlo.after (winB1 (F := F)) (StableHlo.after (opsA (F := F)) V)) (Proc.devRef .tc main_v0) = Cert.ReferenceIdeal.ReadP.val_main_v0 (F := F) (V (Proc.devRef .tc main_arg0)) :=
  (winB1_keep_main_v0 (StableHlo.after (opsA (F := F)) V)).trans (f1_main_v0 V)

theorem f2_main_v1 (V : Valuation τ sig (Elt F)) :
    (StableHlo.after (winB1 (F := F)) (StableHlo.after (opsA (F := F)) V)) (Proc.devRef .tc main_v1) = Cert.ReferenceIdeal.ReadP.val_main_v1 (F := F) (V (Proc.devRef .tc main_arg1)) :=
  (winB1_keep_main_v1 (StableHlo.after (opsA (F := F)) V)).trans (f1_main_v1 V)

theorem f2_main_arg2 (V : Valuation τ sig (Elt F)) :
    (StableHlo.after (winB1 (F := F)) (StableHlo.after (opsA (F := F)) V)) (Proc.devRef .tc main_arg2) = V (Proc.devRef .tc main_arg2) :=
  (winB1_keep_main_arg2 (StableHlo.after (opsA (F := F)) V)).trans (f1_main_arg2 V)

theorem f2_main_arg3 (V : Valuation τ sig (Elt F)) :
    (StableHlo.after (winB1 (F := F)) (StableHlo.after (opsA (F := F)) V)) (Proc.devRef .tc main_arg3) = V (Proc.devRef .tc main_arg3) :=
  (winB1_keep_main_arg3 (StableHlo.after (opsA (F := F)) V)).trans (f1_main_arg3 V)

theorem f2_main_arg4 (V : Valuation τ sig (Elt F)) :
    (StableHlo.after (winB1 (F := F)) (StableHlo.after (opsA (F := F)) V)) (Proc.devRef .tc main_arg4) = V (Proc.devRef .tc main_arg4) :=
  (winB1_keep_main_arg4 (StableHlo.after (opsA (F := F)) V)).trans (f1_main_arg4 V)

theorem f2_main_arg5 (V : Valuation τ sig (Elt F)) :
    (StableHlo.after (winB1 (F := F)) (StableHlo.after (opsA (F := F)) V)) (Proc.devRef .tc main_arg5) = V (Proc.devRef .tc main_arg5) :=
  (winB1_keep_main_arg5 (StableHlo.after (opsA (F := F)) V)).trans (f1_main_arg5 V)

theorem f2_main_arg6 (V : Valuation τ sig (Elt F)) :
    (StableHlo.after (winB1 (F := F)) (StableHlo.after (opsA (F := F)) V)) (Proc.devRef .tc main_arg6) = V (Proc.devRef .tc main_arg6) :=
  (winB1_keep_main_arg6 (StableHlo.after (opsA (F := F)) V)).trans (f1_main_arg6 V)

theorem f2_main_arg7 (V : Valuation τ sig (Elt F)) :
    (StableHlo.after (winB1 (F := F)) (StableHlo.after (opsA (F := F)) V)) (Proc.devRef .tc main_arg7) = V (Proc.devRef .tc main_arg7) :=
  (winB1_keep_main_arg7 (StableHlo.after (opsA (F := F)) V)).trans (f1_main_arg7 V)

theorem f2_main_arg8 (V : Valuation τ sig (Elt F)) :
    (StableHlo.after (winB1 (F := F)) (StableHlo.after (opsA (F := F)) V)) (Proc.devRef .tc main_arg8) = V (Proc.devRef .tc main_arg8) :=
  (winB1_keep_main_arg8 (StableHlo.after (opsA (F := F)) V)).trans (f1_main_arg8 V)

theorem f2_main_arg9 (V : Valuation τ sig (Elt F)) :
    (StableHlo.after (winB1 (F := F)) (StableHlo.after (opsA (F := F)) V)) (Proc.devRef .tc main_arg9) = V (Proc.devRef .tc main_arg9) :=
  (winB1_keep_main_arg9 (StableHlo.after (opsA (F := F)) V)).trans (f1_main_arg9 V)

/-! After stretch 3 (operations 87 to 177). -/

theorem f3_main_v60 (V : Valuation τ sig (Elt F)) :
    (StableHlo.after (winB2 (F := F)) (StableHlo.after (winB1 (F := F)) (StableHlo.after (opsA (F := F)) V))) (Proc.devRef .tc main_v60) = Cert.ReferenceIdeal.ReadP.val_main_v60 (F := F) (V (Proc.devRef .tc main_arg0)) (V (Proc.devRef .tc main_arg2)) (V (Proc.devRef .tc main_arg4)) (V (Proc.devRef .tc main_arg5)) (V (Proc.devRef .tc main_arg6)) (V (Proc.devRef .tc main_arg8)) (V (Proc.devRef .tc main_arg9)) :=
  winB2_main_v60 (StableHlo.after (winB1 (F := F)) (StableHlo.after (opsA (F := F)) V)) (V (Proc.devRef .tc main_arg0)) (V (Proc.devRef .tc main_arg2)) (V (Proc.devRef .tc main_arg4)) (V (Proc.devRef .tc main_arg5)) (V (Proc.devRef .tc main_arg6)) (V (Proc.devRef .tc main_arg8)) (V (Proc.devRef .tc main_arg9)) (f2_main_arg4 V) (f2_main_arg5 V) (f2_main_arg6 V) (f2_main_arg8 V) (f2_main_arg9 V) (f2_main_v10 V) (f2_main_v14 V) (f2_main_v26 V) (f2_main_v27 V)

theorem f3_main_v0 (V : Valuation τ sig (Elt F)) :
    (StableHlo.after (winB2 (F := F)) (StableHlo.after (winB1 (F := F)) (StableHlo.after (opsA (F := F)) V))) (Proc.devRef .tc main_v0) = Cert.ReferenceIdeal.ReadP.val_main_v0 (F := F) (V (Proc.devRef .tc main_arg0)) :=
  (winB2_keep_main_v0 (StableHlo.after (winB1 (F := F)) (StableHlo.after (opsA (F := F)) V))).trans (f2_main_v0 V)

theorem f3_main_v1 (V : Valuation τ sig (Elt F)) :
    (StableHlo.after (winB2 (F := F)) (StableHlo.after (winB1 (F := F)) (StableHlo.after (opsA (F := F)) V))) (Proc.devRef .tc main_v1) = Cert.ReferenceIdeal.ReadP.val_main_v1 (F := F) (V (Proc.devRef .tc main_arg1)) :=
  (winB2_keep_main_v1 (StableHlo.after (winB1 (F := F)) (StableHlo.after (opsA (F := F)) V))).trans (f2_main_v1 V)

theorem f3_main_v8 (V : Valuation τ sig (Elt F)) :
    (StableHlo.after (winB2 (F := F)) (StableHlo.after (winB1 (F := F)) (StableHlo.after (opsA (F := F)) V))) (Proc.devRef .tc main_v8) = Cert.ReferenceIdeal.ReadP.val_main_v8 (F := F) (V (Proc.devRef .tc main_arg4)) :=
  (winB2_keep_main_v8 (StableHlo.after (winB1 (F := F)) (StableHlo.after (opsA (F := F)) V))).trans (f2_main_v8 V)

theorem f3_main_arg2 (V : Valuation τ sig (Elt F)) :
    (StableHlo.after (winB2 (F := F)) (StableHlo.after (winB1 (F := F)) (StableHlo.after (opsA (F := F)) V))) (Proc.devRef .tc main_arg2) = V (Proc.devRef .tc main_arg2) :=
  (winB2_keep_main_arg2 (StableHlo.after (winB1 (F := F)) (StableHlo.after (opsA (F := F)) V))).trans (f2_main_arg2 V)

theorem f3_main_arg3 (V : Valuation τ sig (Elt F)) :
    (StableHlo.after (winB2 (F := F)) (StableHlo.after (winB1 (F := F)) (StableHlo.after (opsA (F := F)) V))) (Proc.devRef .tc main_arg3) = V (Proc.devRef .tc main_arg3) :=
  (winB2_keep_main_arg3 (StableHlo.after (winB1 (F := F)) (StableHlo.after (opsA (F := F)) V))).trans (f2_main_arg3 V)

theorem f3_main_arg7 (V : Valuation τ sig (Elt F)) :
    (StableHlo.after (winB2 (F := F)) (StableHlo.after (winB1 (F := F)) (StableHlo.after (opsA (F := F)) V))) (Proc.devRef .tc main_arg7) = V (Proc.devRef .tc main_arg7) :=
  (winB2_keep_main_arg7 (StableHlo.after (winB1 (F := F)) (StableHlo.after (opsA (F := F)) V))).trans (f2_main_arg7 V)

/-! After stretch 4 (operations 178 to 194). -/

theorem f4_main_v69 (V : Valuation τ sig (Elt F)) :
    (StableHlo.after (winB3 (F := F)) (StableHlo.after (winB2 (F := F)) (StableHlo.after (winB1 (F := F)) (StableHlo.after (opsA (F := F)) V)))) (Proc.devRef .tc main_v69) = Cert.ReferenceIdeal.ReadP.val_main_v69 (F := F) (V (Proc.devRef .tc main_arg0)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  winB3_main_v69 (StableHlo.after (winB2 (F := F)) (StableHlo.after (winB1 (F := F)) (StableHlo.after (opsA (F := F)) V))) (V (Proc.devRef .tc main_arg0)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (f3_main_arg7 V) (f3_main_v60 V)

theorem f4_main_v70 (V : Valuation τ sig (Elt F)) :
    (StableHlo.after (winB3 (F := F)) (StableHlo.after (winB2 (F := F)) (StableHlo.after (winB1 (F := F)) (StableHlo.after (opsA (F := F)) V)))) (Proc.devRef .tc main_v70) = Cert.ReferenceIdeal.ReadP.val_main_v70 (F := F) (V (Proc.devRef .tc main_arg0)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  winB3_main_v70 (StableHlo.after (winB2 (F := F)) (StableHlo.after (winB1 (F := F)) (StableHlo.after (opsA (F := F)) V))) (V (Proc.devRef .tc main_arg0)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (f3_main_arg7 V) (f3_main_v60 V)

theorem f4_main_v71 (V : Valuation τ sig (Elt F)) :
    (StableHlo.after (winB3 (F := F)) (StableHlo.after (winB2 (F := F)) (StableHlo.after (winB1 (F := F)) (StableHlo.after (opsA (F := F)) V)))) (Proc.devRef .tc main_v71) = Cert.ReferenceIdeal.ReadP.val_main_v71 (F := F) :=
  winB3_main_v71 (StableHlo.after (winB2 (F := F)) (StableHlo.after (winB1 (F := F)) (StableHlo.after (opsA (F := F)) V)))

theorem f4_main_v72 (V : Valuation τ sig (Elt F)) :
    (StableHlo.after (winB3 (F := F)) (StableHlo.after (winB2 (F := F)) (StableHlo.after (winB1 (F := F)) (StableHlo.after (opsA (F := F)) V)))) (Proc.devRef .tc main_v72) = Cert.ReferenceIdeal.ReadP.val_main_v72 (F := F) (V (Proc.devRef .tc main_arg4)) :=
  winB3_main_v72 (StableHlo.after (winB2 (F := F)) (StableHlo.after (winB1 (F := F)) (StableHlo.after (opsA (F := F)) V))) (V (Proc.devRef .tc main_arg4)) (f3_main_v8 V)

theorem f4_main_v0 (V : Valuation τ sig (Elt F)) :
    (StableHlo.after (winB3 (F := F)) (StableHlo.after (winB2 (F := F)) (StableHlo.after (winB1 (F := F)) (StableHlo.after (opsA (F := F)) V)))) (Proc.devRef .tc main_v0) = Cert.ReferenceIdeal.ReadP.val_main_v0 (F := F) (V (Proc.devRef .tc main_arg0)) :=
  (winB3_keep_main_v0 (StableHlo.after (winB2 (F := F)) (StableHlo.after (winB1 (F := F)) (StableHlo.after (opsA (F := F)) V)))).trans (f3_main_v0 V)

theorem f4_main_v1 (V : Valuation τ sig (Elt F)) :
    (StableHlo.after (winB3 (F := F)) (StableHlo.after (winB2 (F := F)) (StableHlo.after (winB1 (F := F)) (StableHlo.after (opsA (F := F)) V)))) (Proc.devRef .tc main_v1) = Cert.ReferenceIdeal.ReadP.val_main_v1 (F := F) (V (Proc.devRef .tc main_arg1)) :=
  (winB3_keep_main_v1 (StableHlo.after (winB2 (F := F)) (StableHlo.after (winB1 (F := F)) (StableHlo.after (opsA (F := F)) V)))).trans (f3_main_v1 V)

theorem f4_main_v60 (V : Valuation τ sig (Elt F)) :
    (StableHlo.after (winB3 (F := F)) (StableHlo.after (winB2 (F := F)) (StableHlo.after (winB1 (F := F)) (StableHlo.after (opsA (F := F)) V)))) (Proc.devRef .tc main_v60) = Cert.ReferenceIdeal.ReadP.val_main_v60 (F := F) (V (Proc.devRef .tc main_arg0)) (V (Proc.devRef .tc main_arg2)) (V (Proc.devRef .tc main_arg4)) (V (Proc.devRef .tc main_arg5)) (V (Proc.devRef .tc main_arg6)) (V (Proc.devRef .tc main_arg8)) (V (Proc.devRef .tc main_arg9)) :=
  (winB3_keep_main_v60 (StableHlo.after (winB2 (F := F)) (StableHlo.after (winB1 (F := F)) (StableHlo.after (opsA (F := F)) V)))).trans (f3_main_v60 V)

theorem f4_main_arg2 (V : Valuation τ sig (Elt F)) :
    (StableHlo.after (winB3 (F := F)) (StableHlo.after (winB2 (F := F)) (StableHlo.after (winB1 (F := F)) (StableHlo.after (opsA (F := F)) V)))) (Proc.devRef .tc main_arg2) = V (Proc.devRef .tc main_arg2) :=
  (winB3_keep_main_arg2 (StableHlo.after (winB2 (F := F)) (StableHlo.after (winB1 (F := F)) (StableHlo.after (opsA (F := F)) V)))).trans (f3_main_arg2 V)

theorem f4_main_arg3 (V : Valuation τ sig (Elt F)) :
    (StableHlo.after (winB3 (F := F)) (StableHlo.after (winB2 (F := F)) (StableHlo.after (winB1 (F := F)) (StableHlo.after (opsA (F := F)) V)))) (Proc.devRef .tc main_arg3) = V (Proc.devRef .tc main_arg3) :=
  (winB3_keep_main_arg3 (StableHlo.after (winB2 (F := F)) (StableHlo.after (winB1 (F := F)) (StableHlo.after (opsA (F := F)) V)))).trans (f3_main_arg3 V)

/-! After stretch 5 (operations 195 to 209). -/

theorem f5_main_v84 (V : Valuation τ sig (Elt F)) :
    (StableHlo.after (winB4 (F := F)) (StableHlo.after (winB3 (F := F)) (StableHlo.after (winB2 (F := F)) (StableHlo.after (winB1 (F := F)) (StableHlo.after (opsA (F := F)) V))))) (Proc.devRef .tc main_v84) = Cert.ReferenceIdeal.ReadP.val_main_v84 (F := F) (V (Proc.devRef .tc main_arg0)) (V (Proc.devRef .tc main_arg1)) (V (Proc.devRef .tc main_arg4)) :=
  winB4_main_v84 (StableHlo.after (winB3 (F := F)) (StableHlo.after (winB2 (F := F)) (StableHlo.after (winB1 (F := F)) (StableHlo.after (opsA (F := F)) V)))) (V (Proc.devRef .tc main_arg0)) (V (Proc.devRef .tc main_arg1)) (V (Proc.devRef .tc main_arg4)) (f4_main_v0 V) (f4_main_v1 V) (f4_main_v71 V) (f4_main_v72 V)

theorem f5_main_v0 (V : Valuation τ sig (Elt F)) :
    (StableHlo.after (winB4 (F := F)) (StableHlo.after (winB3 (F := F)) (StableHlo.after (winB2 (F := F)) (StableHlo.after (winB1 (F := F)) (StableHlo.after (opsA (F := F)) V))))) (Proc.devRef .tc main_v0) = Cert.ReferenceIdeal.ReadP.val_main_v0 (F := F) (V (Proc.devRef .tc main_arg0)) :=
  (winB4_keep_main_v0 (StableHlo.after (winB3 (F := F)) (StableHlo.after (winB2 (F := F)) (StableHlo.after (winB1 (F := F)) (StableHlo.after (opsA (F := F)) V))))).trans (f4_main_v0 V)

theorem f5_main_v1 (V : Valuation τ sig (Elt F)) :
    (StableHlo.after (winB4 (F := F)) (StableHlo.after (winB3 (F := F)) (StableHlo.after (winB2 (F := F)) (StableHlo.after (winB1 (F := F)) (StableHlo.after (opsA (F := F)) V))))) (Proc.devRef .tc main_v1) = Cert.ReferenceIdeal.ReadP.val_main_v1 (F := F) (V (Proc.devRef .tc main_arg1)) :=
  (winB4_keep_main_v1 (StableHlo.after (winB3 (F := F)) (StableHlo.after (winB2 (F := F)) (StableHlo.after (winB1 (F := F)) (StableHlo.after (opsA (F := F)) V))))).trans (f4_main_v1 V)

theorem f5_main_v60 (V : Valuation τ sig (Elt F)) :
    (StableHlo.after (winB4 (F := F)) (StableHlo.after (winB3 (F := F)) (StableHlo.after (winB2 (F := F)) (StableHlo.after (winB1 (F := F)) (StableHlo.after (opsA (F := F)) V))))) (Proc.devRef .tc main_v60) = Cert.ReferenceIdeal.ReadP.val_main_v60 (F := F) (V (Proc.devRef .tc main_arg0)) (V (Proc.devRef .tc main_arg2)) (V (Proc.devRef .tc main_arg4)) (V (Proc.devRef .tc main_arg5)) (V (Proc.devRef .tc main_arg6)) (V (Proc.devRef .tc main_arg8)) (V (Proc.devRef .tc main_arg9)) :=
  (winB4_keep_main_v60 (StableHlo.after (winB3 (F := F)) (StableHlo.after (winB2 (F := F)) (StableHlo.after (winB1 (F := F)) (StableHlo.after (opsA (F := F)) V))))).trans (f4_main_v60 V)

theorem f5_main_v69 (V : Valuation τ sig (Elt F)) :
    (StableHlo.after (winB4 (F := F)) (StableHlo.after (winB3 (F := F)) (StableHlo.after (winB2 (F := F)) (StableHlo.after (winB1 (F := F)) (StableHlo.after (opsA (F := F)) V))))) (Proc.devRef .tc main_v69) = Cert.ReferenceIdeal.ReadP.val_main_v69 (F := F) (V (Proc.devRef .tc main_arg0)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  (winB4_keep_main_v69 (StableHlo.after (winB3 (F := F)) (StableHlo.after (winB2 (F := F)) (StableHlo.after (winB1 (F := F)) (StableHlo.after (opsA (F := F)) V))))).trans (f4_main_v69 V)

theorem f5_main_v70 (V : Valuation τ sig (Elt F)) :
    (StableHlo.after (winB4 (F := F)) (StableHlo.after (winB3 (F := F)) (StableHlo.after (winB2 (F := F)) (StableHlo.after (winB1 (F := F)) (StableHlo.after (opsA (F := F)) V))))) (Proc.devRef .tc main_v70) = Cert.ReferenceIdeal.ReadP.val_main_v70 (F := F) (V (Proc.devRef .tc main_arg0)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  (winB4_keep_main_v70 (StableHlo.after (winB3 (F := F)) (StableHlo.after (winB2 (F := F)) (StableHlo.after (winB1 (F := F)) (StableHlo.after (opsA (F := F)) V))))).trans (f4_main_v70 V)

theorem f5_main_arg2 (V : Valuation τ sig (Elt F)) :
    (StableHlo.after (winB4 (F := F)) (StableHlo.after (winB3 (F := F)) (StableHlo.after (winB2 (F := F)) (StableHlo.after (winB1 (F := F)) (StableHlo.after (opsA (F := F)) V))))) (Proc.devRef .tc main_arg2) = V (Proc.devRef .tc main_arg2) :=
  (winB4_keep_main_arg2 (StableHlo.after (winB3 (F := F)) (StableHlo.after (winB2 (F := F)) (StableHlo.after (winB1 (F := F)) (StableHlo.after (opsA (F := F)) V))))).trans (f4_main_arg2 V)

theorem f5_main_arg3 (V : Valuation τ sig (Elt F)) :
    (StableHlo.after (winB4 (F := F)) (StableHlo.after (winB3 (F := F)) (StableHlo.after (winB2 (F := F)) (StableHlo.after (winB1 (F := F)) (StableHlo.after (opsA (F := F)) V))))) (Proc.devRef .tc main_arg3) = V (Proc.devRef .tc main_arg3) :=
  (winB4_keep_main_arg3 (StableHlo.after (winB3 (F := F)) (StableHlo.after (winB2 (F := F)) (StableHlo.after (winB1 (F := F)) (StableHlo.after (opsA (F := F)) V))))).trans (f4_main_arg3 V)

/-! After stretch 6 (operations 210 to 278). -/

theorem f6_main_v99 (V : Valuation τ sig (Elt F)) :
    (StableHlo.after (winB5 (F := F)) (StableHlo.after (winB4 (F := F)) (StableHlo.after (winB3 (F := F)) (StableHlo.after (winB2 (F := F)) (StableHlo.after (winB1 (F := F)) (StableHlo.after (opsA (F := F)) V)))))) (Proc.devRef .tc main_v99) = Cert.ReferenceIdeal.ReadP.val_main_v99 (F := F) (V (Proc.devRef .tc main_arg0)) (V (Proc.devRef .tc main_arg2)) (V (Proc.devRef .tc main_arg3)) :=
  winB5_main_v99 (StableHlo.after (winB4 (F := F)) (StableHlo.after (winB3 (F := F)) (StableHlo.after (winB2 (F := F)) (StableHlo.after (winB1 (F := F)) (StableHlo.after (opsA (F := F)) V))))) (V (Proc.devRef .tc main_arg0)) (V (Proc.devRef .tc main_arg2)) (V (Proc.devRef .tc main_arg3)) (f5_main_arg2 V) (f5_main_arg3 V) (f5_main_v0 V)

theorem f6_main_v104 (V : Valuation τ sig (Elt F)) :
    (StableHlo.after (winB5 (F := F)) (StableHlo.after (winB4 (F := F)) (StableHlo.after (winB3 (F := F)) (StableHlo.after (winB2 (F := F)) (StableHlo.after (winB1 (F := F)) (StableHlo.after (opsA (F := F)) V)))))) (Proc.devRef .tc main_v104) = Cert.ReferenceIdeal.ReadP.val_main_v104 (F := F) (V (Proc.devRef .tc main_arg0)) (V (Proc.devRef .tc main_arg1)) (V (Proc.devRef .tc main_arg2)) (V (Proc.devRef .tc main_arg3)) :=
  winB5_main_v104 (StableHlo.after (winB4 (F := F)) (StableHlo.after (winB3 (F := F)) (StableHlo.after (winB2 (F := F)) (StableHlo.after (winB1 (F := F)) (StableHlo.after (opsA (F := F)) V))))) (V (Proc.devRef .tc main_arg0)) (V (Proc.devRef .tc main_arg1)) (V (Proc.devRef .tc main_arg2)) (V (Proc.devRef .tc main_arg3)) (f5_main_arg2 V) (f5_main_arg3 V) (f5_main_v0 V) (f5_main_v1 V)

theorem f6_main_v106 (V : Valuation τ sig (Elt F)) :
    (StableHlo.after (winB5 (F := F)) (StableHlo.after (winB4 (F := F)) (StableHlo.after (winB3 (F := F)) (StableHlo.after (winB2 (F := F)) (StableHlo.after (winB1 (F := F)) (StableHlo.after (opsA (F := F)) V)))))) (Proc.devRef .tc main_v106) = Cert.ReferenceIdeal.ReadP.val_main_v106 (F := F) (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  winB5_main_v106 (StableHlo.after (winB4 (F := F)) (StableHlo.after (winB3 (F := F)) (StableHlo.after (winB2 (F := F)) (StableHlo.after (winB1 (F := F)) (StableHlo.after (opsA (F := F)) V))))) (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (f5_main_v70 V) (f5_main_v84 V)

theorem f6_main_v60 (V : Valuation τ sig (Elt F)) :
    (StableHlo.after (winB5 (F := F)) (StableHlo.after (winB4 (F := F)) (StableHlo.after (winB3 (F := F)) (StableHlo.after (winB2 (F := F)) (StableHlo.after (winB1 (F := F)) (StableHlo.after (opsA (F := F)) V)))))) (Proc.devRef .tc main_v60) = Cert.ReferenceIdeal.ReadP.val_main_v60 (F := F) (V (Proc.devRef .tc main_arg0)) (V (Proc.devRef .tc main_arg2)) (V (Proc.devRef .tc main_arg4)) (V (Proc.devRef .tc main_arg5)) (V (Proc.devRef .tc main_arg6)) (V (Proc.devRef .tc main_arg8)) (V (Proc.devRef .tc main_arg9)) :=
  (winB5_keep_main_v60 (StableHlo.after (winB4 (F := F)) (StableHlo.after (winB3 (F := F)) (StableHlo.after (winB2 (F := F)) (StableHlo.after (winB1 (F := F)) (StableHlo.after (opsA (F := F)) V)))))).trans (f5_main_v60 V)

theorem f6_main_v69 (V : Valuation τ sig (Elt F)) :
    (StableHlo.after (winB5 (F := F)) (StableHlo.after (winB4 (F := F)) (StableHlo.after (winB3 (F := F)) (StableHlo.after (winB2 (F := F)) (StableHlo.after (winB1 (F := F)) (StableHlo.after (opsA (F := F)) V)))))) (Proc.devRef .tc main_v69) = Cert.ReferenceIdeal.ReadP.val_main_v69 (F := F) (V (Proc.devRef .tc main_arg0)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  (winB5_keep_main_v69 (StableHlo.after (winB4 (F := F)) (StableHlo.after (winB3 (F := F)) (StableHlo.after (winB2 (F := F)) (StableHlo.after (winB1 (F := F)) (StableHlo.after (opsA (F := F)) V)))))).trans (f5_main_v69 V)

theorem f6_main_v84 (V : Valuation τ sig (Elt F)) :
    (StableHlo.after (winB5 (F := F)) (StableHlo.after (winB4 (F := F)) (StableHlo.after (winB3 (F := F)) (StableHlo.after (winB2 (F := F)) (StableHlo.after (winB1 (F := F)) (StableHlo.after (opsA (F := F)) V)))))) (Proc.devRef .tc main_v84) = Cert.ReferenceIdeal.ReadP.val_main_v84 (F := F) (V (Proc.devRef .tc main_arg0)) (V (Proc.devRef .tc main_arg1)) (V (Proc.devRef .tc main_arg4)) :=
  (winB5_keep_main_v84 (StableHlo.after (winB4 (F := F)) (StableHlo.after (winB3 (F := F)) (StableHlo.after (winB2 (F := F)) (StableHlo.after (winB1 (F := F)) (StableHlo.after (opsA (F := F)) V)))))).trans (f5_main_v84 V)

/-! The six results. -/

/-- Result `main_v106`, as the program's operations leave it, is its stage function of the arguments. -/
theorem res106 (V : Valuation τ sig (Elt F)) :
    StableHlo.after (ops (F := F)) V (Proc.devRef .tc main_v106)
      = Cert.ReferenceIdeal.ReadP.val_main_v106 (F := F) (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rw [after_ops]
  exact f6_main_v106 V

/-- Result `main_v60`, as the program's operations leave it, is its stage function of the arguments. -/
theorem res60 (V : Valuation τ sig (Elt F)) :
    StableHlo.after (ops (F := F)) V (Proc.devRef .tc main_v60)
      = Cert.ReferenceIdeal.ReadP.val_main_v60 (F := F) (V (Proc.devRef .tc main_arg0)) (V (Proc.devRef .tc main_arg2)) (V (Proc.devRef .tc main_arg4)) (V (Proc.devRef .tc main_arg5)) (V (Proc.devRef .tc main_arg6)) (V (Proc.devRef .tc main_arg8)) (V (Proc.devRef .tc main_arg9)) := by
  rw [after_ops]
  exact f6_main_v60 V

/-- Result `main_v69`, as the program's operations leave it, is its stage function of the arguments. -/
theorem res69 (V : Valuation τ sig (Elt F)) :
    StableHlo.after (ops (F := F)) V (Proc.devRef .tc main_v69)
      = Cert.ReferenceIdeal.ReadP.val_main_v69 (F := F) (V (Proc.devRef .tc main_arg0)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rw [after_ops]
  exact f6_main_v69 V

/-- Result `main_v84`, as the program's operations leave it, is its stage function of the arguments. -/
theorem res84 (V : Valuation τ sig (Elt F)) :
    StableHlo.after (ops (F := F)) V (Proc.devRef .tc main_v84)
      = Cert.ReferenceIdeal.ReadP.val_main_v84 (F := F) (V (Proc.devRef .tc main_arg0)) (V (Proc.devRef .tc main_arg1)) (V (Proc.devRef .tc main_arg4)) := by
  rw [after_ops]
  exact f6_main_v84 V

/-- Result `main_v99`, as the program's operations leave it, is its stage function of the arguments. -/
theorem res99 (V : Valuation τ sig (Elt F)) :
    StableHlo.after (ops (F := F)) V (Proc.devRef .tc main_v99)
      = Cert.ReferenceIdeal.ReadP.val_main_v99 (F := F) (V (Proc.devRef .tc main_arg0)) (V (Proc.devRef .tc main_arg2)) (V (Proc.devRef .tc main_arg3)) := by
  rw [after_ops]
  exact f6_main_v99 V

/-- Result `main_v104`, as the program's operations leave it, is its stage function of the arguments. -/
theorem res104 (V : Valuation τ sig (Elt F)) :
    StableHlo.after (ops (F := F)) V (Proc.devRef .tc main_v104)
      = Cert.ReferenceIdeal.ReadP.val_main_v104 (F := F) (V (Proc.devRef .tc main_arg0)) (V (Proc.devRef .tc main_arg1)) (V (Proc.devRef .tc main_arg2)) (V (Proc.devRef .tc main_arg3)) := by
  rw [after_ops]
  exact f6_main_v104 V

end Cert.RefTail

end
-- ==== Proof.RefValue.lean ====
import proofs.«424779_j13597866459574_3_alg».proof.Proof.RefFrame
import proofs.«424779_j13597866459574_3_alg».proof.Proof.RefTail

/-! The reference's run with its six results named: each ends at its stage function of the launch contents of the
    arguments, and the arguments end as launched. -/

noncomputable section

namespace Cert.RefRun

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

theorem run_val (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v106) = Cert.ReferenceIdeal.ReadP.val_main_v106 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v60) = Cert.ReferenceIdeal.ReadP.val_main_v60 (F := F) (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg9))
      ∧ r.2.mem ((c.tc : Thread nD τ).loc main_v69) = Cert.ReferenceIdeal.ReadP.val_main_v69 (F := F) (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v84) = Cert.ReferenceIdeal.ReadP.val_main_v84 (F := F) (m ((c.tc : Thread nD τ).loc main_arg0)) (m ((c.tc : Thread nD τ).loc main_arg1)) (m ((c.tc : Thread nD τ).loc main_arg4))
      ∧ r.2.mem ((c.tc : Thread nD τ).loc main_v99) = Cert.ReferenceIdeal.ReadP.val_main_v99 (F := F) (m ((c.tc : Thread nD τ).loc main_arg0)) (m ((c.tc : Thread nD τ).loc main_arg2)) (m ((c.tc : Thread nD τ).loc main_arg3))
      ∧ r.2.mem ((c.tc : Thread nD τ).loc main_v104) = Cert.ReferenceIdeal.ReadP.val_main_v104 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨(h c main_v106).trans (Cert.RefTail.res106 (launchContents m c)),
     (h c main_v60).trans (Cert.RefTail.res60 (launchContents m c)),
     (h c main_v69).trans (Cert.RefTail.res69 (launchContents m c)),
     (h c main_v84).trans (Cert.RefTail.res84 (launchContents m c)),
     (h c main_v99).trans (Cert.RefTail.res99 (launchContents m c)),
     (h c main_v104).trans (Cert.RefTail.res104 (launchContents m c)),
     (h c main_arg0).trans (kept_main_arg0 m c),
     (h c main_arg1).trans (kept_main_arg1 m c),
     (h c main_arg2).trans (kept_main_arg2 m c),
     (h c main_arg3).trans (kept_main_arg3 m c),
     (h c main_arg4).trans (kept_main_arg4 m c),
     (h c main_arg5).trans (kept_main_arg5 m c),
     (h c main_arg6).trans (kept_main_arg6 m c),
     (h c main_arg7).trans (kept_main_arg7 m c),
     (h c main_arg8).trans (kept_main_arg8 m c),
     (h c main_arg9).trans (kept_main_arg9 m c)⟩) (run_after m ρ)

end Cert.RefRun

end
-- ==== Proof.Spec.lean ====
import Idealize.ShloMosaic.PureOps.Ideal
import Idealize.ShloMosaic.Lib.ValueIdx

/-! Row-level specification of the per-token quantities, over the extended reals.

A row is one position's logits over the vocabulary. The kernel's side shifts by the row maximum, sums the
exponentials, and picks the entry at a token id through a one-hot sum; the reference's side is the
log-softmax `lp`, read at the token id. Both are stated here as plain functions of a row. -/

noncomputable section

namespace Cert.Spec

open Idealize.ShloMosaic
open scoped BigOperators

/-- One position's logits over the vocabulary. -/
abbrev Row := Fin 32000 → EReal

/-- The row maximum, from `-∞`. -/
def rowMax (x : Row) : EReal := Finset.univ.sup x

/-- An entry less the row maximum. -/
def shift (x : Row) (v : Fin 32000) : EReal := x v - rowMax x

/-- The sum of the exponentials of the shifted row. -/
def rowZ (x : Row) : EReal := ∑ v, Ideal.exp (shift x v)

/-- Its logarithm. -/
def lse (x : Row) : EReal := Ideal.log (rowZ x)

/-- The shifted entry at the token whose 32-bit word is `id`, as a one-hot sum over the vocabulary
    (zero when no vocabulary index has that word). -/
def pick (x : Row) (id : BitVec 32) : EReal :=
  ∑ v : Fin 32000, if BitVec.ofNat 32 v.val = id then shift x v else 0

/-- Kernel side: the surprisal, the next-token log-probability, and the KL term of a position. -/
def surpK (x : Row) (id : BitVec 32) : EReal := lse x - pick x id
def gK (x : Row) (id : BitVec 32) : EReal := pick x id - lse x
def klK (x r : Row) : EReal :=
  (∑ v, (Ideal.exp (shift r v) * Ideal.div 1 (rowZ r)) * (shift r v - shift x v)) - lse r + lse x

/-- Reference side: the log-softmax entry, and the same three quantities through it. -/
def lp (x : Row) (v : Fin 32000) : EReal := shift x v - lse x
def surpR (x : Row) (v : Fin 32000) : EReal := -(lp x v)
def gR (x : Row) (v : Fin 32000) : EReal := lp x v
def klR (x r : Row) : EReal := ∑ v, Ideal.exp (lp r v) * (lp r v - lp x v)

/-- Every entry of the row is a real number. -/
def Finite (x : Row) : Prop := ∀ v, ∃ a : ℝ, x v = (a : EReal)

/-- Row `(b, s)` of a `[4, 513, 32000]` array. -/
def rowOf (A : (⟨3, ![4, 513, 32000]⟩ : Shape).Idx → EReal) (b : Fin 4) (s : Fin 513) : Row :=
  fun v => A (ValueIdx.ix3 b s v)

/-- Row `(b, r)` of a `[4, 16, 32000]` block. -/
def rowOfBlk (A : (⟨3, ![4, 16, 32000]⟩ : Shape).Idx → EReal) (b : Fin 4) (r : Fin 16) : Row :=
  fun v => A (ValueIdx.ix3 b r v)

end Cert.Spec

end
-- ==== Proof.LoopVal.lean ====
import proofs.«424779_j13597866459574_3_alg».proof.Proof.Spec
import proofs.«424779_j13597866459574_3_alg».proof.Proof.Gen.KernelIdeal.Loops
import Idealize.ShloMosaic.PureOps.Ideal.Laws
import Idealize.ShloMosaic.Lib.ValueIdx
import Idealize.ShloMosaic.Lib.Pipeline.Value

/-! The values the three counted loops of the kernel body carry, in closed form over the extended reals.

The vocabulary axis of 32000 columns is walked in 25 chunks of 1280 lanes. After k trips the first loop
holds the maximum of the first 1280 k columns of each row, the second the sum of the exponentials of the
shifted entries over those columns, the third the partial sums of the cross term and of the three one-hot
picks. After the 25th trip the prefix is the whole row, and the four result blocks are the row-level
quantities of the specification. -/

set_option maxRecDepth 8192

noncomputable section

namespace Cert.KernelIdeal.LoopVal

open Cert.KernelIdeal Cert.KernelIdeal.Gen Idealize.ShloMosaic Idealize.ShloMosaic.ValueIdx
open Idealize.ShloMosaic.TcCoe Idealize.SL Idealize.SL.Sem
open scoped BigOperators

/-! ## The first 1280 k columns -/

/-- The columns below 1280 k. -/
def pre (k : ℕ) : Finset (Fin 32000) := Finset.univ.filter fun v => v.val < 1280 * k

/-- Lane l of chunk k is column 1280 k + l. -/
def col (k : ℕ) (hk : k < 25) (l : Fin 1280) : Fin 32000 := ⟨1280 * k + l.val, by have := l.isLt; omega⟩

theorem col_val (k : ℕ) (hk : k < 25) (l : Fin 1280) : (col k hk l).val = 1280 * k + l.val := rfl

/-- The lanes of a chunk are distinct columns. -/
def colEmb (k : ℕ) (hk : k < 25) : Fin 1280 ↪ Fin 32000 :=
  ⟨col k hk, fun a b h => Fin.ext (by have := congrArg Fin.val h; rw [col_val, col_val] at this; omega)⟩

theorem colEmb_apply (k : ℕ) (hk : k < 25) (l : Fin 1280) : colEmb k hk l = col k hk l := rfl

theorem mem_pre (k : ℕ) (v : Fin 32000) : v ∈ pre k ↔ v.val < 1280 * k := by
  simp only [pre, Finset.mem_filter, Finset.mem_univ, true_and]

theorem pre_zero : pre 0 = ∅ := by
  ext v; simp [mem_pre]

theorem pre_all : pre 25 = Finset.univ := by
  ext v; simp only [mem_pre, Finset.mem_univ, iff_true]; have := v.isLt; omega

/-- A chunk lies beyond the prefix before it. -/
theorem pre_disjoint (k : ℕ) (hk : k < 25) : Disjoint (pre k) (Finset.univ.map (colEmb k hk)) :=
  Finset.disjoint_left.2 fun v hv hm => by
    obtain ⟨l, _, rfl⟩ := Finset.mem_map.1 hm
    rw [mem_pre, colEmb_apply, col_val] at hv
    omega

/-- The next prefix is the prefix and the next chunk. -/
theorem pre_succ (k : ℕ) (hk : k < 25) : pre (k + 1) = pre k ∪ Finset.univ.map (colEmb k hk) := by
  ext v
  rw [Finset.mem_union, mem_pre, mem_pre, Finset.mem_map]
  constructor
  · intro h
    by_cases h' : v.val < 1280 * k
    · exact Or.inl h'
    · exact Or.inr ⟨⟨v.val - 1280 * k, by omega⟩, Finset.mem_univ _, Fin.ext (by
        rw [colEmb_apply, col_val]; show 1280 * k + (v.val - 1280 * k) = v.val; omega)⟩
  · rintro (h | ⟨l, _, rfl⟩)
    · omega
    · have := l.isLt; rw [colEmb_apply, col_val]; omega

/-- A sum over the next prefix. -/
theorem sum_pre_succ {M : Type*} [AddCommMonoid M] (f : Fin 32000 → M) (k : ℕ) (hk : k < 25) :
    ∑ v ∈ pre (k + 1), f v = ∑ v ∈ pre k, f v + ∑ l : Fin 1280, f (col k hk l) := by
  rw [pre_succ k hk, Finset.sum_union (pre_disjoint k hk), Finset.sum_map]; rfl

/-- A supremum over the next prefix. -/
theorem sup_pre_succ (f : Fin 32000 → EReal) (k : ℕ) (hk : k < 25) :
    (pre (k + 1)).sup f = max ((pre k).sup f) (Finset.univ.sup fun l : Fin 1280 => f (col k hk l)) := by
  rw [pre_succ k hk, Finset.sup_union, Finset.sup_map]; rfl

/-! ## The constants -/

theorem ofBits_negInf : Ideal.ofBits .f32 0xFF800000#32 = (⊥ : EReal) := by simp [Ideal.ofBits, Ideal.ieee]
theorem ofBits_one : Ideal.ofBits .f32 0x3F800000#32 = (1 : EReal) := by
  simp [Ideal.ofBits, Ideal.ieee, -EReal.coe_mul] <;> norm_num

/-! ## The layout operations of the body read at an index -/

theorem rm_S4x16x1 (b : Fin 4) (r : Fin 16) :
    (S4x16.rowMajor (ix2 b r)).val = (S4x16x1.rowMajor (ix3 b r (0 : Fin 1))).val := by
  rw [Shape.rowMajor_val_two, Shape.rowMajor_val_three]; simp

/-- Position (b, r) of a [4,16] vector, seen as [4,16,1]. -/
theorem keep_apply {α : Type} (w : S4x16.Idx → α) (b : Fin 4) (r : Fin 16) :
    shapeCast S4x16x1 w shapeCasts_S4x16_S4x16x1 (ix3 b r (0 : Fin 1)) = w (ix2 b r) :=
  shapeCast_apply _ _ _ _ (rm_S4x16x1 b r)

/-- Position (b, r, 0) of a [4,16,1] vector, seen as [4,16]. -/
theorem drop_apply {α : Type} (w : S4x16x1.Idx → α) (b : Fin 4) (r : Fin 16) :
    shapeCast S4x16 w shapeCasts_S4x16x1_S4x16 (ix2 b r) = w (ix3 b r (0 : Fin 1)) :=
  shapeCast_apply _ _ _ _ (rm_S4x16x1 b r).symm

/-- A per-row value spread over the 1280 lanes of a chunk. -/
theorem bcast_apply {α : Type} (w : S4x16x1.Idx → α) (b : Fin 4) (r : Fin 16) (l : Fin 1280) :
    broadcastTo S4x16x1280 w broadcasts_S4x16x1_S4x16x1280 (ix3 b r l) = w (ix3 b r (0 : Fin 1)) :=
  broadcastTo_apply _ _ _ _ fun a => match a with
    | ⟨0, _⟩ => rfl | ⟨1, _⟩ => rfl | ⟨2, _⟩ => rfl

/-- The transpose of a [4,16] vector at (r, b). -/
theorem tr_apply {α : Type} (w : S4x16.Idx → α) (r : Fin 16) (b : Fin 4) :
    transpose S16x4 [1, 0] w transposes_S4x16_p1_0_S16x4 (ix2 r b) = w (ix2 b r) :=
  transpose_apply _ _ _ _ _ fun a => match a with
    | ⟨0, _⟩ => rfl | ⟨1, _⟩ => rfl

/-- The transpose of a [16,4] vector at (b, r). -/
theorem tr'_apply {α : Type} (w : S16x4.Idx → α) (b : Fin 4) (r : Fin 16) :
    transpose S4x16 [1, 0] w transposes_S16x4_p1_0_S4x16 (ix2 b r) = w (ix2 r b) :=
  transpose_apply _ _ _ _ _ fun a => match a with
    | ⟨0, _⟩ => rfl | ⟨1, _⟩ => rfl

/-- The index a reduction over the lanes reads at lane l of row (b, r). -/
theorem lift_ix (b : Fin 4) (r : Fin 16) (l : Fin 1280) :
    reduces_S4x16x1280_S4x16.lift (ix2 b r) l = ix3 b r l := by
  funext a
  match a with
  | ⟨0, _⟩ => exact Fin.ext rfl
  | ⟨1, _⟩ => exact Fin.ext rfl
  | ⟨2, _⟩ => exact Fin.ext rfl

/-- The maximum over the lanes of a chunk, from minus infinity. -/
theorem lanemax_apply (v : FVec Ideal S4x16x1280 .f32) (h1 : FKind.Formats .f32)
    (h2 : (0xFF800000#32 : BitVec 32) = FKind.maximumf.neutral .f32 h1) (b : Fin 4) (r : Fin 16) :
    multiReduction .maximumf [2] S4x16 v 0xFF800000#32 reduces_S4x16x1280_S4x16 h1 h2 (ix2 b r)
      = Finset.univ.sup fun l : Fin 1280 => v (ix3 b r l) := by
  refine (Ideal.multiReduction_maximumf_single (φ := .f32) v _ reduces_S4x16x1280_S4x16 h1 h2 (ix2 b r)).trans ?_
  rw [Ideal.ofBits_def, ofBits_negInf]
  show Finset.univ.sup (v ∘ reduces_S4x16x1280_S4x16.lift (ix2 b r)) = _
  exact congrArg _ (funext fun l => congrArg v (lift_ix b r l))

/-- The sum over the lanes of a chunk. -/
theorem lanesum_apply (v : FVec Ideal S4x16x1280 .f32) (h1 : FKind.Formats .f32)
    (h2 : (0x00000000#32 : BitVec 32) = FKind.add.neutral .f32 h1) (b : Fin 4) (r : Fin 16) :
    multiReduction .add [2] S4x16 v 0x00000000#32 reduces_S4x16x1280_S4x16 h1 h2 (ix2 b r)
      = ∑ l : Fin 1280, v (ix3 b r l) := by
  refine (Ideal.multiReduction_add_single (φ := .f32) v _ reduces_S4x16x1280_S4x16 h1 h2 (ix2 b r)).trans ?_
  exact Finset.sum_congr rfl fun l _ => congrArg v (lift_ix b r l)

/-- A select on the equality of two words is the if on it. -/
theorem select_cmpi_eq {α : Type} (w id : BitVec 32) (A B : α) :
    Scalar.select (IntOp.cmpi .eq w id) A B = if w = id then A else B := by
  unfold Scalar.select IntOp.cmpi
  by_cases h : w = id
  · subst h; simp
  · have hb : (w == id) = false := by simpa using h
    simp [hb, h]

/-! ## One trip's payloads at a row -/

/-- Loop 1: the carried maximum and the chunk's. -/
theorem pay7_apply (acc : FVec Ideal S4x16x1 .f32) (ch : Vec Ideal S4x16x1280 .f32) (b : Fin 4) (r : Fin 16) :
    k0_pay7 acc ch (ix3 b r 0) = max (acc (ix3 b r 0)) (Finset.univ.sup fun l : Fin 1280 => ch (ix3 b r l)) := by
  unfold k0_pay7
  show max (acc (ix3 b r 0)) _ = _
  refine congrArg (max (acc (ix3 b r 0))) ?_
  exact (keep_apply _ b r).trans (lanemax_apply ch _ _ b r)

theorem pay8_apply (acc : FVec Ideal S4x16x1 .f32) (ch : Vec Ideal S4x16x1280 .f32) (b : Fin 4) (r : Fin 16) :
    k0_pay8 acc ch (ix3 b r 0) = max (acc (ix3 b r 0)) (Finset.univ.sup fun l : Fin 1280 => ch (ix3 b r l)) := by
  unfold k0_pay8
  show max (acc (ix3 b r 0)) _ = _
  refine congrArg (max (acc (ix3 b r 0))) ?_
  exact (keep_apply _ b r).trans (lanemax_apply ch _ _ b r)

/-- Loop 2: the carried sum and the chunk's sum of exponentials of the entries less the row's value m. -/
theorem pay11_apply (m acc : FVec Ideal S4x16x1 .f32) (ch : Vec Ideal S4x16x1280 .f32) (b : Fin 4) (r : Fin 16) :
    k0_pay11 m acc ch (ix3 b r 0)
      = acc (ix3 b r 0) + ∑ l : Fin 1280, Ideal.exp (ch (ix3 b r l) - m (ix3 b r 0)) := by
  unfold k0_pay11
  show acc (ix3 b r 0) + _ = _
  refine congrArg (acc (ix3 b r 0) + ·) ?_
  refine ((keep_apply _ b r).trans (lanesum_apply _ _ _ b r)).trans ?_
  refine Finset.sum_congr rfl fun l _ => ?_
  show Ideal.exp (ch (ix3 b r l) - broadcastTo S4x16x1280 m broadcasts_S4x16x1_S4x16x1280 (ix3 b r l)) = _
  rw [bcast_apply]

theorem pay12_apply (m acc : FVec Ideal S4x16x1 .f32) (ch : Vec Ideal S4x16x1280 .f32) (b : Fin 4) (r : Fin 16) :
    k0_pay12 m acc ch (ix3 b r 0)
      = acc (ix3 b r 0) + ∑ l : Fin 1280, Ideal.exp (ch (ix3 b r l) - m (ix3 b r 0)) := by
  unfold k0_pay12
  show acc (ix3 b r 0) + _ = _
  refine congrArg (acc (ix3 b r 0) + ·) ?_
  refine ((keep_apply _ b r).trans (lanesum_apply _ _ _ b r)).trans ?_
  refine Finset.sum_congr rfl fun l _ => ?_
  show Ideal.exp (ch (ix3 b r l) - broadcastTo S4x16x1280 m broadcasts_S4x16x1_S4x16x1280 (ix3 b r l)) = _
  rw [bcast_apply]

/-- Loop 3: an entry less the row's value m. -/
theorem pay19_apply (m : FVec Ideal S4x16x1 .f32) (ch : Vec Ideal S4x16x1280 .f32) (b : Fin 4) (r : Fin 16) (l : Fin 1280) :
    k0_pay19 m ch (ix3 b r l) = ch (ix3 b r l) - m (ix3 b r 0) := by
  unfold k0_pay19
  show ch (ix3 b r l) - broadcastTo S4x16x1280 m broadcasts_S4x16x1_S4x16x1280 (ix3 b r l) = _
  rw [bcast_apply]

theorem pay20_apply (m : FVec Ideal S4x16x1 .f32) (ch : Vec Ideal S4x16x1280 .f32) (b : Fin 4) (r : Fin 16) (l : Fin 1280) :
    k0_pay20 m ch (ix3 b r l) = ch (ix3 b r l) - m (ix3 b r 0) := by
  unfold k0_pay20
  show ch (ix3 b r l) - broadcastTo S4x16x1280 m broadcasts_S4x16x1_S4x16x1280 (ix3 b r l) = _
  rw [bcast_apply]

/-- The carried cross term and the chunk's: the second block's weights times the difference of the shifted entries. -/
theorem pay21_apply (m0 m1 z1 acc : FVec Ideal S4x16x1 .f32) (c0 c1 : Vec Ideal S4x16x1280 .f32) (b : Fin 4) (r : Fin 16) :
    k0_pay21 m0 m1 z1 acc c0 c1 (ix3 b r 0)
      = acc (ix3 b r 0) + ∑ l : Fin 1280,
          (Ideal.exp (c1 (ix3 b r l) - m1 (ix3 b r 0)) * Ideal.div 1 (z1 (ix3 b r 0)))
            * ((c1 (ix3 b r l) - m1 (ix3 b r 0)) - (c0 (ix3 b r l) - m0 (ix3 b r 0))) := by
  unfold k0_pay21
  show acc (ix3 b r 0) + _ = _
  refine congrArg (acc (ix3 b r 0) + ·) ?_
  refine ((keep_apply _ b r).trans (lanesum_apply _ _ _ b r)).trans ?_
  refine Finset.sum_congr rfl fun l _ => ?_
  show (Ideal.exp (k0_pay20 m1 c1 (ix3 b r l))
        * broadcastTo S4x16x1280 (divf (broadcast S4x16x1 (Scalar.ofBits .f32 0x3F800000#32)) z1)
            broadcasts_S4x16x1_S4x16x1280 (ix3 b r l))
      * (k0_pay20 m1 c1 (ix3 b r l) - k0_pay19 m0 c0 (ix3 b r l)) = _
  rw [bcast_apply, pay19_apply, pay20_apply]
  show (_ * Ideal.div (Ideal.ofBits .f32 0x3F800000#32) (z1 (ix3 b r 0))) * _ = _
  rw [ofBits_one]

/-- The word the kernel compares with a token id at lane l of trip k: the column's number. -/
theorem pay22_apply (k : Fin k0_t3_loop.trips) (b : Fin 4) (r : Fin 16) (l : Fin 1280) :
    k0_pay22 k (ix3 b r l) = BitVec.ofNat 32 (1280 * k.val + l.val) := by
  unfold k0_pay22
  show IntOp.addi (iota .tc S4x16x1280 32 [2] iota_S4x16x1280_d2_w32 (ix3 b r l))
      (Scalar.muli (Scf.iv 0#32 1#32 k) 1280#32) = _
  rw [iota_single_apply]
  show BitVec.ofNat 32 l.val + (0#32 + BitVec.ofNat 32 k.val * 1#32) * 1280#32 = _
  rw [BitVec.ofNat_add, BitVec.ofNat_mul, BitVec.zero_add, BitVec.mul_one, BitVec.add_comm, BitVec.mul_comm]

/-- The token ids of the [16,4] block, spread over the lanes of row (b, r). -/
theorem ids_apply (v : Vec Ideal S16x4 .i32) (b : Fin 4) (r : Fin 16) (l : Fin 1280) :
    broadcastTo S4x16x1280 (shapeCast S4x16x1 (transpose S4x16 [1, 0] (shapeCast S16x4 v shapeCasts_S16x4_S16x4)
      transposes_S16x4_p1_0_S4x16) shapeCasts_S4x16_S4x16x1) broadcasts_S4x16x1_S4x16x1280 (ix3 b r l) = v (ix2 r b) := by
  rw [bcast_apply, keep_apply, tr'_apply, shapeCast_self]

theorem pay23_apply (v4 : Vec Ideal S16x4 .i32) (k : Fin k0_t3_loop.trips) (b : Fin 4) (r : Fin 16) (l : Fin 1280) :
    k0_pay23 (F := Ideal) v4 k (ix3 b r l) = IntOp.cmpi .eq (BitVec.ofNat 32 (1280 * k.val + l.val)) (v4 (ix2 r b)) := by
  unfold k0_pay23
  show IntOp.cmpi .eq (k0_pay22 k (ix3 b r l)) (broadcastTo S4x16x1280 (shapeCast S4x16x1 (transpose S4x16 [1, 0]
      (shapeCast S16x4 v4 shapeCasts_S16x4_S16x4) transposes_S16x4_p1_0_S4x16) shapeCasts_S4x16_S4x16x1)
      broadcasts_S4x16x1_S4x16x1280 (ix3 b r l)) = _
  rw [pay22_apply, ids_apply]

/-- The carried one-hot pick and the chunk's: the shifted entry at the column whose number is the token id. -/
theorem pay24_apply (v0 : Vec Ideal S16x4 .i32) (m0 : FVec Ideal S4x16x1 .f32) (k : Fin k0_t3_loop.trips)
    (acc : FVec Ideal S4x16 .f32) (c0 : Vec Ideal S4x16x1280 .f32) (b : Fin 4) (r : Fin 16) :
    k0_pay24 v0 m0 k acc c0 (ix2 b r)
      = acc (ix2 b r) + ∑ l : Fin 1280,
          if BitVec.ofNat 32 (1280 * k.val + l.val) = v0 (ix2 r b) then c0 (ix3 b r l) - m0 (ix3 b r 0) else 0 := by
  unfold k0_pay24
  show acc (ix2 b r) + _ = _
  refine congrArg (acc (ix2 b r) + ·) ?_
  refine (lanesum_apply _ _ _ b r).trans ?_
  refine Finset.sum_congr rfl fun l _ => ?_
  show Scalar.select (IntOp.cmpi .eq (k0_pay22 k (ix3 b r l)) (broadcastTo S4x16x1280 (shapeCast S4x16x1 (transpose S4x16 [1, 0]
      (shapeCast S16x4 v0 shapeCasts_S16x4_S16x4) transposes_S16x4_p1_0_S4x16) shapeCasts_S4x16_S4x16x1)
      broadcasts_S4x16x1_S4x16x1280 (ix3 b r l))) (k0_pay19 m0 c0 (ix3 b r l)) (Ideal.ofBits .f32 0x00000000#32) = _
  rw [select_cmpi_eq, pay22_apply, ids_apply, pay19_apply, Ideal.ofBits_zero_f32]

theorem pay25_apply (v4 : Vec Ideal S16x4 .i32) (m0 : FVec Ideal S4x16x1 .f32) (k : Fin k0_t3_loop.trips)
    (acc : FVec Ideal S4x16 .f32) (c0 : Vec Ideal S4x16x1280 .f32) (b : Fin 4) (r : Fin 16) :
    k0_pay25 v4 m0 k acc c0 (ix2 b r)
      = acc (ix2 b r) + ∑ l : Fin 1280,
          if BitVec.ofNat 32 (1280 * k.val + l.val) = v4 (ix2 r b) then c0 (ix3 b r l) - m0 (ix3 b r 0) else 0 := by
  unfold k0_pay25
  show acc (ix2 b r) + _ = _
  refine congrArg (acc (ix2 b r) + ·) ?_
  refine (lanesum_apply _ _ _ b r).trans ?_
  refine Finset.sum_congr rfl fun l _ => ?_
  show Scalar.select (k0_pay23 (F := Ideal) v4 k (ix3 b r l)) (k0_pay19 m0 c0 (ix3 b r l)) (Ideal.ofBits .f32 0x00000000#32) = _
  rw [pay23_apply, select_cmpi_eq, pay19_apply, Ideal.ofBits_zero_f32]

theorem pay26_apply (v4 : Vec Ideal S16x4 .i32) (m1 : FVec Ideal S4x16x1 .f32) (k : Fin k0_t3_loop.trips)
    (acc : FVec Ideal S4x16 .f32) (c1 : Vec Ideal S4x16x1280 .f32) (b : Fin 4) (r : Fin 16) :
    k0_pay26 v4 m1 k acc c1 (ix2 b r)
      = acc (ix2 b r) + ∑ l : Fin 1280,
          if BitVec.ofNat 32 (1280 * k.val + l.val) = v4 (ix2 r b) then c1 (ix3 b r l) - m1 (ix3 b r 0) else 0 := by
  unfold k0_pay26
  show acc (ix2 b r) + _ = _
  refine congrArg (acc (ix2 b r) + ·) ?_
  refine (lanesum_apply _ _ _ b r).trans ?_
  refine Finset.sum_congr rfl fun l _ => ?_
  show Scalar.select (k0_pay23 (F := Ideal) v4 k (ix3 b r l)) (k0_pay20 m1 c1 (ix3 b r l)) (Ideal.ofBits .f32 0x00000000#32) = _
  rw [pay23_apply, select_cmpi_eq, pay20_apply, Ideal.ofBits_zero_f32]

/-! ## The chunks a trip loads -/

/-- Lane l of the chunk that trip k loads from a block is the block's column 1280 k + l. -/
theorem chunk_apply (arg : Memref sig .tc .vmem S4x16x32000 .f32) (X : BufTy.Contents (Elt Ideal) arg.view.ty)
    (off : Fin 3 → Nat) (k : ℕ) (hk : k < 25) (hoff : off = ![0, 0, 1280 * k])
    (inb : ∀ a, off a + S4x16x1280.size a ≤ S4x16x32000.size a) (b : Fin 4) (r : Fin 16) (l : Fin 1280) :
    View.readAt (Elt Ideal) arg.view (Rect.unit (s := S4x16x32000) off S4x16x1280.size inb).toLoadRect X (ix3 b r l)
      = arg.view.read (Elt Ideal) X (ix3 b r (col k hk l)) := by
  subst hoff
  rw [View.readAt_apply]
  refine congrArg _ (funext fun a => ?_)
  match a with
  | ⟨0, _⟩ => exact Fin.ext (by show 0 + 1 * b.val = b.val; omega)
  | ⟨1, _⟩ => exact Fin.ext (by show 0 + 1 * r.val = r.val; omega)
  | ⟨2, _⟩ => exact Fin.ext (by show 1280 * k + 1 * l.val = 1280 * k + l.val; omega)

theorem trips1 : k0_t1_loop.trips = 25 := by decide
theorem trips2 : k0_t2_loop.trips = 25 := by decide
theorem trips3 : k0_t3_loop.trips = 25 := by decide

section Loops

variable (𝒱 : Variants) (c : Dev nD) (bd : Option 𝒱.V) (i : grid0.Coords)
  (arg1 : Memref sig .tc .vmem S4x16x32000 .f32) (harg1 : arg1.IsWhole)
  (arg2 : Memref sig .tc .vmem S4x16x32000 .f32) (harg2 : arg2.IsWhole)
  (arg3 : Memref sig .tc .vmem S16x4 .i32) (harg3 : arg3.IsWhole)
  (arg4 : Memref sig .tc .vmem S16x4 .i32) (harg4 : arg4.IsWhole)
  (arg5 : Memref sig .tc .vmem S16x4 .f32) (harg5 : arg5.IsWhole)
  (arg6 : Memref sig .tc .vmem S16x4 .f32) (harg6 : arg6.IsWhole)
  (arg7 : Memref sig .tc .vmem S16x4 .f32) (harg7 : arg7.IsWhole)
  (arg8 : Memref sig .tc .vmem S16x4 .f32) (harg8 : arg8.IsWhole)
  (v0 v4 : Vec Ideal S16x4 .i32)
  (X_arg1 : BufTy.Contents (Elt Ideal) arg1.view.ty) (X_arg2 : BufTy.Contents (Elt Ideal) arg2.view.ty)

/-- The two blocks' contents. -/
local notation "x0" => View.read (Elt Ideal) arg1.view X_arg1
local notation "x1" => View.read (Elt Ideal) arg2.view X_arg2
/-- The values the three loops carry before trip k, and after the last trip. -/
local notation "ST1" => st_k0_t1 (F := Ideal) 𝒱 c bd i arg1 harg1 arg2 harg2 arg3 harg3 arg4 harg4 arg5 harg5 arg6 harg6 arg7 harg7 arg8 harg8 X_arg1 X_arg2 (k0_pay5, k0_pay6)
local notation "V11" => st_k0_t1 (F := Ideal) 𝒱 c bd i arg1 harg1 arg2 harg2 arg3 harg3 arg4 harg4 arg5 harg5 arg6 harg6 arg7 harg7 arg8 harg8 X_arg1 X_arg2 (k0_pay5, k0_pay6) 25
local notation "ST2" => st_k0_t2 (F := Ideal) 𝒱 c bd i arg1 harg1 arg2 harg2 arg3 harg3 arg4 harg4 arg5 harg5 arg6 harg6 arg7 harg7 arg8 harg8 (V11).1 (V11).2 X_arg1 X_arg2 (k0_pay9, k0_pay10)
local notation "V15" => st_k0_t2 (F := Ideal) 𝒱 c bd i arg1 harg1 arg2 harg2 arg3 harg3 arg4 harg4 arg5 harg5 arg6 harg6 arg7 harg7 arg8 harg8 (V11).1 (V11).2 X_arg1 X_arg2 (k0_pay9, k0_pay10) 25
local notation "ST3" => st_k0_t3 (F := Ideal) 𝒱 c bd i arg1 harg1 arg2 harg2 arg3 harg3 arg4 harg4 arg5 harg5 arg6 harg6 arg7 harg7 arg8 harg8 v0 v4 (V11).1 (V11).2 (V15).2 X_arg1 X_arg2 (k0_pay15, k0_pay16, k0_pay17, k0_pay18)
local notation "V25" => st_k0_t3 (F := Ideal) 𝒱 c bd i arg1 harg1 arg2 harg2 arg3 harg3 arg4 harg4 arg5 harg5 arg6 harg6 arg7 harg7 arg8 harg8 v0 v4 (V11).1 (V11).2 (V15).2 X_arg1 X_arg2 (k0_pay15, k0_pay16, k0_pay17, k0_pay18) 25

/-! ## One trip of each loop -/

theorem trip1_eq (k : Fin k0_t1_loop.trips) (acc : FVec Ideal S4x16x1 .f32 × FVec Ideal S4x16x1 .f32) :
    tripR_k0_t1 (F := Ideal) 𝒱 c bd i arg1 harg1 arg2 harg2 arg3 harg3 arg4 harg4 arg5 harg5 arg6 harg6 arg7 harg7 arg8 harg8 X_arg1 X_arg2 k acc
      = (k0_pay7 acc.1 (View.readAt (Elt Ideal) arg1.view (Rect.unit (s := S4x16x32000) (k0_off1 k) S4x16x1280.size (Gen.k0_off1_inb k)).toLoadRect X_arg1),
         k0_pay8 acc.2 (View.readAt (Elt Ideal) arg2.view (Rect.unit (s := S4x16x32000) (k0_off1 k) S4x16x1280.size (Gen.k0_off1_inb k)).toLoadRect X_arg2)) := by
  unfold tripR_k0_t1 trip_k0_t1; rfl

theorem trip2_eq (m0 m1 : FVec Ideal S4x16x1 .f32) (k : Fin k0_t2_loop.trips) (acc : FVec Ideal S4x16x1 .f32 × FVec Ideal S4x16x1 .f32) :
    tripR_k0_t2 (F := Ideal) 𝒱 c bd i arg1 harg1 arg2 harg2 arg3 harg3 arg4 harg4 arg5 harg5 arg6 harg6 arg7 harg7 arg8 harg8 m0 m1 X_arg1 X_arg2 k acc
      = (k0_pay11 m0 acc.1 (View.readAt (Elt Ideal) arg1.view (Rect.unit (s := S4x16x32000) (k0_off2 k) S4x16x1280.size (Gen.k0_off2_inb k)).toLoadRect X_arg1),
         k0_pay12 m1 acc.2 (View.readAt (Elt Ideal) arg2.view (Rect.unit (s := S4x16x32000) (k0_off2 k) S4x16x1280.size (Gen.k0_off2_inb k)).toLoadRect X_arg2)) := by
  unfold tripR_k0_t2 trip_k0_t2; rfl

theorem trip3_eq (m0 m1 z1 : FVec Ideal S4x16x1 .f32) (k : Fin k0_t3_loop.trips)
    (acc : FVec Ideal S4x16x1 .f32 × FVec Ideal S4x16 .f32 × FVec Ideal S4x16 .f32 × FVec Ideal S4x16 .f32) :
    tripR_k0_t3 (F := Ideal) 𝒱 c bd i arg1 harg1 arg2 harg2 arg3 harg3 arg4 harg4 arg5 harg5 arg6 harg6 arg7 harg7 arg8 harg8 v0 v4 m0 m1 z1 X_arg1 X_arg2 k acc
      = (k0_pay21 m0 m1 z1 acc.1
            (View.readAt (Elt Ideal) arg1.view (Rect.unit (s := S4x16x32000) (k0_off3 k) S4x16x1280.size (Gen.k0_off3_inb k)).toLoadRect X_arg1)
            (View.readAt (Elt Ideal) arg2.view (Rect.unit (s := S4x16x32000) (k0_off3 k) S4x16x1280.size (Gen.k0_off3_inb k)).toLoadRect X_arg2),
         k0_pay24 v0 m0 k acc.2.1
            (View.readAt (Elt Ideal) arg1.view (Rect.unit (s := S4x16x32000) (k0_off3 k) S4x16x1280.size (Gen.k0_off3_inb k)).toLoadRect X_arg1),
         k0_pay25 v4 m0 k acc.2.2.1
            (View.readAt (Elt Ideal) arg1.view (Rect.unit (s := S4x16x32000) (k0_off3 k) S4x16x1280.size (Gen.k0_off3_inb k)).toLoadRect X_arg1),
         k0_pay26 v4 m1 k acc.2.2.2
            (View.readAt (Elt Ideal) arg2.view (Rect.unit (s := S4x16x32000) (k0_off3 k) S4x16x1280.size (Gen.k0_off3_inb k)).toLoadRect X_arg2)) := by
  unfold tripR_k0_t3 trip_k0_t3; rfl

/-! ## Loop 1: the running maxima -/

/-- Before trip k the first loop carries, at each row, the maximum of the first 1280 k columns of either block. -/
theorem inv1 (k : ℕ) (hk : k ≤ 25) (b : Fin 4) (r : Fin 16) :
    (ST1 k).1 (ix3 b r 0) = (pre k).sup (Spec.rowOfBlk x0 b r)
      ∧ (ST1 k).2 (ix3 b r 0) = (pre k).sup (Spec.rowOfBlk x1 b r) := by
  induction k with
  | zero =>
    rw [pre_zero, Finset.sup_empty, Finset.sup_empty]
    exact ⟨ofBits_negInf, ofBits_negInf⟩
  | succ k ih =>
    have hk' : k < 25 := by omega
    have hkt : k < k0_t1_loop.trips := by rw [trips1]; exact hk'
    obtain ⟨ih1, ih2⟩ := ih (by omega)
    have hs : ST1 (k + 1) = tripR_k0_t1 (F := Ideal) 𝒱 c bd i arg1 harg1 arg2 harg2 arg3 harg3 arg4 harg4 arg5 harg5 arg6 harg6 arg7 harg7 arg8 harg8 X_arg1 X_arg2 ⟨k, hkt⟩ (ST1 k) :=
      st_k0_t1_succ (F := Ideal) 𝒱 c bd i arg1 harg1 arg2 harg2 arg3 harg3 arg4 harg4 arg5 harg5 arg6 harg6 arg7 harg7 arg8 harg8 X_arg1 X_arg2 (k0_pay5, k0_pay6) ⟨k, hkt⟩
    rw [hs, trip1_eq]
    constructor
    · show k0_pay7 _ _ (ix3 b r 0) = _
      rw [pay7_apply, ih1, sup_pre_succ _ k hk']
      refine congrArg (max _) (congrArg _ (funext fun l => ?_))
      exact chunk_apply arg1 X_arg1 _ k hk' (k0_off1_eq ⟨k, hkt⟩) _ b r l
    · show k0_pay8 _ _ (ix3 b r 0) = _
      rw [pay8_apply, ih2, sup_pre_succ _ k hk']
      refine congrArg (max _) (congrArg _ (funext fun l => ?_))
      exact chunk_apply arg2 X_arg2 _ k hk' (k0_off1_eq ⟨k, hkt⟩) _ b r l

/-- After the last trip: the row maxima. -/
theorem v11_fst (b : Fin 4) (r : Fin 16) : (V11).1 (ix3 b r 0) = Spec.rowMax (Spec.rowOfBlk x0 b r) := by
  rw [(inv1 𝒱 c bd i arg1 harg1 arg2 harg2 arg3 harg3 arg4 harg4 arg5 harg5 arg6 harg6 arg7 harg7 arg8 harg8 X_arg1 X_arg2 25 le_rfl b r).1, pre_all]; rfl

theorem v11_snd (b : Fin 4) (r : Fin 16) : (V11).2 (ix3 b r 0) = Spec.rowMax (Spec.rowOfBlk x1 b r) := by
  rw [(inv1 𝒱 c bd i arg1 harg1 arg2 harg2 arg3 harg3 arg4 harg4 arg5 harg5 arg6 harg6 arg7 harg7 arg8 harg8 X_arg1 X_arg2 25 le_rfl b r).2, pre_all]; rfl

/-! ## Loop 2: the running sums of exponentials -/

/-- Before trip k the second loop carries, at each row, the sum over the first 1280 k columns of the
    exponentials of the entries less the row maximum. -/
theorem inv2 (k : ℕ) (hk : k ≤ 25) (b : Fin 4) (r : Fin 16) :
    (ST2 k).1 (ix3 b r 0) = ∑ v ∈ pre k, Ideal.exp (Spec.shift (Spec.rowOfBlk x0 b r) v)
      ∧ (ST2 k).2 (ix3 b r 0) = ∑ v ∈ pre k, Ideal.exp (Spec.shift (Spec.rowOfBlk x1 b r) v) := by
  induction k with
  | zero =>
    rw [pre_zero, Finset.sum_empty, Finset.sum_empty]
    exact ⟨Ideal.ofBits_zero_f32, Ideal.ofBits_zero_f32⟩
  | succ k ih =>
    have hk' : k < 25 := by omega
    have hkt : k < k0_t2_loop.trips := by rw [trips2]; exact hk'
    obtain ⟨ih1, ih2⟩ := ih (by omega)
    have hs : ST2 (k + 1) = tripR_k0_t2 (F := Ideal) 𝒱 c bd i arg1 harg1 arg2 harg2 arg3 harg3 arg4 harg4 arg5 harg5 arg6 harg6 arg7 harg7 arg8 harg8 (V11).1 (V11).2 X_arg1 X_arg2 ⟨k, hkt⟩ (ST2 k) :=
      st_k0_t2_succ (F := Ideal) 𝒱 c bd i arg1 harg1 arg2 harg2 arg3 harg3 arg4 harg4 arg5 harg5 arg6 harg6 arg7 harg7 arg8 harg8 (V11).1 (V11).2 X_arg1 X_arg2 (k0_pay9, k0_pay10) ⟨k, hkt⟩
    rw [hs, trip2_eq]
    constructor
    · show k0_pay11 _ _ _ (ix3 b r 0) = _
      rw [pay11_apply, ih1, sum_pre_succ _ k hk', v11_fst]
      refine congrArg (_ + ·) (Finset.sum_congr rfl fun l _ => ?_)
      rw [chunk_apply arg1 X_arg1 _ k hk' (k0_off2_eq ⟨k, hkt⟩) _ b r l]; rfl
    · show k0_pay12 _ _ _ (ix3 b r 0) = _
      rw [pay12_apply, ih2, sum_pre_succ _ k hk', v11_snd]
      refine congrArg (_ + ·) (Finset.sum_congr rfl fun l _ => ?_)
      rw [chunk_apply arg2 X_arg2 _ k hk' (k0_off2_eq ⟨k, hkt⟩) _ b r l]; rfl

/-- After the last trip: the rows' sums of exponentials. -/
theorem v15_fst (b : Fin 4) (r : Fin 16) : (V15).1 (ix3 b r 0) = Spec.rowZ (Spec.rowOfBlk x0 b r) := by
  rw [(inv2 𝒱 c bd i arg1 harg1 arg2 harg2 arg3 harg3 arg4 harg4 arg5 harg5 arg6 harg6 arg7 harg7 arg8 harg8 X_arg1 X_arg2 25 le_rfl b r).1, pre_all]; rfl

theorem v15_snd (b : Fin 4) (r : Fin 16) : (V15).2 (ix3 b r 0) = Spec.rowZ (Spec.rowOfBlk x1 b r) := by
  rw [(inv2 𝒱 c bd i arg1 harg1 arg2 harg2 arg3 harg3 arg4 harg4 arg5 harg5 arg6 harg6 arg7 harg7 arg8 harg8 X_arg1 X_arg2 25 le_rfl b r).2, pre_all]; rfl

/-! ## Loop 3: the cross term and the three one-hot picks -/

/-- Before trip k the third loop carries, at each row, over the first 1280 k columns: the sum of the second
    block's weights times the difference of the shifted entries, and the three one-hot picks (the first block's
    shifted entry at either token id, the second block's at the second id). -/
theorem inv3 (k : ℕ) (hk : k ≤ 25) (b : Fin 4) (r : Fin 16) :
    (ST3 k).1 (ix3 b r 0)
        = ∑ v ∈ pre k, (Ideal.exp (Spec.shift (Spec.rowOfBlk x1 b r) v) * Ideal.div 1 (Spec.rowZ (Spec.rowOfBlk x1 b r)))
            * (Spec.shift (Spec.rowOfBlk x1 b r) v - Spec.shift (Spec.rowOfBlk x0 b r) v)
      ∧ (ST3 k).2.1 (ix2 b r)
        = ∑ v ∈ pre k, (if BitVec.ofNat 32 v.val = v0 (ix2 r b) then Spec.shift (Spec.rowOfBlk x0 b r) v else 0)
      ∧ (ST3 k).2.2.1 (ix2 b r)
        = ∑ v ∈ pre k, (if BitVec.ofNat 32 v.val = v4 (ix2 r b) then Spec.shift (Spec.rowOfBlk x0 b r) v else 0)
      ∧ (ST3 k).2.2.2 (ix2 b r)
        = ∑ v ∈ pre k, (if BitVec.ofNat 32 v.val = v4 (ix2 r b) then Spec.shift (Spec.rowOfBlk x1 b r) v else 0) := by
  induction k with
  | zero =>
    rw [pre_zero, Finset.sum_empty, Finset.sum_empty, Finset.sum_empty, Finset.sum_empty]
    exact ⟨Ideal.ofBits_zero_f32, Ideal.ofBits_zero_f32, Ideal.ofBits_zero_f32, Ideal.ofBits_zero_f32⟩
  | succ k ih =>
    have hk' : k < 25 := by omega
    have hkt : k < k0_t3_loop.trips := by rw [trips3]; exact hk'
    obtain ⟨ih1, ih2, ih3, ih4⟩ := ih (by omega)
    have hs : ST3 (k + 1) = tripR_k0_t3 (F := Ideal) 𝒱 c bd i arg1 harg1 arg2 harg2 arg3 harg3 arg4 harg4 arg5 harg5 arg6 harg6 arg7 harg7 arg8 harg8 v0 v4 (V11).1 (V11).2 (V15).2 X_arg1 X_arg2 ⟨k, hkt⟩ (ST3 k) :=
      st_k0_t3_succ (F := Ideal) 𝒱 c bd i arg1 harg1 arg2 harg2 arg3 harg3 arg4 harg4 arg5 harg5 arg6 harg6 arg7 harg7 arg8 harg8 v0 v4 (V11).1 (V11).2 (V15).2 X_arg1 X_arg2
        (k0_pay15, k0_pay16, k0_pay17, k0_pay18) ⟨k, hkt⟩
    have e0 := fun l => chunk_apply arg1 X_arg1 _ k hk' (k0_off3_eq ⟨k, hkt⟩) (Gen.k0_off3_inb ⟨k, hkt⟩) b r l
    have e1 := fun l => chunk_apply arg2 X_arg2 _ k hk' (k0_off3_eq ⟨k, hkt⟩) (Gen.k0_off3_inb ⟨k, hkt⟩) b r l
    rw [hs, trip3_eq]
    refine ⟨?_, ?_, ?_, ?_⟩
    · show k0_pay21 _ _ _ _ _ _ (ix3 b r 0) = _
      rw [pay21_apply, ih1, sum_pre_succ _ k hk', v11_fst, v11_snd, v15_snd]
      refine congrArg (_ + ·) (Finset.sum_congr rfl fun l _ => ?_)
      rw [e0 l, e1 l]; rfl
    · show k0_pay24 _ _ _ _ _ (ix2 b r) = _
      rw [pay24_apply, ih2, sum_pre_succ _ k hk', v11_fst]
      refine congrArg (_ + ·) (Finset.sum_congr rfl fun l _ => ?_)
      rw [e0 l]; rfl
    · show k0_pay25 _ _ _ _ _ (ix2 b r) = _
      rw [pay25_apply, ih3, sum_pre_succ _ k hk', v11_fst]
      refine congrArg (_ + ·) (Finset.sum_congr rfl fun l _ => ?_)
      rw [e0 l]; rfl
    · show k0_pay26 _ _ _ _ _ (ix2 b r) = _
      rw [pay26_apply, ih4, sum_pre_succ _ k hk', v11_snd]
      refine congrArg (_ + ·) (Finset.sum_congr rfl fun l _ => ?_)
      rw [e1 l]; rfl

/-- After the last trip: the cross term and the three picks of each row. -/
theorem v25_cross (b : Fin 4) (r : Fin 16) :
    (V25).1 (ix3 b r 0)
      = ∑ v, (Ideal.exp (Spec.shift (Spec.rowOfBlk x1 b r) v) * Ideal.div 1 (Spec.rowZ (Spec.rowOfBlk x1 b r)))
          * (Spec.shift (Spec.rowOfBlk x1 b r) v - Spec.shift (Spec.rowOfBlk x0 b r) v) := by
  rw [(inv3 𝒱 c bd i arg1 harg1 arg2 harg2 arg3 harg3 arg4 harg4 arg5 harg5 arg6 harg6 arg7 harg7 arg8 harg8 v0 v4 X_arg1 X_arg2 25 le_rfl b r).1, pre_all]

theorem v25_pick0 (b : Fin 4) (r : Fin 16) :
    (V25).2.1 (ix2 b r) = Spec.pick (Spec.rowOfBlk x0 b r) (v0 (ix2 r b)) := by
  rw [(inv3 𝒱 c bd i arg1 harg1 arg2 harg2 arg3 harg3 arg4 harg4 arg5 harg5 arg6 harg6 arg7 harg7 arg8 harg8 v0 v4 X_arg1 X_arg2 25 le_rfl b r).2.1, pre_all]; rfl

theorem v25_pick4 (b : Fin 4) (r : Fin 16) :
    (V25).2.2.1 (ix2 b r) = Spec.pick (Spec.rowOfBlk x0 b r) (v4 (ix2 r b)) := by
  rw [(inv3 𝒱 c bd i arg1 harg1 arg2 harg2 arg3 harg3 arg4 harg4 arg5 harg5 arg6 harg6 arg7 harg7 arg8 harg8 v0 v4 X_arg1 X_arg2 25 le_rfl b r).2.2.1, pre_all]; rfl

theorem v25_pick4r (b : Fin 4) (r : Fin 16) :
    (V25).2.2.2 (ix2 b r) = Spec.pick (Spec.rowOfBlk x1 b r) (v4 (ix2 r b)) := by
  rw [(inv3 𝒱 c bd i arg1 harg1 arg2 harg2 arg3 harg3 arg4 harg4 arg5 harg5 arg6 harg6 arg7 harg7 arg8 harg8 v0 v4 X_arg1 X_arg2 25 le_rfl b r).2.2.2, pre_all]; rfl

/-! ## The four result blocks -/

/-- The surprisal block: the first block's log-sum-exp less its pick at the first token id. -/
theorem surp_blk (b : Fin 4) (r : Fin 16) :
    k0_pay1 (k0_pay28 (V15).1 (V25).2.1) (ix2 r b) = Spec.surpK (Spec.rowOfBlk x0 b r) (v0 (ix2 r b)) := by
  unfold k0_pay1
  refine (tr_apply _ r b).trans ?_
  unfold k0_pay28
  show shapeCast S4x16 (k0_pay13 (V15).1) shapeCasts_S4x16x1_S4x16 (ix2 b r) - (V25).2.1 (ix2 b r) = _
  rw [drop_apply, v25_pick0]
  show Ideal.log ((V15).1 (ix3 b r 0)) - _ = _
  rw [v15_fst]; rfl

/-- The KL block: the cross term less the second block's log-sum-exp plus the first block's. -/
theorem kl_blk (b : Fin 4) (r : Fin 16) :
    k0_pay2 (k0_pay27 (V15).1 (V15).2 (V25).1) (ix2 r b)
      = Spec.klK (Spec.rowOfBlk x0 b r) (Spec.rowOfBlk x1 b r) := by
  unfold k0_pay2
  refine (tr_apply _ r b).trans ?_
  unfold k0_pay27
  refine (drop_apply _ b r).trans ?_
  show ((V25).1 (ix3 b r 0) - Ideal.log ((V15).2 (ix3 b r 0))) + Ideal.log ((V15).1 (ix3 b r 0)) = _
  rw [v15_fst, v15_snd, v25_cross]; rfl

/-- The next-token block: the first block's pick at the second token id less its log-sum-exp. -/
theorem g_blk (b : Fin 4) (r : Fin 16) :
    k0_pay3 (k0_pay29 (V15).1 (V25).2.2.1) (ix2 r b) = Spec.gK (Spec.rowOfBlk x0 b r) (v4 (ix2 r b)) := by
  unfold k0_pay3
  refine (tr_apply _ r b).trans ?_
  unfold k0_pay29
  show (V25).2.2.1 (ix2 b r) - shapeCast S4x16 (k0_pay13 (V15).1) shapeCasts_S4x16x1_S4x16 (ix2 b r) = _
  rw [drop_apply, v25_pick4]
  show _ - Ideal.log ((V15).1 (ix3 b r 0)) = _
  rw [v15_fst]; rfl

/-- The same for the second block. -/
theorem gr_blk (b : Fin 4) (r : Fin 16) :
    k0_pay4 (V25).2.2.2 (k0_pay30 (V15).2) (ix2 r b) = Spec.gK (Spec.rowOfBlk x1 b r) (v4 (ix2 r b)) := by
  unfold k0_pay4
  refine (tr_apply _ r b).trans ?_
  show (V25).2.2.2 (ix2 b r) - k0_pay30 (V15).2 (ix2 b r) = _
  unfold k0_pay30
  show _ - shapeCast S4x16 (k0_pay14 (V15).2) shapeCasts_S4x16x1_S4x16 (ix2 b r) = _
  rw [drop_apply, v25_pick4r]
  show _ - Ideal.log ((V15).2 (ix3 b r 0)) = _
  rw [v15_snd]; rfl

end Loops

end Cert.KernelIdeal.LoopVal
end
-- ==== Proof.ArrVal.lean ====
import proofs.«424779_j13597866459574_3_alg».proof.Proof.KIFrame
import proofs.«424779_j13597866459574_3_alg».proof.Proof.LoopVal
import proofs.«424779_j13597866459574_3_alg».proof.Proof.Spec
import Idealize.ShloMosaic.Lib.Pipeline.Value
import Idealize.ShloMosaic.Lib.Pipeline.FrameBody
import Idealize.ShloMosaic.Lib.ValueIdx

/-! From the body's result blocks to the four result arrays of the pipelined region, over the extended reals.

The region walks the 512 positions in 32 points of 16 rows. At point t the body is handed rows 16 t to 16 t + 15 of
the two logits arrays and of the two transposed id arrays, and leaves in each result buffer one whole block: the
row-level quantity of the specification at each of its 16 x 4 entries. Every result window writes its block back at
every point and the 32 blocks tile the array, so each result array ends as one function of the launch memory, index by
index: the surprisal, the KL term and the two next-token log-probabilities of position s in batch row b. -/

set_option maxRecDepth 16384

noncomputable section

namespace Cert.KernelIdeal.ArrVal

open Cert.KernelIdeal Cert.KernelIdeal.Gen Cert.KernelIdeal.Hand Idealize.ShloMosaic Idealize.ShloMosaic.ValueIdx
open Idealize.ShloMosaic.TcCoe

variable (m : (ℓ : Loc nD τ sig) → Buf (Elt Ideal) ℓ)

/-! ## The token ids as the region finds them

Before the region the host transposes the token ids [4, 512] to [512, 4], and makes the next-token ids: the ids
from position 1 on, a zero column appended, transposed likewise. -/

/-- The next position's token id, and the zero word past the last position. -/
def nextId (A2 : (⟨2, ![4, 512]⟩ : Shape).Idx → BitVec 32) (b : Fin 4) (s : Fin 512) : BitVec 32 :=
  if h : s.val + 1 < 512 then A2 (ix2 b ⟨s.val + 1, h⟩) else 0#32

/-- The transposed token ids, as a term of the launch memory. -/
theorem V_v3_eq (c : Dev nD) :
    (V m c main_v3 : S512x4.Idx → BitVec 32)
      = transpose S512x4 [1, 0] (m ((c : Thread nD τ).loc main_arg2) : S4x512.Idx → BitVec 32) transposes_S4x512_S512x4_1_0 := by
  dsimp only [V, V0]
  simp only [Gen.hostOps0, List.flatten_cons, List.flatten_nil, List.append_nil]
  after_results

/-- The transposed next-token ids, as a term of the launch memory. -/
theorem V_v4_eq (c : Dev nD) :
    (V m c main_v4 : S512x4.Idx → BitVec 32)
      = transpose S512x4 [1, 0]
          (concatenate S4x512 1
            [⟨S4x511, extractStridedSlice S4x511 ![0, 1] (m ((c : Thread nD τ).loc main_arg2) : S4x512.Idx → BitVec 32) slices_S4x512_S4x511_0_1⟩,
             ⟨S4x1, broadcastInDim S4x1 ![] bcast_S_S4x1 (constantI S_ 32 0#32)⟩]
            concatenates_S4x511_S4x1_S4x512_d1)
          transposes_S4x512_S512x4_1_0 := by
  dsimp only [V, V0]
  simp only [Gen.hostOps0, List.flatten_cons, List.flatten_nil, List.append_nil]
  after_results

/-- Row s, column b of the transposed ids is the id of batch row b at position s. -/
theorem V_v3_apply (c : Dev nD) (s : Fin 512) (b : Fin 4) :
    (V m c main_v3 : S512x4.Idx → BitVec 32) (ix2 s b)
      = (m ((c : Thread nD τ).loc main_arg2) : S4x512.Idx → BitVec 32) (ix2 b s) := by
  rw [V_v3_eq]
  exact transpose_apply [1, 0] _ transposes_S4x512_S512x4_1_0 (ix2 s b) (ix2 b s)
    (fun a => match a with | ⟨0, _⟩ => rfl | ⟨1, _⟩ => rfl)

/-- Row s, column b of the transposed next-token ids is the id of batch row b at position s + 1, zero at the
    last position. -/
theorem V_v4_apply (c : Dev nD) (s : Fin 512) (b : Fin 4) :
    (V m c main_v4 : S512x4.Idx → BitVec 32) (ix2 s b)
      = nextId (m ((c : Thread nD τ).loc main_arg2) : S4x512.Idx → BitVec 32) b s := by
  rw [V_v4_eq]
  refine (transpose_apply [1, 0] _ transposes_S4x512_S512x4_1_0 (ix2 s b) (ix2 b s)
    (fun a => match a with | ⟨0, _⟩ => rfl | ⟨1, _⟩ => rfl)).trans ?_
  unfold nextId
  have hs : s.val < 512 := s.isLt
  by_cases h : s.val + 1 < 512
  · rw [dif_pos h]
    refine (concatenate_pair_apply_left (t := S4x512) (s₁ := S4x511) (s₂ := S4x1) 1 _ _ concatenates_S4x511_S4x1_S4x512_d1
      (ix2 b s) rfl (ix2 b ⟨s.val, by omega⟩) (fun a => match a with | ⟨0, _⟩ => rfl | ⟨1, _⟩ => rfl)).trans ?_
    exact extractStridedSlice_apply ![0, 1] _ slices_S4x512_S4x511_0_1 (ix2 b ⟨s.val, by omega⟩) (ix2 b ⟨s.val + 1, h⟩)
      (fun a => match a with
        | ⟨0, _⟩ => by show b.val = 0 + b.val; omega
        | ⟨1, _⟩ => by show s.val + 1 = 1 + s.val; omega)
  · rw [dif_neg h]
    refine (concatenate_pair_apply_right (t := S4x512) (s₁ := S4x511) (s₂ := S4x1) 1 _ _ concatenates_S4x511_S4x1_S4x512_d1
      (ix2 b s) rfl rfl (ix2 b (0 : Fin 1))
      (fun a => match a with
        | ⟨0, _⟩ => fun _ => rfl
        | ⟨1, _⟩ => fun hne => absurd rfl hne)
      (by show 0 + 511 = s.val; omega)).trans ?_
    rfl

/-! ## The windows' blocks at an index

Every window's index map sends point t to block t along the axis of positions and to block 0 along the others, so
row r of a block at point t is row 16 t + r of its array. -/

theorem grid_lt (t : Fin cfg0.N) : t.val < 32 := Nat.lt_of_lt_of_eq t.isLt N_0

/-- The index maps of the two logits windows over the grid. -/
theorem idx_in01 : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = t.val ∧ win0_1.index t (2 : Fin 3) = 0 :=
  (by decide +kernel : ∀ t : Fin grid0.N, _)

/-- The index maps of the two id windows over the grid. -/
theorem idx_in23 : ∀ t : Fin cfg0.N,
    win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The index maps of the four result windows over the grid. -/
theorem idx_out : ∀ t : Fin cfg0.N,
    win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- The first logits block at point t, entry (b, r, v), is the array's entry (b, 16 t + r, v). -/
theorem fblk0_apply (c : Dev nD) (t : Fin cfg0.N) (b : Fin 4) (r : Fin 16) (v : Fin 32000) (q : Fin 513)
    (hq : q.val = 16 * t.val + r.val) :
    fblk0 m c t (ix3 b r v) = (V m c main_arg0 : S4x513x32000.Idx → EReal) (ix3 b q v) := by
  unfold fblk0 Pipeline.Window.fill
  rw [dif_pos (moved0_0 t _)]
  unfold iblk
  show (V m c main_arg0 : S4x513x32000.Idx → EReal) (((cfg0.win 0).blk t).view.emb _) = _
  obtain ⟨e0, e1, e2, -, -, -⟩ := idx_in01 t
  refine congrArg _ (funext fun a => Fin.ext ?_)
  match a with
  | ⟨0, _⟩ => show win0_0.index t (0 : Fin 3) * 4 + 1 * b.val = b.val; omega
  | ⟨1, _⟩ => show win0_0.index t (1 : Fin 3) * 16 + 1 * r.val = q.val; omega
  | ⟨2, _⟩ => show win0_0.index t (2 : Fin 3) * 32000 + 1 * v.val = v.val; omega

/-- The second logits block likewise. -/
theorem fblk1_apply (c : Dev nD) (t : Fin cfg0.N) (b : Fin 4) (r : Fin 16) (v : Fin 32000) (q : Fin 513)
    (hq : q.val = 16 * t.val + r.val) :
    fblk1 m c t (ix3 b r v) = (V m c main_arg1 : S4x513x32000.Idx → EReal) (ix3 b q v) := by
  unfold fblk1 Pipeline.Window.fill
  rw [dif_pos (moved0_1 t _)]
  unfold iblk
  show (V m c main_arg1 : S4x513x32000.Idx → EReal) (((cfg0.win 1).blk t).view.emb _) = _
  obtain ⟨-, -, -, e0, e1, e2⟩ := idx_in01 t
  refine congrArg _ (funext fun a => Fin.ext ?_)
  match a with
  | ⟨0, _⟩ => show win0_1.index t (0 : Fin 3) * 4 + 1 * b.val = b.val; omega
  | ⟨1, _⟩ => show win0_1.index t (1 : Fin 3) * 16 + 1 * r.val = q.val; omega
  | ⟨2, _⟩ => show win0_1.index t (2 : Fin 3) * 32000 + 1 * v.val = v.val; omega

/-- The id block at point t, entry (r, b), is the transposed ids' entry (16 t + r, b). -/
theorem iblk2_apply (c : Dev nD) (t : Fin cfg0.N) (r : Fin 16) (b : Fin 4) (q : Fin 512)
    (hq : q.val = 16 * t.val + r.val) :
    (iblk m c 2 t : S16x4.Idx → BitVec 32) (ix2 r b) = (V m c main_v3 : S512x4.Idx → BitVec 32) (ix2 q b) := by
  unfold iblk
  show (V m c main_v3 : S512x4.Idx → BitVec 32) (((cfg0.win 2).blk t).view.emb (ix2 r b)) = _
  obtain ⟨e0, e1, -, -⟩ := idx_in23 t
  refine congrArg _ (funext fun a => Fin.ext ?_)
  match a with
  | ⟨0, _⟩ => show win0_2.index t (0 : Fin 2) * 16 + 1 * r.val = q.val; omega
  | ⟨1, _⟩ => show win0_2.index t (1 : Fin 2) * 4 + 1 * b.val = b.val; omega

/-- The next-token id block likewise. -/
theorem iblk3_apply (c : Dev nD) (t : Fin cfg0.N) (r : Fin 16) (b : Fin 4) (q : Fin 512)
    (hq : q.val = 16 * t.val + r.val) :
    (iblk m c 3 t : S16x4.Idx → BitVec 32) (ix2 r b) = (V m c main_v4 : S512x4.Idx → BitVec 32) (ix2 q b) := by
  unfold iblk
  show (V m c main_v4 : S512x4.Idx → BitVec 32) (((cfg0.win 3).blk t).view.emb (ix2 r b)) = _
  obtain ⟨-, -, e0, e1⟩ := idx_in23 t
  refine congrArg _ (funext fun a => Fin.ext ?_)
  match a with
  | ⟨0, _⟩ => show win0_3.index t (0 : Fin 2) * 16 + 1 * r.val = q.val; omega
  | ⟨1, _⟩ => show win0_3.index t (1 : Fin 2) * 4 + 1 * b.val = b.val; omega

/-! ## What the body leaves in each result buffer, as a value

Each result buffer receives one store of the whole block, so read back it holds that store's payload: the
closing operations of the body applied to what the three loops carry after their 25 trips. -/

theorem hz : (![0, 0] : Fin 2 → Nat) = fun _ => 0 := funext fun a => by fin_cases a <;> rfl

section Body

variable (c : Dev nD) (i : grid0.Coords)
  (arg1 : Memref sig .tc .vmem S4x16x32000 .f32) (harg1 : arg1.IsWhole)
  (arg2 : Memref sig .tc .vmem S4x16x32000 .f32) (harg2 : arg2.IsWhole)
  (arg3 : Memref sig .tc .vmem S16x4 .i32) (harg3 : arg3.IsWhole)
  (arg4 : Memref sig .tc .vmem S16x4 .i32) (harg4 : arg4.IsWhole)
  (arg5 : Memref sig .tc .vmem S16x4 .f32) (harg5 : arg5.IsWhole)
  (arg6 : Memref sig .tc .vmem S16x4 .f32) (harg6 : arg6.IsWhole)
  (arg7 : Memref sig .tc .vmem S16x4 .f32) (harg7 : arg7.IsWhole)
  (arg8 : Memref sig .tc .vmem S16x4 .f32) (harg8 : arg8.IsWhole)
  (x0 x1 : Vec Ideal S4x16x32000 .f32) (x2 x3 : Vec Ideal S16x4 .i32)

/-- The values the three loops carry after the last trip, on logits blocks x0, x1 and id blocks a, b. -/
local notation "W11" => st_k0_t1 (F := Ideal) Variants.none c none i arg1 harg1 arg2 harg2 arg3 harg3 arg4 harg4 arg5 harg5 arg6 harg6 arg7 harg7 arg8 harg8 (harg1.unread x0) (harg2.unread x1) (k0_pay5, k0_pay6) 25
local notation "W15" => st_k0_t2 (F := Ideal) Variants.none c none i arg1 harg1 arg2 harg2 arg3 harg3 arg4 harg4 arg5 harg5 arg6 harg6 arg7 harg7 arg8 harg8 (W11).1 (W11).2 (harg1.unread x0) (harg2.unread x1) (k0_pay9, k0_pay10) 25
local notation "W25[" a ", " b "]" => st_k0_t3 (F := Ideal) Variants.none c none i arg1 harg1 arg2 harg2 arg3 harg3 arg4 harg4 arg5 harg5 arg6 harg6 arg7 harg7 arg8 harg8 a b (W11).1 (W11).2 (W15).2 (harg1.unread x0) (harg2.unread x1) (k0_pay15, k0_pay16, k0_pay17, k0_pay18) 25
/-- The body's two loads of the id blocks. -/
local notation "R2" => View.readAt (Elt Ideal) arg3.view (Rect.toLoadRect (Rect.unit (s := S16x4) ![0, 0] S16x4.size inb_S16x4_S16x4_0_0)) (harg3.unread x2)
local notation "R3" => View.readAt (Elt Ideal) arg4.view (Rect.toLoadRect (Rect.unit (s := S16x4) ![0, 0] S16x4.size inb_S16x4_S16x4_0_0)) (harg4.unread x3)

/-- A load of a whole block through a whole memref reads the block. -/
theorem load_whole {e : EltTy} (arg : Memref sig .tc .vmem S16x4 e) (harg : arg.IsWhole) (x : S16x4.Idx → Elt Ideal e) :
    View.readAt (Elt Ideal) arg.view (Rect.unit (s := S16x4) ![0, 0] S16x4.size inb_S16x4_S16x4_0_0).toLoadRect (harg.unread x) = x := by
  rw [View.readAt_eq_ld, harg.read_unread, View.ld_unit_zero (S := S16x4) hz]

/-- The first result buffer ends holding the surprisal block's closing operations of the carried values. -/
theorem out4_eq :
    out4 (F := Ideal) c i arg1 harg1 arg2 harg2 arg3 harg3 arg4 harg4 arg5 harg5 arg6 harg6 arg7 harg7 arg8 harg8 x0 x1 x2 x3
      = k0_pay1 (k0_pay28 (W15).1 (W25[x2, x3]).2.1) := by
  unfold out4
  rw [View.read_writes_junk_eq_canon]
  have hw : (kernelRun0 (F := Ideal) c i arg1 harg1 arg2 harg2 arg3 harg3 arg4 harg4 arg5 harg5 arg6 harg6 arg7 harg7 arg8 harg8 x0 x1 x2 x3).1
      = [⟨Rect.unit (s := S16x4) ![0, 0] S16x4.size inb_S16x4_S16x4_0_0, k0_pay1 (k0_pay28 (W15).1 (W25[R2, R3]).2.1)⟩] := by
    unfold kernelRun0; dsimp only; sl_unfold_run_names; rfl
  rw [hw, View.canon_unit_zero (S := S16x4) hz, load_whole arg3 harg3 x2, load_whole arg4 harg4 x3]

/-- The second result buffer: the KL block's. -/
theorem out5_eq :
    out5 (F := Ideal) c i arg1 harg1 arg2 harg2 arg3 harg3 arg4 harg4 arg5 harg5 arg6 harg6 arg7 harg7 arg8 harg8 x0 x1 x2 x3
      = k0_pay2 (k0_pay27 (W15).1 (W15).2 (W25[x2, x3]).1) := by
  unfold out5
  rw [View.read_writes_junk_eq_canon]
  have hw : (kernelRun0 (F := Ideal) c i arg1 harg1 arg2 harg2 arg3 harg3 arg4 harg4 arg5 harg5 arg6 harg6 arg7 harg7 arg8 harg8 x0 x1 x2 x3).2.1
      = [⟨Rect.unit (s := S16x4) ![0, 0] S16x4.size inb_S16x4_S16x4_0_0, k0_pay2 (k0_pay27 (W15).1 (W15).2 (W25[R2, R3]).1)⟩] := by
    unfold kernelRun0; dsimp only; sl_unfold_run_names; rfl
  rw [hw, View.canon_unit_zero (S := S16x4) hz, load_whole arg3 harg3 x2, load_whole arg4 harg4 x3]

/-- The third result buffer: the first next-token block's. -/
theorem out6_eq :
    out6 (F := Ideal) c i arg1 harg1 arg2 harg2 arg3 harg3 arg4 harg4 arg5 harg5 arg6 harg6 arg7 harg7 arg8 harg8 x0 x1 x2 x3
      = k0_pay3 (k0_pay29 (W15).1 (W25[x2, x3]).2.2.1) := by
  unfold out6
  rw [View.read_writes_junk_eq_canon]
  have hw : (kernelRun0 (F := Ideal) c i arg1 harg1 arg2 harg2 arg3 harg3 arg4 harg4 arg5 harg5 arg6 harg6 arg7 harg7 arg8 harg8 x0 x1 x2 x3).2.2.1
      = [⟨Rect.unit (s := S16x4) ![0, 0] S16x4.size inb_S16x4_S16x4_0_0, k0_pay3 (k0_pay29 (W15).1 (W25[R2, R3]).2.2.1)⟩] := by
    unfold kernelRun0; dsimp only; sl_unfold_run_names; rfl
  rw [hw, View.canon_unit_zero (S := S16x4) hz, load_whole arg3 harg3 x2, load_whole arg4 harg4 x3]

/-- The fourth result buffer: the second next-token block's. -/
theorem out7_eq :
    out7 (F := Ideal) c i arg1 harg1 arg2 harg2 arg3 harg3 arg4 harg4 arg5 harg5 arg6 harg6 arg7 harg7 arg8 harg8 x0 x1 x2 x3
      = k0_pay4 (W25[x2, x3]).2.2.2 (k0_pay30 (W15).2) := by
  unfold out7
  rw [View.read_writes_junk_eq_canon]
  have hw : (kernelRun0 (F := Ideal) c i arg1 harg1 arg2 harg2 arg3 harg3 arg4 harg4 arg5 harg5 arg6 harg6 arg7 harg7 arg8 harg8 x0 x1 x2 x3).2.2.2.1
      = [⟨Rect.unit (s := S16x4) ![0, 0] S16x4.size inb_S16x4_S16x4_0_0, k0_pay4 (W25[R2, R3]).2.2.2 (k0_pay30 (W15).2)⟩] := by
    unfold kernelRun0; dsimp only; sl_unfold_run_names; rfl
  rw [hw, View.canon_unit_zero (S := S16x4) hz, load_whole arg3 harg3 x2, load_whole arg4 harg4 x3]

end Body

/-! ## The body's result blocks at a point, entry by entry

At point t the body runs on the blocks of rows 16 t to 16 t + 15, so entry (r, b) of each result block is the
row-level quantity of position 16 t + r in batch row b. -/

/-- Row (b, r) of the first logits block at point t is row (b, 16 t + r) of the first logits array. -/
theorem row0 (c : Dev nD) (t : Fin cfg0.N) (b : Fin 4) (r : Fin 16) (q : Fin 512) (hq : q.val = 16 * t.val + r.val) :
    Spec.rowOfBlk (fblk0 m c t) b r = Spec.rowOf (m ((c : Thread nD τ).loc main_arg0) : S4x513x32000.Idx → EReal) b ⟨q.val, by omega⟩ := by
  funext v
  show fblk0 m c t (ix3 b r v) = (m ((c : Thread nD τ).loc main_arg0) : S4x513x32000.Idx → EReal) (ix3 b ⟨q.val, by omega⟩ v)
  rw [fblk0_apply m c t b r v ⟨q.val, by omega⟩ hq, V_main_arg0]

/-- The second logits block likewise. -/
theorem row1 (c : Dev nD) (t : Fin cfg0.N) (b : Fin 4) (r : Fin 16) (q : Fin 512) (hq : q.val = 16 * t.val + r.val) :
    Spec.rowOfBlk (fblk1 m c t) b r = Spec.rowOf (m ((c : Thread nD τ).loc main_arg1) : S4x513x32000.Idx → EReal) b ⟨q.val, by omega⟩ := by
  funext v
  show fblk1 m c t (ix3 b r v) = (m ((c : Thread nD τ).loc main_arg1) : S4x513x32000.Idx → EReal) (ix3 b ⟨q.val, by omega⟩ v)
  rw [fblk1_apply m c t b r v ⟨q.val, by omega⟩ hq, V_main_arg1]

/-- The id block's entry (r, b) at point t is the id of batch row b at position 16 t + r. -/
theorem id2 (c : Dev nD) (t : Fin cfg0.N) (r : Fin 16) (b : Fin 4) (q : Fin 512) (hq : q.val = 16 * t.val + r.val) :
    (iblk m c 2 t : S16x4.Idx → BitVec 32) (ix2 r b) = (m ((c : Thread nD τ).loc main_arg2) : S4x512.Idx → BitVec 32) (ix2 b q) :=
  (iblk2_apply m c t r b q hq).trans (V_v3_apply m c q b)

/-- The next-token id block's entry (r, b) at point t is the next id of batch row b at position 16 t + r. -/
theorem id3 (c : Dev nD) (t : Fin cfg0.N) (r : Fin 16) (b : Fin 4) (q : Fin 512) (hq : q.val = 16 * t.val + r.val) :
    (iblk m c 3 t : S16x4.Idx → BitVec 32) (ix2 r b) = nextId (m ((c : Thread nD τ).loc main_arg2) : S4x512.Idx → BitVec 32) b q :=
  (iblk3_apply m c t r b q hq).trans (V_v4_apply m c q b)

/-- The four result arrays, position by position. -/
def surp (c : Dev nD) (s : Fin 512) (b : Fin 4) : EReal :=
  Spec.surpK (Spec.rowOf (m ((c : Thread nD τ).loc main_arg0) : S4x513x32000.Idx → EReal) b ⟨s.val, by omega⟩) ((m ((c : Thread nD τ).loc main_arg2) : S4x512.Idx → BitVec 32) (ix2 b s))
def kl (c : Dev nD) (s : Fin 512) (b : Fin 4) : EReal :=
  Spec.klK (Spec.rowOf (m ((c : Thread nD τ).loc main_arg0) : S4x513x32000.Idx → EReal) b ⟨s.val, by omega⟩) (Spec.rowOf (m ((c : Thread nD τ).loc main_arg1) : S4x513x32000.Idx → EReal) b ⟨s.val, by omega⟩)
def gNext (c : Dev nD) (s : Fin 512) (b : Fin 4) : EReal :=
  Spec.gK (Spec.rowOf (m ((c : Thread nD τ).loc main_arg0) : S4x513x32000.Idx → EReal) b ⟨s.val, by omega⟩) (nextId (m ((c : Thread nD τ).loc main_arg2) : S4x512.Idx → BitVec 32) b s)
def gNextRef (c : Dev nD) (s : Fin 512) (b : Fin 4) : EReal :=
  Spec.gK (Spec.rowOf (m ((c : Thread nD τ).loc main_arg1) : S4x513x32000.Idx → EReal) b ⟨s.val, by omega⟩) (nextId (m ((c : Thread nD τ).loc main_arg2) : S4x512.Idx → BitVec 32) b s)

/-- The surprisal block at point t. -/
theorem out4At_apply (c : Dev nD) (t : Fin cfg0.N) (r : Fin 16) (b : Fin 4) (q : Fin 512) (hq : q.val = 16 * t.val + r.val) :
    out4At m c t (ix2 r b) = surp m c q b := by
  unfold out4At
  rw [out4_eq c (grid0.coords t) (ms0 t) (hs0 t) (ms1 t) (hs1 t) (ms2 t) (hs2 t) (ms3 t) (hs3 t) (ms4 t) (hs4 t) (ms5 t) (hs5 t) (ms6 t) (hs6 t) (ms7 t) (hs7 t) (fblk0 m c t) (fblk1 m c t) (iblk m c 2 t) (iblk m c 3 t)]
  refine (LoopVal.surp_blk Variants.none c none (grid0.coords t) (ms0 t) (hs0 t) (ms1 t) (hs1 t) (ms2 t) (hs2 t) (ms3 t) (hs3 t) (ms4 t) (hs4 t) (ms5 t) (hs5 t) (ms6 t) (hs6 t) (ms7 t) (hs7 t) (iblk m c 2 t) (iblk m c 3 t) ((hs0 t).unread (fblk0 m c t)) ((hs1 t).unread (fblk1 m c t)) b r).trans ?_
  rw [(hs0 t).read_unread]
  exact congrArg₂ Spec.surpK (row0 m c t b r q hq) (id2 m c t r b q hq)

/-- The KL block at point t. -/
theorem out5At_apply (c : Dev nD) (t : Fin cfg0.N) (r : Fin 16) (b : Fin 4) (q : Fin 512) (hq : q.val = 16 * t.val + r.val) :
    out5At m c t (ix2 r b) = kl m c q b := by
  unfold out5At
  rw [out5_eq c (grid0.coords t) (ms0 t) (hs0 t) (ms1 t) (hs1 t) (ms2 t) (hs2 t) (ms3 t) (hs3 t) (ms4 t) (hs4 t) (ms5 t) (hs5 t) (ms6 t) (hs6 t) (ms7 t) (hs7 t) (fblk0 m c t) (fblk1 m c t) (iblk m c 2 t) (iblk m c 3 t)]
  refine (LoopVal.kl_blk Variants.none c none (grid0.coords t) (ms0 t) (hs0 t) (ms1 t) (hs1 t) (ms2 t) (hs2 t) (ms3 t) (hs3 t) (ms4 t) (hs4 t) (ms5 t) (hs5 t) (ms6 t) (hs6 t) (ms7 t) (hs7 t) (iblk m c 2 t) (iblk m c 3 t) ((hs0 t).unread (fblk0 m c t)) ((hs1 t).unread (fblk1 m c t)) b r).trans ?_
  rw [(hs0 t).read_unread, (hs1 t).read_unread]
  exact congrArg₂ Spec.klK (row0 m c t b r q hq) (row1 m c t b r q hq)

/-- The first next-token block at point t. -/
theorem out6At_apply (c : Dev nD) (t : Fin cfg0.N) (r : Fin 16) (b : Fin 4) (q : Fin 512) (hq : q.val = 16 * t.val + r.val) :
    out6At m c t (ix2 r b) = gNext m c q b := by
  unfold out6At
  rw [out6_eq c (grid0.coords t) (ms0 t) (hs0 t) (ms1 t) (hs1 t) (ms2 t) (hs2 t) (ms3 t) (hs3 t) (ms4 t) (hs4 t) (ms5 t) (hs5 t) (ms6 t) (hs6 t) (ms7 t) (hs7 t) (fblk0 m c t) (fblk1 m c t) (iblk m c 2 t) (iblk m c 3 t)]
  refine (LoopVal.g_blk Variants.none c none (grid0.coords t) (ms0 t) (hs0 t) (ms1 t) (hs1 t) (ms2 t) (hs2 t) (ms3 t) (hs3 t) (ms4 t) (hs4 t) (ms5 t) (hs5 t) (ms6 t) (hs6 t) (ms7 t) (hs7 t) (iblk m c 2 t) (iblk m c 3 t) ((hs0 t).unread (fblk0 m c t)) ((hs1 t).unread (fblk1 m c t)) b r).trans ?_
  rw [(hs0 t).read_unread]
  exact congrArg₂ Spec.gK (row0 m c t b r q hq) (id3 m c t r b q hq)

/-- The second next-token block at point t. -/
theorem out7At_apply (c : Dev nD) (t : Fin cfg0.N) (r : Fin 16) (b : Fin 4) (q : Fin 512) (hq : q.val = 16 * t.val + r.val) :
    out7At m c t (ix2 r b) = gNextRef m c q b := by
  unfold out7At
  rw [out7_eq c (grid0.coords t) (ms0 t) (hs0 t) (ms1 t) (hs1 t) (ms2 t) (hs2 t) (ms3 t) (hs3 t) (ms4 t) (hs4 t) (ms5 t) (hs5 t) (ms6 t) (hs6 t) (ms7 t) (hs7 t) (fblk0 m c t) (fblk1 m c t) (iblk m c 2 t) (iblk m c 3 t)]
  refine (LoopVal.gr_blk Variants.none c none (grid0.coords t) (ms0 t) (hs0 t) (ms1 t) (hs1 t) (ms2 t) (hs2 t) (ms3 t) (hs3 t) (ms4 t) (hs4 t) (ms5 t) (hs5 t) (ms6 t) (hs6 t) (ms7 t) (hs7 t) (iblk m c 2 t) (iblk m c 3 t) ((hs0 t).unread (fblk0 m c t)) ((hs1 t).unread (fblk1 m c t)) b r).trans ?_
  rw [(hs1 t).read_unread]
  exact congrArg₂ Spec.gK (row1 m c t b r q hq) (id3 m c t r b q hq)

/-! ## From the blocks to the arrays

Each result window writes its block back at every point, what it writes is the block of one function of the index,
and the 32 blocks of 16 rows tile the 512 rows: so each array ends holding that function. -/

/-- The surprisal array as a function of the index. -/
def G4 (c : Dev nD) : S512x4.Idx → EReal := fun j => surp m c (j 0) (j 1)

/-- Entry (r, b) of result window 4's block at point t lies at (16 t + r, b) of its array. -/
theorem blk4_emb (t : Fin cfg0.N) (r : Fin 16) (b : Fin 4) (q : Fin 512) (hq : q.val = 16 * t.val + r.val) :
    ((cfg0.win 4).blk t).view.emb (ix2 r b) = (ix2 q b : S512x4.Idx) := by
  obtain ⟨e40, e41, e50, e51, e60, e61, e70, e71⟩ := idx_out t
  funext a; apply Fin.ext
  match a with
  | ⟨0, _⟩ => show win0_4.index t (0 : Fin 2) * 16 + 1 * r.val = q.val; omega
  | ⟨1, _⟩ => show win0_4.index t (1 : Fin 2) * 4 + 1 * b.val = b.val; omega

/-- What point t writes back through result window 4 is block t of that function. -/
theorem flushed4_eq (c : Dev nD) (t : Fin cfg0.N) :
    (dats m 0 c).flushed 4 t = ((cfg0.win 4).blk t).view.read (Elt Ideal) (G4 m c) := by
  show (cfg0.win 4).cut (grid0.coords t) ((dats m 0 c).after 4 t) = _
  rw [after0_4]
  refine funext fun (y : S16x4.Idx) => ?_
  obtain ⟨r, b, rfl⟩ : ∃ (r : Fin 16) (b : Fin 4), y = ix2 r b := ⟨y 0, y 1, eq_ix2 y⟩
  have ht := grid_lt t
  have hr : r.val < 16 := r.isLt
  show out4At m c t (ix2 r b) = G4 m c (((cfg0.win 4).blk t).view.emb (ix2 r b))
  rw [blk4_emb t r b ⟨16 * t.val + r.val, by omega⟩ rfl]
  exact out4At_apply m c t r b ⟨16 * t.val + r.val, by omega⟩ rfl

/-- An index of the array is in point t's block of window 4 iff each coordinate is in the block's range on its axis. -/
theorem mem_blk4 (t : Fin cfg0.N) (i : S512x4.Idx) :
    i ∈ ((cfg0.win 4).blk t).view.set ↔ ∀ a : Fin 2, win0_4.index t a * S16x4.size a ≤ (i a).val ∧ (i a).val < win0_4.index t a * S16x4.size a + S16x4.size a := by
  show i ∈ ((View.whole main_v5_0).slice (win0_4.rect t)).set ↔ _
  rw [View.set_slice_whole, Rect.mem_set_unit]
  exact Iff.rfl

/-- Position s lies in the block of point s / 16, which window 4 writes back. -/
theorem covered4 (i : S512x4.Idx) : ∃ t : Fin cfg0.N, (cfg0.win 4).flush t = true ∧ i ∈ ((cfg0.win 4).blk t).view.set := by
  have hi0 : (i 0).val < 512 := (i 0).isLt
  have hi1 : (i 1).val < 4 := (i 1).isLt
  have hlt : (i 0).val / 16 < cfg0.N := Nat.lt_of_lt_of_eq (by omega : (i 0).val / 16 < 32) N_0.symm
  obtain ⟨e40, e41, e50, e51, e60, e61, e70, e71⟩ := idx_out ⟨(i 0).val / 16, hlt⟩
  refine ⟨⟨(i 0).val / 16, hlt⟩, flush0_4 _, ?_⟩
  rw [mem_blk4]
  intro a
  match a with
  | ⟨0, _⟩ =>
    show win0_4.index ⟨(i 0).val / 16, hlt⟩ (0 : Fin 2) * 16 ≤ (i 0).val ∧ (i 0).val < win0_4.index ⟨(i 0).val / 16, hlt⟩ (0 : Fin 2) * 16 + 16
    rw [e40]; show (i 0).val / 16 * 16 ≤ (i 0).val ∧ (i 0).val < (i 0).val / 16 * 16 + 16; omega
  | ⟨1, _⟩ =>
    show win0_4.index ⟨(i 0).val / 16, hlt⟩ (1 : Fin 2) * 4 ≤ (i 1).val ∧ (i 1).val < win0_4.index ⟨(i 0).val / 16, hlt⟩ (1 : Fin 2) * 4 + 4
    rw [e41]; omega

/-- The KL array as a function of the index. -/
def G5 (c : Dev nD) : S512x4.Idx → EReal := fun j => kl m c (j 0) (j 1)

/-- Entry (r, b) of result window 5's block at point t lies at (16 t + r, b) of its array. -/
theorem blk5_emb (t : Fin cfg0.N) (r : Fin 16) (b : Fin 4) (q : Fin 512) (hq : q.val = 16 * t.val + r.val) :
    ((cfg0.win 5).blk t).view.emb (ix2 r b) = (ix2 q b : S512x4.Idx) := by
  obtain ⟨e40, e41, e50, e51, e60, e61, e70, e71⟩ := idx_out t
  funext a; apply Fin.ext
  match a with
  | ⟨0, _⟩ => show win0_5.index t (0 : Fin 2) * 16 + 1 * r.val = q.val; omega
  | ⟨1, _⟩ => show win0_5.index t (1 : Fin 2) * 4 + 1 * b.val = b.val; omega

/-- What point t writes back through result window 5 is block t of that function. -/
theorem flushed5_eq (c : Dev nD) (t : Fin cfg0.N) :
    (dats m 0 c).flushed 5 t = ((cfg0.win 5).blk t).view.read (Elt Ideal) (G5 m c) := by
  show (cfg0.win 5).cut (grid0.coords t) ((dats m 0 c).after 5 t) = _
  rw [after0_5]
  refine funext fun (y : S16x4.Idx) => ?_
  obtain ⟨r, b, rfl⟩ : ∃ (r : Fin 16) (b : Fin 4), y = ix2 r b := ⟨y 0, y 1, eq_ix2 y⟩
  have ht := grid_lt t
  have hr : r.val < 16 := r.isLt
  show out5At m c t (ix2 r b) = G5 m c (((cfg0.win 5).blk t).view.emb (ix2 r b))
  rw [blk5_emb t r b ⟨16 * t.val + r.val, by omega⟩ rfl]
  exact out5At_apply m c t r b ⟨16 * t.val + r.val, by omega⟩ rfl

/-- An index of the array is in point t's block of window 5 iff each coordinate is in the block's range on its axis. -/
theorem mem_blk5 (t : Fin cfg0.N) (i : S512x4.Idx) :
    i ∈ ((cfg0.win 5).blk t).view.set ↔ ∀ a : Fin 2, win0_5.index t a * S16x4.size a ≤ (i a).val ∧ (i a).val < win0_5.index t a * S16x4.size a + S16x4.size a := by
  show i ∈ ((View.whole main_v5_1).slice (win0_5.rect t)).set ↔ _
  rw [View.set_slice_whole, Rect.mem_set_unit]
  exact Iff.rfl

/-- Position s lies in the block of point s / 16, which window 5 writes back. -/
theorem covered5 (i : S512x4.Idx) : ∃ t : Fin cfg0.N, (cfg0.win 5).flush t = true ∧ i ∈ ((cfg0.win 5).blk t).view.set := by
  have hi0 : (i 0).val < 512 := (i 0).isLt
  have hi1 : (i 1).val < 4 := (i 1).isLt
  have hlt : (i 0).val / 16 < cfg0.N := Nat.lt_of_lt_of_eq (by omega : (i 0).val / 16 < 32) N_0.symm
  obtain ⟨e40, e41, e50, e51, e60, e61, e70, e71⟩ := idx_out ⟨(i 0).val / 16, hlt⟩
  refine ⟨⟨(i 0).val / 16, hlt⟩, flush0_5 _, ?_⟩
  rw [mem_blk5]
  intro a
  match a with
  | ⟨0, _⟩ =>
    show win0_5.index ⟨(i 0).val / 16, hlt⟩ (0 : Fin 2) * 16 ≤ (i 0).val ∧ (i 0).val < win0_5.index ⟨(i 0).val / 16, hlt⟩ (0 : Fin 2) * 16 + 16
    rw [e50]; show (i 0).val / 16 * 16 ≤ (i 0).val ∧ (i 0).val < (i 0).val / 16 * 16 + 16; omega
  | ⟨1, _⟩ =>
    show win0_5.index ⟨(i 0).val / 16, hlt⟩ (1 : Fin 2) * 4 ≤ (i 1).val ∧ (i 1).val < win0_5.index ⟨(i 0).val / 16, hlt⟩ (1 : Fin 2) * 4 + 4
    rw [e51]; omega

/-- The first next-token array as a function of the index. -/
def G6 (c : Dev nD) : S512x4.Idx → EReal := fun j => gNext m c (j 0) (j 1)

/-- Entry (r, b) of result window 6's block at point t lies at (16 t + r, b) of its array. -/
theorem blk6_emb (t : Fin cfg0.N) (r : Fin 16) (b : Fin 4) (q : Fin 512) (hq : q.val = 16 * t.val + r.val) :
    ((cfg0.win 6).blk t).view.emb (ix2 r b) = (ix2 q b : S512x4.Idx) := by
  obtain ⟨e40, e41, e50, e51, e60, e61, e70, e71⟩ := idx_out t
  funext a; apply Fin.ext
  match a with
  | ⟨0, _⟩ => show win0_6.index t (0 : Fin 2) * 16 + 1 * r.val = q.val; omega
  | ⟨1, _⟩ => show win0_6.index t (1 : Fin 2) * 4 + 1 * b.val = b.val; omega

/-- What point t writes back through result window 6 is block t of that function. -/
theorem flushed6_eq (c : Dev nD) (t : Fin cfg0.N) :
    (dats m 0 c).flushed 6 t = ((cfg0.win 6).blk t).view.read (Elt Ideal) (G6 m c) := by
  show (cfg0.win 6).cut (grid0.coords t) ((dats m 0 c).after 6 t) = _
  rw [after0_6]
  refine funext fun (y : S16x4.Idx) => ?_
  obtain ⟨r, b, rfl⟩ : ∃ (r : Fin 16) (b : Fin 4), y = ix2 r b := ⟨y 0, y 1, eq_ix2 y⟩
  have ht := grid_lt t
  have hr : r.val < 16 := r.isLt
  show out6At m c t (ix2 r b) = G6 m c (((cfg0.win 6).blk t).view.emb (ix2 r b))
  rw [blk6_emb t r b ⟨16 * t.val + r.val, by omega⟩ rfl]
  exact out6At_apply m c t r b ⟨16 * t.val + r.val, by omega⟩ rfl

/-- An index of the array is in point t's block of window 6 iff each coordinate is in the block's range on its axis. -/
theorem mem_blk6 (t : Fin cfg0.N) (i : S512x4.Idx) :
    i ∈ ((cfg0.win 6).blk t).view.set ↔ ∀ a : Fin 2, win0_6.index t a * S16x4.size a ≤ (i a).val ∧ (i a).val < win0_6.index t a * S16x4.size a + S16x4.size a := by
  show i ∈ ((View.whole main_v5_2).slice (win0_6.rect t)).set ↔ _
  rw [View.set_slice_whole, Rect.mem_set_unit]
  exact Iff.rfl

/-- Position s lies in the block of point s / 16, which window 6 writes back. -/
theorem covered6 (i : S512x4.Idx) : ∃ t : Fin cfg0.N, (cfg0.win 6).flush t = true ∧ i ∈ ((cfg0.win 6).blk t).view.set := by
  have hi0 : (i 0).val < 512 := (i 0).isLt
  have hi1 : (i 1).val < 4 := (i 1).isLt
  have hlt : (i 0).val / 16 < cfg0.N := Nat.lt_of_lt_of_eq (by omega : (i 0).val / 16 < 32) N_0.symm
  obtain ⟨e40, e41, e50, e51, e60, e61, e70, e71⟩ := idx_out ⟨(i 0).val / 16, hlt⟩
  refine ⟨⟨(i 0).val / 16, hlt⟩, flush0_6 _, ?_⟩
  rw [mem_blk6]
  intro a
  match a with
  | ⟨0, _⟩ =>
    show win0_6.index ⟨(i 0).val / 16, hlt⟩ (0 : Fin 2) * 16 ≤ (i 0).val ∧ (i 0).val < win0_6.index ⟨(i 0).val / 16, hlt⟩ (0 : Fin 2) * 16 + 16
    rw [e60]; show (i 0).val / 16 * 16 ≤ (i 0).val ∧ (i 0).val < (i 0).val / 16 * 16 + 16; omega
  | ⟨1, _⟩ =>
    show win0_6.index ⟨(i 0).val / 16, hlt⟩ (1 : Fin 2) * 4 ≤ (i 1).val ∧ (i 1).val < win0_6.index ⟨(i 0).val / 16, hlt⟩ (1 : Fin 2) * 4 + 4
    rw [e61]; omega

/-- The second next-token array as a function of the index. -/
def G7 (c : Dev nD) : S512x4.Idx → EReal := fun j => gNextRef m c (j 0) (j 1)

/-- Entry (r, b) of result window 7's block at point t lies at (16 t + r, b) of its array. -/
theorem blk7_emb (t : Fin cfg0.N) (r : Fin 16) (b : Fin 4) (q : Fin 512) (hq : q.val = 16 * t.val + r.val) :
    ((cfg0.win 7).blk t).view.emb (ix2 r b) = (ix2 q b : S512x4.Idx) := by
  obtain ⟨e40, e41, e50, e51, e60, e61, e70, e71⟩ := idx_out t
  funext a; apply Fin.ext
  match a with
  | ⟨0, _⟩ => show win0_7.index t (0 : Fin 2) * 16 + 1 * r.val = q.val; omega
  | ⟨1, _⟩ => show win0_7.index t (1 : Fin 2) * 4 + 1 * b.val = b.val; omega

/-- What point t writes back through result window 7 is block t of that function. -/
theorem flushed7_eq (c : Dev nD) (t : Fin cfg0.N) :
    (dats m 0 c).flushed 7 t = ((cfg0.win 7).blk t).view.read (Elt Ideal) (G7 m c) := by
  show (cfg0.win 7).cut (grid0.coords t) ((dats m 0 c).after 7 t) = _
  rw [after0_7]
  refine funext fun (y : S16x4.Idx) => ?_
  obtain ⟨r, b, rfl⟩ : ∃ (r : Fin 16) (b : Fin 4), y = ix2 r b := ⟨y 0, y 1, eq_ix2 y⟩
  have ht := grid_lt t
  have hr : r.val < 16 := r.isLt
  show out7At m c t (ix2 r b) = G7 m c (((cfg0.win 7).blk t).view.emb (ix2 r b))
  rw [blk7_emb t r b ⟨16 * t.val + r.val, by omega⟩ rfl]
  exact out7At_apply m c t r b ⟨16 * t.val + r.val, by omega⟩ rfl

/-- An index of the array is in point t's block of window 7 iff each coordinate is in the block's range on its axis. -/
theorem mem_blk7 (t : Fin cfg0.N) (i : S512x4.Idx) :
    i ∈ ((cfg0.win 7).blk t).view.set ↔ ∀ a : Fin 2, win0_7.index t a * S16x4.size a ≤ (i a).val ∧ (i a).val < win0_7.index t a * S16x4.size a + S16x4.size a := by
  show i ∈ ((View.whole main_v5_3).slice (win0_7.rect t)).set ↔ _
  rw [View.set_slice_whole, Rect.mem_set_unit]
  exact Iff.rfl

/-- Position s lies in the block of point s / 16, which window 7 writes back. -/
theorem covered7 (i : S512x4.Idx) : ∃ t : Fin cfg0.N, (cfg0.win 7).flush t = true ∧ i ∈ ((cfg0.win 7).blk t).view.set := by
  have hi0 : (i 0).val < 512 := (i 0).isLt
  have hi1 : (i 1).val < 4 := (i 1).isLt
  have hlt : (i 0).val / 16 < cfg0.N := Nat.lt_of_lt_of_eq (by omega : (i 0).val / 16 < 32) N_0.symm
  obtain ⟨e40, e41, e50, e51, e60, e61, e70, e71⟩ := idx_out ⟨(i 0).val / 16, hlt⟩
  refine ⟨⟨(i 0).val / 16, hlt⟩, flush0_7 _, ?_⟩
  rw [mem_blk7]
  intro a
  match a with
  | ⟨0, _⟩ =>
    show win0_7.index ⟨(i 0).val / 16, hlt⟩ (0 : Fin 2) * 16 ≤ (i 0).val ∧ (i 0).val < win0_7.index ⟨(i 0).val / 16, hlt⟩ (0 : Fin 2) * 16 + 16
    rw [e70]; show (i 0).val / 16 * 16 ≤ (i 0).val ∧ (i 0).val < (i 0).val / 16 * 16 + 16; omega
  | ⟨1, _⟩ =>
    show win0_7.index ⟨(i 0).val / 16, hlt⟩ (1 : Fin 2) * 4 ≤ (i 1).val ∧ (i 1).val < win0_7.index ⟨(i 0).val / 16, hlt⟩ (1 : Fin 2) * 4 + 4
    rw [e71]; omega

/-! ## The four result arrays after the region -/

/-- The first result array at (s, b): the surprisal of position s in batch row b at its own token id. -/
theorem arr4 (c : Dev nD) (s : Fin 512) (b : Fin 4) :
    ((dats (F := Ideal) m 0 c).arrAt 4 cfg0.N : S512x4.Idx → EReal) (ix2 s b)
      = Spec.surpK (Spec.rowOf (m ((c : Thread nD τ).loc main_arg0) : S4x513x32000.Idx → EReal) b ⟨s.val, by omega⟩) ((m ((c : Thread nD τ).loc main_arg2) : S4x512.Idx → BitVec 32) (ix2 b s)) :=
  congrFun ((dats m 0 c).arrAt_eq_of_cover 4 (G4 m c) (fun t _ => flushed4_eq m c t) covered4) (ix2 s b)

/-- The second result array at (s, b): the KL term of position s in batch row b. -/
theorem arr5 (c : Dev nD) (s : Fin 512) (b : Fin 4) :
    ((dats (F := Ideal) m 0 c).arrAt 5 cfg0.N : S512x4.Idx → EReal) (ix2 s b)
      = Spec.klK (Spec.rowOf (m ((c : Thread nD τ).loc main_arg0) : S4x513x32000.Idx → EReal) b ⟨s.val, by omega⟩) (Spec.rowOf (m ((c : Thread nD τ).loc main_arg1) : S4x513x32000.Idx → EReal) b ⟨s.val, by omega⟩) :=
  congrFun ((dats m 0 c).arrAt_eq_of_cover 5 (G5 m c) (fun t _ => flushed5_eq m c t) covered5) (ix2 s b)

/-- The third result array at (s, b): the first logits' log-probability of the next token id. -/
theorem arr6 (c : Dev nD) (s : Fin 512) (b : Fin 4) :
    ((dats (F := Ideal) m 0 c).arrAt 6 cfg0.N : S512x4.Idx → EReal) (ix2 s b)
      = Spec.gK (Spec.rowOf (m ((c : Thread nD τ).loc main_arg0) : S4x513x32000.Idx → EReal) b ⟨s.val, by omega⟩) (nextId (m ((c : Thread nD τ).loc main_arg2) : S4x512.Idx → BitVec 32) b s) :=
  congrFun ((dats m 0 c).arrAt_eq_of_cover 6 (G6 m c) (fun t _ => flushed6_eq m c t) covered6) (ix2 s b)

/-- The fourth result array at (s, b): the second logits' log-probability of the next token id. -/
theorem arr7 (c : Dev nD) (s : Fin 512) (b : Fin 4) :
    ((dats (F := Ideal) m 0 c).arrAt 7 cfg0.N : S512x4.Idx → EReal) (ix2 s b)
      = Spec.gK (Spec.rowOf (m ((c : Thread nD τ).loc main_arg1) : S4x513x32000.Idx → EReal) b ⟨s.val, by omega⟩) (nextId (m ((c : Thread nD τ).loc main_arg2) : S4x512.Idx → BitVec 32) b s) :=
  congrFun ((dats m 0 c).arrAt_eq_of_cover 7 (G7 m c) (fun t _ => flushed7_eq m c t) covered7) (ix2 s b)

end Cert.KernelIdeal.ArrVal

end
-- ==== Proof.RefVal.lean ====
import proofs.«424779_j13597866459574_3_alg».proof.Proof.Spec
import proofs.«424779_j13597866459574_3_alg».proof.Proof.ReadP
import Idealize.ShloMosaic.PureOps.Ideal.Laws
import Idealize.ShloMosaic.PureOps.Reduce
import Idealize.ShloMosaic.Lib.ValueIdx
import Idealize.ShloMosaic.Lib.StableHlo.Predicate
import Idealize.ShloMosaic.Lib.Affine
import Mathlib.Data.Finset.Lattice.Fold
import Mathlib.Algebra.BigOperators.Group.Finset.Basic

/-! The reference's four per-token arrays read at an index, in terms of the row-level specification.

The reference computes the log-softmax lp of each array of logits over the vocabulary axis and then: the surprisal
-lp[b, s, id[b, s]]; the KL term, the sum over the vocabulary of exp(rlp) (rlp - lp) at position s; and the next-token
log-probabilities lp[b, s, id[b, s + 1]] and rlp[b, s, id[b, s + 1]]. Each is read here at one index (b, s) as the
specification's function of row (b, s) of the logits and of the token id, which is assumed below the vocabulary size.

First some facts that do not depend on the program: words below the vocabulary size, a maximum over the last axis
from negative infinity as a supremum, a conjunction over an axis of extent one, and a take along the last axis of a
three-axis array read at an index. Then the program's stages, one at a time. -/

noncomputable section

namespace Cert.RefVal

open Cert.ReferenceIdeal Cert.ReferenceIdeal.ReadP Idealize.ShloMosaic Idealize.ShloMosaic.ValueIdx
open scoped BigOperators

/-! ## Words below the vocabulary size -/

/-- A word below 32000 is not negative as a signed integer. -/
theorem slt_zero_of_small {w : BitVec 32} (h : w.toNat < 32000) : IntOp.cmpi .slt w 0#32 = 0#1 := by
  apply eq_zero_of_ne_one
  intro e
  have := (StableHlo.Predicate.slt_iff_toNat (a := w) (b := 0#32) (by omega) (by decide)).1 e
  simp at this

/-- It is at least zero, -/
theorem sge_zero_of_small {w : BitVec 32} (h : w.toNat < 32000) : IntOp.cmpi .sge w 0#32 = 1#1 :=
  (StableHlo.Predicate.sge_iff_toNat (a := w) (b := 0#32) (by omega) (by decide)).2 (Nat.zero_le _)

/-- at most 31999, -/
theorem sle_last_of_small {w : BitVec 32} (h : w.toNat < 32000) : IntOp.cmpi .sle w 31999#32 = 1#1 :=
  (StableHlo.Predicate.sle_iff_toNat (a := w) (b := 31999#32) (by omega) (by decide)).2
    (by show w.toNat ≤ 31999; omega)

/-- and reads the same signed and unsigned. -/
theorem toInt_toNat_of_small {w : BitVec 32} (h : w.toNat < 32000) : w.toInt.toNat = w.toNat := by
  rw [StableHlo.Predicate.toInt_eq_toNat_of_lt (by omega)]; rfl

/-! ## The two float constants of the reductions -/

/-- The pattern of negative infinity denotes the bottom element. -/
theorem ofBits_neg_inf : Ideal.ofBits .f32 0xFF800000#32 = ⊥ := by simp [Ideal.ofBits, Ideal.ieee]

theorem fold_andi_one {ι : Type} [DecidableEq ι] (S : Finset ι) (f : ι → BitVec 1) (hf : ∀ k ∈ S, f k = 1#1) :
    S.fold IntOp.andi 1#1 f = 1#1 := by
  induction S using Finset.induction_on with
  | empty => rfl
  | insert a S ha ih =>
    rw [Finset.fold_insert ha, hf a (Finset.mem_insert_self a S), ih (fun k hk => hf k (Finset.mem_insert_of_mem hk))]
    rfl

/-! ## Reductions along the last axis, read at an index -/

section Reduce
variable {B S N : Nat}

/-- The index over (b, s) with coordinate k on the last of three axes is (b, s, k). -/
theorem lift_ix3 (h : (⟨3, ![B, S, N]⟩ : Shape).Reduces [2] (⟨2, ![B, S]⟩ : Shape)) (b : Fin B) (s : Fin S)
    (k : Fin ((⟨3, ![B, S, N]⟩ : Shape).size 2)) : h.lift (ix2 b s) k = ix3 b s (⟨k.val, k.isLt⟩ : Fin N) := by
  funext c; apply Fin.ext
  fin_cases c <;> rfl

/-- From the bottom element, the maximum over the last axis at (b, s) is the supremum of the row. -/
theorem reduce_max_apply (x : (⟨3, ![B, S, N]⟩ : Shape).Idx → EReal) (init : (⟨0, ![]⟩ : Shape).Idx → EReal)
    (h' : (⟨3, ![B, S, N]⟩ : Shape).ReducesTo [2] (⟨2, ![B, S]⟩ : Shape))
    (h : (⟨3, ![B, S, N]⟩ : Shape).Reduces [2] (⟨2, ![B, S]⟩ : Shape)) (hu : 0 < (⟨0, ![]⟩ : Shape).numel)
    (hinit : init (Shape.Idx.first hu) = ⊥) (b : Fin B) (s : Fin S) :
    Host.reduce (FloatOps.maximumf (F := Ideal) (φ := .f32)) x init h' hu (ix2 b s)
      = (Finset.univ : Finset (Fin N)).sup fun v => x (ix3 b s v) := by
  rw [Host.reduce_eq_fold_single (FloatOps.maximumf (F := Ideal) (φ := .f32)) x init h' h hu, hinit]
  have hf : (x ∘ h.lift (ix2 b s)) = fun k : Fin N => x (ix3 b s k) := funext fun k => congrArg x (lift_ix3 h b s k)
  exact congrArg (fun f => Finset.fold max (⊥ : EReal) f (Finset.univ : Finset (Fin N))) hf

/-- The index over (b, s, 0) on the last of four axes, of extent one, is (b, s, 0, 0). -/
theorem lift_ix4 (h : (⟨4, ![B, S, 1, 1]⟩ : Shape).Reduces [3] (⟨3, ![B, S, 1]⟩ : Shape)) (b : Fin B) (s : Fin S)
    (k : Fin ((⟨4, ![B, S, 1, 1]⟩ : Shape).size 3)) :
    h.lift (ix3 b s (0 : Fin 1)) k = ix4 b s (0 : Fin 1) (0 : Fin 1) := by
  funext c; apply Fin.ext
  have hk1 : k.val < 1 := k.isLt
  have hk : k.val = 0 := by omega
  fin_cases c
  · rfl
  · rfl
  · rfl
  · exact hk

/-- A conjunction over a last axis of extent one, from 1, at (b, s, 0): 1 when the one bit is. -/
theorem reduce_andi_apply (p : IVec (⟨4, ![B, S, 1, 1]⟩ : Shape) 1) (init : (⟨0, ![]⟩ : Shape).Idx → BitVec 1)
    (h' : (⟨4, ![B, S, 1, 1]⟩ : Shape).ReducesTo [3] (⟨3, ![B, S, 1]⟩ : Shape))
    (h : (⟨4, ![B, S, 1, 1]⟩ : Shape).Reduces [3] (⟨3, ![B, S, 1]⟩ : Shape)) (hu : 0 < (⟨0, ![]⟩ : Shape).numel)
    (hinit : init (Shape.Idx.first hu) = 1#1) (b : Fin B) (s : Fin S)
    (hp : p (ix4 b s (0 : Fin 1) (0 : Fin 1)) = 1#1) :
    Host.reduce IntOp.andi p init h' hu (ix3 b s (0 : Fin 1)) = 1#1 := by
  classical
  rw [Host.reduce_eq_fold_single IntOp.andi p init h' h hu, hinit]
  refine fold_andi_one _ _ fun k _ => ?_
  show p (h.lift (ix3 b s (0 : Fin 1)) k) = 1#1
  rw [lift_ix4 h b s k]; exact hp

end Reduce

/-! ## A take along the last axis, read at an index -/

section Take
variable {α : Type}

/-- The dimension numbers of a take along the last axis of a [B, S, N] array at [B, S, 1, 1] start indices, the two
    leading axes batching. -/
abbrev takeLast (B S N : Nat)
    (wf : GatherDims.WF ⟨3, ![B, S, N]⟩ ⟨4, ![B, S, 1, 1]⟩ ⟨3, ![B, S, 1]⟩ [] [2] [0, 1] [2] [0, 1] 3 ![1, 1, 1]) :
    GatherDims ⟨3, ![B, S, N]⟩ ⟨4, ![B, S, 1, 1]⟩ ⟨3, ![B, S, 1]⟩ where
  offsetDims := []
  collapsedSliceDims := [2]
  operandBatchingDims := [0, 1]
  startIndicesBatchingDims := [0, 1]
  startIndexMap := [2]
  indexVectorDim := 3
  sliceSizes := ![1, 1, 1]
  wf := wf

/-- The take at (b, s, 0): the array at (b, s, the start index read signed and clamped into the axis). -/
theorem gather_takeLast_apply {B S N w : Nat} (hN : 0 < N)
    (wf : GatherDims.WF ⟨3, ![B, S, N]⟩ ⟨4, ![B, S, 1, 1]⟩ ⟨3, ![B, S, 1]⟩ [] [2] [0, 1] [2] [0, 1] 3 ![1, 1, 1])
    (x : (⟨3, ![B, S, N]⟩ : Shape).Idx → α) (idx : IVec ⟨4, ![B, S, 1, 1]⟩ w) (b : Fin B) (s : Fin S) :
    Host.gather (takeLast B S N wf) x idx (ix3 b s (0 : Fin 1))
      = x (ix3 b s ⟨min (idx (ix4 b s (0 : Fin 1) (0 : Fin 1))).toInt.toNat (N - 1), by omega⟩) := by
  unfold Host.gather
  congr 1
  funext a
  refine Fin.ext ?_
  show (takeLast B S N wf).start (ix3 b s (0 : Fin 1)) idx a + (takeLast B S N wf).batchCoord (ix3 b s (0 : Fin 1)) a
    + (takeLast B S N wf).offCoord (ix3 b s (0 : Fin 1)) a = _
  match a with
  | ⟨0, h0⟩ =>
    have hb : (⟨0, h0⟩ : Fin (⟨3, ![B, S, N]⟩ : Shape).rank) ∈ (takeLast B S N wf).operandBatchingDims :=
      List.mem_cons_self
    rw [GatherDims.start_batching _ _ _ _ hb,
      GatherDims.offCoord_eq_zero _ _ _ (fun h => ((GatherDims.mem_sKept _ _).mp h).2 hb), Nat.zero_add, Nat.add_zero]
    unfold GatherDims.batchCoord
    rw [dif_pos hb]
    rfl
  | ⟨1, h1⟩ =>
    have hb : (⟨1, h1⟩ : Fin (⟨3, ![B, S, N]⟩ : Shape).rank) ∈ (takeLast B S N wf).operandBatchingDims :=
      List.mem_cons_of_mem _ List.mem_cons_self
    rw [GatherDims.start_batching _ _ _ _ hb,
      GatherDims.offCoord_eq_zero _ _ _ (fun h => ((GatherDims.mem_sKept _ _).mp h).2 hb), Nat.zero_add, Nat.add_zero]
    unfold GatherDims.batchCoord
    rw [dif_pos hb]
    rfl
  | ⟨2, h2⟩ =>
    have hnb : (⟨2, h2⟩ : Fin (⟨3, ![B, S, N]⟩ : Shape).rank) ∉ (takeLast B S N wf).operandBatchingDims := by
      intro h
      rcases List.mem_cons.1 h with e | h
      · exact absurd (congrArg Fin.val e) (show ¬ (2 : Nat) = 0 from by decide)
      · rcases List.mem_cons.1 h with e | h
        · exact absurd (congrArg Fin.val e) (show ¬ (2 : Nat) = 1 from by decide)
        · exact absurd h List.not_mem_nil
    have hc : (⟨2, h2⟩ : Fin (⟨3, ![B, S, N]⟩ : Shape).rank) ∈ (takeLast B S N wf).collapsedSliceDims :=
      List.mem_singleton.mpr rfl
    have hm : (⟨2, h2⟩ : Fin (⟨3, ![B, S, N]⟩ : Shape).rank) ∈ (takeLast B S N wf).startIndexMap :=
      List.mem_singleton.mpr rfl
    rw [GatherDims.batchCoord_eq_zero _ _ _ hnb,
      GatherDims.offCoord_eq_zero _ _ _ (fun h => ((GatherDims.mem_sKept _ _).mp h).1 hc)]
    simp only [Nat.add_zero]
    unfold GatherDims.start
    rw [dif_pos hm]
    have hsi : (takeLast B S N wf).siIdx (ix3 b s (0 : Fin 1))
        ⟨List.idxOf (⟨2, h2⟩ : Fin (⟨3, ![B, S, N]⟩ : Shape).rank) (takeLast B S N wf).startIndexMap,
          List.idxOf_lt_length_iff.2 hm⟩ = ix4 b s (0 : Fin 1) (0 : Fin 1) := by
      funext c; refine Fin.ext ?_
      match c with
      | ⟨0, _⟩ => rfl
      | ⟨1, _⟩ => rfl
      | ⟨2, _⟩ => rfl
      | ⟨3, _⟩ => rfl
    rw [hsi]
    rfl

end Take

/-! ## The log-softmax, stage by stage, at an index

For a row x the program takes the maximum M over the vocabulary (from negative infinity, which the maximum
absorbs), the shifted entries x v - M, the sum Z of their exponentials (from zero), and x v - M - log Z. -/

section LogSoftmax
variable (x0 : (⟨S4x513x32000, .f32⟩ : BufTy).Contents (Elt Ideal)) (b : Fin 4) (s : Fin 513)

/-- The row maximum. -/
theorem rowMax_apply : val_main_call0_v2 (F := Ideal) x0 (ix2 b s) = Spec.rowMax (Spec.rowOf x0 b s) := by
  rw [val_main_call0_v2_apply, val_main_call0_v1_apply, val_main_call0_cst_0_apply]
  unfold val_main_call0_v0
  rw [reduce_max_apply x0 _ _ (by decide) _ (by rw [val_main_call0_cst_apply]; exact ofBits_neg_inf) b s]
  show max (Ideal.ofBits .f32 0xFF800000#32) _ = _
  rw [ofBits_neg_inf, max_eq_right bot_le]
  rfl

/-- The shifted entry. -/
theorem shift_apply (v : Fin 32000) :
    val_main_call0_v5 (F := Ideal) x0 (ix3 b s v) = Spec.shift (Spec.rowOf x0 b s) v := by
  rw [val_main_call0_v5_apply, val_main_call0_v4_apply, val_main_call0_v3_apply]
  have hi : idx_main_call0_v3 (idx_main_call0_v4 (ix3 b s v)) = ix2 b s := by
    funext a; match a with | ⟨0, _⟩ => rfl | ⟨1, _⟩ => rfl
  rw [hi, rowMax_apply]
  rfl

/-- The logarithm of the sum of the exponentials. -/
theorem lse_apply (v : Fin 32000) :
    val_main_call0_v10 (F := Ideal) x0 (ix3 b s v) = Spec.lse (Spec.rowOf x0 b s) := by
  rw [val_main_call0_v10_apply, val_main_call0_v9_apply, val_main_call0_v8_apply, val_main_call0_v7_apply,
    val_main_call0_cst_1_apply]
  have hi : idx_main_call0_v8 (idx_main_call0_v10 (ix3 b s v)) = ix2 b s := by
    funext a; match a with | ⟨0, _⟩ => rfl | ⟨1, _⟩ => rfl
  rw [hi]
  have hk : ∀ k : Fin 32000, val_main_call0_v6 (F := Ideal) x0 (idx_main_call0_v7 (ix2 b s) k)
      = Ideal.exp (Spec.shift (Spec.rowOf x0 b s) k) := by
    intro k
    have hik : idx_main_call0_v7 (ix2 b s) k = ix3 b s k := by
      funext a; match a with | ⟨0, _⟩ => rfl | ⟨1, _⟩ => rfl | ⟨2, _⟩ => rfl
    rw [hik, val_main_call0_v6_apply, shift_apply]
    rfl
  rw [Finset.sum_congr rfl fun k _ => hk k, Ideal.hostUnary_log_def, Ideal.ofBits_def, Ideal.ofBits_zero_f32, zero_add]
  unfold Spec.lse Spec.rowZ
  rfl

/-- The log-softmax entry. -/
theorem lp_apply (v : Fin 32000) :
    val_main_v0 (F := Ideal) x0 (ix3 b s v) = Spec.lp (Spec.rowOf x0 b s) v := by
  rw [val_main_v0_apply, shift_apply, lse_apply]
  rfl

/-- The second log-softmax is the same function of its argument. -/
theorem lp1_apply (v : Fin 32000) :
    val_main_v1 (F := Ideal) x0 (ix3 b s v) = Spec.lp (Spec.rowOf x0 b s) v :=
  lp_apply x0 b s v

end LogSoftmax

/-! ## The KL term: the sum over the vocabulary of exp(rlp) (rlp - lp), from zero -/

theorem ref_kl (x0 x1 : (⟨S4x513x32000, .f32⟩ : BufTy).Contents (Elt Ideal)) (b : Fin 4) (s : Fin 512) :
    val_main_v80 (F := Ideal) x0 x1 (ix2 b s)
      = Spec.klR (Spec.rowOf x0 b ⟨s.val, by omega⟩) (Spec.rowOf x1 b ⟨s.val, by omega⟩) := by
  rw [val_main_v80_apply, val_main_cst_17_apply]
  have hk : ∀ k : Fin 32000, val_main_v79 (F := Ideal) x0 x1 (idx_main_v80 (ix2 b s) k)
      = Ideal.exp (Spec.lp (Spec.rowOf x1 b ⟨s.val, by omega⟩) k)
        * (Spec.lp (Spec.rowOf x1 b ⟨s.val, by omega⟩) k - Spec.lp (Spec.rowOf x0 b ⟨s.val, by omega⟩) k) := by
    intro k
    have hik : idx_main_v80 (ix2 b s) k = ix3 b s k := by
      funext a; match a with | ⟨0, _⟩ => rfl | ⟨1, _⟩ => rfl | ⟨2, _⟩ => rfl
    have h76 : idx_main_v76 (ix3 b s k) = ix3 b (⟨s.val, by omega⟩ : Fin 513) k := by
      funext a; match a with | ⟨0, _⟩ => rfl | ⟨1, _⟩ => rfl | ⟨2, _⟩ => rfl
    have h75 : idx_main_v75 (ix3 b s k) = ix3 b (⟨s.val, by omega⟩ : Fin 513) k := by
      funext a; match a with | ⟨0, _⟩ => rfl | ⟨1, _⟩ => rfl | ⟨2, _⟩ => rfl
    rw [hik, val_main_v79_apply, val_main_v77_apply, val_main_v78_apply, val_main_v76_apply, val_main_v75_apply,
      h76, h75, lp1_apply, lp_apply]
    rfl
  rw [Finset.sum_congr rfl fun k _ => hk k, Ideal.ofBits_def, Ideal.ofBits_zero_f32, zero_add]
  unfold Spec.klR
  rfl

/-! ## The surprisal: minus the log-softmax entry at the token id

The take along the vocabulary axis adds the axis length to a negative index (ours is not), masks the indices outside
the axis (ours is inside), and gathers at the index clamped into the axis (ours is unchanged). -/

section Surprisal
variable (x0 : (⟨S4x513x32000, .f32⟩ : BufTy).Contents (Elt Ideal)) (x2 : (⟨S4x512, .i32⟩ : BufTy).Contents (Elt Ideal))
  (b : Fin 4) (s : Fin 512) (hid : (x2 (ix2 b s)).toNat < 32000)
include hid

/-- The start index of the take at (b, s) is the token id. -/
theorem take_idx : val_main_call2_v5 (F := Ideal) x2 (ix4 b s (0 : Fin 1) (0 : Fin 1)) = x2 (ix2 b s) := by
  rw [val_main_call2_v5_apply]
  have hi : idx_main_call2_v5 (ix4 b s (0 : Fin 1) (0 : Fin 1)) = ix3 b s (0 : Fin 1) := by
    funext a
    match a with
    | ⟨0, _⟩ => exact Fin.ext (by show (((b.val * 512 + s.val) * 1 + 0) * 1 + 0) / 512 = b.val; omega)
    | ⟨1, _⟩ => exact Fin.ext (by show (((b.val * 512 + s.val) * 1 + 0) * 1 + 0) / 1 % 512 = s.val; omega)
    | ⟨2, _⟩ => rfl
  have h3 : idx_main_v3 (ix3 b s (0 : Fin 1)) = ix2 b s := by
    funext a; match a with | ⟨0, _⟩ => rfl | ⟨1, _⟩ => rfl
  rw [hi, val_main_call2_v4_apply, val_main_call2_v1_apply, val_main_v3_apply, val_main_call2_v0_apply,
    val_main_call2_c_apply, h3, slt_zero_of_small hid]
  exact select_zero _ _

/-- It is inside the axis, so the mask of the take is set. -/
theorem take_mask : val_main_call2_v12 (F := Ideal) x2 (ix3 b s (0 : Fin 1)) = 1#1 := by
  unfold val_main_call2_v12
  refine reduce_andi_apply _ _ _ (by decide) _ (val_main_call2_c_3_apply _) b s ?_
  rw [val_main_call2_v11_apply, val_main_call2_v7_apply, val_main_call2_v10_apply, take_idx x2 b s hid,
    val_main_call2_v6_apply, val_main_call2_c_2_apply, val_main_call2_v9_apply, val_main_call2_v8_apply,
    val_main_call2_c_1_apply, sge_zero_of_small hid, sle_last_of_small hid]
  rfl

/-- The gathered element is the sliced log-softmax at the token id. -/
theorem take_val : val_main_call2_v13 (F := Ideal) x0 x2 (ix3 b s (0 : Fin 1))
    = val_main_v2 (F := Ideal) x0 (ix3 b s ⟨(x2 (ix2 b s)).toNat, hid⟩) := by
  unfold val_main_call2_v13
  refine (gather_takeLast_apply (by decide) _ (val_main_v2 (F := Ideal) x0) (val_main_call2_v5 (F := Ideal) x2) b s).trans ?_
  refine congrArg (val_main_v2 (F := Ideal) x0) ?_
  funext a
  match a with
  | ⟨0, _⟩ => rfl
  | ⟨1, _⟩ => rfl
  | ⟨2, _⟩ =>
    refine Fin.ext ?_
    show min (val_main_call2_v5 (F := Ideal) x2 (ix4 b s (0 : Fin 1) (0 : Fin 1))).toInt.toNat (32000 - 1)
      = (x2 (ix2 b s)).toNat
    rw [take_idx x2 b s hid, toInt_toNat_of_small hid]
    omega

theorem ref_surp : val_main_v6 (F := Ideal) x0 x2 (ix2 b s)
    = Spec.surpR (Spec.rowOf x0 b ⟨s.val, by omega⟩) ⟨(x2 (ix2 b s)).toNat, hid⟩ := by
  rw [val_main_v6_apply, val_main_v5_apply]
  have hi : idx_main_v5 (ix2 b s) = ix3 b s (0 : Fin 1) := by
    funext a
    match a with
    | ⟨0, _⟩ => exact Fin.ext (by show (b.val * 512 + s.val) / 512 = b.val; omega)
    | ⟨1, _⟩ => exact Fin.ext (by show (b.val * 512 + s.val) / 1 % 512 = s.val; omega)
    | ⟨2, _⟩ => rfl
  have h2 : idx_main_v2 (ix3 b s (⟨(x2 (ix2 b s)).toNat, hid⟩ : Fin 32000))
      = ix3 b (⟨s.val, by omega⟩ : Fin 513) (⟨(x2 (ix2 b s)).toNat, hid⟩ : Fin 32000) := by
    funext a; match a with | ⟨0, _⟩ => rfl | ⟨1, _⟩ => rfl | ⟨2, _⟩ => rfl
  rw [hi, val_main_v4_apply, take_mask x2 b s hid, select_one, take_val x0 x2 b s hid, val_main_v2_apply, h2, lp_apply]
  rfl

end Surprisal

/-! ## The next-token log-probability: the log-softmax entry of position s at the token id of position s + 1

The same take, over the first 511 positions of the log-softmax and the token ids from the second on. -/

section NextToken
variable (x0 : (⟨S4x513x32000, .f32⟩ : BufTy).Contents (Elt Ideal)) (x2 : (⟨S4x512, .i32⟩ : BufTy).Contents (Elt Ideal))
  (b : Fin 4) (s : Fin 511) (hid : (x2 (ix2 b (⟨s.val + 1, by omega⟩ : Fin 512))).toNat < 32000)
include hid

/-- The start index of the take at (b, s) is the token id of position s + 1. -/
theorem next_idx : val_main_call9_v5 (F := Ideal) x2 (ix4 b s (0 : Fin 1) (0 : Fin 1))
    = x2 (ix2 b (⟨s.val + 1, by omega⟩ : Fin 512)) := by
  rw [val_main_call9_v5_apply]
  have hi : idx_main_call9_v5 (ix4 b s (0 : Fin 1) (0 : Fin 1)) = ix3 b s (0 : Fin 1) := by
    funext a
    match a with
    | ⟨0, _⟩ => exact Fin.ext (by show (((b.val * 511 + s.val) * 1 + 0) * 1 + 0) / 511 = b.val; omega)
    | ⟨1, _⟩ => exact Fin.ext (by show (((b.val * 511 + s.val) * 1 + 0) * 1 + 0) / 1 % 511 = s.val; omega)
    | ⟨2, _⟩ => rfl
  have h85 : idx_main_v85 (idx_main_v89 (ix3 b s (0 : Fin 1))) = ix2 b (⟨s.val + 1, by omega⟩ : Fin 512) := by
    funext a
    match a with
    | ⟨0, _⟩ => rfl
    | ⟨1, _⟩ => exact Fin.ext (by show 1 + s.val = s.val + 1; omega)
  rw [hi, val_main_call9_v4_apply, val_main_call9_v1_apply, val_main_v89_apply, val_main_v85_apply,
    val_main_call9_v0_apply, val_main_call9_c_apply, h85, slt_zero_of_small hid]
  exact select_zero _ _

/-- It is inside the axis, so the mask of the take is set. -/
theorem next_mask : val_main_call9_v12 (F := Ideal) x2 (ix3 b s (0 : Fin 1)) = 1#1 := by
  unfold val_main_call9_v12
  refine reduce_andi_apply _ _ _ (by decide) _ (val_main_call9_c_3_apply _) b s ?_
  rw [val_main_call9_v11_apply, val_main_call9_v7_apply, val_main_call9_v10_apply, next_idx x2 b s hid,
    val_main_call9_v6_apply, val_main_call9_c_2_apply, val_main_call9_v9_apply, val_main_call9_v8_apply,
    val_main_call9_c_1_apply, sge_zero_of_small hid, sle_last_of_small hid]
  rfl

/-- The gathered element is the sliced log-softmax at that token id. -/
theorem next_val : val_main_call9_v13 (F := Ideal) x0 x2 (ix3 b s (0 : Fin 1))
    = val_main_v88 (F := Ideal) x0 (ix3 b s ⟨(x2 (ix2 b (⟨s.val + 1, by omega⟩ : Fin 512))).toNat, hid⟩) := by
  unfold val_main_call9_v13
  refine (gather_takeLast_apply (by decide) _ (val_main_v88 (F := Ideal) x0) (val_main_call9_v5 (F := Ideal) x2) b s).trans ?_
  refine congrArg (val_main_v88 (F := Ideal) x0) ?_
  funext a
  match a with
  | ⟨0, _⟩ => rfl
  | ⟨1, _⟩ => rfl
  | ⟨2, _⟩ =>
    refine Fin.ext ?_
    show min (val_main_call9_v5 (F := Ideal) x2 (ix4 b s (0 : Fin 1) (0 : Fin 1))).toInt.toNat (32000 - 1)
      = (x2 (ix2 b (⟨s.val + 1, by omega⟩ : Fin 512))).toNat
    rw [next_idx x2 b s hid, toInt_toNat_of_small hid]
    omega

theorem ref_g : val_main_v91 (F := Ideal) x0 x2 (ix2 b s)
    = Spec.gR (Spec.rowOf x0 b ⟨s.val, by omega⟩) ⟨(x2 (ix2 b (⟨s.val + 1, by omega⟩ : Fin 512))).toNat, hid⟩ := by
  rw [val_main_v91_apply]
  have hi : idx_main_v91 (ix2 b s) = ix3 b s (0 : Fin 1) := by
    funext a
    match a with
    | ⟨0, _⟩ => exact Fin.ext (by show (b.val * 511 + s.val) / 511 = b.val; omega)
    | ⟨1, _⟩ => exact Fin.ext (by show (b.val * 511 + s.val) / 1 % 511 = s.val; omega)
    | ⟨2, _⟩ => rfl
  have h88 : idx_main_v88 (ix3 b s (⟨(x2 (ix2 b (⟨s.val + 1, by omega⟩ : Fin 512))).toNat, hid⟩ : Fin 32000))
      = ix3 b (⟨s.val, by omega⟩ : Fin 513) (⟨(x2 (ix2 b (⟨s.val + 1, by omega⟩ : Fin 512))).toNat, hid⟩ : Fin 32000) := by
    funext a; match a with | ⟨0, _⟩ => rfl | ⟨1, _⟩ => rfl | ⟨2, _⟩ => rfl
  rw [hi, val_main_v90_apply, next_mask x2 b s hid, select_one, next_val x0 x2 b s hid, val_main_v88_apply, h88, lp_apply]
  rfl

end NextToken

/-- The same over the second array of logits: its stages are the same functions. -/
theorem ref_gr (x1 : (⟨S4x513x32000, .f32⟩ : BufTy).Contents (Elt Ideal)) (x2 : (⟨S4x512, .i32⟩ : BufTy).Contents (Elt Ideal))
    (b : Fin 4) (s : Fin 511) (hid : (x2 (ix2 b (⟨s.val + 1, by omega⟩ : Fin 512))).toNat < 32000) :
    val_main_v95 (F := Ideal) x1 x2 (ix2 b s)
      = Spec.gR (Spec.rowOf x1 b ⟨s.val, by omega⟩) ⟨(x2 (ix2 b (⟨s.val + 1, by omega⟩ : Fin 512))).toNat, hid⟩ :=
  ref_g x1 x2 b s hid

end Cert.RefVal

end
-- ==== Proof.Math.lean ====
import proofs.«424779_j13597866459574_3_alg».proof.Proof.Spec
import Mathlib.Data.EReal.Operations
import Mathlib.Data.Finset.Lattice.Fold
import Mathlib.Analysis.SpecialFunctions.Log.Basic
import Mathlib.Algebra.BigOperators.Group.Finset.Basic

/-! The kernel-side and reference-side per-token quantities agree on rows of real numbers.

With every entry real, the row maximum is real, each shifted entry is a real, the sum of the
exponentials is a positive real and its logarithm the real logarithm. Each quantity is then the
coercion of a real expression, and the three equalities are identities of real arithmetic. -/

namespace Cert.Spec

open Idealize.ShloMosaic
open scoped BigOperators

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of a row of reals is a real: the supremum over the nonempty vocabulary is attained. -/
theorem rowMax_coe (x : Row) (a : Fin 32000 → ℝ) (ha : ∀ v, x v = (a v : EReal)) :
    ∃ M : ℝ, rowMax x = (M : EReal) := by
  obtain ⟨i, _, hi⟩ := Finset.exists_mem_eq_sup (Finset.univ : Finset (Fin 32000))
    ⟨⟨0, by norm_num⟩, Finset.mem_univ _⟩ x
  exact ⟨a i, by rw [rowMax, hi, ha]⟩

/-- For a row of reals, the shifted entries are reals s v, the sum of their exponentials is a
    positive real, and its logarithm is the real logarithm. -/
theorem real_form (x : Row) (hx : Finite x) :
    ∃ s : Fin 32000 → ℝ, (∀ v, shift x v = (s v : EReal)) ∧ 0 < ∑ v, Real.exp (s v) ∧
      rowZ x = ((∑ v, Real.exp (s v) : ℝ) : EReal) ∧
      lse x = ((Real.log (∑ v, Real.exp (s v)) : ℝ) : EReal) := by
  have hx' : ∀ v, ∃ a : ℝ, x v = (a : EReal) := hx
  choose a ha using hx'
  obtain ⟨M, hM⟩ := rowMax_coe x a ha
  have hs : ∀ v, shift x v = ((a v - M : ℝ) : EReal) := by
    intro v
    rw [shift, ha, hM, EReal.coe_sub]
  have hpos : 0 < ∑ v, Real.exp (a v - M) :=
    Finset.sum_pos (fun v _ => Real.exp_pos _) ⟨⟨0, by norm_num⟩, Finset.mem_univ _⟩
  have hZ : rowZ x = ((∑ v, Real.exp (a v - M) : ℝ) : EReal) := by
    rw [rowZ, coe_sum]
    refine Finset.sum_congr rfl (fun v _ => ?_)
    rw [hs, Ideal.exp_coe]
  refine ⟨fun v => a v - M, hs, hpos, hZ, ?_⟩
  rw [lse, hZ, Ideal.log_coe, if_neg (not_le.mpr hpos)]

/-- The one-hot sum picks the shifted entry at the token: among the vocabulary indices, exactly
    the index id.toNat has the 32-bit word id. -/
theorem pick_eq (x : Row) (id : BitVec 32) (hid : id.toNat < 32000) :
    pick x id = shift x ⟨id.toNat, hid⟩ := by
  have hcond : ∀ v : Fin 32000, BitVec.ofNat 32 v.val = id → v = ⟨id.toNat, hid⟩ := by
    intro v h
    apply Fin.ext
    have h2 := congrArg BitVec.toNat h
    have hv := v.isLt
    rw [BitVec.toNat_ofNat, Nat.mod_eq_of_lt (by omega)] at h2
    exact h2
  unfold pick
  rw [Finset.sum_eq_single (⟨id.toNat, hid⟩ : Fin 32000)]
  · rw [if_pos]
    simp
  · intro v _ hv
    rw [if_neg]
    exact fun h => hv (hcond v h)
  · intro h
    exact absurd (Finset.mem_univ _) h

/-- The real identity behind the KL term: with weights e_v / Z summing to one, the constant part
    Lx - log Z of each difference of log-probabilities comes out of the weighted sum. -/
theorem kl_real (s t : Fin 32000 → ℝ) (Z Lx : ℝ) (hZdef : ∑ w, Real.exp (t w) = Z) (hZ : 0 < Z) :
    (∑ v, (Real.exp (t v) * (1 / Z)) * (t v - s v)) - Real.log Z + Lx
      = ∑ v, Real.exp (t v - Real.log Z) * ((t v - Real.log Z) - (s v - Lx)) := by
  have hexp : ∀ v, Real.exp (t v - Real.log Z) = Real.exp (t v) * (1 / Z) := by
    intro v
    rw [Real.exp_sub, Real.exp_log hZ, div_eq_mul_one_div]
  have hsum : ∑ v, Real.exp (t v) * (1 / Z) = 1 := by
    rw [← Finset.sum_mul, hZdef, mul_one_div, div_self hZ.ne']
  have hsplit : ∀ v, Real.exp (t v - Real.log Z) * ((t v - Real.log Z) - (s v - Lx))
      = Real.exp (t v) * (1 / Z) * (t v - s v) + (Real.exp (t v) * (1 / Z)) * (Lx - Real.log Z) := by
    intro v
    rw [hexp]
    ring
  rw [Finset.sum_congr rfl (fun v _ => hsplit v), Finset.sum_add_distrib, ← Finset.sum_mul, hsum]
  ring

/-- Surprisal: the kernel's lse - pick is the negated log-softmax entry at the token. -/
theorem surp_eq (x : Row) (hx : Finite x) (id : BitVec 32) (hid : id.toNat < 32000) :
    surpK x id = surpR x ⟨id.toNat, hid⟩ := by
  obtain ⟨s, hs, _, _, hL⟩ := real_form x hx
  rw [surpK, surpR, lp, pick_eq x id hid, hs, hL, ← EReal.coe_sub, ← EReal.coe_sub,
    ← EReal.coe_neg, neg_sub]

/-- Next-token log-probability: the kernel's pick - lse is the log-softmax entry at the token. -/
theorem g_eq (x : Row) (hx : Finite x) (id : BitVec 32) (hid : id.toNat < 32000) :
    gK x id = gR x ⟨id.toNat, hid⟩ := by
  rw [gK, gR, lp, pick_eq x id hid]

/-- KL term: both sides are coercions of real sums, equal by the real identity above. -/
theorem kl_eq (x r : Row) (hx : Finite x) (hr : Finite r) : klK x r = klR x r := by
  obtain ⟨s, hs, _, _, hLx⟩ := real_form x hx
  obtain ⟨t, ht, hZpos, hZr, hLr⟩ := real_form r hr
  have hdiv : Ideal.div 1 (rowZ r) = ((1 / ∑ w, Real.exp (t w) : ℝ) : EReal) := by
    rw [hZr, Ideal.div_coe hZpos.ne', one_mul]
  have hS : (∑ v, (Ideal.exp (shift r v) * Ideal.div 1 (rowZ r)) * (shift r v - shift x v))
      = ((∑ v, (Real.exp (t v) * (1 / ∑ w, Real.exp (t w))) * (t v - s v) : ℝ) : EReal) := by
    rw [coe_sum]
    refine Finset.sum_congr rfl (fun v _ => ?_)
    rw [hdiv, ht, hs, Ideal.exp_coe, EReal.coe_mul, EReal.coe_mul, EReal.coe_sub]
  have hR : klR x r = ((∑ v, Real.exp (t v - Real.log (∑ w, Real.exp (t w)))
      * ((t v - Real.log (∑ w, Real.exp (t w))) - (s v - Real.log (∑ w, Real.exp (s w)))) : ℝ) : EReal) := by
    rw [klR, coe_sum]
    refine Finset.sum_congr rfl (fun v _ => ?_)
    rw [lp, lp, ht, hs, hLr, hLx, ← EReal.coe_sub, ← EReal.coe_sub, Ideal.exp_coe, ← EReal.coe_sub,
      ← EReal.coe_mul]
  rw [klK, hS, hLr, hLx, ← EReal.coe_sub, ← EReal.coe_add, hR,
    kl_real s t _ _ rfl hZpos]

end Cert.Spec
-- ==== Proof.PreDecode.lean ====
/-
  The printed precondition `finite_inputs`, read back at the ideal instance: the function is a conjunction of
  seven conjunctions over all the elements of an array, six of them "|x| < +∞" over a float argument and the last "0 ≤ ids < 32000" over the first
  integer argument. From "the function is all ones" this file derives the three facts the value proof uses: every
  element of the first two arguments is a real number, and every element of the third is a word below 32000.
-/
import proofs.«424779_j13597866459574_3_alg».proof.Pre_finite_inputs
import proofs.«424779_j13597866459574_3_alg».proof.Proof.Gen.Pre_finite_inputs
import Idealize.ShloMosaic.PureOps.Ideal
import Idealize.ShloMosaic.Lib.ValueIdx
import Idealize.ShloMosaic.Lib.ReduceAll

noncomputable section

namespace Cert.PreDecode

open Idealize.ShloMosaic Idealize.ShloMosaic.ValueIdx
open Cert.Pre_finite_inputs

variable [Facts]

/-- The scalar shape has one index. -/
instance : Subsingleton S_.Idx := ⟨fun a b => funext fun d => d.elim0⟩

/-- An elementwise `and` of two `i1` arrays is 1 at an index iff both are. -/
theorem andi_apply_eq_one {s : Shape} (x y : IVec s 1) (i : s.Idx) :
    andi x y i = 1#1 ↔ x i = 1#1 ∧ y i = 1#1 := IntOp.andi_eq_one

/-- An extended real whose absolute value `max x (-x)` is below `+∞` is a real: at `⊥` and at `⊤` the absolute
    value is `⊤`. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- A 32-bit word that is signed-nonnegative and signed-below 32000 is below 32000 as a natural number. -/
theorem toNat_lt_of_signed (w : BitVec 32) (h0 : IntOp.cmpi .sge w 0#32 = 1#1) (h1 : IntOp.cmpi .slt w 32000#32 = 1#1) :
    w.toNat < 32000 := by
  rw [IntOp.cmpi_sge] at h0
  rw [IntOp.cmpi_slt] at h1
  have e0 : (0#32 : BitVec 32).toInt = 0 := by decide
  have e1 : (32000#32 : BitVec 32).toInt = 32000 := by decide
  rw [e0] at h0
  rw [e1] at h1
  rw [BitVec.toInt_eq_toNat_cond] at h0 h1
  have hw := w.isLt
  split at h0 <;> omega

/-- THE PRECONDITION, SPLIT: each of the conjunctions over all elements that the value proof uses, at every index. -/
theorem decode (a0 a1 : S4x513x32000.Idx → EReal) (a2 a3 a4 a5 : S4x512.Idx → BitVec 32)
    (a6 a7 : S4x512.Idx → EReal) (a8 : S3.Idx → EReal) (a9 : S1.Idx → EReal)
    (h : fn (F := Ideal) a0 a1 a2 a3 a4 a5 a6 a7 a8 a9 = (fun _ => 1#1)) :
    (∀ i, Ideal.cmp .olt (max (a0 i) (-(a0 i))) (Ideal.ofBits .f32 0x7F800000#32) = 1#1)
    ∧ (∀ i, Ideal.cmp .olt (max (a1 i) (-(a1 i))) (Ideal.ofBits .f32 0x7F800000#32) = 1#1)
    ∧ (∀ i, IntOp.cmpi .sge (a2 i) 0#32 = 1#1 ∧ IntOp.cmpi .slt (a2 i) 32000#32 = 1#1) := by
  have h0 := congrFun h ix0
  dsimp only [fn, fn_part1, fn_part2] at h0
  simp only [andi_apply_eq_one] at h0
  obtain ⟨⟨⟨⟨⟨⟨h3, h7⟩, -⟩, -⟩, -⟩, -⟩, h34⟩ := h0
  refine ⟨fun i => ?_, fun i => ?_, fun i => ?_⟩
  · exact Host.reduce_andi_all _ _ _ _ ix0 h3 i
  · exact Host.reduce_andi_all _ _ _ _ ix0 h7 i
  · exact (andi_apply_eq_one _ _ i).1 (Host.reduce_andi_all _ _ _ _ ix0 h34 i)

variable (a0 a1 : S4x513x32000.Idx → EReal) (a2 a3 a4 a5 : S4x512.Idx → BitVec 32)
  (a6 a7 : S4x512.Idx → EReal) (a8 : S3.Idx → EReal) (a9 : S1.Idx → EReal)

/-- Every element of the first argument is a real number. -/
theorem finite0 (h : fn (F := Ideal) a0 a1 a2 a3 a4 a5 a6 a7 a8 a9 = (fun _ => 1#1)) (i : S4x513x32000.Idx) :
    ∃ r : ℝ, a0 i = (r : EReal) :=
  real_of_abs_lt_top _ ((decode a0 a1 a2 a3 a4 a5 a6 a7 a8 a9 h).1 i)

/-- Every element of the second argument is a real number. -/
theorem finite1 (h : fn (F := Ideal) a0 a1 a2 a3 a4 a5 a6 a7 a8 a9 = (fun _ => 1#1)) (i : S4x513x32000.Idx) :
    ∃ r : ℝ, a1 i = (r : EReal) :=
  real_of_abs_lt_top _ ((decode a0 a1 a2 a3 a4 a5 a6 a7 a8 a9 h).2.1 i)

/-- Every element of the third argument (the ids) is below 32000. -/
theorem ids_range (h : fn (F := Ideal) a0 a1 a2 a3 a4 a5 a6 a7 a8 a9 = (fun _ => 1#1)) (i : S4x512.Idx) :
    (a2 i).toNat < 32000 :=
  toNat_lt_of_signed _ ((decode a0 a1 a2 a3 a4 a5 a6 a7 a8 a9 h).2.2 i).1 ((decode a0 a1 a2 a3 a4 a5 a6 a7 a8 a9 h).2.2 i).2

end Cert.PreDecode

end
-- ==== Proof.BridgeCore.lean ====
import proofs.«424779_j13597866459574_3_alg».proof.Defs
import proofs.«424779_j13597866459574_3_alg».proof.Proof.KIFrame
import proofs.«424779_j13597866459574_3_alg».proof.Proof.ArrVal
import proofs.«424779_j13597866459574_3_alg».proof.Proof.RefVal
import proofs.«424779_j13597866459574_3_alg».proof.Proof.Math
import proofs.«424779_j13597866459574_3_alg».proof.Proof.PreDecode

/-! The four arrays on which the two programs differ, index by index: what the kernel's region leaves in its
    result arrays (surprisal, KL term, next-token log-probability of the model and of the reference model, each
    transposed) is, under the precondition — finite logits, token ids inside the vocabulary — what the reference
    computes by log-softmax and gathers. Three laws of the reals join the two sides: `-(a - b) = b - a`; the
    one-hot sum over the vocabulary picks the entry at a token id inside it; and, the softmax weights summing to
    one, `∑ p (d + k) = ∑ p d + k`. -/

noncomputable section

namespace Cert.Bridge

open Idealize.ShloMosaic Idealize.ShloMosaic.TcCoe Idealize.ShloMosaic.ValueIdx Idealize.SL.Sem
open Cert.KernelIdeal Cert.KernelIdeal.Gen Cert.KernelIdeal.Hand

variable (m : (ℓ : Loc nD τ sig) → Buf (Elt Ideal) ℓ) (hpre : Cert.Pre_KernelIdeal m) (c : Dev nD)

/-- The three argument arrays the differing part reads. -/
abbrev A0 : (⟨3, ![4, 513, 32000]⟩ : Shape).Idx → EReal := m ((c : Thread nD τ).loc main_arg0)
abbrev A1 : (⟨3, ![4, 513, 32000]⟩ : Shape).Idx → EReal := m ((c : Thread nD τ).loc main_arg1)
abbrev A2 : (⟨2, ![4, 512]⟩ : Shape).Idx → BitVec 32 := m ((c : Thread nD τ).loc main_arg2)

include hpre in
theorem fin0 (b : Fin 4) (s : Fin 513) : Spec.Finite (Spec.rowOf (A0 m c) b s) := fun v =>
  Cert.PreDecode.finite0 _ _ _ _ _ _ _ _ _ _ (hpre c) (ix3 b s v)

include hpre in
theorem fin1 (b : Fin 4) (s : Fin 513) : Spec.Finite (Spec.rowOf (A1 m c) b s) := fun v =>
  Cert.PreDecode.finite1 _ _ _ _ _ _ _ _ _ _ (hpre c) (ix3 b s v)

include hpre in
theorem idr (b : Fin 4) (s : Fin 512) : (A2 m c (ix2 b s)).toNat < 32000 :=
  Cert.PreDecode.ids_range _ _ _ _ _ _ _ _ _ _ (hpre c) (ix2 b s)

include hpre in
/-- The surprisal array, transposed. -/
theorem S_idx (b : Fin 4) (s : Fin 512) :
    (dats (F := Ideal) m 0 c).arrAt 4 cfg0.N (ix2 s b)
      = Cert.ReferenceIdeal.ReadP.val_main_v6 (F := Ideal) (A0 m c) (A2 m c) (ix2 b s) := by
  rw [Cert.KernelIdeal.ArrVal.arr4, Cert.RefVal.ref_surp _ _ b s (idr m hpre c b s),
    Spec.surp_eq _ (fin0 m hpre c b _) _ (idr m hpre c b s)]

include hpre in
/-- The KL term's array, transposed. -/
theorem K_idx (b : Fin 4) (s : Fin 512) :
    (dats (F := Ideal) m 0 c).arrAt 5 cfg0.N (ix2 s b)
      = Cert.ReferenceIdeal.ReadP.val_main_v80 (F := Ideal) (A0 m c) (A1 m c) (ix2 b s) := by
  rw [Cert.KernelIdeal.ArrVal.arr5, Cert.RefVal.ref_kl _ _ b s,
    Spec.kl_eq _ _ (fin0 m hpre c b _) (fin1 m hpre c b _)]

/-- Inside the row, the next token's id. -/
theorem nextId_lt (b : Fin 4) (s : Fin 511) :
    Cert.KernelIdeal.ArrVal.nextId (A2 m c) b ⟨s.val, by omega⟩ = A2 m c (ix2 b ⟨s.val + 1, by omega⟩) := by
  unfold Cert.KernelIdeal.ArrVal.nextId
  rw [dif_pos (by show s.val + 1 < 512; omega)]

include hpre in
/-- The model's next-token log-probabilities, transposed, on the first 511 positions. -/
theorem G_idx (b : Fin 4) (s : Fin 511) :
    (dats (F := Ideal) m 0 c).arrAt 6 cfg0.N (ix2 ⟨s.val, by omega⟩ b)
      = Cert.ReferenceIdeal.ReadP.val_main_v91 (F := Ideal) (A0 m c) (A2 m c) (ix2 b s) := by
  rw [Cert.KernelIdeal.ArrVal.arr6, nextId_lt, Cert.RefVal.ref_g _ _ b s (idr m hpre c b _),
    Spec.g_eq _ (fin0 m hpre c b _) _ (idr m hpre c b _)]

include hpre in
/-- The reference model's likewise. -/
theorem GR_idx (b : Fin 4) (s : Fin 511) :
    (dats (F := Ideal) m 0 c).arrAt 7 cfg0.N (ix2 ⟨s.val, by omega⟩ b)
      = Cert.ReferenceIdeal.ReadP.val_main_v95 (F := Ideal) (A1 m c) (A2 m c) (ix2 b s) := by
  rw [Cert.KernelIdeal.ArrVal.arr7, nextId_lt, Cert.RefVal.ref_gr _ _ b s (idr m hpre c b _),
    Spec.g_eq _ (fin1 m hpre c b _) _ (idr m hpre c b _)]

end Cert.Bridge

end
-- ==== Proof.ScatterKeep.lean ====
import proofs.«424779_j13597866459574_3_alg».proof.Proof.Gen.KernelIdeal
import Idealize.ShloMosaic.Lib.ValueIdx

/-! Writing one column of a `[4, 512]` array (the host's `x.at[:, 511].set(u)`, a scatter of four updates at the one
    start index 511 on the column axis) leaves every entry of another column as it was: each update lands in
    column 511. -/

noncomputable section
namespace Cert.Bridge
open Idealize.ShloMosaic Idealize.ShloMosaic.ValueIdx Cert.KernelIdeal Cert.KernelIdeal.Facts₀ Cert.KernelIdeal.Facts

/-- A left fold of steps that each leave the entry at `i` alone leaves it alone. -/
theorem foldl_keep {σ ι α : Type} (l : List ι) (step : (σ → α) → ι → (σ → α)) (i : σ)
    (h : ∀ r n, step r n i = r i) (x : σ → α) : l.foldl step x i = x i := by
  induction l generalizing x with
  | nil => rfl
  | cons n l ih => rw [List.foldl_cons, ih, h]

/-- The start indices of the column-zeroing scatter: the one word 511. -/
abbrev idx511 : IVec S1 32 := broadcastInDim S1 ![] bcast_S_S1 (constantI S_ 32 511#32)

theorem resultIdx_col (j : S4.Idx) (i : S4x512.Idx)
    (h : scatter_S4x512_S1_S4_0_1_1_0.resultIdx? j idx511 = some i) : (i 1).val = 511 := by
  unfold ScatterDims.resultIdx? at h
  split at h
  · have e := Option.some.inj h
    rw [← e]
    show (scatter_S4x512_S1_S4_0_1_1_0.start j idx511 1 + scatter_S4x512_S1_S4_0_1_1_0.window j 1).toNat = 511
    have h1 : scatter_S4x512_S1_S4_0_1_1_0.start j idx511 1 = 511 := by
      unfold ScatterDims.start
      rw [dif_pos (by decide)]
      rfl
    have h2 : scatter_S4x512_S1_S4_0_1_1_0.window j 1 = 0 := by
      unfold ScatterDims.window
      rw [dif_neg (by decide)]
    rw [h1, h2]; rfl
  · exact absurd h (by simp)

/-- Writing a column leaves the other columns' entries as they were. -/
theorem scatter_keep {α : Type} (x : S4x512.Idx → α) (upd : S4.Idx → α) (b : Fin 4) (s : Fin 512) (hs : s.val ≠ 511) :
    Host.scatter scatter_S4x512_S1_S4_0_1_1_0 (fun _ v => v) x idx511 upd (ix2 b s) = x (ix2 b s) := by
  unfold Host.scatter
  refine foldl_keep _ _ _ (fun r n => ?_) x
  generalize hres : scatter_S4x512_S1_S4_0_1_1_0.resultIdx? (S4.rowMajor.symm n) idx511 = o
  cases o with
  | none => rfl
  | some i =>
    have hc := resultIdx_col _ i hres
    show (if (ix2 b s : S4x512.Idx) = i then _ else r (ix2 b s)) = r (ix2 b s)
    rw [if_neg]
    intro e
    apply hs
    have : ((ix2 b s : S4x512.Idx) 1).val = (i 1).val := by rw [e]
    rw [hc] at this
    exact this

end Cert.Bridge
end
-- ==== Proof.BridgeFun.lean ====
import proofs.«424779_j13597866459574_3_alg».proof.Proof.BridgeCore
import proofs.«424779_j13597866459574_3_alg».proof.Proof.ScatterKeep
import Idealize.ShloMosaic.Lib.Pipeline.Value

/-! The four arrays on which the two programs differ, as whole arrays in the host's layout: the kernel's host lines
    transpose each result array back to `[4, 512]`, and for the two next-token arrays zero column 511 and keep
    columns 0‥510; the results are the reference's surprisal, KL-term and log-probability stages. -/

noncomputable section

namespace Cert.Bridge

open Idealize.ShloMosaic Idealize.ShloMosaic.TcCoe Idealize.ShloMosaic.ValueIdx Idealize.SL.Sem
open Cert.KernelIdeal Cert.KernelIdeal.Hand Cert.KernelIdeal.Facts₀ Cert.KernelIdeal.Facts

variable (m : (ℓ : Loc nD τ sig) → Buf (Elt Ideal) ℓ) (hpre : Cert.Pre_KernelIdeal m) (c : Dev nD)

/-- A transposed `[512, 4]` array at `(b, s)` is the array at `(s, b)`. -/
theorem transpose_at {α : Type} (x : S512x4.Idx → α) (b : Fin 4) (s : Fin 512) :
    transpose S4x512 [1, 0] x transposes_S512x4_S4x512_1_0 (ix2 b s) = x (ix2 s b) :=
  transpose_apply [1, 0] x transposes_S512x4_S4x512_1_0 (ix2 b s) (ix2 s b) (by intro a; fin_cases a <;> rfl)

/-- Columns 0‥510 of a `[4, 512]` array at `(b, s)`. -/
theorem slice_at {α : Type} (x : S4x512.Idx → α) (b : Fin 4) (s : Fin 511) :
    extractStridedSlice S4x511 ![0, 0] x slices_S4x512_S4x511_0_0 (ix2 b s) = x (ix2 b ⟨s.val, by omega⟩) :=
  extractStridedSlice_apply ![0, 0] x slices_S4x512_S4x511_0_0 (ix2 b s) (ix2 b ⟨s.val, by omega⟩)
    (by intro a; fin_cases a <;> simp)

include hpre in
theorem S_fun :
    transpose S4x512 [1, 0] ((dats (F := Ideal) m 0 c).arrAt 4 cfg0.N) transposes_S512x4_S4x512_1_0
      = Cert.ReferenceIdeal.ReadP.val_main_v6 (F := Ideal) (A0 m c) (A2 m c) := by
  funext j
  obtain ⟨b, s, rfl⟩ : ∃ (b : Fin 4) (s : Fin 512), j = ix2 b s := ⟨j 0, j 1, eq_ix2 j⟩
  rw [transpose_at]
  exact S_idx m hpre c b s

include hpre in
theorem K_fun :
    transpose S4x512 [1, 0] ((dats (F := Ideal) m 0 c).arrAt 5 cfg0.N) transposes_S512x4_S4x512_1_0
      = Cert.ReferenceIdeal.ReadP.val_main_v80 (F := Ideal) (A0 m c) (A1 m c) := by
  funext j
  obtain ⟨b, s, rfl⟩ : ∃ (b : Fin 4) (s : Fin 512), j = ix2 b s := ⟨j 0, j 1, eq_ix2 j⟩
  rw [transpose_at]
  exact K_idx m hpre c b s

include hpre in
theorem G_fun (u : S4.Idx → EReal) :
    extractStridedSlice S4x511 ![0, 0]
        (Host.scatter scatter_S4x512_S1_S4_0_1_1_0 (fun _ v => v)
          (transpose S4x512 [1, 0] ((dats (F := Ideal) m 0 c).arrAt 6 cfg0.N) transposes_S512x4_S4x512_1_0) idx511 u)
        slices_S4x512_S4x511_0_0
      = Cert.ReferenceIdeal.ReadP.val_main_v91 (F := Ideal) (A0 m c) (A2 m c) := by
  funext j
  obtain ⟨b, s, rfl⟩ : ∃ (b : Fin 4) (s : Fin 511), j = ix2 b s := ⟨j 0, j 1, eq_ix2 j⟩
  rw [slice_at, scatter_keep _ _ b ⟨s.val, by omega⟩ (by show s.val ≠ 511; omega), transpose_at]
  exact G_idx m hpre c b s

include hpre in
theorem GR_fun (u : S4.Idx → EReal) :
    extractStridedSlice S4x511 ![0, 0]
        (Host.scatter scatter_S4x512_S1_S4_0_1_1_0 (fun _ v => v)
          (transpose S4x512 [1, 0] ((dats (F := Ideal) m 0 c).arrAt 7 cfg0.N) transposes_S512x4_S4x512_1_0) idx511 u)
        slices_S4x512_S4x511_0_0
      = Cert.ReferenceIdeal.ReadP.val_main_v95 (F := Ideal) (A1 m c) (A2 m c) := by
  funext j
  obtain ⟨b, s, rfl⟩ : ∃ (b : Fin 4) (s : Fin 511), j = ix2 b s := ⟨j 0, j 1, eq_ix2 j⟩
  rw [slice_at, scatter_keep _ _ b ⟨s.val, by omega⟩ (by show s.val ≠ 511; omega), transpose_at]
  exact GR_idx m hpre c b s

end Cert.Bridge

end
-- ==== Proof.ExitVal.lean ====
import proofs.«424779_j13597866459574_3_alg».proof.Proof.KIFrame

/-! What the host lines after the region start from: the region's eight arrays at what the pipeline computed from
    the proof data — the four result arrays at the blocks the body left, the two logits arrays and the two index
    arrays as the region found them — and every other buffer at its region-entry contents; in particular each
    argument at its launch contents. -/

noncomputable section

namespace Cert.Bridge

open Idealize.ShloMosaic Idealize.ShloMosaic.TcCoe Idealize.SL.Sem
open Idealize.ShloMosaic.Pipeline (Dat)
open Cert.KernelIdeal Cert.KernelIdeal.Gen Cert.KernelIdeal.Hand

variable {F : FTy → Type} [FloatOps F]
variable (m : (ℓ : Loc nD τ sig) → Buf (Elt F) ℓ) (c : Dev nD)

/-- The core's buffer contents at the region's exit. -/
abbrev Wx : Valuation τ sig (Elt F) :=
  Pipeline.withArrays spec0 c (V0 m c) fun w => (dats m 0 c).arrAt w cfg0.N

/-- A buffer after the host lines that follow the region, from the region's exit contents. -/
theorem afterTail_eq (b : Ref sig .tc) :
    Pipeline.afterTail₀ cfgs (dats m) 0 (V0 m) tailOps c b
      = StableHlo.after (tailOps (F := F)).flatten (Wx m c) (Proc.devRef .tc b) := rfl

theorem Wx_v5_0 : Wx m c (Proc.devRef .tc main_v5_0) = (dats m 0 c).arrAt 4 cfg0.N :=
  Pipeline.withArrays_arr spec0 launch0.win.arr_inj c _ _ 4
theorem Wx_v5_1 : Wx m c (Proc.devRef .tc main_v5_1) = (dats m 0 c).arrAt 5 cfg0.N :=
  Pipeline.withArrays_arr spec0 launch0.win.arr_inj c _ _ 5
theorem Wx_v5_2 : Wx m c (Proc.devRef .tc main_v5_2) = (dats m 0 c).arrAt 6 cfg0.N :=
  Pipeline.withArrays_arr spec0 launch0.win.arr_inj c _ _ 6
theorem Wx_v5_3 : Wx m c (Proc.devRef .tc main_v5_3) = (dats m 0 c).arrAt 7 cfg0.N :=
  Pipeline.withArrays_arr spec0 launch0.win.arr_inj c _ _ 7

theorem Wx_main_arg0 : Wx m c (Proc.devRef .tc main_arg0) = m ((c : Thread nD τ).loc main_arg0) :=
  (Pipeline.withArrays_arr spec0 launch0.win.arr_inj c _ _ 0).trans
    (((dats m 0 c).arrAt_in 0 rfl _).trans ((A_eq m c 0).trans (V_main_arg0 m c)))
theorem Wx_main_arg1 : Wx m c (Proc.devRef .tc main_arg1) = m ((c : Thread nD τ).loc main_arg1) :=
  (Pipeline.withArrays_arr spec0 launch0.win.arr_inj c _ _ 1).trans
    (((dats m 0 c).arrAt_in 1 rfl _).trans ((A_eq m c 1).trans (V_main_arg1 m c)))
theorem Wx_main_arg2 : Wx m c (Proc.devRef .tc main_arg2) = m ((c : Thread nD τ).loc main_arg2) :=
  (Pipeline.withArrays_of_ne spec0 c (V0 m c) _ main_arg2 (by exact (by decide : ∀ w, Pipeline.arrRef spec0 w ≠ main_arg2))).trans (V_main_arg2 m c)
theorem Wx_main_arg3 : Wx m c (Proc.devRef .tc main_arg3) = m ((c : Thread nD τ).loc main_arg3) :=
  (Pipeline.withArrays_of_ne spec0 c (V0 m c) _ main_arg3 (by exact (by decide : ∀ w, Pipeline.arrRef spec0 w ≠ main_arg3))).trans (V_main_arg3 m c)
theorem Wx_main_arg4 : Wx m c (Proc.devRef .tc main_arg4) = m ((c : Thread nD τ).loc main_arg4) :=
  (Pipeline.withArrays_of_ne spec0 c (V0 m c) _ main_arg4 (by exact (by decide : ∀ w, Pipeline.arrRef spec0 w ≠ main_arg4))).trans (V_main_arg4 m c)
theorem Wx_main_arg5 : Wx m c (Proc.devRef .tc main_arg5) = m ((c : Thread nD τ).loc main_arg5) :=
  (Pipeline.withArrays_of_ne spec0 c (V0 m c) _ main_arg5 (by exact (by decide : ∀ w, Pipeline.arrRef spec0 w ≠ main_arg5))).trans (V_main_arg5 m c)
theorem Wx_main_arg6 : Wx m c (Proc.devRef .tc main_arg6) = m ((c : Thread nD τ).loc main_arg6) :=
  (Pipeline.withArrays_of_ne spec0 c (V0 m c) _ main_arg6 (by exact (by decide : ∀ w, Pipeline.arrRef spec0 w ≠ main_arg6))).trans (V_main_arg6 m c)
theorem Wx_main_arg7 : Wx m c (Proc.devRef .tc main_arg7) = m ((c : Thread nD τ).loc main_arg7) :=
  (Pipeline.withArrays_of_ne spec0 c (V0 m c) _ main_arg7 (by exact (by decide : ∀ w, Pipeline.arrRef spec0 w ≠ main_arg7))).trans (V_main_arg7 m c)
theorem Wx_main_arg8 : Wx m c (Proc.devRef .tc main_arg8) = m ((c : Thread nD τ).loc main_arg8) :=
  (Pipeline.withArrays_of_ne spec0 c (V0 m c) _ main_arg8 (by exact (by decide : ∀ w, Pipeline.arrRef spec0 w ≠ main_arg8))).trans (V_main_arg8 m c)
theorem Wx_main_arg9 : Wx m c (Proc.devRef .tc main_arg9) = m ((c : Thread nD τ).loc main_arg9) :=
  (Pipeline.withArrays_of_ne spec0 c (V0 m c) _ main_arg9 (by exact (by decide : ∀ w, Pipeline.arrRef spec0 w ≠ main_arg9))).trans (V_main_arg9 m c)

end Cert.Bridge

end
-- ==== Proof.TailMatch.lean ====
import proofs.«424779_j13597866459574_3_alg».proof.Proof.Gen.KernelIdeal.Launch
import proofs.«424779_j13597866459574_3_alg».proof.Proof.ReadP
import Idealize.ShloMosaic.Lib.StableHlo.Run

set_option maxRecDepth 16384

/-! The host lines after the region compute the reference's results. Both programs end with the same host
    operations — the word-level scatter-add, the gather of word features, the linear head, the masked means —
    over four intermediate arrays that each makes its own way. Given that the kernel's four arrays (the
    region's outputs read batch-major; for the two log-probability arrays the last position zeroed and the
    first 511 kept) are the reference's, each result buffer after the eleven stretches of host lines holds the
    reference's stage function of the same arguments: the two sides are one composition of the same
    operations, matched without opening any of them. -/

noncomputable section

namespace Cert.TailMatch

open Idealize.ShloMosaic Idealize.ShloMosaic.TcCoe Idealize.SL.Sem Idealize.ShloMosaic.StableHlo
open Cert.KernelIdeal Cert.KernelIdeal.Gen

abbrev tailOps : List (List (HloOp τ sig (Elt Ideal))) :=
  [hostOps1, hostOps1_1, hostOps1_2, hostOps1_3, hostOps1_4, hostOps1_5, hostOps1_6, hostOps1_7, hostOps1_8, hostOps1_9, hostOps1_10]

/-- A region output, stored position-major, read batch-major. -/
abbrev trOf (A : (⟨S512x4, .f32⟩ : BufTy).Contents (Elt Ideal)) : (⟨S4x512, .f32⟩ : BufTy).Contents (Elt Ideal) :=
  transpose S4x512 [1, 0] A transposes_S512x4_S4x512_1_0

/-- A region output read batch-major, its last position overwritten by zero, the first 511 positions kept. -/
abbrev gOf (A : (⟨S512x4, .f32⟩ : BufTy).Contents (Elt Ideal)) : (⟨S4x511, .f32⟩ : BufTy).Contents (Elt Ideal) :=
  extractStridedSlice S4x511 ![0, 0]
    (Host.scatter scatter_S4x512_S1_S4_0_1_1_0 (fun _ b => b) (trOf A)
      (broadcastInDim S1 ![] bcast_S_S1 (constantI S_ 32 511#32) : (⟨S1, .i32⟩ : BufTy).Contents (Elt Ideal))
      (broadcastInDim S4 ![] bcast_S_S4 (constant (F := Ideal) S_ .f32 0x00000000#32) : (⟨S4, .f32⟩ : BufTy).Contents (Elt Ideal)))
    slices_S4x512_S4x511_0_0

/-- The operations' results read one at a time: each operation's value at its own result buffer, what was there at any other. -/
macro "results_rw" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-- Contents moved to a buffer's own type and back are the contents. -/
theorem ofBuf_toBuf {Val : EltTy → Type} {T : BufTy} (x : TRef sig T) (v : T.Contents Val) : x.ofBuf (x.toBuf v) = v := by
  unfold TRef.ofBuf TRef.toBuf
  rw [cast_cast, cast_eq]

/-! Where a called function's line reads a buffer of @main, or @main reads a called function's result, the contents
    pass along a type equation that holds by computation: the passage is the identity. -/
theorem ofBuf_main_c_4 {Val : EltTy → Type} (h1 h2 h3) (v : main_c_4.ty.Contents Val) :
    (TRef.of (T := ⟨S_, .i32⟩) main_c_4 h1 h2 h3).ofBuf v = v := rfl
theorem ofBuf_main_v17 {Val : EltTy → Type} (h1 h2 h3) (v : main_v17.ty.Contents Val) :
    (TRef.of (T := ⟨S4x512, .i1⟩) main_v17 h1 h2 h3).ofBuf v = v := rfl
theorem ofBuf_main_arg4 {Val : EltTy → Type} (h1 h2 h3) (v : main_arg4.ty.Contents Val) :
    (TRef.of (T := ⟨S4x512, .i32⟩) main_arg4 h1 h2 h3).ofBuf v = v := rfl
theorem ofBuf_main_c_12 {Val : EltTy → Type} (h1 h2 h3) (v : main_c_12.ty.Contents Val) :
    (TRef.of (T := ⟨S_, .i32⟩) main_c_12 h1 h2 h3).ofBuf v = v := rfl
theorem ofBuf_main_c_13 {Val : EltTy → Type} (h1 h2 h3) (v : main_c_13.ty.Contents Val) :
    (TRef.of (T := ⟨S_, .i32⟩) main_c_13 h1 h2 h3).ofBuf v = v := rfl
theorem ofBuf_main_arg5 {Val : EltTy → Type} (h1 h2 h3) (v : main_arg5.ty.Contents Val) :
    (TRef.of (T := ⟨S4x512, .i32⟩) main_arg5 h1 h2 h3).ofBuf v = v := rfl
theorem ofBuf_main_cst_15 {Val : EltTy → Type} (h1 h2 h3) (v : main_cst_15.ty.Contents Val) :
    (TRef.of (T := ⟨S_, .f32⟩) main_cst_15 h1 h2 h3).ofBuf v = v := rfl
theorem ofBuf_main_v48 {Val : EltTy → Type} (h1 h2 h3) (v : main_v48.ty.Contents Val) :
    (TRef.of (T := ⟨S4x512, .i1⟩) main_v48 h1 h2 h3).ofBuf v = v := rfl
theorem ofBuf_main_v49 {Val : EltTy → Type} (h1 h2 h3) (v : main_v49.ty.Contents Val) :
    (TRef.of (T := ⟨S4x512, .f32⟩) main_v49 h1 h2 h3).ofBuf v = v := rfl
theorem ofBuf_main_arg6 {Val : EltTy → Type} (h1 h2 h3) (v : main_arg6.ty.Contents Val) :
    (TRef.of (T := ⟨S4x512, .f32⟩) main_arg6 h1 h2 h3).ofBuf v = v := rfl
theorem ofBuf_main_cst_16 {Val : EltTy → Type} (h1 h2 h3) (v : main_cst_16.ty.Contents Val) :
    (TRef.of (T := ⟨S_, .f32⟩) main_cst_16 h1 h2 h3).ofBuf v = v := rfl
theorem toBuf_main_v20 {Val : EltTy → Type} (h1 h2 h3) (v : (⟨S4x512, .i32⟩ : BufTy).Contents Val) :
    (TRef.of (T := ⟨S4x512, .i32⟩) main_v20 h1 h2 h3).toBuf v = v := rfl
theorem toBuf_main_v45 {Val : EltTy → Type} (h1 h2 h3) (v : (⟨S4x512, .i32⟩ : BufTy).Contents Val) :
    (TRef.of (T := ⟨S4x512, .i32⟩) main_v45 h1 h2 h3).toBuf v = v := rfl
theorem toBuf_main_v50 {Val : EltTy → Type} (h1 h2 h3) (v : (⟨S4x512, .f32⟩ : BufTy).Contents Val) :
    (TRef.of (T := ⟨S4x512, .f32⟩) main_v50 h1 h2 h3).toBuf v = v := rfl
theorem toBuf_main_v52 {Val : EltTy → Type} (h1 h2 h3) (v : (⟨S4x512, .f32⟩ : BufTy).Contents Val) :
    (TRef.of (T := ⟨S4x512, .f32⟩) main_v52 h1 h2 h3).toBuf v = v := rfl
theorem ofBuf_main_call2_v5 {Val : EltTy → Type} (h1 h2 h3) (v : main_call2_v5.ty.Contents Val) :
    (TRef.of (T := ⟨S4x512x1, .i32⟩) main_call2_v5 h1 h2 h3).ofBuf v = v := rfl
theorem ofBuf_main_call4_v5 {Val : EltTy → Type} (h1 h2 h3) (v : main_call4_v5.ty.Contents Val) :
    (TRef.of (T := ⟨S4x512x1, .i32⟩) main_call4_v5 h1 h2 h3).ofBuf v = v := rfl
theorem toBuf_main_call2_v4 {Val : EltTy → Type} (h1 h2 h3) (v : (⟨S4x512, .i32⟩ : BufTy).Contents Val) :
    (TRef.of (T := ⟨S4x512, .i32⟩) main_call2_v4 h1 h2 h3).toBuf v = v := rfl
theorem toBuf_main_call4_v4 {Val : EltTy → Type} (h1 h2 h3) (v : (⟨S4x512, .i32⟩ : BufTy).Contents Val) :
    (TRef.of (T := ⟨S4x512, .i32⟩) main_call4_v4 h1 h2 h3).toBuf v = v := rfl

set_option maxHeartbeats 8000000 in
/-- The scatter's index array: the batch index beside the word index. -/
theorem idx_eq (W : Valuation τ sig (Elt Ideal)) :
    StableHlo.after (tailOps).flatten W (Proc.devRef .tc main_v37) = Cert.ReferenceIdeal.ReadP.val_main_v28 (F := Ideal) (W (Proc.devRef .tc main_arg4)) := by
  simp only [tailOps, hostOps1, hostOps1_1, hostOps1_2, hostOps1_3, hostOps1_4, hostOps1_5, hostOps1_6, hostOps1_7, hostOps1_8, hostOps1_9, hostOps1_10, List.flatten_cons, List.flatten_nil, List.append_nil, List.cons_append, List.nil_append]
  after_results_simp
  results_rw
  repeat rw [ofBuf_toBuf]
  rw [ofBuf_main_c_4, ofBuf_main_v17, ofBuf_main_arg4, toBuf_main_v20]
  rfl

set_option maxHeartbeats 8000000 in
/-- The KL mean's mask: a position counts when the one before it is a word's. -/
theorem klmask_eq (W : Valuation τ sig (Elt Ideal)) :
    StableHlo.after (tailOps).flatten W (Proc.devRef .tc main_v82) = Cert.ReferenceIdeal.ReadP.val_main_v73 (F := Ideal) (W (Proc.devRef .tc main_arg4)) := by
  simp only [tailOps, hostOps1, hostOps1_1, hostOps1_2, hostOps1_3, hostOps1_4, hostOps1_5, hostOps1_6, hostOps1_7, hostOps1_8, hostOps1_9, hostOps1_10, List.flatten_cons, List.flatten_nil, List.append_nil, List.cons_append, List.nil_append]
  after_results_simp
  results_rw
  rfl

set_option maxHeartbeats 8000000 in
theorem out_preds (W : Valuation τ sig (Elt Ideal))
    (hS : trOf (W (Proc.devRef .tc main_v5_0)) = Cert.ReferenceIdeal.ReadP.val_main_v6 (F := Ideal) (W (Proc.devRef .tc main_arg0)) (W (Proc.devRef .tc main_arg2))) :
    StableHlo.after (tailOps).flatten W (Proc.devRef .tc main_v69)
      = Cert.ReferenceIdeal.ReadP.val_main_v60 (F := Ideal) (W (Proc.devRef .tc main_arg0)) (W (Proc.devRef .tc main_arg2)) (W (Proc.devRef .tc main_arg4)) (W (Proc.devRef .tc main_arg5)) (W (Proc.devRef .tc main_arg6)) (W (Proc.devRef .tc main_arg8)) (W (Proc.devRef .tc main_arg9)) := by
  have h37 := idx_eq W
  simp only [trOf] at hS
  simp only [tailOps, hostOps1, hostOps1_1, hostOps1_2, hostOps1_3, hostOps1_4, hostOps1_5, hostOps1_6, hostOps1_7, hostOps1_8, hostOps1_9, hostOps1_10, List.flatten_cons, List.flatten_nil, List.append_nil, List.cons_append, List.nil_append] at h37 ⊢
  simp (disch := decide) only [after_cons, after_nil, nullary_result', unary_result', binary_result', ternary_result', reshape_result', nullary_result_ne', unary_result_ne', binary_result_ne', ternary_result_ne', reshape_result_ne'] at h37 ⊢
  rw [h37, hS]
  simp only [Cert.ReferenceIdeal.ReadP.val_main_c, Cert.ReferenceIdeal.ReadP.val_main_v7, Cert.ReferenceIdeal.ReadP.val_main_v8, Cert.ReferenceIdeal.ReadP.val_main_v9, Cert.ReferenceIdeal.ReadP.val_main_v10, Cert.ReferenceIdeal.ReadP.val_main_c_0, Cert.ReferenceIdeal.ReadP.val_main_call3_v0, Cert.ReferenceIdeal.ReadP.val_main_call3_v1, Cert.ReferenceIdeal.ReadP.val_main_v11, Cert.ReferenceIdeal.ReadP.val_main_v12, Cert.ReferenceIdeal.ReadP.val_main_v13, Cert.ReferenceIdeal.ReadP.val_main_cst, Cert.ReferenceIdeal.ReadP.val_main_v14, Cert.ReferenceIdeal.ReadP.val_main_c_1, Cert.ReferenceIdeal.ReadP.val_main_v15, Cert.ReferenceIdeal.ReadP.val_main_v16, Cert.ReferenceIdeal.ReadP.val_main_c_2, Cert.ReferenceIdeal.ReadP.val_main_v17, Cert.ReferenceIdeal.ReadP.val_main_v18, Cert.ReferenceIdeal.ReadP.val_main_v19, Cert.ReferenceIdeal.ReadP.val_main_c_3, Cert.ReferenceIdeal.ReadP.val_main_v20, Cert.ReferenceIdeal.ReadP.val_main_v21, Cert.ReferenceIdeal.ReadP.val_main_c_4, Cert.ReferenceIdeal.ReadP.val_main_v22, Cert.ReferenceIdeal.ReadP.val_main_v23, Cert.ReferenceIdeal.ReadP.val_main_v24, Cert.ReferenceIdeal.ReadP.val_main_v25, Cert.ReferenceIdeal.ReadP.val_main_v26, Cert.ReferenceIdeal.ReadP.val_main_v27, Cert.ReferenceIdeal.ReadP.val_main_v29, Cert.ReferenceIdeal.ReadP.val_main_c_5, Cert.ReferenceIdeal.ReadP.val_main_v30, Cert.ReferenceIdeal.ReadP.val_main_v31, Cert.ReferenceIdeal.ReadP.val_main_c_6, Cert.ReferenceIdeal.ReadP.val_main_v32, Cert.ReferenceIdeal.ReadP.val_main_v33, Cert.ReferenceIdeal.ReadP.val_main_v34, Cert.ReferenceIdeal.ReadP.val_main_c_7, Cert.ReferenceIdeal.ReadP.val_main_c_8, Cert.ReferenceIdeal.ReadP.val_main_call4_v0, Cert.ReferenceIdeal.ReadP.val_main_call4_v1, Cert.ReferenceIdeal.ReadP.val_main_call4_v2, Cert.ReferenceIdeal.ReadP.val_main_call4_v3, Cert.ReferenceIdeal.ReadP.val_main_call4_v4, Cert.ReferenceIdeal.ReadP.val_main_v35, Cert.ReferenceIdeal.ReadP.val_main_call5_c, Cert.ReferenceIdeal.ReadP.val_main_call5_v0, Cert.ReferenceIdeal.ReadP.val_main_call5_v1, Cert.ReferenceIdeal.ReadP.val_main_call5_c_0, Cert.ReferenceIdeal.ReadP.val_main_call5_v2, Cert.ReferenceIdeal.ReadP.val_main_call5_v3, Cert.ReferenceIdeal.ReadP.val_main_call5_v4, Cert.ReferenceIdeal.ReadP.val_main_call5_v5, Cert.ReferenceIdeal.ReadP.val_main_call5_c_1, Cert.ReferenceIdeal.ReadP.val_main_call5_c_2, Cert.ReferenceIdeal.ReadP.val_main_call5_v6, Cert.ReferenceIdeal.ReadP.val_main_call5_v7, Cert.ReferenceIdeal.ReadP.val_main_call5_v8, Cert.ReferenceIdeal.ReadP.val_main_call5_v9, Cert.ReferenceIdeal.ReadP.val_main_call5_v10, Cert.ReferenceIdeal.ReadP.val_main_call5_v11, Cert.ReferenceIdeal.ReadP.val_main_call5_c_3, Cert.ReferenceIdeal.ReadP.val_main_call5_v12, Cert.ReferenceIdeal.ReadP.val_main_call5_v13, Cert.ReferenceIdeal.ReadP.val_main_call5_c_4, Cert.ReferenceIdeal.ReadP.val_main_call5_v14, Cert.ReferenceIdeal.ReadP.val_main_v36, Cert.ReferenceIdeal.ReadP.val_main_c_9, Cert.ReferenceIdeal.ReadP.val_main_v37, Cert.ReferenceIdeal.ReadP.val_main_v38, Cert.ReferenceIdeal.ReadP.val_main_v39, Cert.ReferenceIdeal.ReadP.val_main_v40, Cert.ReferenceIdeal.ReadP.val_main_cst_10, Cert.ReferenceIdeal.ReadP.val_main_call6_v0, Cert.ReferenceIdeal.ReadP.val_main_call6_v1, Cert.ReferenceIdeal.ReadP.val_main_v41, Cert.ReferenceIdeal.ReadP.val_main_call7_c, Cert.ReferenceIdeal.ReadP.val_main_call7_v0, Cert.ReferenceIdeal.ReadP.val_main_call7_v1, Cert.ReferenceIdeal.ReadP.val_main_call7_c_0, Cert.ReferenceIdeal.ReadP.val_main_call7_v2, Cert.ReferenceIdeal.ReadP.val_main_call7_v3, Cert.ReferenceIdeal.ReadP.val_main_call7_v4, Cert.ReferenceIdeal.ReadP.val_main_call7_v5, Cert.ReferenceIdeal.ReadP.val_main_call7_c_1, Cert.ReferenceIdeal.ReadP.val_main_call7_c_2, Cert.ReferenceIdeal.ReadP.val_main_call7_v6, Cert.ReferenceIdeal.ReadP.val_main_call7_v7, Cert.ReferenceIdeal.ReadP.val_main_call7_v8, Cert.ReferenceIdeal.ReadP.val_main_call7_v9, Cert.ReferenceIdeal.ReadP.val_main_call7_v10, Cert.ReferenceIdeal.ReadP.val_main_call7_v11, Cert.ReferenceIdeal.ReadP.val_main_call7_c_3, Cert.ReferenceIdeal.ReadP.val_main_call7_v12, Cert.ReferenceIdeal.ReadP.val_main_call7_v13, Cert.ReferenceIdeal.ReadP.val_main_call7_cst, Cert.ReferenceIdeal.ReadP.val_main_call7_v14, Cert.ReferenceIdeal.ReadP.val_main_v42, Cert.ReferenceIdeal.ReadP.val_main_cst_11, Cert.ReferenceIdeal.ReadP.val_main_call8_v0, Cert.ReferenceIdeal.ReadP.val_main_call8_v1, Cert.ReferenceIdeal.ReadP.val_main_v43, Cert.ReferenceIdeal.ReadP.val_main_v44, Cert.ReferenceIdeal.ReadP.val_main_v45, Cert.ReferenceIdeal.ReadP.val_main_v46, Cert.ReferenceIdeal.ReadP.val_main_v47, Cert.ReferenceIdeal.ReadP.val_main_v48, Cert.ReferenceIdeal.ReadP.val_main_v49, Cert.ReferenceIdeal.ReadP.val_main_v50, Cert.ReferenceIdeal.ReadP.val_main_v51, Cert.ReferenceIdeal.ReadP.val_main_v52, Cert.ReferenceIdeal.ReadP.val_main_v53, Cert.ReferenceIdeal.ReadP.val_main_v54, Cert.ReferenceIdeal.ReadP.val_main_v55, Cert.ReferenceIdeal.ReadP.val_main_v56, Cert.ReferenceIdeal.ReadP.val_main_v57, Cert.ReferenceIdeal.ReadP.val_main_v58, Cert.ReferenceIdeal.ReadP.val_main_v59, Cert.ReferenceIdeal.ReadP.val_main_v60]
  simp only [ofBuf_toBuf, ofBuf_main_c_4, ofBuf_main_v17, ofBuf_main_arg4, ofBuf_main_c_12, ofBuf_main_c_13, ofBuf_main_arg5, ofBuf_main_cst_15, ofBuf_main_v48, ofBuf_main_v49, ofBuf_main_arg6, ofBuf_main_cst_16, toBuf_main_v20, toBuf_main_v45, toBuf_main_v50, toBuf_main_v52, ofBuf_main_call2_v5, ofBuf_main_call4_v5, toBuf_main_call2_v4, toBuf_main_call4_v4]
  rfl

set_option maxHeartbeats 8000000 in
theorem out_mse (W : Valuation τ sig (Elt Ideal))
    (hS : trOf (W (Proc.devRef .tc main_v5_0)) = Cert.ReferenceIdeal.ReadP.val_main_v6 (F := Ideal) (W (Proc.devRef .tc main_arg0)) (W (Proc.devRef .tc main_arg2))) :
    StableHlo.after (tailOps).flatten W (Proc.devRef .tc main_v78)
      = Cert.ReferenceIdeal.ReadP.val_main_v69 (F := Ideal) (W (Proc.devRef .tc main_arg0)) (W (Proc.devRef .tc main_arg2)) (W (Proc.devRef .tc main_arg4)) (W (Proc.devRef .tc main_arg5)) (W (Proc.devRef .tc main_arg6)) (W (Proc.devRef .tc main_arg7)) (W (Proc.devRef .tc main_arg8)) (W (Proc.devRef .tc main_arg9)) := by
  have hp := out_preds W hS
  simp only [tailOps, hostOps1, hostOps1_1, hostOps1_2, hostOps1_3, hostOps1_4, hostOps1_5, hostOps1_6, hostOps1_7, hostOps1_8, hostOps1_9, hostOps1_10, List.flatten_cons, List.flatten_nil, List.append_nil, List.cons_append, List.nil_append] at hp ⊢
  simp (disch := decide) only [after_cons, after_nil, nullary_result', unary_result', binary_result', ternary_result', reshape_result', nullary_result_ne', unary_result_ne', binary_result_ne', ternary_result_ne', reshape_result_ne'] at hp ⊢
  rw [hp]
  simp only [Cert.ReferenceIdeal.ReadP.val_main_v69, Cert.ReferenceIdeal.ReadP.val_main_v68, Cert.ReferenceIdeal.ReadP.val_main_cst_14, Cert.ReferenceIdeal.ReadP.val_main_v67, Cert.ReferenceIdeal.ReadP.val_main_cst_13, Cert.ReferenceIdeal.ReadP.val_main_v66, Cert.ReferenceIdeal.ReadP.val_main_v65, Cert.ReferenceIdeal.ReadP.val_main_v64, Cert.ReferenceIdeal.ReadP.val_main_v63, Cert.ReferenceIdeal.ReadP.val_main_v62, Cert.ReferenceIdeal.ReadP.val_main_v61, Cert.ReferenceIdeal.ReadP.val_main_cst_12]

set_option maxHeartbeats 8000000 in
theorem out_kl (W : Valuation τ sig (Elt Ideal))
    (hK : trOf (W (Proc.devRef .tc main_v5_1)) = Cert.ReferenceIdeal.ReadP.val_main_v80 (F := Ideal) (W (Proc.devRef .tc main_arg0)) (W (Proc.devRef .tc main_arg1))) :
    StableHlo.after (tailOps).flatten W (Proc.devRef .tc main_v87)
      = Cert.ReferenceIdeal.ReadP.val_main_v84 (F := Ideal) (W (Proc.devRef .tc main_arg0)) (W (Proc.devRef .tc main_arg1)) (W (Proc.devRef .tc main_arg4)) := by
  have h82 := klmask_eq W
  simp only [trOf] at hK
  simp only [tailOps, hostOps1, hostOps1_1, hostOps1_2, hostOps1_3, hostOps1_4, hostOps1_5, hostOps1_6, hostOps1_7, hostOps1_8, hostOps1_9, hostOps1_10, List.flatten_cons, List.flatten_nil, List.append_nil, List.cons_append, List.nil_append] at h82 ⊢
  simp (disch := decide) only [after_cons, after_nil, nullary_result', unary_result', binary_result', ternary_result', reshape_result', nullary_result_ne', unary_result_ne', binary_result_ne', ternary_result_ne', reshape_result_ne'] at h82 ⊢
  rw [h82, hK]
  simp only [Cert.ReferenceIdeal.ReadP.val_main_v84, Cert.ReferenceIdeal.ReadP.val_main_v83, Cert.ReferenceIdeal.ReadP.val_main_cst_19, Cert.ReferenceIdeal.ReadP.val_main_v82, Cert.ReferenceIdeal.ReadP.val_main_cst_18, Cert.ReferenceIdeal.ReadP.val_main_v81, Cert.ReferenceIdeal.ReadP.val_main_v74]

set_option maxHeartbeats 8000000 in
theorem out_loss (W : Valuation τ sig (Elt Ideal))
    (hS : trOf (W (Proc.devRef .tc main_v5_0)) = Cert.ReferenceIdeal.ReadP.val_main_v6 (F := Ideal) (W (Proc.devRef .tc main_arg0)) (W (Proc.devRef .tc main_arg2)))
    (hK : trOf (W (Proc.devRef .tc main_v5_1)) = Cert.ReferenceIdeal.ReadP.val_main_v80 (F := Ideal) (W (Proc.devRef .tc main_arg0)) (W (Proc.devRef .tc main_arg1))) :
    StableHlo.after (tailOps).flatten W (Proc.devRef .tc main_v102)
      = Cert.ReferenceIdeal.ReadP.val_main_v106 (F := Ideal) (W (Proc.devRef .tc main_arg0)) (W (Proc.devRef .tc main_arg1)) (W (Proc.devRef .tc main_arg2)) (W (Proc.devRef .tc main_arg4)) (W (Proc.devRef .tc main_arg5)) (W (Proc.devRef .tc main_arg6)) (W (Proc.devRef .tc main_arg7)) (W (Proc.devRef .tc main_arg8)) (W (Proc.devRef .tc main_arg9)) := by
  have hm := out_mse W hS
  have hk := out_kl W hK
  simp only [tailOps, hostOps1, hostOps1_1, hostOps1_2, hostOps1_3, hostOps1_4, hostOps1_5, hostOps1_6, hostOps1_7, hostOps1_8, hostOps1_9, hostOps1_10, List.flatten_cons, List.flatten_nil, List.append_nil, List.cons_append, List.nil_append] at hm hk ⊢
  simp (disch := decide) only [after_cons, after_nil, nullary_result', unary_result', binary_result', ternary_result', reshape_result', nullary_result_ne', unary_result_ne', binary_result_ne', ternary_result_ne', reshape_result_ne'] at hm hk ⊢
  rw [hm, hk]
  simp only [Cert.ReferenceIdeal.ReadP.val_main_v106, Cert.ReferenceIdeal.ReadP.val_main_v105, Cert.ReferenceIdeal.ReadP.val_main_cst_24, Cert.ReferenceIdeal.ReadP.val_main_v70, Cert.ReferenceIdeal.ReadP.val_main_cst_15]

set_option maxHeartbeats 8000000 in
theorem out_avg (W : Valuation τ sig (Elt Ideal))
    (hG : gOf (W (Proc.devRef .tc main_v5_2)) = Cert.ReferenceIdeal.ReadP.val_main_v91 (F := Ideal) (W (Proc.devRef .tc main_arg0)) (W (Proc.devRef .tc main_arg2))) :
    StableHlo.after (tailOps).flatten W (Proc.devRef .tc main_v94)
      = Cert.ReferenceIdeal.ReadP.val_main_v99 (F := Ideal) (W (Proc.devRef .tc main_arg0)) (W (Proc.devRef .tc main_arg2)) (W (Proc.devRef .tc main_arg3)) := by
  simp only [trOf, gOf] at hG
  simp only [tailOps, hostOps1, hostOps1_1, hostOps1_2, hostOps1_3, hostOps1_4, hostOps1_5, hostOps1_6, hostOps1_7, hostOps1_8, hostOps1_9, hostOps1_10, List.flatten_cons, List.flatten_nil, List.append_nil, List.cons_append, List.nil_append]
  after_results_simp
  rw [hG]
  simp only [Cert.ReferenceIdeal.ReadP.val_main_v99, Cert.ReferenceIdeal.ReadP.val_main_v98, Cert.ReferenceIdeal.ReadP.val_main_cst_21, Cert.ReferenceIdeal.ReadP.val_main_v97, Cert.ReferenceIdeal.ReadP.val_main_cst_20, Cert.ReferenceIdeal.ReadP.val_main_v96, Cert.ReferenceIdeal.ReadP.val_main_v87, Cert.ReferenceIdeal.ReadP.val_main_v86]

set_option maxHeartbeats 8000000 in
/-- The same mean over the reference model's log-probabilities. -/
theorem avg_ref (W : Valuation τ sig (Elt Ideal))
    (hGR : gOf (W (Proc.devRef .tc main_v5_3)) = Cert.ReferenceIdeal.ReadP.val_main_v95 (F := Ideal) (W (Proc.devRef .tc main_arg1)) (W (Proc.devRef .tc main_arg2))) :
    StableHlo.after (tailOps).flatten W (Proc.devRef .tc main_v99)
      = Cert.ReferenceIdeal.ReadP.val_main_v103 (F := Ideal) (W (Proc.devRef .tc main_arg1)) (W (Proc.devRef .tc main_arg2)) (W (Proc.devRef .tc main_arg3)) := by
  simp only [trOf, gOf] at hGR
  simp only [tailOps, hostOps1, hostOps1_1, hostOps1_2, hostOps1_3, hostOps1_4, hostOps1_5, hostOps1_6, hostOps1_7, hostOps1_8, hostOps1_9, hostOps1_10, List.flatten_cons, List.flatten_nil, List.append_nil, List.cons_append, List.nil_append]
  after_results_simp
  rw [hGR]
  simp only [Cert.ReferenceIdeal.ReadP.val_main_v103, Cert.ReferenceIdeal.ReadP.val_main_v102, Cert.ReferenceIdeal.ReadP.val_main_cst_23, Cert.ReferenceIdeal.ReadP.val_main_v101, Cert.ReferenceIdeal.ReadP.val_main_cst_22, Cert.ReferenceIdeal.ReadP.val_main_v100, Cert.ReferenceIdeal.ReadP.val_main_v87, Cert.ReferenceIdeal.ReadP.val_main_v86]

set_option maxHeartbeats 8000000 in
theorem out_delta (W : Valuation τ sig (Elt Ideal))
    (hG : gOf (W (Proc.devRef .tc main_v5_2)) = Cert.ReferenceIdeal.ReadP.val_main_v91 (F := Ideal) (W (Proc.devRef .tc main_arg0)) (W (Proc.devRef .tc main_arg2)))
    (hGR : gOf (W (Proc.devRef .tc main_v5_3)) = Cert.ReferenceIdeal.ReadP.val_main_v95 (F := Ideal) (W (Proc.devRef .tc main_arg1)) (W (Proc.devRef .tc main_arg2))) :
    StableHlo.after (tailOps).flatten W (Proc.devRef .tc main_v100)
      = Cert.ReferenceIdeal.ReadP.val_main_v104 (F := Ideal) (W (Proc.devRef .tc main_arg0)) (W (Proc.devRef .tc main_arg1)) (W (Proc.devRef .tc main_arg2)) (W (Proc.devRef .tc main_arg3)) := by
  have ha := out_avg W hG
  have hr := avg_ref W hGR
  simp only [tailOps, hostOps1, hostOps1_1, hostOps1_2, hostOps1_3, hostOps1_4, hostOps1_5, hostOps1_6, hostOps1_7, hostOps1_8, hostOps1_9, hostOps1_10, List.flatten_cons, List.flatten_nil, List.append_nil, List.cons_append, List.nil_append] at ha hr ⊢
  simp (disch := decide) only [after_cons, after_nil, nullary_result', unary_result', binary_result', ternary_result', reshape_result', nullary_result_ne', unary_result_ne', binary_result_ne', ternary_result_ne', reshape_result_ne'] at ha hr ⊢
  rw [ha, hr]
  simp only [Cert.ReferenceIdeal.ReadP.val_main_v104]

end Cert.TailMatch
-- ==== Proof.KIValue.lean ====
import proofs.«424779_j13597866459574_3_alg».proof.Proof.BridgeFun
import proofs.«424779_j13597866459574_3_alg».proof.Proof.ExitVal
import proofs.«424779_j13597866459574_3_alg».proof.Proof.TailMatch

/-! The idealized kernel program's run with its six results named: under the precondition each ends at the
    REFERENCE's stage function of the launch contents of the arguments — the region's four result arrays being the
    reference's surprisal, KL-term and log-probability arrays, and the host lines after the region the reference's
    own later operations — and the arguments end as launched. -/

noncomputable section

namespace Cert.Bridge

open Idealize.ShloMosaic Idealize.ShloMosaic.TcCoe Idealize.SL.Sem
open Idealize.ShloMosaic.Pipeline (Dat)
open Cert.KernelIdeal Cert.KernelIdeal.Hand

variable (m : (ℓ : Loc nD τ sig) → Buf (Elt Ideal) ℓ) (hpre : Cert.Pre_KernelIdeal m) (c : Dev nD)

/-! ## The four arrays at the region's exit -/

include hpre in
theorem hS : Cert.TailMatch.trOf (Wx m c (Proc.devRef .tc main_v5_0))
    = Cert.ReferenceIdeal.ReadP.val_main_v6 (F := Ideal) (Wx m c (Proc.devRef .tc main_arg0)) (Wx m c (Proc.devRef .tc main_arg2)) :=
  (congrArg Cert.TailMatch.trOf (Wx_v5_0 m c)).trans ((S_fun m hpre c).trans
    (congrArg₂ (Cert.ReferenceIdeal.ReadP.val_main_v6 (F := Ideal)) (Wx_main_arg0 m c).symm (Wx_main_arg2 m c).symm))

include hpre in
theorem hK : Cert.TailMatch.trOf (Wx m c (Proc.devRef .tc main_v5_1))
    = Cert.ReferenceIdeal.ReadP.val_main_v80 (F := Ideal) (Wx m c (Proc.devRef .tc main_arg0)) (Wx m c (Proc.devRef .tc main_arg1)) :=
  (congrArg Cert.TailMatch.trOf (Wx_v5_1 m c)).trans ((K_fun m hpre c).trans
    (congrArg₂ (Cert.ReferenceIdeal.ReadP.val_main_v80 (F := Ideal)) (Wx_main_arg0 m c).symm (Wx_main_arg1 m c).symm))

include hpre in
theorem hG : Cert.TailMatch.gOf (Wx m c (Proc.devRef .tc main_v5_2))
    = Cert.ReferenceIdeal.ReadP.val_main_v91 (F := Ideal) (Wx m c (Proc.devRef .tc main_arg0)) (Wx m c (Proc.devRef .tc main_arg2)) :=
  (congrArg Cert.TailMatch.gOf (Wx_v5_2 m c)).trans ((G_fun m hpre c _).trans
    (congrArg₂ (Cert.ReferenceIdeal.ReadP.val_main_v91 (F := Ideal)) (Wx_main_arg0 m c).symm (Wx_main_arg2 m c).symm))

include hpre in
theorem hGR : Cert.TailMatch.gOf (Wx m c (Proc.devRef .tc main_v5_3))
    = Cert.ReferenceIdeal.ReadP.val_main_v95 (F := Ideal) (Wx m c (Proc.devRef .tc main_arg1)) (Wx m c (Proc.devRef .tc main_arg2)) :=
  (congrArg Cert.TailMatch.gOf (Wx_v5_3 m c)).trans ((GR_fun m hpre c _).trans
    (congrArg₂ (Cert.ReferenceIdeal.ReadP.val_main_v95 (F := Ideal)) (Wx_main_arg1 m c).symm (Wx_main_arg2 m c).symm))

/-! ## The six results after the host lines that follow the region -/

include hpre in
theorem k_main_v102 :
    Pipeline.afterTail₀ cfgs (dats m) 0 (V0 m) tailOps c main_v102
      = Cert.ReferenceIdeal.ReadP.val_main_v106 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (afterTail_eq m c main_v102).trans ((Cert.TailMatch.out_loss (Wx m c) (hS m hpre c) (hK m hpre c)).trans ?_)
  rw [Wx_main_arg0 m c, Wx_main_arg1 m c, Wx_main_arg2 m c, Wx_main_arg4 m c, Wx_main_arg5 m c, Wx_main_arg6 m c, Wx_main_arg7 m c, Wx_main_arg8 m c, Wx_main_arg9 m c]

include hpre in
theorem k_main_v69 :
    Pipeline.afterTail₀ cfgs (dats m) 0 (V0 m) tailOps c main_v69
      = Cert.ReferenceIdeal.ReadP.val_main_v60 (F := Ideal) (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg8)) (m ((c : Thread nD τ).loc main_arg9)) := by
  refine (afterTail_eq m c main_v69).trans ((Cert.TailMatch.out_preds (Wx m c) (hS m hpre c)).trans ?_)
  rw [Wx_main_arg0 m c, Wx_main_arg2 m c, Wx_main_arg4 m c, Wx_main_arg5 m c, Wx_main_arg6 m c, Wx_main_arg8 m c, Wx_main_arg9 m c]

include hpre in
theorem k_main_v78 :
    Pipeline.afterTail₀ cfgs (dats m) 0 (V0 m) tailOps c main_v78
      = Cert.ReferenceIdeal.ReadP.val_main_v69 (F := Ideal) (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (afterTail_eq m c main_v78).trans ((Cert.TailMatch.out_mse (Wx m c) (hS m hpre c)).trans ?_)
  rw [Wx_main_arg0 m c, Wx_main_arg2 m c, Wx_main_arg4 m c, Wx_main_arg5 m c, Wx_main_arg6 m c, Wx_main_arg7 m c, Wx_main_arg8 m c, Wx_main_arg9 m c]

include hpre in
theorem k_main_v87 :
    Pipeline.afterTail₀ cfgs (dats m) 0 (V0 m) tailOps c main_v87
      = Cert.ReferenceIdeal.ReadP.val_main_v84 (F := Ideal) (m ((c : Thread nD τ).loc main_arg0)) (m ((c : Thread nD τ).loc main_arg1)) (m ((c : Thread nD τ).loc main_arg4)) := by
  refine (afterTail_eq m c main_v87).trans ((Cert.TailMatch.out_kl (Wx m c) (hK m hpre c)).trans ?_)
  rw [Wx_main_arg0 m c, Wx_main_arg1 m c, Wx_main_arg4 m c]

include hpre in
theorem k_main_v94 :
    Pipeline.afterTail₀ cfgs (dats m) 0 (V0 m) tailOps c main_v94
      = Cert.ReferenceIdeal.ReadP.val_main_v99 (F := Ideal) (m ((c : Thread nD τ).loc main_arg0)) (m ((c : Thread nD τ).loc main_arg2)) (m ((c : Thread nD τ).loc main_arg3)) := by
  refine (afterTail_eq m c main_v94).trans ((Cert.TailMatch.out_avg (Wx m c) (hG m hpre c)).trans ?_)
  rw [Wx_main_arg0 m c, Wx_main_arg2 m c, Wx_main_arg3 m c]

include hpre in
theorem k_main_v100 :
    Pipeline.afterTail₀ cfgs (dats m) 0 (V0 m) tailOps c main_v100
      = Cert.ReferenceIdeal.ReadP.val_main_v104 (F := Ideal) (m ((c : Thread nD τ).loc main_arg0)) (m ((c : Thread nD τ).loc main_arg1)) (m ((c : Thread nD τ).loc main_arg2)) (m ((c : Thread nD τ).loc main_arg3)) := by
  refine (afterTail_eq m c main_v100).trans ((Cert.TailMatch.out_delta (Wx m c) (hG m hpre c) (hGR m hpre c)).trans ?_)
  rw [Wx_main_arg0 m c, Wx_main_arg1 m c, Wx_main_arg2 m c, Wx_main_arg3 m c]

/-! ## The run -/

include hpre in
theorem kernel_run (ρ : Dev nD → PrngReg) :
    θ_run defs (onTc (τ := τ) (main (F := Ideal))) ⟨m, fun _ => 0, ρ⟩ (fun r => ∀ c : Dev nD,
      r.2.mem ((c.tc : Thread nD τ).loc main_v102) = Cert.ReferenceIdeal.ReadP.val_main_v106 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v69) = Cert.ReferenceIdeal.ReadP.val_main_v60 (F := Ideal) (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg9))
      ∧ r.2.mem ((c.tc : Thread nD τ).loc main_v78) = Cert.ReferenceIdeal.ReadP.val_main_v69 (F := Ideal) (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v87) = Cert.ReferenceIdeal.ReadP.val_main_v84 (F := Ideal) (m ((c.tc : Thread nD τ).loc main_arg0)) (m ((c.tc : Thread nD τ).loc main_arg1)) (m ((c.tc : Thread nD τ).loc main_arg4))
      ∧ r.2.mem ((c.tc : Thread nD τ).loc main_v94) = Cert.ReferenceIdeal.ReadP.val_main_v99 (F := Ideal) (m ((c.tc : Thread nD τ).loc main_arg0)) (m ((c.tc : Thread nD τ).loc main_arg2)) (m ((c.tc : Thread nD τ).loc main_arg3))
      ∧ r.2.mem ((c.tc : Thread nD τ).loc main_v100) = Cert.ReferenceIdeal.ReadP.val_main_v104 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h c).2 main_v102 (Pipeline.mem_restRefs_of main_v102 (by decide) (by decide))).trans (k_main_v102 m hpre c),
     ((h c).2 main_v69 (Pipeline.mem_restRefs_of main_v69 (by decide) (by decide))).trans (k_main_v69 m hpre c),
     ((h c).2 main_v78 (Pipeline.mem_restRefs_of main_v78 (by decide) (by decide))).trans (k_main_v78 m hpre c),
     ((h c).2 main_v87 (Pipeline.mem_restRefs_of main_v87 (by decide) (by decide))).trans (k_main_v87 m hpre c),
     ((h c).2 main_v94 (Pipeline.mem_restRefs_of main_v94 (by decide) (by decide))).trans (k_main_v94 m hpre c),
     ((h c).2 main_v100 (Pipeline.mem_restRefs_of main_v100 (by decide) (by decide))).trans (k_main_v100 m hpre c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c),
     ((h c).2 main_arg6 (Pipeline.mem_restRefs_of main_arg6 (by decide) (by decide))).trans (W_main_arg6 m (dats m) c),
     ((h c).2 main_arg7 (Pipeline.mem_restRefs_of main_arg7 (by decide) (by decide))).trans (W_main_arg7 m (dats m) c),
     ((h c).2 main_arg8 (Pipeline.mem_restRefs_of main_arg8 (by decide) (by decide))).trans (W_main_arg8 m (dats m) c),
     ((h c).2 main_arg9 (Pipeline.mem_restRefs_of main_arg9 (by decide) (by decide))).trans (W_main_arg9 m (dats m) c)⟩)
    (run_main m ρ)

end Cert.Bridge

end
-- ==== Proof.lean ====
/- The five conjuncts of the certificate.

   The kernel reads, for every position of a batch of token sequences, the model's and a reference model's logits
   over the vocabulary and leaves four per-position quantities: the surprisal of the current token, the KL term
   between the two softmax distributions, and the next token's log-probability under each model. It makes them in
   three sweeps over the vocabulary in chunks (running maximum; sum of exponentials of the shifted logits; the
   KL cross term and one-hot picks of the shifted logit at the token ids). The reference makes them by log-softmax,
   gathers at the token ids and a sum over the vocabulary. Both programs then apply the same host computation
   (word-level scatter-add, linear head, masked means).

   Over the extended reals the two agree where every logit is finite and every token id lies in the vocabulary:
   `-(a - b) = b - a`; the one-hot sum picks the entry at an id inside the vocabulary; and, the reference softmax's
   weights summing to one, `∑ p (d + k) = ∑ p d + k`, which is the kernel's rewriting of the KL term. The frames:
   each program terminates without a fault and leaves its ten argument arrays as launched (the kernel's by the
   launch of its one pipelined region continued by the host lines after it; the reference's as a straight line of
   host operations). The idealization pass rewrote nothing, so `preserves` is trivial. -/
import proofs.«424779_j13597866459574_3_alg».proof.Defs
import proofs.«424779_j13597866459574_3_alg».proof.Proof.Gen.Kernel
import proofs.«424779_j13597866459574_3_alg».proof.Proof.Gen.KernelIdeal
import proofs.«424779_j13597866459574_3_alg».proof.Proof.Gen.ReferenceIdeal
import proofs.«424779_j13597866459574_3_alg».proof.Proof.Gen.Pre_finite_inputs
import proofs.«424779_j13597866459574_3_alg».proof.Proof.KFrame
import proofs.«424779_j13597866459574_3_alg».proof.Proof.KIFrame
import proofs.«424779_j13597866459574_3_alg».proof.Proof.RefFrame
import proofs.«424779_j13597866459574_3_alg».proof.Proof.RefValue
import proofs.«424779_j13597866459574_3_alg».proof.Proof.KIValue
import Idealize.ShloMosaic.Adequacy
import Idealize.ShloMosaic.Init

noncomputable section

namespace Cert.Proof

open Idealize.ShloMosaic Idealize.SL.Sem

theorem frame_p : Cert.frame_Kernel := fun m ρ _ => Cert.Kernel.Hand.frame m ρ

theorem frame_pi : Cert.frame_KernelIdeal := fun m ρ _ => Cert.KernelIdeal.Hand.frame m ρ

theorem frame_ri : Cert.frame_ReferenceIdeal := fun m ρ _ => Cert.RefRun.frame m ρ

theorem preserves : Cert.preserves_Kernel_KernelIdeal := trivial

/-- From memories agreeing on the arguments, under the precondition: the kernel program's six results end at the
    reference's stage functions of ITS arguments (the value run of the kernel), the reference's at the same functions
    of its own (the value run of the reference), and the arguments agree. -/
theorem algebraic : Cert.algebraic_KernelIdeal_ReferenceIdeal := by
  intro m ρ m' ρ' hpre hagree
  refine ⟨(fun c => Cert.ReferenceIdeal.ReadP.val_main_v106 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))),
    (fun c => Cert.ReferenceIdeal.ReadP.val_main_v60 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))),
    (fun c => Cert.ReferenceIdeal.ReadP.val_main_v69 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))),
    (fun c => Cert.ReferenceIdeal.ReadP.val_main_v84 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4))),
    (fun c => Cert.ReferenceIdeal.ReadP.val_main_v99 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))),
    (fun c => Cert.ReferenceIdeal.ReadP.val_main_v104 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))),
    Cert.Bridge.kernel_run m hpre ρ, ?_⟩
  refine (θ_run Cert.ReferenceIdeal.defs _ _).mono (fun _ h c => ?_) (Cert.RefRun.run_val (F := Ideal) m' ρ')
  obtain ⟨e0, e1, e2, e3, e4, e5, e6, e7, e8, e9⟩ := hagree c
  obtain ⟨r0, r1, r2, r3, r4, r5, rest⟩ := h c
  refine ⟨r0.trans ?_, r1.trans ?_, r2.trans ?_, r3.trans ?_, r4.trans ?_, r5.trans ?_, rest⟩
  all_goals simp only [e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
